-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2601) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S128x64 : Shape := ⟨2, ![128, 64]⟩
abbrev S16x128 : Shape := ⟨2, ![16, 128]⟩
abbrev S128 : Shape := ⟨1, ![128]⟩
abbrev S16 : Shape := ⟨1, ![16]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_arg5 : FVec F S128 .f32) (main_arg6 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S16384x64 .f32) (main_arg1 : FVec F S128x64 .f32) (main_arg2 : FVec F S16x128 .f32) (main_arg3 : FVec F S128 .f32) (main_arg4 : FVec F S16 .f32) (main_arg5 : FVec F S128 .f32) (main_arg6 : FVec F S16 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S16384x64 : Shape := ⟨2, ![16384, 64]⟩
abbrev S128x64 : Shape := ⟨2, ![128, 64]⟩
abbrev S16x128 : Shape := ⟨2, ![16, 128]⟩
abbrev S128 : Shape := ⟨1, ![128]⟩
abbrev S16 : Shape := ⟨1, ![16]⟩
abbrev S64x16384 : Shape := ⟨2, ![64, 16384]⟩
abbrev S128x1 : Shape := ⟨2, ![128, 1]⟩
abbrev S16x1 : Shape := ⟨2, ![16, 1]⟩
abbrev S16x16384 : Shape := ⟨2, ![16, 16384]⟩
abbrev S64x8192 : Shape := ⟨2, ![64, 8192]⟩
abbrev S16x8192 : Shape := ⟨2, ![16, 8192]⟩
abbrev S128x8192 : Shape := ⟨2, ![128, 8192]⟩
abbrev S16384x16 : Shape := ⟨2, ![16384, 16]⟩

abbrev nBuf : Space → Nat
  | .hbm => 14
  | .vmem => 10
  | .smem => 0
  | _ => 0

abbrev bufTy : (tb : Table) → Fin (tcTables nBuf tb) → BufTy
  | .hbm, ⟨0, _⟩ => ⟨S16384x64, .f32⟩
  | .hbm, ⟨1, _⟩ => ⟨S128x64, .f32⟩
  | .hbm, ⟨2, _⟩ => ⟨S16x128, .f32⟩
  | .hbm, ⟨3, _⟩ => ⟨S128, .f32⟩
  | .hbm, ⟨4, _⟩ => ⟨S16, .f32⟩
  | .hbm, ⟨5, _⟩ => ⟨S128, .f32⟩
  | .hbm, ⟨6, _⟩ => ⟨S16, .f32⟩
  | .hbm, ⟨7, _⟩ => ⟨S64x16384, .f32⟩
  | .hbm, ⟨8, _⟩ => ⟨S128x1, .f32⟩
  | .hbm, ⟨9, _⟩ => ⟨S128x1, .f32⟩
  | .hbm, ⟨10, _⟩ => ⟨S16x1, .f32⟩
  | .hbm, ⟨11, _⟩ => ⟨S16x1, .f32⟩
  | .hbm, ⟨12, _⟩ => ⟨S16x16384, .f32⟩
  | .hbm, ⟨13, _⟩ => ⟨S16384x16, .f32⟩
  | .local _ .vmem, ⟨0, _⟩ => ⟨S64x8192, .f32⟩
  | .local _ .vmem, ⟨1, _⟩ => ⟨S64x8192, .f32⟩
  | .local _ .vmem, ⟨2, _⟩ => ⟨S128x64, .f32⟩
  | .local _ .vmem, ⟨3, _⟩ => ⟨S16x128, .f32⟩
  | .local _ .vmem, ⟨4, _⟩ => ⟨S128x1, .f32⟩
  | .local _ .vmem, ⟨5, _⟩ => ⟨S16x1, .f32⟩
  | .local _ .vmem, ⟨6, _⟩ => ⟨S128x1, .f32⟩
  | .local _ .vmem, ⟨7, _⟩ => ⟨S16x1, .f32⟩
  | .local _ .vmem, ⟨8, _⟩ => ⟨S16x8192, .f32⟩
  | .local _ .vmem, ⟨9, _⟩ => ⟨S16x8192, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S16384x64_S64x16384_1_0 : S16384x64.Transposes [1, 0] S64x16384
  shapeCasts_S128_S128x1 : S128.ShapeCasts S128x1
  shapeCasts_S16_S16x1 : S16.ShapeCasts S16x1
  inb_S128x64_S128x64_0_0 : ∀ a, (![0, 0] : Fin 2 → Nat) a + S128x64.size a ≤ S128x64.size a
  h_S128x64 : 0 < S128x64.numel
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  inb_S16x128_S16x128_0_0 : ∀ a, (![0, 0] : Fin 2 → Nat) a + S16x128.size a ≤ S16x128.size a
  h_S16x128 : 0 < S16x128.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x8192 : S16x1.Broadcasts S16x8192
  inb_S16x8192_S16x8192_0_0 : ∀ a, (![0, 0] : Fin 2 → Nat) a + S16x8192.size a ≤ S16x8192.size a
  h_S16x8192 : 0 < S16x8192.numel
  transposes_S16x16384_S16384x16_1_0 : S16x16384.Transposes [1, 0] S16384x16
  dot_S128x64_S64x8192_S128x8192_1_0_0_1_n_n_wf : DotDims.WF S128x64 S64x8192 S128x8192 [1] [0] [0] [1] [] []
  dot_S16x128_S128x8192_S16x8192_1_0_0_1_n_n_wf : DotDims.WF S16x128 S128x8192 S16x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x16384.size a
  hwx0_0 : ∀ i : grid0.Coords, EltTy.bits .f32 = 32 ∨ (Rect.block (s := S64x16384) S64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x8192.size a ≤ S16x16384.size a
  hwx0_7 : ∀ i : grid0.Coords, EltTy.bits .f32 = 32 ∨ (Rect.block (s := S16x16384) S16x8192.size (cc0_transform_7 i) (hinb0_7 i)).WholeWords (EltTy.packing .f32)

variable [Facts₀]

def dot_S128x64_S64x8192_S128x8192_1_0_0_1_n_n : DotDims S128x64 S64x8192 S128x8192 where
  lhsContracting := [1]
  rhsContracting := [0]
  lhsNonContracting := [0]
  rhsNonContracting := [1]
  lhsBatch := []
  rhsBatch := []
  wf := dot_S128x64_S64x8192_S128x8192_1_0_0_1_n_n_wf
def dot_S16x128_S128x8192_S16x8192_1_0_0_1_n_n : DotDims S16x128 S128x8192 S16x8192 where
  lhsContracting := [1]
  rhsContracting := [0]
  lhsNonContracting := [0]
  rhsNonContracting := [1]
  lhsBatch := []
  rhsBatch := []
  wf := dot_S16x128_S128x8192_S16x8192_1_0_0_1_n_n_wf

abbrev win0_0 : Pipeline.Window sig grid0 :=
  Pipeline.Window.ofSpec (Memref.whole main_v0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S16x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x64 : Shape := ⟨2, ![16384, 64]⟩
abbrev S128x64 : Shape := ⟨2, ![128, 64]⟩
abbrev S16x128 : Shape := ⟨2, ![16, 128]⟩
abbrev S128 : Shape := ⟨1, ![128]⟩
abbrev S16 : Shape := ⟨1, ![16]⟩
abbrev S_ : Shape := ⟨0, ![]⟩
abbrev S16384x208 : Shape := ⟨2, ![16384, 208]⟩
abbrev S64 : Shape := ⟨1, ![64]⟩
abbrev S64x1 : Shape := ⟨2, ![64, 1]⟩
abbrev S1x64 : Shape := ⟨2, ![1, 64]⟩
abbrev S16384 : Shape := ⟨1, ![16384]⟩
abbrev S1 : Shape := ⟨1, ![1]⟩
abbrev S16384x128 : Shape := ⟨2, ![16384, 128]⟩
abbrev S1x128 : Shape := ⟨2, ![1, 128]⟩
abbrev S16384x16 : Shape := ⟨2, ![16384, 16]⟩

abbrev nBuf : Space → Nat
  | .hbm => 2900
  | .vmem => 0
  | .smem => 0
  | _ => 0

abbrev hbmTy0_0 (i : Nat) : BufTy := match i % 128 with
  | 0 => ⟨S16384x64, .f32⟩
  | 1 => ⟨S128x64, .f32⟩
  | 2 => ⟨S16x128, .f32⟩
  | 3 => ⟨S128, .f32⟩
  | 4 => ⟨S16, .f32⟩
  | 5 => ⟨S128, .f32⟩
  | 6 => ⟨S16, .f32⟩
  | 7 => ⟨S_, .f32⟩
  | 8 => ⟨S16384x208, .f32⟩
  | 9 => ⟨S64, .i32⟩
  | 10 => ⟨S_, .i32⟩
  | 11 => ⟨S64, .i32⟩
  | 12 => ⟨S64, .i1⟩
  | 13 => ⟨S_, .i32⟩
  | 14 => ⟨S64, .i32⟩
  | 15 => ⟨S64, .i32⟩
  | 16 => ⟨S64, .i32⟩
  | 17 => ⟨S64x1, .i32⟩
  | 18 => ⟨S16384x208, .f32⟩
  | 19 => ⟨S16384x64, .f32⟩
  | 20 => ⟨S1x64, .f32⟩
  | 21 => ⟨S64, .f32⟩
  | 22 => ⟨S1x64, .f32⟩
  | 23 => ⟨S16384x64, .f32⟩
  | 24 => ⟨S16384x64, .f32⟩
  | 25 => ⟨S_, .f32⟩
  | 26 => ⟨S16384, .f32⟩
  | 27 => ⟨S1, .f32⟩
  | 28 => ⟨S_, .f32⟩
  | 29 => ⟨S1, .f32⟩
  | 30 => ⟨S_, .f32⟩
  | 31 => ⟨S16384, .f32⟩
  | 32 => ⟨S16384, .f32⟩
  | 33 => ⟨S16384, .f32⟩
  | 34 => ⟨S16384, .f32⟩
  | 35 => ⟨S16384, .f32⟩
  | 36 => ⟨S_, .i32⟩
  | 37 => ⟨S1, .i32⟩
  | 38 => ⟨S16384x208, .f32⟩
  | 39 => ⟨S16384x64, .f32⟩
  | 40 => ⟨S1x64, .f32⟩
  | 41 => ⟨S64, .f32⟩
  | 42 => ⟨S1x64, .f32⟩
  | 43 => ⟨S16384x64, .f32⟩
  | 44 => ⟨S16384x64, .f32⟩
  | 45 => ⟨S_, .f32⟩
  | 46 => ⟨S16384, .f32⟩
  | 47 => ⟨S1, .f32⟩
  | 48 => ⟨S_, .f32⟩
  | 49 => ⟨S1, .f32⟩
  | 50 => ⟨S_, .f32⟩
  | 51 => ⟨S16384, .f32⟩
  | 52 => ⟨S16384, .f32⟩
  | 53 => ⟨S16384, .f32⟩
  | 54 => ⟨S16384, .f32⟩
  | 55 => ⟨S16384, .f32⟩
  | 56 => ⟨S_, .i32⟩
  | 57 => ⟨S1, .i32⟩
  | 58 => ⟨S16384x208, .f32⟩
  | 59 => ⟨S16384x64, .f32⟩
  | 60 => ⟨S1x64, .f32⟩
  | 61 => ⟨S64, .f32⟩
  | 62 => ⟨S1x64, .f32⟩
  | 63 => ⟨S16384x64, .f32⟩
  | 64 => ⟨S16384x64, .f32⟩
  | 65 => ⟨S_, .f32⟩
  | 66 => ⟨S16384, .f32⟩
  | 67 => ⟨S1, .f32⟩
  | 68 => ⟨S_, .f32⟩
  | 69 => ⟨S1, .f32⟩
  | 70 => ⟨S_, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .i32⟩
  | 77 => ⟨S1, .i32⟩
  | 78 => ⟨S16384x208, .f32⟩
  | 79 => ⟨S16384x64, .f32⟩
  | 80 => ⟨S1x64, .f32⟩
  | 81 => ⟨S64, .f32⟩
  | 82 => ⟨S1x64, .f32⟩
  | 83 => ⟨S16384x64, .f32⟩
  | 84 => ⟨S16384x64, .f32⟩
  | 85 => ⟨S_, .f32⟩
  | 86 => ⟨S16384, .f32⟩
  | 87 => ⟨S1, .f32⟩
  | 88 => ⟨S_, .f32⟩
  | 89 => ⟨S1, .f32⟩
  | 90 => ⟨S_, .f32⟩
  | 91 => ⟨S16384, .f32⟩
  | 92 => ⟨S16384, .f32⟩
  | 93 => ⟨S16384, .f32⟩
  | 94 => ⟨S16384, .f32⟩
  | 95 => ⟨S16384, .f32⟩
  | 96 => ⟨S_, .i32⟩
  | 97 => ⟨S1, .i32⟩
  | 98 => ⟨S16384x208, .f32⟩
  | 99 => ⟨S16384x64, .f32⟩
  | 100 => ⟨S1x64, .f32⟩
  | 101 => ⟨S64, .f32⟩
  | 102 => ⟨S1x64, .f32⟩
  | 103 => ⟨S16384x64, .f32⟩
  | 104 => ⟨S16384x64, .f32⟩
  | 105 => ⟨S_, .f32⟩
  | 106 => ⟨S16384, .f32⟩
  | 107 => ⟨S1, .f32⟩
  | 108 => ⟨S_, .f32⟩
  | 109 => ⟨S1, .f32⟩
  | 110 => ⟨S_, .f32⟩
  | 111 => ⟨S16384, .f32⟩
  | 112 => ⟨S16384, .f32⟩
  | 113 => ⟨S16384, .f32⟩
  | 114 => ⟨S16384, .f32⟩
  | 115 => ⟨S16384, .f32⟩
  | 116 => ⟨S_, .i32⟩
  | 117 => ⟨S1, .i32⟩
  | 118 => ⟨S16384x208, .f32⟩
  | 119 => ⟨S16384x64, .f32⟩
  | 120 => ⟨S1x64, .f32⟩
  | 121 => ⟨S64, .f32⟩
  | 122 => ⟨S1x64, .f32⟩
  | 123 => ⟨S16384x64, .f32⟩
  | 124 => ⟨S16384x64, .f32⟩
  | 125 => ⟨S_, .f32⟩
  | 126 => ⟨S16384, .f32⟩
  | 127 => ⟨S1, .f32⟩
  | _ => ⟨S16384x64, .f32⟩

abbrev hbmTy0_1 (i : Nat) : BufTy := match i % 128 with
  | 0 => ⟨S_, .f32⟩
  | 1 => ⟨S1, .f32⟩
  | 2 => ⟨S_, .f32⟩
  | 3 => ⟨S16384, .f32⟩
  | 4 => ⟨S16384, .f32⟩
  | 5 => ⟨S16384, .f32⟩
  | 6 => ⟨S16384, .f32⟩
  | 7 => ⟨S16384, .f32⟩
  | 8 => ⟨S_, .i32⟩
  | 9 => ⟨S1, .i32⟩
  | 10 => ⟨S16384x208, .f32⟩
  | 11 => ⟨S16384x64, .f32⟩
  | 12 => ⟨S1x64, .f32⟩
  | 13 => ⟨S64, .f32⟩
  | 14 => ⟨S1x64, .f32⟩
  | 15 => ⟨S16384x64, .f32⟩
  | 16 => ⟨S16384x64, .f32⟩
  | 17 => ⟨S_, .f32⟩
  | 18 => ⟨S16384, .f32⟩
  | 19 => ⟨S1, .f32⟩
  | 20 => ⟨S_, .f32⟩
  | 21 => ⟨S1, .f32⟩
  | 22 => ⟨S_, .f32⟩
  | 23 => ⟨S16384, .f32⟩
  | 24 => ⟨S16384, .f32⟩
  | 25 => ⟨S16384, .f32⟩
  | 26 => ⟨S16384, .f32⟩
  | 27 => ⟨S16384, .f32⟩
  | 28 => ⟨S_, .i32⟩
  | 29 => ⟨S1, .i32⟩
  | 30 => ⟨S16384x208, .f32⟩
  | 31 => ⟨S16384x64, .f32⟩
  | 32 => ⟨S1x64, .f32⟩
  | 33 => ⟨S64, .f32⟩
  | 34 => ⟨S1x64, .f32⟩
  | 35 => ⟨S16384x64, .f32⟩
  | 36 => ⟨S16384x64, .f32⟩
  | 37 => ⟨S_, .f32⟩
  | 38 => ⟨S16384, .f32⟩
  | 39 => ⟨S1, .f32⟩
  | 40 => ⟨S_, .f32⟩
  | 41 => ⟨S1, .f32⟩
  | 42 => ⟨S_, .f32⟩
  | 43 => ⟨S16384, .f32⟩
  | 44 => ⟨S16384, .f32⟩
  | 45 => ⟨S16384, .f32⟩
  | 46 => ⟨S16384, .f32⟩
  | 47 => ⟨S16384, .f32⟩
  | 48 => ⟨S_, .i32⟩
  | 49 => ⟨S1, .i32⟩
  | 50 => ⟨S16384x208, .f32⟩
  | 51 => ⟨S16384x64, .f32⟩
  | 52 => ⟨S1x64, .f32⟩
  | 53 => ⟨S64, .f32⟩
  | 54 => ⟨S1x64, .f32⟩
  | 55 => ⟨S16384x64, .f32⟩
  | 56 => ⟨S16384x64, .f32⟩
  | 57 => ⟨S_, .f32⟩
  | 58 => ⟨S16384, .f32⟩
  | 59 => ⟨S1, .f32⟩
  | 60 => ⟨S_, .f32⟩
  | 61 => ⟨S1, .f32⟩
  | 62 => ⟨S_, .f32⟩
  | 63 => ⟨S16384, .f32⟩
  | 64 => ⟨S16384, .f32⟩
  | 65 => ⟨S16384, .f32⟩
  | 66 => ⟨S16384, .f32⟩
  | 67 => ⟨S16384, .f32⟩
  | 68 => ⟨S_, .i32⟩
  | 69 => ⟨S1, .i32⟩
  | 70 => ⟨S16384x208, .f32⟩
  | 71 => ⟨S16384x64, .f32⟩
  | 72 => ⟨S1x64, .f32⟩
  | 73 => ⟨S64, .f32⟩
  | 74 => ⟨S1x64, .f32⟩
  | 75 => ⟨S16384x64, .f32⟩
  | 76 => ⟨S16384x64, .f32⟩
  | 77 => ⟨S_, .f32⟩
  | 78 => ⟨S16384, .f32⟩
  | 79 => ⟨S1, .f32⟩
  | 80 => ⟨S_, .f32⟩
  | 81 => ⟨S1, .f32⟩
  | 82 => ⟨S_, .f32⟩
  | 83 => ⟨S16384, .f32⟩
  | 84 => ⟨S16384, .f32⟩
  | 85 => ⟨S16384, .f32⟩
  | 86 => ⟨S16384, .f32⟩
  | 87 => ⟨S16384, .f32⟩
  | 88 => ⟨S_, .i32⟩
  | 89 => ⟨S1, .i32⟩
  | 90 => ⟨S16384x208, .f32⟩
  | 91 => ⟨S16384x64, .f32⟩
  | 92 => ⟨S1x64, .f32⟩
  | 93 => ⟨S64, .f32⟩
  | 94 => ⟨S1x64, .f32⟩
  | 95 => ⟨S16384x64, .f32⟩
  | 96 => ⟨S16384x64, .f32⟩
  | 97 => ⟨S_, .f32⟩
  | 98 => ⟨S16384, .f32⟩
  | 99 => ⟨S1, .f32⟩
  | 100 => ⟨S_, .f32⟩
  | 101 => ⟨S1, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S_, .i32⟩
  | 109 => ⟨S1, .i32⟩
  | 110 => ⟨S16384x208, .f32⟩
  | 111 => ⟨S16384x64, .f32⟩
  | 112 => ⟨S1x64, .f32⟩
  | 113 => ⟨S64, .f32⟩
  | 114 => ⟨S1x64, .f32⟩
  | 115 => ⟨S16384x64, .f32⟩
  | 116 => ⟨S16384x64, .f32⟩
  | 117 => ⟨S_, .f32⟩
  | 118 => ⟨S16384, .f32⟩
  | 119 => ⟨S1, .f32⟩
  | 120 => ⟨S_, .f32⟩
  | 121 => ⟨S1, .f32⟩
  | 122 => ⟨S_, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_2 (i : Nat) : BufTy := match i % 128 with
  | 0 => ⟨S_, .i32⟩
  | 1 => ⟨S1, .i32⟩
  | 2 => ⟨S16384x208, .f32⟩
  | 3 => ⟨S16384x64, .f32⟩
  | 4 => ⟨S1x64, .f32⟩
  | 5 => ⟨S64, .f32⟩
  | 6 => ⟨S1x64, .f32⟩
  | 7 => ⟨S16384x64, .f32⟩
  | 8 => ⟨S16384x64, .f32⟩
  | 9 => ⟨S_, .f32⟩
  | 10 => ⟨S16384, .f32⟩
  | 11 => ⟨S1, .f32⟩
  | 12 => ⟨S_, .f32⟩
  | 13 => ⟨S1, .f32⟩
  | 14 => ⟨S_, .f32⟩
  | 15 => ⟨S16384, .f32⟩
  | 16 => ⟨S16384, .f32⟩
  | 17 => ⟨S16384, .f32⟩
  | 18 => ⟨S16384, .f32⟩
  | 19 => ⟨S16384, .f32⟩
  | 20 => ⟨S_, .i32⟩
  | 21 => ⟨S1, .i32⟩
  | 22 => ⟨S16384x208, .f32⟩
  | 23 => ⟨S16384x64, .f32⟩
  | 24 => ⟨S1x64, .f32⟩
  | 25 => ⟨S64, .f32⟩
  | 26 => ⟨S1x64, .f32⟩
  | 27 => ⟨S16384x64, .f32⟩
  | 28 => ⟨S16384x64, .f32⟩
  | 29 => ⟨S_, .f32⟩
  | 30 => ⟨S16384, .f32⟩
  | 31 => ⟨S1, .f32⟩
  | 32 => ⟨S_, .f32⟩
  | 33 => ⟨S1, .f32⟩
  | 34 => ⟨S_, .f32⟩
  | 35 => ⟨S16384, .f32⟩
  | 36 => ⟨S16384, .f32⟩
  | 37 => ⟨S16384, .f32⟩
  | 38 => ⟨S16384, .f32⟩
  | 39 => ⟨S16384, .f32⟩
  | 40 => ⟨S_, .i32⟩
  | 41 => ⟨S1, .i32⟩
  | 42 => ⟨S16384x208, .f32⟩
  | 43 => ⟨S16384x64, .f32⟩
  | 44 => ⟨S1x64, .f32⟩
  | 45 => ⟨S64, .f32⟩
  | 46 => ⟨S1x64, .f32⟩
  | 47 => ⟨S16384x64, .f32⟩
  | 48 => ⟨S16384x64, .f32⟩
  | 49 => ⟨S_, .f32⟩
  | 50 => ⟨S16384, .f32⟩
  | 51 => ⟨S1, .f32⟩
  | 52 => ⟨S_, .f32⟩
  | 53 => ⟨S1, .f32⟩
  | 54 => ⟨S_, .f32⟩
  | 55 => ⟨S16384, .f32⟩
  | 56 => ⟨S16384, .f32⟩
  | 57 => ⟨S16384, .f32⟩
  | 58 => ⟨S16384, .f32⟩
  | 59 => ⟨S16384, .f32⟩
  | 60 => ⟨S_, .i32⟩
  | 61 => ⟨S1, .i32⟩
  | 62 => ⟨S16384x208, .f32⟩
  | 63 => ⟨S16384x64, .f32⟩
  | 64 => ⟨S1x64, .f32⟩
  | 65 => ⟨S64, .f32⟩
  | 66 => ⟨S1x64, .f32⟩
  | 67 => ⟨S16384x64, .f32⟩
  | 68 => ⟨S16384x64, .f32⟩
  | 69 => ⟨S_, .f32⟩
  | 70 => ⟨S16384, .f32⟩
  | 71 => ⟨S1, .f32⟩
  | 72 => ⟨S_, .f32⟩
  | 73 => ⟨S1, .f32⟩
  | 74 => ⟨S_, .f32⟩
  | 75 => ⟨S16384, .f32⟩
  | 76 => ⟨S16384, .f32⟩
  | 77 => ⟨S16384, .f32⟩
  | 78 => ⟨S16384, .f32⟩
  | 79 => ⟨S16384, .f32⟩
  | 80 => ⟨S_, .i32⟩
  | 81 => ⟨S1, .i32⟩
  | 82 => ⟨S16384x208, .f32⟩
  | 83 => ⟨S16384x64, .f32⟩
  | 84 => ⟨S1x64, .f32⟩
  | 85 => ⟨S64, .f32⟩
  | 86 => ⟨S1x64, .f32⟩
  | 87 => ⟨S16384x64, .f32⟩
  | 88 => ⟨S16384x64, .f32⟩
  | 89 => ⟨S_, .f32⟩
  | 90 => ⟨S16384, .f32⟩
  | 91 => ⟨S1, .f32⟩
  | 92 => ⟨S_, .f32⟩
  | 93 => ⟨S1, .f32⟩
  | 94 => ⟨S_, .f32⟩
  | 95 => ⟨S16384, .f32⟩
  | 96 => ⟨S16384, .f32⟩
  | 97 => ⟨S16384, .f32⟩
  | 98 => ⟨S16384, .f32⟩
  | 99 => ⟨S16384, .f32⟩
  | 100 => ⟨S_, .i32⟩
  | 101 => ⟨S1, .i32⟩
  | 102 => ⟨S16384x208, .f32⟩
  | 103 => ⟨S16384x64, .f32⟩
  | 104 => ⟨S1x64, .f32⟩
  | 105 => ⟨S64, .f32⟩
  | 106 => ⟨S1x64, .f32⟩
  | 107 => ⟨S16384x64, .f32⟩
  | 108 => ⟨S16384x64, .f32⟩
  | 109 => ⟨S_, .f32⟩
  | 110 => ⟨S16384, .f32⟩
  | 111 => ⟨S1, .f32⟩
  | 112 => ⟨S_, .f32⟩
  | 113 => ⟨S1, .f32⟩
  | 114 => ⟨S_, .f32⟩
  | 115 => ⟨S16384, .f32⟩
  | 116 => ⟨S16384, .f32⟩
  | 117 => ⟨S16384, .f32⟩
  | 118 => ⟨S16384, .f32⟩
  | 119 => ⟨S16384, .f32⟩
  | 120 => ⟨S_, .i32⟩
  | 121 => ⟨S1, .i32⟩
  | 122 => ⟨S16384x208, .f32⟩
  | 123 => ⟨S16384x64, .f32⟩
  | 124 => ⟨S1x64, .f32⟩
  | 125 => ⟨S64, .f32⟩
  | 126 => ⟨S1x64, .f32⟩
  | 127 => ⟨S16384x64, .f32⟩
  | _ => ⟨S16384x64, .f32⟩

abbrev hbmTy0_3 (i : Nat) : BufTy := match i % 128 with
  | 0 => ⟨S16384x64, .f32⟩
  | 1 => ⟨S_, .f32⟩
  | 2 => ⟨S16384, .f32⟩
  | 3 => ⟨S1, .f32⟩
  | 4 => ⟨S_, .f32⟩
  | 5 => ⟨S1, .f32⟩
  | 6 => ⟨S_, .f32⟩
  | 7 => ⟨S16384, .f32⟩
  | 8 => ⟨S16384, .f32⟩
  | 9 => ⟨S16384, .f32⟩
  | 10 => ⟨S16384, .f32⟩
  | 11 => ⟨S16384, .f32⟩
  | 12 => ⟨S_, .i32⟩
  | 13 => ⟨S1, .i32⟩
  | 14 => ⟨S16384x208, .f32⟩
  | 15 => ⟨S16384x64, .f32⟩
  | 16 => ⟨S1x64, .f32⟩
  | 17 => ⟨S64, .f32⟩
  | 18 => ⟨S1x64, .f32⟩
  | 19 => ⟨S16384x64, .f32⟩
  | 20 => ⟨S16384x64, .f32⟩
  | 21 => ⟨S_, .f32⟩
  | 22 => ⟨S16384, .f32⟩
  | 23 => ⟨S1, .f32⟩
  | 24 => ⟨S_, .f32⟩
  | 25 => ⟨S1, .f32⟩
  | 26 => ⟨S_, .f32⟩
  | 27 => ⟨S16384, .f32⟩
  | 28 => ⟨S16384, .f32⟩
  | 29 => ⟨S16384, .f32⟩
  | 30 => ⟨S16384, .f32⟩
  | 31 => ⟨S16384, .f32⟩
  | 32 => ⟨S_, .i32⟩
  | 33 => ⟨S1, .i32⟩
  | 34 => ⟨S16384x208, .f32⟩
  | 35 => ⟨S16384x64, .f32⟩
  | 36 => ⟨S1x64, .f32⟩
  | 37 => ⟨S64, .f32⟩
  | 38 => ⟨S1x64, .f32⟩
  | 39 => ⟨S16384x64, .f32⟩
  | 40 => ⟨S16384x64, .f32⟩
  | 41 => ⟨S_, .f32⟩
  | 42 => ⟨S16384, .f32⟩
  | 43 => ⟨S1, .f32⟩
  | 44 => ⟨S_, .f32⟩
  | 45 => ⟨S1, .f32⟩
  | 46 => ⟨S_, .f32⟩
  | 47 => ⟨S16384, .f32⟩
  | 48 => ⟨S16384, .f32⟩
  | 49 => ⟨S16384, .f32⟩
  | 50 => ⟨S16384, .f32⟩
  | 51 => ⟨S16384, .f32⟩
  | 52 => ⟨S_, .i32⟩
  | 53 => ⟨S1, .i32⟩
  | 54 => ⟨S16384x208, .f32⟩
  | 55 => ⟨S16384x64, .f32⟩
  | 56 => ⟨S1x64, .f32⟩
  | 57 => ⟨S64, .f32⟩
  | 58 => ⟨S1x64, .f32⟩
  | 59 => ⟨S16384x64, .f32⟩
  | 60 => ⟨S16384x64, .f32⟩
  | 61 => ⟨S_, .f32⟩
  | 62 => ⟨S16384, .f32⟩
  | 63 => ⟨S1, .f32⟩
  | 64 => ⟨S_, .f32⟩
  | 65 => ⟨S1, .f32⟩
  | 66 => ⟨S_, .f32⟩
  | 67 => ⟨S16384, .f32⟩
  | 68 => ⟨S16384, .f32⟩
  | 69 => ⟨S16384, .f32⟩
  | 70 => ⟨S16384, .f32⟩
  | 71 => ⟨S16384, .f32⟩
  | 72 => ⟨S_, .i32⟩
  | 73 => ⟨S1, .i32⟩
  | 74 => ⟨S16384x208, .f32⟩
  | 75 => ⟨S16384x64, .f32⟩
  | 76 => ⟨S1x64, .f32⟩
  | 77 => ⟨S64, .f32⟩
  | 78 => ⟨S1x64, .f32⟩
  | 79 => ⟨S16384x64, .f32⟩
  | 80 => ⟨S16384x64, .f32⟩
  | 81 => ⟨S_, .f32⟩
  | 82 => ⟨S16384, .f32⟩
  | 83 => ⟨S1, .f32⟩
  | 84 => ⟨S_, .f32⟩
  | 85 => ⟨S1, .f32⟩
  | 86 => ⟨S_, .f32⟩
  | 87 => ⟨S16384, .f32⟩
  | 88 => ⟨S16384, .f32⟩
  | 89 => ⟨S16384, .f32⟩
  | 90 => ⟨S16384, .f32⟩
  | 91 => ⟨S16384, .f32⟩
  | 92 => ⟨S_, .i32⟩
  | 93 => ⟨S1, .i32⟩
  | 94 => ⟨S16384x208, .f32⟩
  | 95 => ⟨S16384x64, .f32⟩
  | 96 => ⟨S1x64, .f32⟩
  | 97 => ⟨S64, .f32⟩
  | 98 => ⟨S1x64, .f32⟩
  | 99 => ⟨S16384x64, .f32⟩
  | 100 => ⟨S16384x64, .f32⟩
  | 101 => ⟨S_, .f32⟩
  | 102 => ⟨S16384, .f32⟩
  | 103 => ⟨S1, .f32⟩
  | 104 => ⟨S_, .f32⟩
  | 105 => ⟨S1, .f32⟩
  | 106 => ⟨S_, .f32⟩
  | 107 => ⟨S16384, .f32⟩
  | 108 => ⟨S16384, .f32⟩
  | 109 => ⟨S16384, .f32⟩
  | 110 => ⟨S16384, .f32⟩
  | 111 => ⟨S16384, .f32⟩
  | 112 => ⟨S_, .i32⟩
  | 113 => ⟨S1, .i32⟩
  | 114 => ⟨S16384x208, .f32⟩
  | 115 => ⟨S16384x64, .f32⟩
  | 116 => ⟨S1x64, .f32⟩
  | 117 => ⟨S64, .f32⟩
  | 118 => ⟨S1x64, .f32⟩
  | 119 => ⟨S16384x64, .f32⟩
  | 120 => ⟨S16384x64, .f32⟩
  | 121 => ⟨S_, .f32⟩
  | 122 => ⟨S16384, .f32⟩
  | 123 => ⟨S1, .f32⟩
  | 124 => ⟨S_, .f32⟩
  | 125 => ⟨S1, .f32⟩
  | 126 => ⟨S_, .f32⟩
  | 127 => ⟨S16384, .f32⟩
  | _ => ⟨S16384x64, .f32⟩

abbrev hbmTy0_4 (i : Nat) : BufTy := match i % 128 with
  | 0 => ⟨S16384, .f32⟩
  | 1 => ⟨S16384, .f32⟩
  | 2 => ⟨S16384, .f32⟩
  | 3 => ⟨S16384, .f32⟩
  | 4 => ⟨S_, .i32⟩
  | 5 => ⟨S1, .i32⟩
  | 6 => ⟨S16384x208, .f32⟩
  | 7 => ⟨S16384x64, .f32⟩
  | 8 => ⟨S1x64, .f32⟩
  | 9 => ⟨S64, .f32⟩
  | 10 => ⟨S1x64, .f32⟩
  | 11 => ⟨S16384x64, .f32⟩
  | 12 => ⟨S16384x64, .f32⟩
  | 13 => ⟨S_, .f32⟩
  | 14 => ⟨S16384, .f32⟩
  | 15 => ⟨S1, .f32⟩
  | 16 => ⟨S_, .f32⟩
  | 17 => ⟨S1, .f32⟩
  | 18 => ⟨S_, .f32⟩
  | 19 => ⟨S16384, .f32⟩
  | 20 => ⟨S16384, .f32⟩
  | 21 => ⟨S16384, .f32⟩
  | 22 => ⟨S16384, .f32⟩
  | 23 => ⟨S16384, .f32⟩
  | 24 => ⟨S_, .i32⟩
  | 25 => ⟨S1, .i32⟩
  | 26 => ⟨S16384x208, .f32⟩
  | 27 => ⟨S16384x64, .f32⟩
  | 28 => ⟨S1x64, .f32⟩
  | 29 => ⟨S64, .f32⟩
  | 30 => ⟨S1x64, .f32⟩
  | 31 => ⟨S16384x64, .f32⟩
  | 32 => ⟨S16384x64, .f32⟩
  | 33 => ⟨S_, .f32⟩
  | 34 => ⟨S16384, .f32⟩
  | 35 => ⟨S1, .f32⟩
  | 36 => ⟨S_, .f32⟩
  | 37 => ⟨S1, .f32⟩
  | 38 => ⟨S_, .f32⟩
  | 39 => ⟨S16384, .f32⟩
  | 40 => ⟨S16384, .f32⟩
  | 41 => ⟨S16384, .f32⟩
  | 42 => ⟨S16384, .f32⟩
  | 43 => ⟨S16384, .f32⟩
  | 44 => ⟨S_, .i32⟩
  | 45 => ⟨S1, .i32⟩
  | 46 => ⟨S16384x208, .f32⟩
  | 47 => ⟨S16384x64, .f32⟩
  | 48 => ⟨S1x64, .f32⟩
  | 49 => ⟨S64, .f32⟩
  | 50 => ⟨S1x64, .f32⟩
  | 51 => ⟨S16384x64, .f32⟩
  | 52 => ⟨S16384x64, .f32⟩
  | 53 => ⟨S_, .f32⟩
  | 54 => ⟨S16384, .f32⟩
  | 55 => ⟨S1, .f32⟩
  | 56 => ⟨S_, .f32⟩
  | 57 => ⟨S1, .f32⟩
  | 58 => ⟨S_, .f32⟩
  | 59 => ⟨S16384, .f32⟩
  | 60 => ⟨S16384, .f32⟩
  | 61 => ⟨S16384, .f32⟩
  | 62 => ⟨S16384, .f32⟩
  | 63 => ⟨S16384, .f32⟩
  | 64 => ⟨S_, .i32⟩
  | 65 => ⟨S1, .i32⟩
  | 66 => ⟨S16384x208, .f32⟩
  | 67 => ⟨S16384x64, .f32⟩
  | 68 => ⟨S1x64, .f32⟩
  | 69 => ⟨S64, .f32⟩
  | 70 => ⟨S1x64, .f32⟩
  | 71 => ⟨S16384x64, .f32⟩
  | 72 => ⟨S16384x64, .f32⟩
  | 73 => ⟨S_, .f32⟩
  | 74 => ⟨S16384, .f32⟩
  | 75 => ⟨S1, .f32⟩
  | 76 => ⟨S_, .f32⟩
  | 77 => ⟨S1, .f32⟩
  | 78 => ⟨S_, .f32⟩
  | 79 => ⟨S16384, .f32⟩
  | 80 => ⟨S16384, .f32⟩
  | 81 => ⟨S16384, .f32⟩
  | 82 => ⟨S16384, .f32⟩
  | 83 => ⟨S16384, .f32⟩
  | 84 => ⟨S_, .i32⟩
  | 85 => ⟨S1, .i32⟩
  | 86 => ⟨S16384x208, .f32⟩
  | 87 => ⟨S16384x64, .f32⟩
  | 88 => ⟨S1x64, .f32⟩
  | 89 => ⟨S64, .f32⟩
  | 90 => ⟨S1x64, .f32⟩
  | 91 => ⟨S16384x64, .f32⟩
  | 92 => ⟨S16384x64, .f32⟩
  | 93 => ⟨S_, .f32⟩
  | 94 => ⟨S16384, .f32⟩
  | 95 => ⟨S1, .f32⟩
  | 96 => ⟨S_, .f32⟩
  | 97 => ⟨S1, .f32⟩
  | 98 => ⟨S_, .f32⟩
  | 99 => ⟨S16384, .f32⟩
  | 100 => ⟨S16384, .f32⟩
  | 101 => ⟨S16384, .f32⟩
  | 102 => ⟨S16384, .f32⟩
  | 103 => ⟨S16384, .f32⟩
  | 104 => ⟨S_, .i32⟩
  | 105 => ⟨S1, .i32⟩
  | 106 => ⟨S16384x208, .f32⟩
  | 107 => ⟨S16384x64, .f32⟩
  | 108 => ⟨S1x64, .f32⟩
  | 109 => ⟨S64, .f32⟩
  | 110 => ⟨S1x64, .f32⟩
  | 111 => ⟨S16384x64, .f32⟩
  | 112 => ⟨S16384x64, .f32⟩
  | 113 => ⟨S_, .f32⟩
  | 114 => ⟨S16384, .f32⟩
  | 115 => ⟨S1, .f32⟩
  | 116 => ⟨S_, .f32⟩
  | 117 => ⟨S1, .f32⟩
  | 118 => ⟨S_, .f32⟩
  | 119 => ⟨S16384, .f32⟩
  | 120 => ⟨S16384, .f32⟩
  | 121 => ⟨S16384, .f32⟩
  | 122 => ⟨S16384, .f32⟩
  | 123 => ⟨S16384, .f32⟩
  | 124 => ⟨S_, .i32⟩
  | 125 => ⟨S1, .i32⟩
  | 126 => ⟨S16384x208, .f32⟩
  | 127 => ⟨S16384x64, .f32⟩
  | _ => ⟨S16384x64, .f32⟩

abbrev hbmTy0_5 (i : Nat) : BufTy := match i % 128 with
  | 0 => ⟨S1x64, .f32⟩
  | 1 => ⟨S64, .f32⟩
  | 2 => ⟨S1x64, .f32⟩
  | 3 => ⟨S16384x64, .f32⟩
  | 4 => ⟨S16384x64, .f32⟩
  | 5 => ⟨S_, .f32⟩
  | 6 => ⟨S16384, .f32⟩
  | 7 => ⟨S1, .f32⟩
  | 8 => ⟨S_, .f32⟩
  | 9 => ⟨S1, .f32⟩
  | 10 => ⟨S_, .f32⟩
  | 11 => ⟨S16384, .f32⟩
  | 12 => ⟨S16384, .f32⟩
  | 13 => ⟨S16384, .f32⟩
  | 14 => ⟨S16384, .f32⟩
  | 15 => ⟨S16384, .f32⟩
  | 16 => ⟨S_, .i32⟩
  | 17 => ⟨S1, .i32⟩
  | 18 => ⟨S16384x208, .f32⟩
  | 19 => ⟨S16384x64, .f32⟩
  | 20 => ⟨S1x64, .f32⟩
  | 21 => ⟨S64, .f32⟩
  | 22 => ⟨S1x64, .f32⟩
  | 23 => ⟨S16384x64, .f32⟩
  | 24 => ⟨S16384x64, .f32⟩
  | 25 => ⟨S_, .f32⟩
  | 26 => ⟨S16384, .f32⟩
  | 27 => ⟨S1, .f32⟩
  | 28 => ⟨S_, .f32⟩
  | 29 => ⟨S1, .f32⟩
  | 30 => ⟨S_, .f32⟩
  | 31 => ⟨S16384, .f32⟩
  | 32 => ⟨S16384, .f32⟩
  | 33 => ⟨S16384, .f32⟩
  | 34 => ⟨S16384, .f32⟩
  | 35 => ⟨S16384, .f32⟩
  | 36 => ⟨S_, .i32⟩
  | 37 => ⟨S1, .i32⟩
  | 38 => ⟨S16384x208, .f32⟩
  | 39 => ⟨S16384x64, .f32⟩
  | 40 => ⟨S1x64, .f32⟩
  | 41 => ⟨S64, .f32⟩
  | 42 => ⟨S1x64, .f32⟩
  | 43 => ⟨S16384x64, .f32⟩
  | 44 => ⟨S16384x64, .f32⟩
  | 45 => ⟨S_, .f32⟩
  | 46 => ⟨S16384, .f32⟩
  | 47 => ⟨S1, .f32⟩
  | 48 => ⟨S_, .f32⟩
  | 49 => ⟨S1, .f32⟩
  | 50 => ⟨S_, .f32⟩
  | 51 => ⟨S16384, .f32⟩
  | 52 => ⟨S16384, .f32⟩
  | 53 => ⟨S16384, .f32⟩
  | 54 => ⟨S16384, .f32⟩
  | 55 => ⟨S16384, .f32⟩
  | 56 => ⟨S_, .i32⟩
  | 57 => ⟨S1, .i32⟩
  | 58 => ⟨S16384x208, .f32⟩
  | 59 => ⟨S16384x64, .f32⟩
  | 60 => ⟨S1x64, .f32⟩
  | 61 => ⟨S64, .f32⟩
  | 62 => ⟨S1x64, .f32⟩
  | 63 => ⟨S16384x64, .f32⟩
  | 64 => ⟨S16384x64, .f32⟩
  | 65 => ⟨S_, .f32⟩
  | 66 => ⟨S16384, .f32⟩
  | 67 => ⟨S1, .f32⟩
  | 68 => ⟨S_, .f32⟩
  | 69 => ⟨S1, .f32⟩
  | 70 => ⟨S_, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .i32⟩
  | 77 => ⟨S1, .i32⟩
  | 78 => ⟨S16384x208, .f32⟩
  | 79 => ⟨S16384x64, .f32⟩
  | 80 => ⟨S1x64, .f32⟩
  | 81 => ⟨S64, .f32⟩
  | 82 => ⟨S1x64, .f32⟩
  | 83 => ⟨S16384x64, .f32⟩
  | 84 => ⟨S16384x64, .f32⟩
  | 85 => ⟨S_, .f32⟩
  | 86 => ⟨S16384, .f32⟩
  | 87 => ⟨S1, .f32⟩
  | 88 => ⟨S_, .f32⟩
  | 89 => ⟨S1, .f32⟩
  | 90 => ⟨S_, .f32⟩
  | 91 => ⟨S16384, .f32⟩
  | 92 => ⟨S16384, .f32⟩
  | 93 => ⟨S16384, .f32⟩
  | 94 => ⟨S16384, .f32⟩
  | 95 => ⟨S16384, .f32⟩
  | 96 => ⟨S_, .i32⟩
  | 97 => ⟨S1, .i32⟩
  | 98 => ⟨S16384x208, .f32⟩
  | 99 => ⟨S16384x64, .f32⟩
  | 100 => ⟨S1x64, .f32⟩
  | 101 => ⟨S64, .f32⟩
  | 102 => ⟨S1x64, .f32⟩
  | 103 => ⟨S16384x64, .f32⟩
  | 104 => ⟨S16384x64, .f32⟩
  | 105 => ⟨S_, .f32⟩
  | 106 => ⟨S16384, .f32⟩
  | 107 => ⟨S1, .f32⟩
  | 108 => ⟨S_, .f32⟩
  | 109 => ⟨S1, .f32⟩
  | 110 => ⟨S_, .f32⟩
  | 111 => ⟨S16384, .f32⟩
  | 112 => ⟨S16384, .f32⟩
  | 113 => ⟨S16384, .f32⟩
  | 114 => ⟨S16384, .f32⟩
  | 115 => ⟨S16384, .f32⟩
  | 116 => ⟨S_, .i32⟩
  | 117 => ⟨S1, .i32⟩
  | 118 => ⟨S16384x208, .f32⟩
  | 119 => ⟨S16384x64, .f32⟩
  | 120 => ⟨S1x64, .f32⟩
  | 121 => ⟨S64, .f32⟩
  | 122 => ⟨S1x64, .f32⟩
  | 123 => ⟨S16384x64, .f32⟩
  | 124 => ⟨S16384x64, .f32⟩
  | 125 => ⟨S_, .f32⟩
  | 126 => ⟨S16384, .f32⟩
  | 127 => ⟨S1, .f32⟩
  | _ => ⟨S16384x64, .f32⟩

abbrev hbmTy0_6 (i : Nat) : BufTy := match i % 128 with
  | 0 => ⟨S_, .f32⟩
  | 1 => ⟨S1, .f32⟩
  | 2 => ⟨S_, .f32⟩
  | 3 => ⟨S16384, .f32⟩
  | 4 => ⟨S16384, .f32⟩
  | 5 => ⟨S16384, .f32⟩
  | 6 => ⟨S16384, .f32⟩
  | 7 => ⟨S16384, .f32⟩
  | 8 => ⟨S_, .i32⟩
  | 9 => ⟨S1, .i32⟩
  | 10 => ⟨S16384x208, .f32⟩
  | 11 => ⟨S16384x64, .f32⟩
  | 12 => ⟨S1x64, .f32⟩
  | 13 => ⟨S64, .f32⟩
  | 14 => ⟨S1x64, .f32⟩
  | 15 => ⟨S16384x64, .f32⟩
  | 16 => ⟨S16384x64, .f32⟩
  | 17 => ⟨S_, .f32⟩
  | 18 => ⟨S16384, .f32⟩
  | 19 => ⟨S1, .f32⟩
  | 20 => ⟨S_, .f32⟩
  | 21 => ⟨S1, .f32⟩
  | 22 => ⟨S_, .f32⟩
  | 23 => ⟨S16384, .f32⟩
  | 24 => ⟨S16384, .f32⟩
  | 25 => ⟨S16384, .f32⟩
  | 26 => ⟨S16384, .f32⟩
  | 27 => ⟨S16384, .f32⟩
  | 28 => ⟨S_, .i32⟩
  | 29 => ⟨S1, .i32⟩
  | 30 => ⟨S16384x208, .f32⟩
  | 31 => ⟨S16384x64, .f32⟩
  | 32 => ⟨S1x64, .f32⟩
  | 33 => ⟨S64, .f32⟩
  | 34 => ⟨S1x64, .f32⟩
  | 35 => ⟨S16384x64, .f32⟩
  | 36 => ⟨S16384x64, .f32⟩
  | 37 => ⟨S_, .f32⟩
  | 38 => ⟨S16384, .f32⟩
  | 39 => ⟨S1, .f32⟩
  | 40 => ⟨S_, .f32⟩
  | 41 => ⟨S1, .f32⟩
  | 42 => ⟨S_, .f32⟩
  | 43 => ⟨S16384, .f32⟩
  | 44 => ⟨S16384, .f32⟩
  | 45 => ⟨S16384, .f32⟩
  | 46 => ⟨S16384, .f32⟩
  | 47 => ⟨S16384, .f32⟩
  | 48 => ⟨S_, .i32⟩
  | 49 => ⟨S1, .i32⟩
  | 50 => ⟨S16384x208, .f32⟩
  | 51 => ⟨S16384x64, .f32⟩
  | 52 => ⟨S1x64, .f32⟩
  | 53 => ⟨S64, .f32⟩
  | 54 => ⟨S1x64, .f32⟩
  | 55 => ⟨S16384x64, .f32⟩
  | 56 => ⟨S16384x64, .f32⟩
  | 57 => ⟨S_, .f32⟩
  | 58 => ⟨S16384, .f32⟩
  | 59 => ⟨S1, .f32⟩
  | 60 => ⟨S_, .f32⟩
  | 61 => ⟨S1, .f32⟩
  | 62 => ⟨S_, .f32⟩
  | 63 => ⟨S16384, .f32⟩
  | 64 => ⟨S16384, .f32⟩
  | 65 => ⟨S16384, .f32⟩
  | 66 => ⟨S16384, .f32⟩
  | 67 => ⟨S16384, .f32⟩
  | 68 => ⟨S_, .i32⟩
  | 69 => ⟨S1, .i32⟩
  | 70 => ⟨S16384x208, .f32⟩
  | 71 => ⟨S16384x64, .f32⟩
  | 72 => ⟨S1x64, .f32⟩
  | 73 => ⟨S64, .f32⟩
  | 74 => ⟨S1x64, .f32⟩
  | 75 => ⟨S16384x64, .f32⟩
  | 76 => ⟨S16384x64, .f32⟩
  | 77 => ⟨S_, .f32⟩
  | 78 => ⟨S16384, .f32⟩
  | 79 => ⟨S1, .f32⟩
  | 80 => ⟨S_, .f32⟩
  | 81 => ⟨S1, .f32⟩
  | 82 => ⟨S_, .f32⟩
  | 83 => ⟨S16384, .f32⟩
  | 84 => ⟨S16384, .f32⟩
  | 85 => ⟨S16384, .f32⟩
  | 86 => ⟨S16384, .f32⟩
  | 87 => ⟨S16384, .f32⟩
  | 88 => ⟨S_, .i32⟩
  | 89 => ⟨S1, .i32⟩
  | 90 => ⟨S16384x208, .f32⟩
  | 91 => ⟨S16384x64, .f32⟩
  | 92 => ⟨S1x64, .f32⟩
  | 93 => ⟨S64, .f32⟩
  | 94 => ⟨S1x64, .f32⟩
  | 95 => ⟨S16384x64, .f32⟩
  | 96 => ⟨S16384x64, .f32⟩
  | 97 => ⟨S_, .f32⟩
  | 98 => ⟨S16384, .f32⟩
  | 99 => ⟨S1, .f32⟩
  | 100 => ⟨S_, .f32⟩
  | 101 => ⟨S1, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S_, .i32⟩
  | 109 => ⟨S1, .i32⟩
  | 110 => ⟨S16384x208, .f32⟩
  | 111 => ⟨S16384x64, .f32⟩
  | 112 => ⟨S1x64, .f32⟩
  | 113 => ⟨S64, .f32⟩
  | 114 => ⟨S1x64, .f32⟩
  | 115 => ⟨S16384x64, .f32⟩
  | 116 => ⟨S16384x64, .f32⟩
  | 117 => ⟨S_, .f32⟩
  | 118 => ⟨S16384, .f32⟩
  | 119 => ⟨S1, .f32⟩
  | 120 => ⟨S_, .f32⟩
  | 121 => ⟨S1, .f32⟩
  | 122 => ⟨S_, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_7 (i : Nat) : BufTy := match i % 128 with
  | 0 => ⟨S_, .i32⟩
  | 1 => ⟨S1, .i32⟩
  | 2 => ⟨S16384x208, .f32⟩
  | 3 => ⟨S16384x64, .f32⟩
  | 4 => ⟨S1x64, .f32⟩
  | 5 => ⟨S64, .f32⟩
  | 6 => ⟨S1x64, .f32⟩
  | 7 => ⟨S16384x64, .f32⟩
  | 8 => ⟨S16384x64, .f32⟩
  | 9 => ⟨S_, .f32⟩
  | 10 => ⟨S16384, .f32⟩
  | 11 => ⟨S1, .f32⟩
  | 12 => ⟨S_, .f32⟩
  | 13 => ⟨S1, .f32⟩
  | 14 => ⟨S_, .f32⟩
  | 15 => ⟨S16384, .f32⟩
  | 16 => ⟨S16384, .f32⟩
  | 17 => ⟨S16384, .f32⟩
  | 18 => ⟨S16384, .f32⟩
  | 19 => ⟨S16384, .f32⟩
  | 20 => ⟨S_, .i32⟩
  | 21 => ⟨S1, .i32⟩
  | 22 => ⟨S16384x208, .f32⟩
  | 23 => ⟨S16384x64, .f32⟩
  | 24 => ⟨S1x64, .f32⟩
  | 25 => ⟨S64, .f32⟩
  | 26 => ⟨S1x64, .f32⟩
  | 27 => ⟨S16384x64, .f32⟩
  | 28 => ⟨S16384x64, .f32⟩
  | 29 => ⟨S_, .f32⟩
  | 30 => ⟨S16384, .f32⟩
  | 31 => ⟨S1, .f32⟩
  | 32 => ⟨S_, .f32⟩
  | 33 => ⟨S1, .f32⟩
  | 34 => ⟨S_, .f32⟩
  | 35 => ⟨S16384, .f32⟩
  | 36 => ⟨S16384, .f32⟩
  | 37 => ⟨S16384, .f32⟩
  | 38 => ⟨S16384, .f32⟩
  | 39 => ⟨S16384, .f32⟩
  | 40 => ⟨S_, .i32⟩
  | 41 => ⟨S1, .i32⟩
  | 42 => ⟨S16384x208, .f32⟩
  | 43 => ⟨S16384x64, .f32⟩
  | 44 => ⟨S1x64, .f32⟩
  | 45 => ⟨S64, .f32⟩
  | 46 => ⟨S1x64, .f32⟩
  | 47 => ⟨S16384x64, .f32⟩
  | 48 => ⟨S16384x64, .f32⟩
  | 49 => ⟨S_, .f32⟩
  | 50 => ⟨S16384, .f32⟩
  | 51 => ⟨S1, .f32⟩
  | 52 => ⟨S_, .f32⟩
  | 53 => ⟨S1, .f32⟩
  | 54 => ⟨S_, .f32⟩
  | 55 => ⟨S16384, .f32⟩
  | 56 => ⟨S16384, .f32⟩
  | 57 => ⟨S16384, .f32⟩
  | 58 => ⟨S16384, .f32⟩
  | 59 => ⟨S16384, .f32⟩
  | 60 => ⟨S_, .i32⟩
  | 61 => ⟨S1, .i32⟩
  | 62 => ⟨S16384x208, .f32⟩
  | 63 => ⟨S16384x64, .f32⟩
  | 64 => ⟨S1x64, .f32⟩
  | 65 => ⟨S64, .f32⟩
  | 66 => ⟨S1x64, .f32⟩
  | 67 => ⟨S16384x64, .f32⟩
  | 68 => ⟨S16384x64, .f32⟩
  | 69 => ⟨S_, .f32⟩
  | 70 => ⟨S16384, .f32⟩
  | 71 => ⟨S1, .f32⟩
  | 72 => ⟨S_, .f32⟩
  | 73 => ⟨S1, .f32⟩
  | 74 => ⟨S_, .f32⟩
  | 75 => ⟨S16384, .f32⟩
  | 76 => ⟨S16384, .f32⟩
  | 77 => ⟨S16384, .f32⟩
  | 78 => ⟨S16384, .f32⟩
  | 79 => ⟨S16384, .f32⟩
  | 80 => ⟨S_, .i32⟩
  | 81 => ⟨S1, .i32⟩
  | 82 => ⟨S16384x208, .f32⟩
  | 83 => ⟨S16384x64, .f32⟩
  | 84 => ⟨S1x64, .f32⟩
  | 85 => ⟨S64, .f32⟩
  | 86 => ⟨S1x64, .f32⟩
  | 87 => ⟨S16384x64, .f32⟩
  | 88 => ⟨S16384x64, .f32⟩
  | 89 => ⟨S_, .f32⟩
  | 90 => ⟨S16384, .f32⟩
  | 91 => ⟨S1, .f32⟩
  | 92 => ⟨S_, .f32⟩
  | 93 => ⟨S1, .f32⟩
  | 94 => ⟨S_, .f32⟩
  | 95 => ⟨S16384, .f32⟩
  | 96 => ⟨S16384, .f32⟩
  | 97 => ⟨S16384, .f32⟩
  | 98 => ⟨S16384, .f32⟩
  | 99 => ⟨S16384, .f32⟩
  | 100 => ⟨S_, .i32⟩
  | 101 => ⟨S1, .i32⟩
  | 102 => ⟨S16384x208, .f32⟩
  | 103 => ⟨S16384x64, .f32⟩
  | 104 => ⟨S1x64, .f32⟩
  | 105 => ⟨S64, .f32⟩
  | 106 => ⟨S1x64, .f32⟩
  | 107 => ⟨S16384x64, .f32⟩
  | 108 => ⟨S16384x64, .f32⟩
  | 109 => ⟨S_, .f32⟩
  | 110 => ⟨S16384, .f32⟩
  | 111 => ⟨S1, .f32⟩
  | 112 => ⟨S_, .f32⟩
  | 113 => ⟨S1, .f32⟩
  | 114 => ⟨S_, .f32⟩
  | 115 => ⟨S16384, .f32⟩
  | 116 => ⟨S16384, .f32⟩
  | 117 => ⟨S16384, .f32⟩
  | 118 => ⟨S16384, .f32⟩
  | 119 => ⟨S16384, .f32⟩
  | 120 => ⟨S_, .i32⟩
  | 121 => ⟨S1, .i32⟩
  | 122 => ⟨S16384x208, .f32⟩
  | 123 => ⟨S16384x64, .f32⟩
  | 124 => ⟨S1x64, .f32⟩
  | 125 => ⟨S64, .f32⟩
  | 126 => ⟨S1x64, .f32⟩
  | 127 => ⟨S16384x64, .f32⟩
  | _ => ⟨S16384x64, .f32⟩

abbrev hbmTy0_8 (i : Nat) : BufTy := match i % 128 with
  | 0 => ⟨S16384x64, .f32⟩
  | 1 => ⟨S_, .f32⟩
  | 2 => ⟨S16384, .f32⟩
  | 3 => ⟨S1, .f32⟩
  | 4 => ⟨S_, .f32⟩
  | 5 => ⟨S1, .f32⟩
  | 6 => ⟨S_, .f32⟩
  | 7 => ⟨S16384, .f32⟩
  | 8 => ⟨S16384, .f32⟩
  | 9 => ⟨S16384, .f32⟩
  | 10 => ⟨S16384, .f32⟩
  | 11 => ⟨S16384, .f32⟩
  | 12 => ⟨S_, .i32⟩
  | 13 => ⟨S1, .i32⟩
  | 14 => ⟨S16384x208, .f32⟩
  | 15 => ⟨S16384x64, .f32⟩
  | 16 => ⟨S1x64, .f32⟩
  | 17 => ⟨S64, .f32⟩
  | 18 => ⟨S1x64, .f32⟩
  | 19 => ⟨S16384x64, .f32⟩
  | 20 => ⟨S16384x64, .f32⟩
  | 21 => ⟨S_, .f32⟩
  | 22 => ⟨S16384, .f32⟩
  | 23 => ⟨S1, .f32⟩
  | 24 => ⟨S_, .f32⟩
  | 25 => ⟨S1, .f32⟩
  | 26 => ⟨S_, .f32⟩
  | 27 => ⟨S16384, .f32⟩
  | 28 => ⟨S16384, .f32⟩
  | 29 => ⟨S16384, .f32⟩
  | 30 => ⟨S16384, .f32⟩
  | 31 => ⟨S16384, .f32⟩
  | 32 => ⟨S_, .i32⟩
  | 33 => ⟨S1, .i32⟩
  | 34 => ⟨S16384x208, .f32⟩
  | 35 => ⟨S16384x64, .f32⟩
  | 36 => ⟨S1x64, .f32⟩
  | 37 => ⟨S64, .f32⟩
  | 38 => ⟨S1x64, .f32⟩
  | 39 => ⟨S16384x64, .f32⟩
  | 40 => ⟨S16384x64, .f32⟩
  | 41 => ⟨S_, .f32⟩
  | 42 => ⟨S16384, .f32⟩
  | 43 => ⟨S1, .f32⟩
  | 44 => ⟨S_, .f32⟩
  | 45 => ⟨S1, .f32⟩
  | 46 => ⟨S_, .f32⟩
  | 47 => ⟨S16384, .f32⟩
  | 48 => ⟨S16384, .f32⟩
  | 49 => ⟨S16384, .f32⟩
  | 50 => ⟨S16384, .f32⟩
  | 51 => ⟨S16384, .f32⟩
  | 52 => ⟨S_, .i32⟩
  | 53 => ⟨S1, .i32⟩
  | 54 => ⟨S16384x208, .f32⟩
  | 55 => ⟨S16384x64, .f32⟩
  | 56 => ⟨S1x64, .f32⟩
  | 57 => ⟨S64, .f32⟩
  | 58 => ⟨S1x64, .f32⟩
  | 59 => ⟨S16384x64, .f32⟩
  | 60 => ⟨S16384x64, .f32⟩
  | 61 => ⟨S_, .f32⟩
  | 62 => ⟨S16384, .f32⟩
  | 63 => ⟨S1, .f32⟩
  | 64 => ⟨S_, .f32⟩
  | 65 => ⟨S1, .f32⟩
  | 66 => ⟨S_, .f32⟩
  | 67 => ⟨S16384, .f32⟩
  | 68 => ⟨S16384, .f32⟩
  | 69 => ⟨S16384, .f32⟩
  | 70 => ⟨S16384, .f32⟩
  | 71 => ⟨S16384, .f32⟩
  | 72 => ⟨S_, .i32⟩
  | 73 => ⟨S1, .i32⟩
  | 74 => ⟨S16384x208, .f32⟩
  | 75 => ⟨S16384x64, .f32⟩
  | 76 => ⟨S1x64, .f32⟩
  | 77 => ⟨S64, .f32⟩
  | 78 => ⟨S1x64, .f32⟩
  | 79 => ⟨S16384x64, .f32⟩
  | 80 => ⟨S16384x64, .f32⟩
  | 81 => ⟨S_, .f32⟩
  | 82 => ⟨S16384, .f32⟩
  | 83 => ⟨S1, .f32⟩
  | 84 => ⟨S_, .f32⟩
  | 85 => ⟨S1, .f32⟩
  | 86 => ⟨S_, .f32⟩
  | 87 => ⟨S16384, .f32⟩
  | 88 => ⟨S16384, .f32⟩
  | 89 => ⟨S16384, .f32⟩
  | 90 => ⟨S16384, .f32⟩
  | 91 => ⟨S16384, .f32⟩
  | 92 => ⟨S_, .i32⟩
  | 93 => ⟨S1, .i32⟩
  | 94 => ⟨S16384x208, .f32⟩
  | 95 => ⟨S16384x64, .f32⟩
  | 96 => ⟨S1x64, .f32⟩
  | 97 => ⟨S64, .f32⟩
  | 98 => ⟨S1x64, .f32⟩
  | 99 => ⟨S16384x64, .f32⟩
  | 100 => ⟨S16384x64, .f32⟩
  | 101 => ⟨S_, .f32⟩
  | 102 => ⟨S16384, .f32⟩
  | 103 => ⟨S1, .f32⟩
  | 104 => ⟨S_, .f32⟩
  | 105 => ⟨S1, .f32⟩
  | 106 => ⟨S_, .f32⟩
  | 107 => ⟨S16384, .f32⟩
  | 108 => ⟨S16384, .f32⟩
  | 109 => ⟨S16384, .f32⟩
  | 110 => ⟨S16384, .f32⟩
  | 111 => ⟨S16384, .f32⟩
  | 112 => ⟨S_, .i32⟩
  | 113 => ⟨S1, .i32⟩
  | 114 => ⟨S16384x208, .f32⟩
  | 115 => ⟨S16384x64, .f32⟩
  | 116 => ⟨S1x64, .f32⟩
  | 117 => ⟨S64, .f32⟩
  | 118 => ⟨S1x64, .f32⟩
  | 119 => ⟨S16384x64, .f32⟩
  | 120 => ⟨S16384x64, .f32⟩
  | 121 => ⟨S_, .f32⟩
  | 122 => ⟨S16384, .f32⟩
  | 123 => ⟨S1, .f32⟩
  | 124 => ⟨S_, .f32⟩
  | 125 => ⟨S1, .f32⟩
  | 126 => ⟨S_, .f32⟩
  | 127 => ⟨S16384, .f32⟩
  | _ => ⟨S16384x64, .f32⟩

abbrev hbmTy0_9 (i : Nat) : BufTy := match i % 128 with
  | 0 => ⟨S16384, .f32⟩
  | 1 => ⟨S16384, .f32⟩
  | 2 => ⟨S16384, .f32⟩
  | 3 => ⟨S16384, .f32⟩
  | 4 => ⟨S_, .i32⟩
  | 5 => ⟨S1, .i32⟩
  | 6 => ⟨S16384x208, .f32⟩
  | 7 => ⟨S16384x64, .f32⟩
  | 8 => ⟨S1x64, .f32⟩
  | 9 => ⟨S64, .f32⟩
  | 10 => ⟨S1x64, .f32⟩
  | 11 => ⟨S16384x64, .f32⟩
  | 12 => ⟨S16384x64, .f32⟩
  | 13 => ⟨S_, .f32⟩
  | 14 => ⟨S16384, .f32⟩
  | 15 => ⟨S1, .f32⟩
  | 16 => ⟨S_, .f32⟩
  | 17 => ⟨S1, .f32⟩
  | 18 => ⟨S_, .f32⟩
  | 19 => ⟨S16384, .f32⟩
  | 20 => ⟨S16384, .f32⟩
  | 21 => ⟨S16384, .f32⟩
  | 22 => ⟨S16384, .f32⟩
  | 23 => ⟨S16384, .f32⟩
  | 24 => ⟨S_, .i32⟩
  | 25 => ⟨S1, .i32⟩
  | 26 => ⟨S16384x208, .f32⟩
  | 27 => ⟨S16384x64, .f32⟩
  | 28 => ⟨S1x64, .f32⟩
  | 29 => ⟨S64, .f32⟩
  | 30 => ⟨S1x64, .f32⟩
  | 31 => ⟨S16384x64, .f32⟩
  | 32 => ⟨S16384x64, .f32⟩
  | 33 => ⟨S_, .f32⟩
  | 34 => ⟨S16384, .f32⟩
  | 35 => ⟨S1, .f32⟩
  | 36 => ⟨S_, .f32⟩
  | 37 => ⟨S1, .f32⟩
  | 38 => ⟨S_, .f32⟩
  | 39 => ⟨S16384, .f32⟩
  | 40 => ⟨S16384, .f32⟩
  | 41 => ⟨S16384, .f32⟩
  | 42 => ⟨S16384, .f32⟩
  | 43 => ⟨S16384, .f32⟩
  | 44 => ⟨S_, .i32⟩
  | 45 => ⟨S1, .i32⟩
  | 46 => ⟨S16384x208, .f32⟩
  | 47 => ⟨S16384x64, .f32⟩
  | 48 => ⟨S1x64, .f32⟩
  | 49 => ⟨S64, .f32⟩
  | 50 => ⟨S1x64, .f32⟩
  | 51 => ⟨S16384x64, .f32⟩
  | 52 => ⟨S16384x64, .f32⟩
  | 53 => ⟨S_, .f32⟩
  | 54 => ⟨S16384, .f32⟩
  | 55 => ⟨S1, .f32⟩
  | 56 => ⟨S_, .f32⟩
  | 57 => ⟨S1, .f32⟩
  | 58 => ⟨S_, .f32⟩
  | 59 => ⟨S16384, .f32⟩
  | 60 => ⟨S16384, .f32⟩
  | 61 => ⟨S16384, .f32⟩
  | 62 => ⟨S16384, .f32⟩
  | 63 => ⟨S16384, .f32⟩
  | 64 => ⟨S_, .i32⟩
  | 65 => ⟨S1, .i32⟩
  | 66 => ⟨S16384x208, .f32⟩
  | 67 => ⟨S16384x64, .f32⟩
  | 68 => ⟨S1x64, .f32⟩
  | 69 => ⟨S64, .f32⟩
  | 70 => ⟨S1x64, .f32⟩
  | 71 => ⟨S16384x64, .f32⟩
  | 72 => ⟨S16384x64, .f32⟩
  | 73 => ⟨S_, .f32⟩
  | 74 => ⟨S16384, .f32⟩
  | 75 => ⟨S1, .f32⟩
  | 76 => ⟨S_, .f32⟩
  | 77 => ⟨S1, .f32⟩
  | 78 => ⟨S_, .f32⟩
  | 79 => ⟨S16384, .f32⟩
  | 80 => ⟨S16384, .f32⟩
  | 81 => ⟨S16384, .f32⟩
  | 82 => ⟨S16384, .f32⟩
  | 83 => ⟨S16384, .f32⟩
  | 84 => ⟨S_, .i32⟩
  | 85 => ⟨S1, .i32⟩
  | 86 => ⟨S16384x208, .f32⟩
  | 87 => ⟨S16384x64, .f32⟩
  | 88 => ⟨S1x64, .f32⟩
  | 89 => ⟨S64, .f32⟩
  | 90 => ⟨S1x64, .f32⟩
  | 91 => ⟨S16384x64, .f32⟩
  | 92 => ⟨S16384x64, .f32⟩
  | 93 => ⟨S_, .f32⟩
  | 94 => ⟨S16384, .f32⟩
  | 95 => ⟨S1, .f32⟩
  | 96 => ⟨S_, .f32⟩
  | 97 => ⟨S1, .f32⟩
  | 98 => ⟨S_, .f32⟩
  | 99 => ⟨S16384, .f32⟩
  | 100 => ⟨S16384, .f32⟩
  | 101 => ⟨S16384, .f32⟩
  | 102 => ⟨S16384, .f32⟩
  | 103 => ⟨S16384, .f32⟩
  | 104 => ⟨S_, .i32⟩
  | 105 => ⟨S1, .i32⟩
  | 106 => ⟨S16384x208, .f32⟩
  | 107 => ⟨S16384x64, .f32⟩
  | 108 => ⟨S1x64, .f32⟩
  | 109 => ⟨S64, .f32⟩
  | 110 => ⟨S1x64, .f32⟩
  | 111 => ⟨S16384x64, .f32⟩
  | 112 => ⟨S16384x64, .f32⟩
  | 113 => ⟨S_, .f32⟩
  | 114 => ⟨S16384, .f32⟩
  | 115 => ⟨S1, .f32⟩
  | 116 => ⟨S_, .f32⟩
  | 117 => ⟨S1, .f32⟩
  | 118 => ⟨S_, .f32⟩
  | 119 => ⟨S16384, .f32⟩
  | 120 => ⟨S16384, .f32⟩
  | 121 => ⟨S16384, .f32⟩
  | 122 => ⟨S16384, .f32⟩
  | 123 => ⟨S16384, .f32⟩
  | 124 => ⟨S_, .i32⟩
  | 125 => ⟨S1, .i32⟩
  | 126 => ⟨S16384x208, .f32⟩
  | 127 => ⟨S16384x64, .f32⟩
  | _ => ⟨S16384x64, .f32⟩

abbrev hbmTy0_10 (i : Nat) : BufTy := match i % 128 with
  | 0 => ⟨S1x64, .f32⟩
  | 1 => ⟨S64, .f32⟩
  | 2 => ⟨S1x64, .f32⟩
  | 3 => ⟨S16384x64, .f32⟩
  | 4 => ⟨S16384x64, .f32⟩
  | 5 => ⟨S_, .f32⟩
  | 6 => ⟨S16384, .f32⟩
  | 7 => ⟨S1, .f32⟩
  | 8 => ⟨S_, .f32⟩
  | 9 => ⟨S1, .f32⟩
  | 10 => ⟨S_, .f32⟩
  | 11 => ⟨S16384, .f32⟩
  | 12 => ⟨S16384, .f32⟩
  | 13 => ⟨S16384, .f32⟩
  | 14 => ⟨S16384, .f32⟩
  | 15 => ⟨S16384, .f32⟩
  | 16 => ⟨S_, .i32⟩
  | 17 => ⟨S1, .i32⟩
  | 18 => ⟨S16384x208, .f32⟩
  | 19 => ⟨S16384x64, .f32⟩
  | 20 => ⟨S1x64, .f32⟩
  | 21 => ⟨S64, .f32⟩
  | 22 => ⟨S1x64, .f32⟩
  | 23 => ⟨S16384x64, .f32⟩
  | 24 => ⟨S16384x64, .f32⟩
  | 25 => ⟨S_, .f32⟩
  | 26 => ⟨S16384, .f32⟩
  | 27 => ⟨S1, .f32⟩
  | 28 => ⟨S_, .f32⟩
  | 29 => ⟨S1, .f32⟩
  | 30 => ⟨S_, .f32⟩
  | 31 => ⟨S16384, .f32⟩
  | 32 => ⟨S16384, .f32⟩
  | 33 => ⟨S16384, .f32⟩
  | 34 => ⟨S16384, .f32⟩
  | 35 => ⟨S16384, .f32⟩
  | 36 => ⟨S_, .i32⟩
  | 37 => ⟨S1, .i32⟩
  | 38 => ⟨S16384x208, .f32⟩
  | 39 => ⟨S16384x64, .f32⟩
  | 40 => ⟨S1x64, .f32⟩
  | 41 => ⟨S64, .f32⟩
  | 42 => ⟨S1x64, .f32⟩
  | 43 => ⟨S16384x64, .f32⟩
  | 44 => ⟨S16384x64, .f32⟩
  | 45 => ⟨S_, .f32⟩
  | 46 => ⟨S16384, .f32⟩
  | 47 => ⟨S1, .f32⟩
  | 48 => ⟨S_, .f32⟩
  | 49 => ⟨S1, .f32⟩
  | 50 => ⟨S_, .f32⟩
  | 51 => ⟨S16384, .f32⟩
  | 52 => ⟨S16384, .f32⟩
  | 53 => ⟨S16384, .f32⟩
  | 54 => ⟨S16384, .f32⟩
  | 55 => ⟨S16384, .f32⟩
  | 56 => ⟨S_, .i32⟩
  | 57 => ⟨S1, .i32⟩
  | 58 => ⟨S16384x208, .f32⟩
  | 59 => ⟨S16384x64, .f32⟩
  | 60 => ⟨S1x64, .f32⟩
  | 61 => ⟨S64, .f32⟩
  | 62 => ⟨S1x64, .f32⟩
  | 63 => ⟨S16384x64, .f32⟩
  | 64 => ⟨S16384x64, .f32⟩
  | 65 => ⟨S_, .f32⟩
  | 66 => ⟨S16384, .f32⟩
  | 67 => ⟨S1, .f32⟩
  | 68 => ⟨S_, .f32⟩
  | 69 => ⟨S1, .f32⟩
  | 70 => ⟨S_, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .i32⟩
  | 77 => ⟨S1, .i32⟩
  | 78 => ⟨S16384x208, .f32⟩
  | 79 => ⟨S16384x64, .f32⟩
  | 80 => ⟨S1x64, .f32⟩
  | 81 => ⟨S64, .f32⟩
  | 82 => ⟨S1x64, .f32⟩
  | 83 => ⟨S16384x64, .f32⟩
  | 84 => ⟨S16384x64, .f32⟩
  | 85 => ⟨S_, .f32⟩
  | 86 => ⟨S16384, .f32⟩
  | 87 => ⟨S1, .f32⟩
  | 88 => ⟨S_, .f32⟩
  | 89 => ⟨S1, .f32⟩
  | 90 => ⟨S_, .f32⟩
  | 91 => ⟨S16384, .f32⟩
  | 92 => ⟨S16384, .f32⟩
  | 93 => ⟨S16384, .f32⟩
  | 94 => ⟨S16384, .f32⟩
  | 95 => ⟨S16384, .f32⟩
  | 96 => ⟨S_, .i32⟩
  | 97 => ⟨S1, .i32⟩
  | 98 => ⟨S16384x208, .f32⟩
  | 99 => ⟨S16384x64, .f32⟩
  | 100 => ⟨S1x64, .f32⟩
  | 101 => ⟨S64, .f32⟩
  | 102 => ⟨S1x64, .f32⟩
  | 103 => ⟨S16384x64, .f32⟩
  | 104 => ⟨S16384x64, .f32⟩
  | 105 => ⟨S_, .f32⟩
  | 106 => ⟨S16384, .f32⟩
  | 107 => ⟨S1, .f32⟩
  | 108 => ⟨S_, .f32⟩
  | 109 => ⟨S1, .f32⟩
  | 110 => ⟨S_, .f32⟩
  | 111 => ⟨S16384, .f32⟩
  | 112 => ⟨S16384, .f32⟩
  | 113 => ⟨S16384, .f32⟩
  | 114 => ⟨S16384, .f32⟩
  | 115 => ⟨S16384, .f32⟩
  | 116 => ⟨S_, .i32⟩
  | 117 => ⟨S1, .i32⟩
  | 118 => ⟨S16384x208, .f32⟩
  | 119 => ⟨S16384x64, .f32⟩
  | 120 => ⟨S1x64, .f32⟩
  | 121 => ⟨S64, .f32⟩
  | 122 => ⟨S1x64, .f32⟩
  | 123 => ⟨S16384x64, .f32⟩
  | 124 => ⟨S16384x64, .f32⟩
  | 125 => ⟨S_, .f32⟩
  | 126 => ⟨S16384, .f32⟩
  | 127 => ⟨S1, .f32⟩
  | _ => ⟨S16384x64, .f32⟩

abbrev hbmTy0_11 (i : Nat) : BufTy := match i % 128 with
  | 0 => ⟨S_, .f32⟩
  | 1 => ⟨S1, .f32⟩
  | 2 => ⟨S_, .f32⟩
  | 3 => ⟨S16384, .f32⟩
  | 4 => ⟨S16384, .f32⟩
  | 5 => ⟨S16384, .f32⟩
  | 6 => ⟨S16384, .f32⟩
  | 7 => ⟨S16384, .f32⟩
  | 8 => ⟨S_, .i32⟩
  | 9 => ⟨S1, .i32⟩
  | 10 => ⟨S16384x208, .f32⟩
  | 11 => ⟨S16384x64, .f32⟩
  | 12 => ⟨S1x64, .f32⟩
  | 13 => ⟨S64, .f32⟩
  | 14 => ⟨S1x64, .f32⟩
  | 15 => ⟨S16384x64, .f32⟩
  | 16 => ⟨S16384x64, .f32⟩
  | 17 => ⟨S_, .f32⟩
  | 18 => ⟨S16384, .f32⟩
  | 19 => ⟨S1, .f32⟩
  | 20 => ⟨S_, .f32⟩
  | 21 => ⟨S1, .f32⟩
  | 22 => ⟨S_, .f32⟩
  | 23 => ⟨S16384, .f32⟩
  | 24 => ⟨S16384, .f32⟩
  | 25 => ⟨S16384, .f32⟩
  | 26 => ⟨S16384, .f32⟩
  | 27 => ⟨S16384, .f32⟩
  | 28 => ⟨S_, .i32⟩
  | 29 => ⟨S1, .i32⟩
  | 30 => ⟨S16384x208, .f32⟩
  | 31 => ⟨S16384x64, .f32⟩
  | 32 => ⟨S1x64, .f32⟩
  | 33 => ⟨S64, .f32⟩
  | 34 => ⟨S1x64, .f32⟩
  | 35 => ⟨S16384x64, .f32⟩
  | 36 => ⟨S16384x64, .f32⟩
  | 37 => ⟨S_, .f32⟩
  | 38 => ⟨S16384, .f32⟩
  | 39 => ⟨S1, .f32⟩
  | 40 => ⟨S_, .f32⟩
  | 41 => ⟨S1, .f32⟩
  | 42 => ⟨S_, .f32⟩
  | 43 => ⟨S16384, .f32⟩
  | 44 => ⟨S16384, .f32⟩
  | 45 => ⟨S16384, .f32⟩
  | 46 => ⟨S16384, .f32⟩
  | 47 => ⟨S16384, .f32⟩
  | 48 => ⟨S_, .i32⟩
  | 49 => ⟨S1, .i32⟩
  | 50 => ⟨S16384x208, .f32⟩
  | 51 => ⟨S16384x64, .f32⟩
  | 52 => ⟨S1x64, .f32⟩
  | 53 => ⟨S64, .f32⟩
  | 54 => ⟨S1x64, .f32⟩
  | 55 => ⟨S16384x64, .f32⟩
  | 56 => ⟨S16384x64, .f32⟩
  | 57 => ⟨S_, .f32⟩
  | 58 => ⟨S16384, .f32⟩
  | 59 => ⟨S1, .f32⟩
  | 60 => ⟨S_, .f32⟩
  | 61 => ⟨S1, .f32⟩
  | 62 => ⟨S_, .f32⟩
  | 63 => ⟨S16384, .f32⟩
  | 64 => ⟨S16384, .f32⟩
  | 65 => ⟨S16384, .f32⟩
  | 66 => ⟨S16384, .f32⟩
  | 67 => ⟨S16384, .f32⟩
  | 68 => ⟨S_, .i32⟩
  | 69 => ⟨S1, .i32⟩
  | 70 => ⟨S16384x208, .f32⟩
  | 71 => ⟨S16384x64, .f32⟩
  | 72 => ⟨S1x64, .f32⟩
  | 73 => ⟨S64, .f32⟩
  | 74 => ⟨S1x64, .f32⟩
  | 75 => ⟨S16384x64, .f32⟩
  | 76 => ⟨S16384x64, .f32⟩
  | 77 => ⟨S_, .f32⟩
  | 78 => ⟨S16384, .f32⟩
  | 79 => ⟨S1, .f32⟩
  | 80 => ⟨S_, .f32⟩
  | 81 => ⟨S1, .f32⟩
  | 82 => ⟨S_, .f32⟩
  | 83 => ⟨S16384, .f32⟩
  | 84 => ⟨S16384, .f32⟩
  | 85 => ⟨S16384, .f32⟩
  | 86 => ⟨S16384, .f32⟩
  | 87 => ⟨S16384, .f32⟩
  | 88 => ⟨S_, .i32⟩
  | 89 => ⟨S1, .i32⟩
  | 90 => ⟨S16384x208, .f32⟩
  | 91 => ⟨S16384x64, .f32⟩
  | 92 => ⟨S1x64, .f32⟩
  | 93 => ⟨S64, .f32⟩
  | 94 => ⟨S1x64, .f32⟩
  | 95 => ⟨S16384x64, .f32⟩
  | 96 => ⟨S16384x64, .f32⟩
  | 97 => ⟨S_, .f32⟩
  | 98 => ⟨S16384, .f32⟩
  | 99 => ⟨S1, .f32⟩
  | 100 => ⟨S_, .f32⟩
  | 101 => ⟨S1, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S_, .i32⟩
  | 109 => ⟨S1, .i32⟩
  | 110 => ⟨S16384x208, .f32⟩
  | 111 => ⟨S16384x64, .f32⟩
  | 112 => ⟨S1x64, .f32⟩
  | 113 => ⟨S64, .f32⟩
  | 114 => ⟨S1x64, .f32⟩
  | 115 => ⟨S16384x64, .f32⟩
  | 116 => ⟨S16384x64, .f32⟩
  | 117 => ⟨S_, .f32⟩
  | 118 => ⟨S16384, .f32⟩
  | 119 => ⟨S1, .f32⟩
  | 120 => ⟨S_, .f32⟩
  | 121 => ⟨S1, .f32⟩
  | 122 => ⟨S_, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_12 (i : Nat) : BufTy := match i % 128 with
  | 0 => ⟨S_, .i32⟩
  | 1 => ⟨S1, .i32⟩
  | 2 => ⟨S16384x208, .f32⟩
  | 3 => ⟨S16384x64, .f32⟩
  | 4 => ⟨S1x64, .f32⟩
  | 5 => ⟨S64, .f32⟩
  | 6 => ⟨S1x64, .f32⟩
  | 7 => ⟨S16384x64, .f32⟩
  | 8 => ⟨S16384x64, .f32⟩
  | 9 => ⟨S_, .f32⟩
  | 10 => ⟨S16384, .f32⟩
  | 11 => ⟨S1, .f32⟩
  | 12 => ⟨S_, .f32⟩
  | 13 => ⟨S1, .f32⟩
  | 14 => ⟨S_, .f32⟩
  | 15 => ⟨S16384, .f32⟩
  | 16 => ⟨S16384, .f32⟩
  | 17 => ⟨S16384, .f32⟩
  | 18 => ⟨S16384, .f32⟩
  | 19 => ⟨S16384, .f32⟩
  | 20 => ⟨S_, .i32⟩
  | 21 => ⟨S1, .i32⟩
  | 22 => ⟨S16384x208, .f32⟩
  | 23 => ⟨S16384x64, .f32⟩
  | 24 => ⟨S1x64, .f32⟩
  | 25 => ⟨S64, .f32⟩
  | 26 => ⟨S1x64, .f32⟩
  | 27 => ⟨S16384x64, .f32⟩
  | 28 => ⟨S16384x64, .f32⟩
  | 29 => ⟨S_, .f32⟩
  | 30 => ⟨S16384, .f32⟩
  | 31 => ⟨S1, .f32⟩
  | 32 => ⟨S_, .f32⟩
  | 33 => ⟨S1, .f32⟩
  | 34 => ⟨S_, .f32⟩
  | 35 => ⟨S16384, .f32⟩
  | 36 => ⟨S16384, .f32⟩
  | 37 => ⟨S16384, .f32⟩
  | 38 => ⟨S16384, .f32⟩
  | 39 => ⟨S16384, .f32⟩
  | 40 => ⟨S_, .i32⟩
  | 41 => ⟨S1, .i32⟩
  | 42 => ⟨S16384x208, .f32⟩
  | 43 => ⟨S16384x64, .f32⟩
  | 44 => ⟨S1x64, .f32⟩
  | 45 => ⟨S64, .f32⟩
  | 46 => ⟨S1x64, .f32⟩
  | 47 => ⟨S16384x64, .f32⟩
  | 48 => ⟨S16384x64, .f32⟩
  | 49 => ⟨S_, .f32⟩
  | 50 => ⟨S16384, .f32⟩
  | 51 => ⟨S1, .f32⟩
  | 52 => ⟨S_, .f32⟩
  | 53 => ⟨S1, .f32⟩
  | 54 => ⟨S_, .f32⟩
  | 55 => ⟨S16384, .f32⟩
  | 56 => ⟨S16384, .f32⟩
  | 57 => ⟨S16384, .f32⟩
  | 58 => ⟨S16384, .f32⟩
  | 59 => ⟨S16384, .f32⟩
  | 60 => ⟨S_, .i32⟩
  | 61 => ⟨S1, .i32⟩
  | 62 => ⟨S16384x208, .f32⟩
  | 63 => ⟨S16384x64, .f32⟩
  | 64 => ⟨S1x64, .f32⟩
  | 65 => ⟨S64, .f32⟩
  | 66 => ⟨S1x64, .f32⟩
  | 67 => ⟨S16384x64, .f32⟩
  | 68 => ⟨S16384x64, .f32⟩
  | 69 => ⟨S_, .f32⟩
  | 70 => ⟨S16384, .f32⟩
  | 71 => ⟨S1, .f32⟩
  | 72 => ⟨S_, .f32⟩
  | 73 => ⟨S1, .f32⟩
  | 74 => ⟨S_, .f32⟩
  | 75 => ⟨S16384, .f32⟩
  | 76 => ⟨S16384, .f32⟩
  | 77 => ⟨S16384, .f32⟩
  | 78 => ⟨S16384, .f32⟩
  | 79 => ⟨S16384, .f32⟩
  | 80 => ⟨S_, .i32⟩
  | 81 => ⟨S1, .i32⟩
  | 82 => ⟨S16384x208, .f32⟩
  | 83 => ⟨S16384x64, .f32⟩
  | 84 => ⟨S1x64, .f32⟩
  | 85 => ⟨S64, .f32⟩
  | 86 => ⟨S1x64, .f32⟩
  | 87 => ⟨S16384x64, .f32⟩
  | 88 => ⟨S16384x64, .f32⟩
  | 89 => ⟨S_, .f32⟩
  | 90 => ⟨S16384, .f32⟩
  | 91 => ⟨S1, .f32⟩
  | 92 => ⟨S_, .f32⟩
  | 93 => ⟨S1, .f32⟩
  | 94 => ⟨S_, .f32⟩
  | 95 => ⟨S16384, .f32⟩
  | 96 => ⟨S16384, .f32⟩
  | 97 => ⟨S16384, .f32⟩
  | 98 => ⟨S16384, .f32⟩
  | 99 => ⟨S16384, .f32⟩
  | 100 => ⟨S_, .i32⟩
  | 101 => ⟨S1, .i32⟩
  | 102 => ⟨S16384x208, .f32⟩
  | 103 => ⟨S16384x64, .f32⟩
  | 104 => ⟨S1x64, .f32⟩
  | 105 => ⟨S64, .f32⟩
  | 106 => ⟨S1x64, .f32⟩
  | 107 => ⟨S16384x64, .f32⟩
  | 108 => ⟨S16384x64, .f32⟩
  | 109 => ⟨S_, .f32⟩
  | 110 => ⟨S16384, .f32⟩
  | 111 => ⟨S1, .f32⟩
  | 112 => ⟨S_, .f32⟩
  | 113 => ⟨S1, .f32⟩
  | 114 => ⟨S_, .f32⟩
  | 115 => ⟨S16384, .f32⟩
  | 116 => ⟨S16384, .f32⟩
  | 117 => ⟨S16384, .f32⟩
  | 118 => ⟨S16384, .f32⟩
  | 119 => ⟨S16384, .f32⟩
  | 120 => ⟨S_, .i32⟩
  | 121 => ⟨S1, .i32⟩
  | 122 => ⟨S16384x208, .f32⟩
  | 123 => ⟨S16384x64, .f32⟩
  | 124 => ⟨S1x64, .f32⟩
  | 125 => ⟨S64, .f32⟩
  | 126 => ⟨S1x64, .f32⟩
  | 127 => ⟨S16384x64, .f32⟩
  | _ => ⟨S16384x64, .f32⟩

abbrev hbmTy0_13 (i : Nat) : BufTy := match i % 128 with
  | 0 => ⟨S16384x64, .f32⟩
  | 1 => ⟨S_, .f32⟩
  | 2 => ⟨S16384, .f32⟩
  | 3 => ⟨S1, .f32⟩
  | 4 => ⟨S_, .f32⟩
  | 5 => ⟨S1, .f32⟩
  | 6 => ⟨S_, .f32⟩
  | 7 => ⟨S16384, .f32⟩
  | 8 => ⟨S16384, .f32⟩
  | 9 => ⟨S16384, .f32⟩
  | 10 => ⟨S16384, .f32⟩
  | 11 => ⟨S16384, .f32⟩
  | 12 => ⟨S_, .i32⟩
  | 13 => ⟨S1, .i32⟩
  | 14 => ⟨S16384x208, .f32⟩
  | 15 => ⟨S16384x64, .f32⟩
  | 16 => ⟨S1x64, .f32⟩
  | 17 => ⟨S64, .f32⟩
  | 18 => ⟨S1x64, .f32⟩
  | 19 => ⟨S16384x64, .f32⟩
  | 20 => ⟨S16384x64, .f32⟩
  | 21 => ⟨S_, .f32⟩
  | 22 => ⟨S16384, .f32⟩
  | 23 => ⟨S1, .f32⟩
  | 24 => ⟨S_, .f32⟩
  | 25 => ⟨S1, .f32⟩
  | 26 => ⟨S_, .f32⟩
  | 27 => ⟨S16384, .f32⟩
  | 28 => ⟨S16384, .f32⟩
  | 29 => ⟨S16384, .f32⟩
  | 30 => ⟨S16384, .f32⟩
  | 31 => ⟨S16384, .f32⟩
  | 32 => ⟨S_, .i32⟩
  | 33 => ⟨S1, .i32⟩
  | 34 => ⟨S16384x208, .f32⟩
  | 35 => ⟨S16384x64, .f32⟩
  | 36 => ⟨S1x64, .f32⟩
  | 37 => ⟨S64, .f32⟩
  | 38 => ⟨S1x64, .f32⟩
  | 39 => ⟨S16384x64, .f32⟩
  | 40 => ⟨S16384x64, .f32⟩
  | 41 => ⟨S_, .f32⟩
  | 42 => ⟨S16384, .f32⟩
  | 43 => ⟨S1, .f32⟩
  | 44 => ⟨S_, .f32⟩
  | 45 => ⟨S1, .f32⟩
  | 46 => ⟨S_, .f32⟩
  | 47 => ⟨S16384, .f32⟩
  | 48 => ⟨S16384, .f32⟩
  | 49 => ⟨S16384, .f32⟩
  | 50 => ⟨S16384, .f32⟩
  | 51 => ⟨S16384, .f32⟩
  | 52 => ⟨S_, .i32⟩
  | 53 => ⟨S1, .i32⟩
  | 54 => ⟨S16384x208, .f32⟩
  | 55 => ⟨S16384x64, .f32⟩
  | 56 => ⟨S1x64, .f32⟩
  | 57 => ⟨S64, .f32⟩
  | 58 => ⟨S1x64, .f32⟩
  | 59 => ⟨S16384x64, .f32⟩
  | 60 => ⟨S16384x64, .f32⟩
  | 61 => ⟨S_, .f32⟩
  | 62 => ⟨S16384, .f32⟩
  | 63 => ⟨S1, .f32⟩
  | 64 => ⟨S_, .f32⟩
  | 65 => ⟨S1, .f32⟩
  | 66 => ⟨S_, .f32⟩
  | 67 => ⟨S16384, .f32⟩
  | 68 => ⟨S16384, .f32⟩
  | 69 => ⟨S16384, .f32⟩
  | 70 => ⟨S16384, .f32⟩
  | 71 => ⟨S16384, .f32⟩
  | 72 => ⟨S_, .i32⟩
  | 73 => ⟨S1, .i32⟩
  | 74 => ⟨S16384x208, .f32⟩
  | 75 => ⟨S16384x64, .f32⟩
  | 76 => ⟨S1x64, .f32⟩
  | 77 => ⟨S64, .f32⟩
  | 78 => ⟨S1x64, .f32⟩
  | 79 => ⟨S16384x64, .f32⟩
  | 80 => ⟨S16384x64, .f32⟩
  | 81 => ⟨S_, .f32⟩
  | 82 => ⟨S16384, .f32⟩
  | 83 => ⟨S1, .f32⟩
  | 84 => ⟨S_, .f32⟩
  | 85 => ⟨S1, .f32⟩
  | 86 => ⟨S_, .f32⟩
  | 87 => ⟨S16384, .f32⟩
  | 88 => ⟨S16384, .f32⟩
  | 89 => ⟨S16384, .f32⟩
  | 90 => ⟨S16384, .f32⟩
  | 91 => ⟨S16384, .f32⟩
  | 92 => ⟨S_, .i32⟩
  | 93 => ⟨S1, .i32⟩
  | 94 => ⟨S16384x208, .f32⟩
  | 95 => ⟨S16384x64, .f32⟩
  | 96 => ⟨S1x64, .f32⟩
  | 97 => ⟨S64, .f32⟩
  | 98 => ⟨S1x64, .f32⟩
  | 99 => ⟨S16384x64, .f32⟩
  | 100 => ⟨S16384x64, .f32⟩
  | 101 => ⟨S_, .f32⟩
  | 102 => ⟨S16384, .f32⟩
  | 103 => ⟨S1, .f32⟩
  | 104 => ⟨S_, .f32⟩
  | 105 => ⟨S1, .f32⟩
  | 106 => ⟨S_, .f32⟩
  | 107 => ⟨S16384, .f32⟩
  | 108 => ⟨S16384, .f32⟩
  | 109 => ⟨S16384, .f32⟩
  | 110 => ⟨S16384, .f32⟩
  | 111 => ⟨S16384, .f32⟩
  | 112 => ⟨S_, .i32⟩
  | 113 => ⟨S1, .i32⟩
  | 114 => ⟨S16384x208, .f32⟩
  | 115 => ⟨S16384x64, .f32⟩
  | 116 => ⟨S1x64, .f32⟩
  | 117 => ⟨S64, .f32⟩
  | 118 => ⟨S1x64, .f32⟩
  | 119 => ⟨S16384x64, .f32⟩
  | 120 => ⟨S16384x64, .f32⟩
  | 121 => ⟨S_, .f32⟩
  | 122 => ⟨S16384, .f32⟩
  | 123 => ⟨S1, .f32⟩
  | 124 => ⟨S_, .f32⟩
  | 125 => ⟨S1, .f32⟩
  | 126 => ⟨S_, .f32⟩
  | 127 => ⟨S16384, .f32⟩
  | _ => ⟨S16384x64, .f32⟩

abbrev hbmTy0_14 (i : Nat) : BufTy := match i % 128 with
  | 0 => ⟨S16384, .f32⟩
  | 1 => ⟨S16384, .f32⟩
  | 2 => ⟨S16384, .f32⟩
  | 3 => ⟨S16384, .f32⟩
  | 4 => ⟨S_, .i32⟩
  | 5 => ⟨S1, .i32⟩
  | 6 => ⟨S16384x208, .f32⟩
  | 7 => ⟨S16384x64, .f32⟩
  | 8 => ⟨S1x64, .f32⟩
  | 9 => ⟨S64, .f32⟩
  | 10 => ⟨S1x64, .f32⟩
  | 11 => ⟨S16384x64, .f32⟩
  | 12 => ⟨S16384x64, .f32⟩
  | 13 => ⟨S_, .f32⟩
  | 14 => ⟨S16384, .f32⟩
  | 15 => ⟨S1, .f32⟩
  | 16 => ⟨S_, .f32⟩
  | 17 => ⟨S1, .f32⟩
  | 18 => ⟨S_, .f32⟩
  | 19 => ⟨S16384, .f32⟩
  | 20 => ⟨S16384, .f32⟩
  | 21 => ⟨S16384, .f32⟩
  | 22 => ⟨S16384, .f32⟩
  | 23 => ⟨S16384, .f32⟩
  | 24 => ⟨S_, .i32⟩
  | 25 => ⟨S1, .i32⟩
  | 26 => ⟨S16384x208, .f32⟩
  | 27 => ⟨S16384x64, .f32⟩
  | 28 => ⟨S1x64, .f32⟩
  | 29 => ⟨S64, .f32⟩
  | 30 => ⟨S1x64, .f32⟩
  | 31 => ⟨S16384x64, .f32⟩
  | 32 => ⟨S16384x64, .f32⟩
  | 33 => ⟨S_, .f32⟩
  | 34 => ⟨S16384, .f32⟩
  | 35 => ⟨S1, .f32⟩
  | 36 => ⟨S_, .f32⟩
  | 37 => ⟨S1, .f32⟩
  | 38 => ⟨S_, .f32⟩
  | 39 => ⟨S16384, .f32⟩
  | 40 => ⟨S16384, .f32⟩
  | 41 => ⟨S16384, .f32⟩
  | 42 => ⟨S16384, .f32⟩
  | 43 => ⟨S16384, .f32⟩
  | 44 => ⟨S_, .i32⟩
  | 45 => ⟨S1, .i32⟩
  | 46 => ⟨S16384x208, .f32⟩
  | 47 => ⟨S16384x64, .f32⟩
  | 48 => ⟨S1x64, .f32⟩
  | 49 => ⟨S64, .f32⟩
  | 50 => ⟨S1x64, .f32⟩
  | 51 => ⟨S16384x64, .f32⟩
  | 52 => ⟨S16384x64, .f32⟩
  | 53 => ⟨S_, .f32⟩
  | 54 => ⟨S16384, .f32⟩
  | 55 => ⟨S1, .f32⟩
  | 56 => ⟨S_, .f32⟩
  | 57 => ⟨S1, .f32⟩
  | 58 => ⟨S_, .f32⟩
  | 59 => ⟨S16384, .f32⟩
  | 60 => ⟨S16384, .f32⟩
  | 61 => ⟨S16384, .f32⟩
  | 62 => ⟨S16384, .f32⟩
  | 63 => ⟨S16384, .f32⟩
  | 64 => ⟨S_, .i32⟩
  | 65 => ⟨S1, .i32⟩
  | 66 => ⟨S16384x208, .f32⟩
  | 67 => ⟨S16384x64, .f32⟩
  | 68 => ⟨S1x64, .f32⟩
  | 69 => ⟨S64, .f32⟩
  | 70 => ⟨S1x64, .f32⟩
  | 71 => ⟨S16384x64, .f32⟩
  | 72 => ⟨S16384x64, .f32⟩
  | 73 => ⟨S_, .f32⟩
  | 74 => ⟨S16384, .f32⟩
  | 75 => ⟨S1, .f32⟩
  | 76 => ⟨S_, .f32⟩
  | 77 => ⟨S1, .f32⟩
  | 78 => ⟨S_, .f32⟩
  | 79 => ⟨S16384, .f32⟩
  | 80 => ⟨S16384, .f32⟩
  | 81 => ⟨S16384, .f32⟩
  | 82 => ⟨S16384, .f32⟩
  | 83 => ⟨S16384, .f32⟩
  | 84 => ⟨S_, .i32⟩
  | 85 => ⟨S1, .i32⟩
  | 86 => ⟨S16384x208, .f32⟩
  | 87 => ⟨S16384x64, .f32⟩
  | 88 => ⟨S1x64, .f32⟩
  | 89 => ⟨S64, .f32⟩
  | 90 => ⟨S1x64, .f32⟩
  | 91 => ⟨S16384x64, .f32⟩
  | 92 => ⟨S16384x64, .f32⟩
  | 93 => ⟨S_, .f32⟩
  | 94 => ⟨S16384, .f32⟩
  | 95 => ⟨S1, .f32⟩
  | 96 => ⟨S_, .f32⟩
  | 97 => ⟨S1, .f32⟩
  | 98 => ⟨S_, .f32⟩
  | 99 => ⟨S16384, .f32⟩
  | 100 => ⟨S16384, .f32⟩
  | 101 => ⟨S16384, .f32⟩
  | 102 => ⟨S16384, .f32⟩
  | 103 => ⟨S16384, .f32⟩
  | 104 => ⟨S_, .i32⟩
  | 105 => ⟨S1, .i32⟩
  | 106 => ⟨S16384x208, .f32⟩
  | 107 => ⟨S16384x64, .f32⟩
  | 108 => ⟨S1x64, .f32⟩
  | 109 => ⟨S64, .f32⟩
  | 110 => ⟨S1x64, .f32⟩
  | 111 => ⟨S16384x64, .f32⟩
  | 112 => ⟨S16384x64, .f32⟩
  | 113 => ⟨S_, .f32⟩
  | 114 => ⟨S16384, .f32⟩
  | 115 => ⟨S1, .f32⟩
  | 116 => ⟨S_, .f32⟩
  | 117 => ⟨S1, .f32⟩
  | 118 => ⟨S_, .f32⟩
  | 119 => ⟨S16384, .f32⟩
  | 120 => ⟨S16384, .f32⟩
  | 121 => ⟨S16384, .f32⟩
  | 122 => ⟨S16384, .f32⟩
  | 123 => ⟨S16384, .f32⟩
  | 124 => ⟨S_, .i32⟩
  | 125 => ⟨S1, .i32⟩
  | 126 => ⟨S16384x208, .f32⟩
  | 127 => ⟨S16384x64, .f32⟩
  | _ => ⟨S16384x64, .f32⟩

abbrev hbmTy0_15 (i : Nat) : BufTy := match i % 128 with
  | 0 => ⟨S1x64, .f32⟩
  | 1 => ⟨S64, .f32⟩
  | 2 => ⟨S1x64, .f32⟩
  | 3 => ⟨S16384x64, .f32⟩
  | 4 => ⟨S16384x64, .f32⟩
  | 5 => ⟨S_, .f32⟩
  | 6 => ⟨S16384, .f32⟩
  | 7 => ⟨S1, .f32⟩
  | 8 => ⟨S_, .f32⟩
  | 9 => ⟨S1, .f32⟩
  | 10 => ⟨S_, .f32⟩
  | 11 => ⟨S16384, .f32⟩
  | 12 => ⟨S16384, .f32⟩
  | 13 => ⟨S16384, .f32⟩
  | 14 => ⟨S16384, .f32⟩
  | 15 => ⟨S16384, .f32⟩
  | 16 => ⟨S_, .i32⟩
  | 17 => ⟨S1, .i32⟩
  | 18 => ⟨S16384x208, .f32⟩
  | 19 => ⟨S16384x64, .f32⟩
  | 20 => ⟨S1x64, .f32⟩
  | 21 => ⟨S64, .f32⟩
  | 22 => ⟨S1x64, .f32⟩
  | 23 => ⟨S16384x64, .f32⟩
  | 24 => ⟨S16384x64, .f32⟩
  | 25 => ⟨S_, .f32⟩
  | 26 => ⟨S16384, .f32⟩
  | 27 => ⟨S1, .f32⟩
  | 28 => ⟨S_, .f32⟩
  | 29 => ⟨S1, .f32⟩
  | 30 => ⟨S_, .f32⟩
  | 31 => ⟨S16384, .f32⟩
  | 32 => ⟨S16384, .f32⟩
  | 33 => ⟨S16384, .f32⟩
  | 34 => ⟨S16384, .f32⟩
  | 35 => ⟨S16384, .f32⟩
  | 36 => ⟨S_, .i32⟩
  | 37 => ⟨S1, .i32⟩
  | 38 => ⟨S16384x208, .f32⟩
  | 39 => ⟨S16384x64, .f32⟩
  | 40 => ⟨S1x64, .f32⟩
  | 41 => ⟨S64, .f32⟩
  | 42 => ⟨S1x64, .f32⟩
  | 43 => ⟨S16384x64, .f32⟩
  | 44 => ⟨S16384x64, .f32⟩
  | 45 => ⟨S_, .f32⟩
  | 46 => ⟨S16384, .f32⟩
  | 47 => ⟨S1, .f32⟩
  | 48 => ⟨S_, .f32⟩
  | 49 => ⟨S1, .f32⟩
  | 50 => ⟨S_, .f32⟩
  | 51 => ⟨S16384, .f32⟩
  | 52 => ⟨S16384, .f32⟩
  | 53 => ⟨S16384, .f32⟩
  | 54 => ⟨S16384, .f32⟩
  | 55 => ⟨S16384, .f32⟩
  | 56 => ⟨S_, .i32⟩
  | 57 => ⟨S1, .i32⟩
  | 58 => ⟨S16384x208, .f32⟩
  | 59 => ⟨S16384x64, .f32⟩
  | 60 => ⟨S1x64, .f32⟩
  | 61 => ⟨S64, .f32⟩
  | 62 => ⟨S1x64, .f32⟩
  | 63 => ⟨S16384x64, .f32⟩
  | 64 => ⟨S16384x64, .f32⟩
  | 65 => ⟨S_, .f32⟩
  | 66 => ⟨S16384, .f32⟩
  | 67 => ⟨S1, .f32⟩
  | 68 => ⟨S_, .f32⟩
  | 69 => ⟨S1, .f32⟩
  | 70 => ⟨S_, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .i32⟩
  | 77 => ⟨S1, .i32⟩
  | 78 => ⟨S16384x208, .f32⟩
  | 79 => ⟨S16384x64, .f32⟩
  | 80 => ⟨S1x64, .f32⟩
  | 81 => ⟨S64, .f32⟩
  | 82 => ⟨S1x64, .f32⟩
  | 83 => ⟨S16384x64, .f32⟩
  | 84 => ⟨S16384x64, .f32⟩
  | 85 => ⟨S_, .f32⟩
  | 86 => ⟨S16384, .f32⟩
  | 87 => ⟨S1, .f32⟩
  | 88 => ⟨S_, .f32⟩
  | 89 => ⟨S1, .f32⟩
  | 90 => ⟨S_, .f32⟩
  | 91 => ⟨S16384, .f32⟩
  | 92 => ⟨S16384, .f32⟩
  | 93 => ⟨S16384, .f32⟩
  | 94 => ⟨S16384, .f32⟩
  | 95 => ⟨S16384, .f32⟩
  | 96 => ⟨S_, .i32⟩
  | 97 => ⟨S1, .i32⟩
  | 98 => ⟨S16384x208, .f32⟩
  | 99 => ⟨S16384x64, .f32⟩
  | 100 => ⟨S1x64, .f32⟩
  | 101 => ⟨S64, .f32⟩
  | 102 => ⟨S1x64, .f32⟩
  | 103 => ⟨S16384x64, .f32⟩
  | 104 => ⟨S16384x64, .f32⟩
  | 105 => ⟨S_, .f32⟩
  | 106 => ⟨S16384, .f32⟩
  | 107 => ⟨S1, .f32⟩
  | 108 => ⟨S_, .f32⟩
  | 109 => ⟨S1, .f32⟩
  | 110 => ⟨S_, .f32⟩
  | 111 => ⟨S16384, .f32⟩
  | 112 => ⟨S16384, .f32⟩
  | 113 => ⟨S16384, .f32⟩
  | 114 => ⟨S16384, .f32⟩
  | 115 => ⟨S16384, .f32⟩
  | 116 => ⟨S_, .i32⟩
  | 117 => ⟨S1, .i32⟩
  | 118 => ⟨S16384x208, .f32⟩
  | 119 => ⟨S16384x64, .f32⟩
  | 120 => ⟨S1x64, .f32⟩
  | 121 => ⟨S64, .f32⟩
  | 122 => ⟨S1x64, .f32⟩
  | 123 => ⟨S16384x64, .f32⟩
  | 124 => ⟨S16384x64, .f32⟩
  | 125 => ⟨S_, .f32⟩
  | 126 => ⟨S16384, .f32⟩
  | 127 => ⟨S1, .f32⟩
  | _ => ⟨S16384x64, .f32⟩

abbrev hbmTy0_16 (i : Nat) : BufTy := match i % 128 with
  | 0 => ⟨S_, .f32⟩
  | 1 => ⟨S1, .f32⟩
  | 2 => ⟨S_, .f32⟩
  | 3 => ⟨S16384, .f32⟩
  | 4 => ⟨S16384, .f32⟩
  | 5 => ⟨S16384, .f32⟩
  | 6 => ⟨S16384, .f32⟩
  | 7 => ⟨S16384, .f32⟩
  | 8 => ⟨S_, .i32⟩
  | 9 => ⟨S1, .i32⟩
  | 10 => ⟨S16384x208, .f32⟩
  | 11 => ⟨S16384x64, .f32⟩
  | 12 => ⟨S1x64, .f32⟩
  | 13 => ⟨S64, .f32⟩
  | 14 => ⟨S1x64, .f32⟩
  | 15 => ⟨S16384x64, .f32⟩
  | 16 => ⟨S16384x64, .f32⟩
  | 17 => ⟨S_, .f32⟩
  | 18 => ⟨S16384, .f32⟩
  | 19 => ⟨S1, .f32⟩
  | 20 => ⟨S_, .f32⟩
  | 21 => ⟨S1, .f32⟩
  | 22 => ⟨S_, .f32⟩
  | 23 => ⟨S16384, .f32⟩
  | 24 => ⟨S16384, .f32⟩
  | 25 => ⟨S16384, .f32⟩
  | 26 => ⟨S16384, .f32⟩
  | 27 => ⟨S16384, .f32⟩
  | 28 => ⟨S_, .i32⟩
  | 29 => ⟨S1, .i32⟩
  | 30 => ⟨S16384x208, .f32⟩
  | 31 => ⟨S16384x64, .f32⟩
  | 32 => ⟨S1x64, .f32⟩
  | 33 => ⟨S64, .f32⟩
  | 34 => ⟨S1x64, .f32⟩
  | 35 => ⟨S16384x64, .f32⟩
  | 36 => ⟨S16384x64, .f32⟩
  | 37 => ⟨S_, .f32⟩
  | 38 => ⟨S16384, .f32⟩
  | 39 => ⟨S1, .f32⟩
  | 40 => ⟨S_, .f32⟩
  | 41 => ⟨S1, .f32⟩
  | 42 => ⟨S_, .f32⟩
  | 43 => ⟨S16384, .f32⟩
  | 44 => ⟨S16384, .f32⟩
  | 45 => ⟨S16384, .f32⟩
  | 46 => ⟨S16384, .f32⟩
  | 47 => ⟨S16384, .f32⟩
  | 48 => ⟨S_, .i32⟩
  | 49 => ⟨S1, .i32⟩
  | 50 => ⟨S16384x208, .f32⟩
  | 51 => ⟨S16384x64, .f32⟩
  | 52 => ⟨S1x64, .f32⟩
  | 53 => ⟨S64, .f32⟩
  | 54 => ⟨S1x64, .f32⟩
  | 55 => ⟨S16384x64, .f32⟩
  | 56 => ⟨S16384x64, .f32⟩
  | 57 => ⟨S_, .f32⟩
  | 58 => ⟨S16384, .f32⟩
  | 59 => ⟨S1, .f32⟩
  | 60 => ⟨S_, .f32⟩
  | 61 => ⟨S1, .f32⟩
  | 62 => ⟨S_, .f32⟩
  | 63 => ⟨S16384, .f32⟩
  | 64 => ⟨S16384, .f32⟩
  | 65 => ⟨S16384, .f32⟩
  | 66 => ⟨S16384, .f32⟩
  | 67 => ⟨S16384, .f32⟩
  | 68 => ⟨S_, .i32⟩
  | 69 => ⟨S1, .i32⟩
  | 70 => ⟨S16384x208, .f32⟩
  | 71 => ⟨S16384x64, .f32⟩
  | 72 => ⟨S1x64, .f32⟩
  | 73 => ⟨S64, .f32⟩
  | 74 => ⟨S1x64, .f32⟩
  | 75 => ⟨S16384x64, .f32⟩
  | 76 => ⟨S16384x64, .f32⟩
  | 77 => ⟨S_, .f32⟩
  | 78 => ⟨S16384, .f32⟩
  | 79 => ⟨S1, .f32⟩
  | 80 => ⟨S_, .f32⟩
  | 81 => ⟨S1, .f32⟩
  | 82 => ⟨S_, .f32⟩
  | 83 => ⟨S16384, .f32⟩
  | 84 => ⟨S16384, .f32⟩
  | 85 => ⟨S16384, .f32⟩
  | 86 => ⟨S16384, .f32⟩
  | 87 => ⟨S16384, .f32⟩
  | 88 => ⟨S_, .i32⟩
  | 89 => ⟨S1, .i32⟩
  | 90 => ⟨S16384x208, .f32⟩
  | 91 => ⟨S16384x64, .f32⟩
  | 92 => ⟨S1x64, .f32⟩
  | 93 => ⟨S64, .f32⟩
  | 94 => ⟨S1x64, .f32⟩
  | 95 => ⟨S16384x64, .f32⟩
  | 96 => ⟨S16384x64, .f32⟩
  | 97 => ⟨S_, .f32⟩
  | 98 => ⟨S16384, .f32⟩
  | 99 => ⟨S1, .f32⟩
  | 100 => ⟨S_, .f32⟩
  | 101 => ⟨S1, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S_, .i32⟩
  | 109 => ⟨S1, .i32⟩
  | 110 => ⟨S16384x208, .f32⟩
  | 111 => ⟨S16384x64, .f32⟩
  | 112 => ⟨S1x64, .f32⟩
  | 113 => ⟨S64, .f32⟩
  | 114 => ⟨S1x64, .f32⟩
  | 115 => ⟨S16384x64, .f32⟩
  | 116 => ⟨S16384x64, .f32⟩
  | 117 => ⟨S_, .f32⟩
  | 118 => ⟨S16384, .f32⟩
  | 119 => ⟨S1, .f32⟩
  | 120 => ⟨S_, .f32⟩
  | 121 => ⟨S1, .f32⟩
  | 122 => ⟨S_, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_17 (i : Nat) : BufTy := match i % 128 with
  | 0 => ⟨S_, .i32⟩
  | 1 => ⟨S1, .i32⟩
  | 2 => ⟨S16384x208, .f32⟩
  | 3 => ⟨S16384x64, .f32⟩
  | 4 => ⟨S1x64, .f32⟩
  | 5 => ⟨S64, .f32⟩
  | 6 => ⟨S1x64, .f32⟩
  | 7 => ⟨S16384x64, .f32⟩
  | 8 => ⟨S16384x64, .f32⟩
  | 9 => ⟨S_, .f32⟩
  | 10 => ⟨S16384, .f32⟩
  | 11 => ⟨S1, .f32⟩
  | 12 => ⟨S_, .f32⟩
  | 13 => ⟨S1, .f32⟩
  | 14 => ⟨S_, .f32⟩
  | 15 => ⟨S16384, .f32⟩
  | 16 => ⟨S16384, .f32⟩
  | 17 => ⟨S16384, .f32⟩
  | 18 => ⟨S16384, .f32⟩
  | 19 => ⟨S16384, .f32⟩
  | 20 => ⟨S_, .i32⟩
  | 21 => ⟨S1, .i32⟩
  | 22 => ⟨S16384x208, .f32⟩
  | 23 => ⟨S16384x64, .f32⟩
  | 24 => ⟨S1x64, .f32⟩
  | 25 => ⟨S64, .f32⟩
  | 26 => ⟨S1x64, .f32⟩
  | 27 => ⟨S16384x64, .f32⟩
  | 28 => ⟨S16384x64, .f32⟩
  | 29 => ⟨S_, .f32⟩
  | 30 => ⟨S16384, .f32⟩
  | 31 => ⟨S1, .f32⟩
  | 32 => ⟨S_, .f32⟩
  | 33 => ⟨S1, .f32⟩
  | 34 => ⟨S_, .f32⟩
  | 35 => ⟨S16384, .f32⟩
  | 36 => ⟨S16384, .f32⟩
  | 37 => ⟨S16384, .f32⟩
  | 38 => ⟨S16384, .f32⟩
  | 39 => ⟨S16384, .f32⟩
  | 40 => ⟨S_, .i32⟩
  | 41 => ⟨S1, .i32⟩
  | 42 => ⟨S16384x208, .f32⟩
  | 43 => ⟨S16384x64, .f32⟩
  | 44 => ⟨S1x64, .f32⟩
  | 45 => ⟨S64, .f32⟩
  | 46 => ⟨S1x64, .f32⟩
  | 47 => ⟨S16384x64, .f32⟩
  | 48 => ⟨S16384x64, .f32⟩
  | 49 => ⟨S_, .f32⟩
  | 50 => ⟨S16384, .f32⟩
  | 51 => ⟨S1, .f32⟩
  | 52 => ⟨S_, .f32⟩
  | 53 => ⟨S1, .f32⟩
  | 54 => ⟨S_, .f32⟩
  | 55 => ⟨S16384, .f32⟩
  | 56 => ⟨S16384, .f32⟩
  | 57 => ⟨S16384, .f32⟩
  | 58 => ⟨S16384, .f32⟩
  | 59 => ⟨S16384, .f32⟩
  | 60 => ⟨S_, .i32⟩
  | 61 => ⟨S1, .i32⟩
  | 62 => ⟨S16384x208, .f32⟩
  | 63 => ⟨S16384x64, .f32⟩
  | 64 => ⟨S1x64, .f32⟩
  | 65 => ⟨S64, .f32⟩
  | 66 => ⟨S1x64, .f32⟩
  | 67 => ⟨S16384x64, .f32⟩
  | 68 => ⟨S16384x64, .f32⟩
  | 69 => ⟨S_, .f32⟩
  | 70 => ⟨S16384, .f32⟩
  | 71 => ⟨S1, .f32⟩
  | 72 => ⟨S_, .f32⟩
  | 73 => ⟨S1, .f32⟩
  | 74 => ⟨S_, .f32⟩
  | 75 => ⟨S16384, .f32⟩
  | 76 => ⟨S16384, .f32⟩
  | 77 => ⟨S16384, .f32⟩
  | 78 => ⟨S16384, .f32⟩
  | 79 => ⟨S16384, .f32⟩
  | 80 => ⟨S_, .i32⟩
  | 81 => ⟨S1, .i32⟩
  | 82 => ⟨S16384x208, .f32⟩
  | 83 => ⟨S16384x64, .f32⟩
  | 84 => ⟨S1x64, .f32⟩
  | 85 => ⟨S64, .f32⟩
  | 86 => ⟨S1x64, .f32⟩
  | 87 => ⟨S16384x64, .f32⟩
  | 88 => ⟨S16384x64, .f32⟩
  | 89 => ⟨S_, .f32⟩
  | 90 => ⟨S16384, .f32⟩
  | 91 => ⟨S1, .f32⟩
  | 92 => ⟨S_, .f32⟩
  | 93 => ⟨S1, .f32⟩
  | 94 => ⟨S_, .f32⟩
  | 95 => ⟨S16384, .f32⟩
  | 96 => ⟨S16384, .f32⟩
  | 97 => ⟨S16384, .f32⟩
  | 98 => ⟨S16384, .f32⟩
  | 99 => ⟨S16384, .f32⟩
  | 100 => ⟨S_, .i32⟩
  | 101 => ⟨S1, .i32⟩
  | 102 => ⟨S16384x208, .f32⟩
  | 103 => ⟨S16384x64, .f32⟩
  | 104 => ⟨S1x64, .f32⟩
  | 105 => ⟨S64, .f32⟩
  | 106 => ⟨S1x64, .f32⟩
  | 107 => ⟨S16384x64, .f32⟩
  | 108 => ⟨S16384x64, .f32⟩
  | 109 => ⟨S_, .f32⟩
  | 110 => ⟨S16384, .f32⟩
  | 111 => ⟨S1, .f32⟩
  | 112 => ⟨S_, .f32⟩
  | 113 => ⟨S1, .f32⟩
  | 114 => ⟨S_, .f32⟩
  | 115 => ⟨S16384, .f32⟩
  | 116 => ⟨S16384, .f32⟩
  | 117 => ⟨S16384, .f32⟩
  | 118 => ⟨S16384, .f32⟩
  | 119 => ⟨S16384, .f32⟩
  | 120 => ⟨S_, .i32⟩
  | 121 => ⟨S1, .i32⟩
  | 122 => ⟨S16384x208, .f32⟩
  | 123 => ⟨S16384x64, .f32⟩
  | 124 => ⟨S1x64, .f32⟩
  | 125 => ⟨S64, .f32⟩
  | 126 => ⟨S1x64, .f32⟩
  | 127 => ⟨S16384x64, .f32⟩
  | _ => ⟨S16384x64, .f32⟩

abbrev hbmTy0_18 (i : Nat) : BufTy := match i % 128 with
  | 0 => ⟨S16384x64, .f32⟩
  | 1 => ⟨S_, .f32⟩
  | 2 => ⟨S16384, .f32⟩
  | 3 => ⟨S1, .f32⟩
  | 4 => ⟨S_, .f32⟩
  | 5 => ⟨S1, .f32⟩
  | 6 => ⟨S_, .f32⟩
  | 7 => ⟨S16384, .f32⟩
  | 8 => ⟨S16384, .f32⟩
  | 9 => ⟨S16384, .f32⟩
  | 10 => ⟨S16384, .f32⟩
  | 11 => ⟨S16384, .f32⟩
  | 12 => ⟨S_, .i32⟩
  | 13 => ⟨S1, .i32⟩
  | 14 => ⟨S16384x208, .f32⟩
  | 15 => ⟨S16384x64, .f32⟩
  | 16 => ⟨S1x64, .f32⟩
  | 17 => ⟨S64, .f32⟩
  | 18 => ⟨S1x64, .f32⟩
  | 19 => ⟨S16384x64, .f32⟩
  | 20 => ⟨S16384x64, .f32⟩
  | 21 => ⟨S_, .f32⟩
  | 22 => ⟨S16384, .f32⟩
  | 23 => ⟨S1, .f32⟩
  | 24 => ⟨S_, .f32⟩
  | 25 => ⟨S1, .f32⟩
  | 26 => ⟨S_, .f32⟩
  | 27 => ⟨S16384, .f32⟩
  | 28 => ⟨S16384, .f32⟩
  | 29 => ⟨S16384, .f32⟩
  | 30 => ⟨S16384, .f32⟩
  | 31 => ⟨S16384, .f32⟩
  | 32 => ⟨S_, .i32⟩
  | 33 => ⟨S1, .i32⟩
  | 34 => ⟨S16384x208, .f32⟩
  | 35 => ⟨S16384x64, .f32⟩
  | 36 => ⟨S1x64, .f32⟩
  | 37 => ⟨S64, .f32⟩
  | 38 => ⟨S1x64, .f32⟩
  | 39 => ⟨S16384x64, .f32⟩
  | 40 => ⟨S16384x64, .f32⟩
  | 41 => ⟨S_, .f32⟩
  | 42 => ⟨S16384, .f32⟩
  | 43 => ⟨S1, .f32⟩
  | 44 => ⟨S_, .f32⟩
  | 45 => ⟨S1, .f32⟩
  | 46 => ⟨S_, .f32⟩
  | 47 => ⟨S16384, .f32⟩
  | 48 => ⟨S16384, .f32⟩
  | 49 => ⟨S16384, .f32⟩
  | 50 => ⟨S16384, .f32⟩
  | 51 => ⟨S16384, .f32⟩
  | 52 => ⟨S_, .i32⟩
  | 53 => ⟨S1, .i32⟩
  | 54 => ⟨S16384x208, .f32⟩
  | 55 => ⟨S16384x64, .f32⟩
  | 56 => ⟨S1x64, .f32⟩
  | 57 => ⟨S64, .f32⟩
  | 58 => ⟨S1x64, .f32⟩
  | 59 => ⟨S16384x64, .f32⟩
  | 60 => ⟨S16384x64, .f32⟩
  | 61 => ⟨S_, .f32⟩
  | 62 => ⟨S16384, .f32⟩
  | 63 => ⟨S1, .f32⟩
  | 64 => ⟨S_, .f32⟩
  | 65 => ⟨S1, .f32⟩
  | 66 => ⟨S_, .f32⟩
  | 67 => ⟨S16384, .f32⟩
  | 68 => ⟨S16384, .f32⟩
  | 69 => ⟨S16384, .f32⟩
  | 70 => ⟨S16384, .f32⟩
  | 71 => ⟨S16384, .f32⟩
  | 72 => ⟨S_, .i32⟩
  | 73 => ⟨S1, .i32⟩
  | 74 => ⟨S16384x208, .f32⟩
  | 75 => ⟨S16384x64, .f32⟩
  | 76 => ⟨S1x64, .f32⟩
  | 77 => ⟨S64, .f32⟩
  | 78 => ⟨S1x64, .f32⟩
  | 79 => ⟨S16384x64, .f32⟩
  | 80 => ⟨S16384x64, .f32⟩
  | 81 => ⟨S_, .f32⟩
  | 82 => ⟨S16384, .f32⟩
  | 83 => ⟨S1, .f32⟩
  | 84 => ⟨S_, .f32⟩
  | 85 => ⟨S1, .f32⟩
  | 86 => ⟨S_, .f32⟩
  | 87 => ⟨S16384, .f32⟩
  | 88 => ⟨S16384, .f32⟩
  | 89 => ⟨S16384, .f32⟩
  | 90 => ⟨S16384, .f32⟩
  | 91 => ⟨S16384, .f32⟩
  | 92 => ⟨S_, .i32⟩
  | 93 => ⟨S1, .i32⟩
  | 94 => ⟨S16384x208, .f32⟩
  | 95 => ⟨S16384x64, .f32⟩
  | 96 => ⟨S1x64, .f32⟩
  | 97 => ⟨S64, .f32⟩
  | 98 => ⟨S1x64, .f32⟩
  | 99 => ⟨S16384x64, .f32⟩
  | 100 => ⟨S16384x64, .f32⟩
  | 101 => ⟨S_, .f32⟩
  | 102 => ⟨S16384, .f32⟩
  | 103 => ⟨S1, .f32⟩
  | 104 => ⟨S_, .f32⟩
  | 105 => ⟨S1, .f32⟩
  | 106 => ⟨S_, .f32⟩
  | 107 => ⟨S16384, .f32⟩
  | 108 => ⟨S16384, .f32⟩
  | 109 => ⟨S16384, .f32⟩
  | 110 => ⟨S16384, .f32⟩
  | 111 => ⟨S16384, .f32⟩
  | 112 => ⟨S_, .i32⟩
  | 113 => ⟨S1, .i32⟩
  | 114 => ⟨S16384x208, .f32⟩
  | 115 => ⟨S16384x64, .f32⟩
  | 116 => ⟨S1x64, .f32⟩
  | 117 => ⟨S64, .f32⟩
  | 118 => ⟨S1x64, .f32⟩
  | 119 => ⟨S16384x64, .f32⟩
  | 120 => ⟨S16384x64, .f32⟩
  | 121 => ⟨S_, .f32⟩
  | 122 => ⟨S16384, .f32⟩
  | 123 => ⟨S1, .f32⟩
  | 124 => ⟨S_, .f32⟩
  | 125 => ⟨S1, .f32⟩
  | 126 => ⟨S_, .f32⟩
  | 127 => ⟨S16384, .f32⟩
  | _ => ⟨S16384x64, .f32⟩

abbrev hbmTy0_19 (i : Nat) : BufTy := match i % 128 with
  | 0 => ⟨S16384, .f32⟩
  | 1 => ⟨S16384, .f32⟩
  | 2 => ⟨S16384, .f32⟩
  | 3 => ⟨S16384, .f32⟩
  | 4 => ⟨S_, .i32⟩
  | 5 => ⟨S1, .i32⟩
  | 6 => ⟨S16384x208, .f32⟩
  | 7 => ⟨S16384x64, .f32⟩
  | 8 => ⟨S1x64, .f32⟩
  | 9 => ⟨S64, .f32⟩
  | 10 => ⟨S1x64, .f32⟩
  | 11 => ⟨S16384x64, .f32⟩
  | 12 => ⟨S16384x64, .f32⟩
  | 13 => ⟨S_, .f32⟩
  | 14 => ⟨S16384, .f32⟩
  | 15 => ⟨S1, .f32⟩
  | 16 => ⟨S_, .f32⟩
  | 17 => ⟨S1, .f32⟩
  | 18 => ⟨S_, .f32⟩
  | 19 => ⟨S16384, .f32⟩
  | 20 => ⟨S16384, .f32⟩
  | 21 => ⟨S16384, .f32⟩
  | 22 => ⟨S16384, .f32⟩
  | 23 => ⟨S16384, .f32⟩
  | 24 => ⟨S_, .i32⟩
  | 25 => ⟨S1, .i32⟩
  | 26 => ⟨S16384x208, .f32⟩
  | 27 => ⟨S16384x64, .f32⟩
  | 28 => ⟨S1x64, .f32⟩
  | 29 => ⟨S64, .f32⟩
  | 30 => ⟨S1x64, .f32⟩
  | 31 => ⟨S16384x64, .f32⟩
  | 32 => ⟨S16384x64, .f32⟩
  | 33 => ⟨S_, .f32⟩
  | 34 => ⟨S16384, .f32⟩
  | 35 => ⟨S1, .f32⟩
  | 36 => ⟨S_, .f32⟩
  | 37 => ⟨S1, .f32⟩
  | 38 => ⟨S_, .f32⟩
  | 39 => ⟨S16384, .f32⟩
  | 40 => ⟨S16384, .f32⟩
  | 41 => ⟨S16384, .f32⟩
  | 42 => ⟨S16384, .f32⟩
  | 43 => ⟨S16384, .f32⟩
  | 44 => ⟨S_, .i32⟩
  | 45 => ⟨S1, .i32⟩
  | 46 => ⟨S16384x208, .f32⟩
  | 47 => ⟨S16384x64, .f32⟩
  | 48 => ⟨S1x64, .f32⟩
  | 49 => ⟨S64, .f32⟩
  | 50 => ⟨S1x64, .f32⟩
  | 51 => ⟨S16384x64, .f32⟩
  | 52 => ⟨S16384x64, .f32⟩
  | 53 => ⟨S_, .f32⟩
  | 54 => ⟨S16384, .f32⟩
  | 55 => ⟨S1, .f32⟩
  | 56 => ⟨S_, .f32⟩
  | 57 => ⟨S1, .f32⟩
  | 58 => ⟨S_, .f32⟩
  | 59 => ⟨S16384, .f32⟩
  | 60 => ⟨S16384, .f32⟩
  | 61 => ⟨S16384, .f32⟩
  | 62 => ⟨S16384, .f32⟩
  | 63 => ⟨S16384, .f32⟩
  | 64 => ⟨S_, .i32⟩
  | 65 => ⟨S1, .i32⟩
  | 66 => ⟨S16384x208, .f32⟩
  | 67 => ⟨S16384x64, .f32⟩
  | 68 => ⟨S1x64, .f32⟩
  | 69 => ⟨S64, .f32⟩
  | 70 => ⟨S1x64, .f32⟩
  | 71 => ⟨S16384x64, .f32⟩
  | 72 => ⟨S16384x64, .f32⟩
  | 73 => ⟨S_, .f32⟩
  | 74 => ⟨S16384, .f32⟩
  | 75 => ⟨S1, .f32⟩
  | 76 => ⟨S_, .f32⟩
  | 77 => ⟨S1, .f32⟩
  | 78 => ⟨S_, .f32⟩
  | 79 => ⟨S16384, .f32⟩
  | 80 => ⟨S16384, .f32⟩
  | 81 => ⟨S16384, .f32⟩
  | 82 => ⟨S16384, .f32⟩
  | 83 => ⟨S16384, .f32⟩
  | 84 => ⟨S_, .i32⟩
  | 85 => ⟨S1, .i32⟩
  | 86 => ⟨S16384x208, .f32⟩
  | 87 => ⟨S16384x64, .f32⟩
  | 88 => ⟨S1x64, .f32⟩
  | 89 => ⟨S64, .f32⟩
  | 90 => ⟨S1x64, .f32⟩
  | 91 => ⟨S16384x64, .f32⟩
  | 92 => ⟨S16384x64, .f32⟩
  | 93 => ⟨S_, .f32⟩
  | 94 => ⟨S16384, .f32⟩
  | 95 => ⟨S1, .f32⟩
  | 96 => ⟨S_, .f32⟩
  | 97 => ⟨S1, .f32⟩
  | 98 => ⟨S_, .f32⟩
  | 99 => ⟨S16384, .f32⟩
  | 100 => ⟨S16384, .f32⟩
  | 101 => ⟨S16384, .f32⟩
  | 102 => ⟨S16384, .f32⟩
  | 103 => ⟨S16384, .f32⟩
  | 104 => ⟨S_, .i32⟩
  | 105 => ⟨S1, .i32⟩
  | 106 => ⟨S16384x208, .f32⟩
  | 107 => ⟨S16384x64, .f32⟩
  | 108 => ⟨S1x64, .f32⟩
  | 109 => ⟨S64, .f32⟩
  | 110 => ⟨S1x64, .f32⟩
  | 111 => ⟨S16384x64, .f32⟩
  | 112 => ⟨S16384x64, .f32⟩
  | 113 => ⟨S_, .f32⟩
  | 114 => ⟨S16384, .f32⟩
  | 115 => ⟨S1, .f32⟩
  | 116 => ⟨S_, .f32⟩
  | 117 => ⟨S1, .f32⟩
  | 118 => ⟨S_, .f32⟩
  | 119 => ⟨S16384, .f32⟩
  | 120 => ⟨S16384, .f32⟩
  | 121 => ⟨S16384, .f32⟩
  | 122 => ⟨S16384, .f32⟩
  | 123 => ⟨S16384, .f32⟩
  | 124 => ⟨S_, .i32⟩
  | 125 => ⟨S1, .i32⟩
  | 126 => ⟨S16384x208, .f32⟩
  | 127 => ⟨S16384x64, .f32⟩
  | _ => ⟨S16384x64, .f32⟩

abbrev hbmTy0_20 (i : Nat) : BufTy := match i % 128 with
  | 0 => ⟨S1x64, .f32⟩
  | 1 => ⟨S64, .f32⟩
  | 2 => ⟨S1x64, .f32⟩
  | 3 => ⟨S16384x64, .f32⟩
  | 4 => ⟨S16384x64, .f32⟩
  | 5 => ⟨S_, .f32⟩
  | 6 => ⟨S16384, .f32⟩
  | 7 => ⟨S1, .f32⟩
  | 8 => ⟨S_, .f32⟩
  | 9 => ⟨S1, .f32⟩
  | 10 => ⟨S_, .f32⟩
  | 11 => ⟨S16384, .f32⟩
  | 12 => ⟨S16384, .f32⟩
  | 13 => ⟨S16384, .f32⟩
  | 14 => ⟨S16384, .f32⟩
  | 15 => ⟨S16384, .f32⟩
  | 16 => ⟨S_, .i32⟩
  | 17 => ⟨S1, .i32⟩
  | 18 => ⟨S16384x208, .f32⟩
  | 19 => ⟨S16384x128, .f32⟩
  | 20 => ⟨S1x128, .f32⟩
  | 21 => ⟨S128, .f32⟩
  | 22 => ⟨S1x128, .f32⟩
  | 23 => ⟨S16384x128, .f32⟩
  | 24 => ⟨S16384x128, .f32⟩
  | 25 => ⟨S_, .f32⟩
  | 26 => ⟨S16384, .f32⟩
  | 27 => ⟨S1, .f32⟩
  | 28 => ⟨S_, .f32⟩
  | 29 => ⟨S1, .f32⟩
  | 30 => ⟨S_, .f32⟩
  | 31 => ⟨S16384, .f32⟩
  | 32 => ⟨S16384, .f32⟩
  | 33 => ⟨S16384, .f32⟩
  | 34 => ⟨S16384, .f32⟩
  | 35 => ⟨S16384, .f32⟩
  | 36 => ⟨S_, .i32⟩
  | 37 => ⟨S1, .i32⟩
  | 38 => ⟨S16384x208, .f32⟩
  | 39 => ⟨S16384x128, .f32⟩
  | 40 => ⟨S1x128, .f32⟩
  | 41 => ⟨S128, .f32⟩
  | 42 => ⟨S1x128, .f32⟩
  | 43 => ⟨S16384x128, .f32⟩
  | 44 => ⟨S16384x128, .f32⟩
  | 45 => ⟨S_, .f32⟩
  | 46 => ⟨S16384, .f32⟩
  | 47 => ⟨S1, .f32⟩
  | 48 => ⟨S_, .f32⟩
  | 49 => ⟨S1, .f32⟩
  | 50 => ⟨S_, .f32⟩
  | 51 => ⟨S16384, .f32⟩
  | 52 => ⟨S16384, .f32⟩
  | 53 => ⟨S16384, .f32⟩
  | 54 => ⟨S16384, .f32⟩
  | 55 => ⟨S16384, .f32⟩
  | 56 => ⟨S_, .i32⟩
  | 57 => ⟨S1, .i32⟩
  | 58 => ⟨S16384x208, .f32⟩
  | 59 => ⟨S16384x128, .f32⟩
  | 60 => ⟨S1x128, .f32⟩
  | 61 => ⟨S128, .f32⟩
  | 62 => ⟨S1x128, .f32⟩
  | 63 => ⟨S16384x128, .f32⟩
  | 64 => ⟨S16384x128, .f32⟩
  | 65 => ⟨S_, .f32⟩
  | 66 => ⟨S16384, .f32⟩
  | 67 => ⟨S1, .f32⟩
  | 68 => ⟨S_, .f32⟩
  | 69 => ⟨S1, .f32⟩
  | 70 => ⟨S_, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .i32⟩
  | 77 => ⟨S1, .i32⟩
  | 78 => ⟨S16384x208, .f32⟩
  | 79 => ⟨S16384x128, .f32⟩
  | 80 => ⟨S1x128, .f32⟩
  | 81 => ⟨S128, .f32⟩
  | 82 => ⟨S1x128, .f32⟩
  | 83 => ⟨S16384x128, .f32⟩
  | 84 => ⟨S16384x128, .f32⟩
  | 85 => ⟨S_, .f32⟩
  | 86 => ⟨S16384, .f32⟩
  | 87 => ⟨S1, .f32⟩
  | 88 => ⟨S_, .f32⟩
  | 89 => ⟨S1, .f32⟩
  | 90 => ⟨S_, .f32⟩
  | 91 => ⟨S16384, .f32⟩
  | 92 => ⟨S16384, .f32⟩
  | 93 => ⟨S16384, .f32⟩
  | 94 => ⟨S16384, .f32⟩
  | 95 => ⟨S16384, .f32⟩
  | 96 => ⟨S_, .i32⟩
  | 97 => ⟨S1, .i32⟩
  | 98 => ⟨S16384x208, .f32⟩
  | 99 => ⟨S16384x128, .f32⟩
  | 100 => ⟨S1x128, .f32⟩
  | 101 => ⟨S128, .f32⟩
  | 102 => ⟨S1x128, .f32⟩
  | 103 => ⟨S16384x128, .f32⟩
  | 104 => ⟨S16384x128, .f32⟩
  | 105 => ⟨S_, .f32⟩
  | 106 => ⟨S16384, .f32⟩
  | 107 => ⟨S1, .f32⟩
  | 108 => ⟨S_, .f32⟩
  | 109 => ⟨S1, .f32⟩
  | 110 => ⟨S_, .f32⟩
  | 111 => ⟨S16384, .f32⟩
  | 112 => ⟨S16384, .f32⟩
  | 113 => ⟨S16384, .f32⟩
  | 114 => ⟨S16384, .f32⟩
  | 115 => ⟨S16384, .f32⟩
  | 116 => ⟨S_, .i32⟩
  | 117 => ⟨S1, .i32⟩
  | 118 => ⟨S16384x208, .f32⟩
  | 119 => ⟨S16384x128, .f32⟩
  | 120 => ⟨S1x128, .f32⟩
  | 121 => ⟨S128, .f32⟩
  | 122 => ⟨S1x128, .f32⟩
  | 123 => ⟨S16384x128, .f32⟩
  | 124 => ⟨S16384x128, .f32⟩
  | 125 => ⟨S_, .f32⟩
  | 126 => ⟨S16384, .f32⟩
  | 127 => ⟨S1, .f32⟩
  | _ => ⟨S16384x64, .f32⟩

abbrev hbmTy0_21 (i : Nat) : BufTy := match i % 128 with
  | 0 => ⟨S_, .f32⟩
  | 1 => ⟨S1, .f32⟩
  | 2 => ⟨S_, .f32⟩
  | 3 => ⟨S16384, .f32⟩
  | 4 => ⟨S16384, .f32⟩
  | 5 => ⟨S16384, .f32⟩
  | 6 => ⟨S16384, .f32⟩
  | 7 => ⟨S16384, .f32⟩
  | 8 => ⟨S_, .i32⟩
  | 9 => ⟨S1, .i32⟩
  | 10 => ⟨S16384x208, .f32⟩
  | 11 => ⟨S16384x128, .f32⟩
  | 12 => ⟨S1x128, .f32⟩
  | 13 => ⟨S128, .f32⟩
  | 14 => ⟨S1x128, .f32⟩
  | 15 => ⟨S16384x128, .f32⟩
  | 16 => ⟨S16384x128, .f32⟩
  | 17 => ⟨S_, .f32⟩
  | 18 => ⟨S16384, .f32⟩
  | 19 => ⟨S1, .f32⟩
  | 20 => ⟨S_, .f32⟩
  | 21 => ⟨S1, .f32⟩
  | 22 => ⟨S_, .f32⟩
  | 23 => ⟨S16384, .f32⟩
  | 24 => ⟨S16384, .f32⟩
  | 25 => ⟨S16384, .f32⟩
  | 26 => ⟨S16384, .f32⟩
  | 27 => ⟨S16384, .f32⟩
  | 28 => ⟨S_, .i32⟩
  | 29 => ⟨S1, .i32⟩
  | 30 => ⟨S16384x208, .f32⟩
  | 31 => ⟨S16384x128, .f32⟩
  | 32 => ⟨S1x128, .f32⟩
  | 33 => ⟨S128, .f32⟩
  | 34 => ⟨S1x128, .f32⟩
  | 35 => ⟨S16384x128, .f32⟩
  | 36 => ⟨S16384x128, .f32⟩
  | 37 => ⟨S_, .f32⟩
  | 38 => ⟨S16384, .f32⟩
  | 39 => ⟨S1, .f32⟩
  | 40 => ⟨S_, .f32⟩
  | 41 => ⟨S1, .f32⟩
  | 42 => ⟨S_, .f32⟩
  | 43 => ⟨S16384, .f32⟩
  | 44 => ⟨S16384, .f32⟩
  | 45 => ⟨S16384, .f32⟩
  | 46 => ⟨S16384, .f32⟩
  | 47 => ⟨S16384, .f32⟩
  | 48 => ⟨S_, .i32⟩
  | 49 => ⟨S1, .i32⟩
  | 50 => ⟨S16384x208, .f32⟩
  | 51 => ⟨S16384x128, .f32⟩
  | 52 => ⟨S1x128, .f32⟩
  | 53 => ⟨S128, .f32⟩
  | 54 => ⟨S1x128, .f32⟩
  | 55 => ⟨S16384x128, .f32⟩
  | 56 => ⟨S16384x128, .f32⟩
  | 57 => ⟨S_, .f32⟩
  | 58 => ⟨S16384, .f32⟩
  | 59 => ⟨S1, .f32⟩
  | 60 => ⟨S_, .f32⟩
  | 61 => ⟨S1, .f32⟩
  | 62 => ⟨S_, .f32⟩
  | 63 => ⟨S16384, .f32⟩
  | 64 => ⟨S16384, .f32⟩
  | 65 => ⟨S16384, .f32⟩
  | 66 => ⟨S16384, .f32⟩
  | 67 => ⟨S16384, .f32⟩
  | 68 => ⟨S_, .i32⟩
  | 69 => ⟨S1, .i32⟩
  | 70 => ⟨S16384x208, .f32⟩
  | 71 => ⟨S16384x128, .f32⟩
  | 72 => ⟨S1x128, .f32⟩
  | 73 => ⟨S128, .f32⟩
  | 74 => ⟨S1x128, .f32⟩
  | 75 => ⟨S16384x128, .f32⟩
  | 76 => ⟨S16384x128, .f32⟩
  | 77 => ⟨S_, .f32⟩
  | 78 => ⟨S16384, .f32⟩
  | 79 => ⟨S1, .f32⟩
  | 80 => ⟨S_, .f32⟩
  | 81 => ⟨S1, .f32⟩
  | 82 => ⟨S_, .f32⟩
  | 83 => ⟨S16384, .f32⟩
  | 84 => ⟨S16384, .f32⟩
  | 85 => ⟨S16384, .f32⟩
  | 86 => ⟨S16384, .f32⟩
  | 87 => ⟨S16384, .f32⟩
  | 88 => ⟨S_, .i32⟩
  | 89 => ⟨S1, .i32⟩
  | 90 => ⟨S16384x208, .f32⟩
  | 91 => ⟨S16384x128, .f32⟩
  | 92 => ⟨S1x128, .f32⟩
  | 93 => ⟨S128, .f32⟩
  | 94 => ⟨S1x128, .f32⟩
  | 95 => ⟨S16384x128, .f32⟩
  | 96 => ⟨S16384x128, .f32⟩
  | 97 => ⟨S_, .f32⟩
  | 98 => ⟨S16384, .f32⟩
  | 99 => ⟨S1, .f32⟩
  | 100 => ⟨S_, .f32⟩
  | 101 => ⟨S1, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S_, .i32⟩
  | 109 => ⟨S1, .i32⟩
  | 110 => ⟨S16384x208, .f32⟩
  | 111 => ⟨S16384x128, .f32⟩
  | 112 => ⟨S1x128, .f32⟩
  | 113 => ⟨S128, .f32⟩
  | 114 => ⟨S1x128, .f32⟩
  | 115 => ⟨S16384x128, .f32⟩
  | 116 => ⟨S16384x128, .f32⟩
  | 117 => ⟨S_, .f32⟩
  | 118 => ⟨S16384, .f32⟩
  | 119 => ⟨S1, .f32⟩
  | 120 => ⟨S_, .f32⟩
  | 121 => ⟨S1, .f32⟩
  | 122 => ⟨S_, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_22 (i : Nat) : BufTy := match i % 128 with
  | 0 => ⟨S_, .i32⟩
  | 1 => ⟨S1, .i32⟩
  | 2 => ⟨S16384x208, .f32⟩
  | 3 => ⟨S16384x128, .f32⟩
  | 4 => ⟨S1x128, .f32⟩
  | 5 => ⟨S128, .f32⟩
  | 6 => ⟨S1x128, .f32⟩
  | 7 => ⟨S16384x128, .f32⟩
  | 8 => ⟨S16384x128, .f32⟩
  | 9 => ⟨S_, .f32⟩
  | 10 => ⟨S16384, .f32⟩
  | 11 => ⟨S1, .f32⟩
  | 12 => ⟨S_, .f32⟩
  | 13 => ⟨S1, .f32⟩
  | 14 => ⟨S_, .f32⟩
  | 15 => ⟨S16384, .f32⟩
  | 16 => ⟨S16384, .f32⟩
  | 17 => ⟨S16384, .f32⟩
  | 18 => ⟨S16384, .f32⟩
  | 19 => ⟨S16384, .f32⟩
  | 20 => ⟨S_, .i32⟩
  | 21 => ⟨S1, .i32⟩
  | 22 => ⟨S16384x208, .f32⟩
  | 23 => ⟨S16384x128, .f32⟩
  | 24 => ⟨S1x128, .f32⟩
  | 25 => ⟨S128, .f32⟩
  | 26 => ⟨S1x128, .f32⟩
  | 27 => ⟨S16384x128, .f32⟩
  | 28 => ⟨S16384x128, .f32⟩
  | 29 => ⟨S_, .f32⟩
  | 30 => ⟨S16384, .f32⟩
  | 31 => ⟨S1, .f32⟩
  | 32 => ⟨S_, .f32⟩
  | 33 => ⟨S1, .f32⟩
  | 34 => ⟨S_, .f32⟩
  | 35 => ⟨S16384, .f32⟩
  | 36 => ⟨S16384, .f32⟩
  | 37 => ⟨S16384, .f32⟩
  | 38 => ⟨S16384, .f32⟩
  | 39 => ⟨S16384, .f32⟩
  | 40 => ⟨S_, .i32⟩
  | 41 => ⟨S1, .i32⟩
  | 42 => ⟨S16384x208, .f32⟩
  | 43 => ⟨S16384x128, .f32⟩
  | 44 => ⟨S1x128, .f32⟩
  | 45 => ⟨S128, .f32⟩
  | 46 => ⟨S1x128, .f32⟩
  | 47 => ⟨S16384x128, .f32⟩
  | 48 => ⟨S16384x128, .f32⟩
  | 49 => ⟨S_, .f32⟩
  | 50 => ⟨S16384, .f32⟩
  | 51 => ⟨S1, .f32⟩
  | 52 => ⟨S_, .f32⟩
  | 53 => ⟨S1, .f32⟩
  | 54 => ⟨S_, .f32⟩
  | 55 => ⟨S16384, .f32⟩
  | 56 => ⟨S16384, .f32⟩
  | 57 => ⟨S16384, .f32⟩
  | 58 => ⟨S16384, .f32⟩
  | 59 => ⟨S16384, .f32⟩
  | 60 => ⟨S_, .i32⟩
  | 61 => ⟨S1, .i32⟩
  | 62 => ⟨S16384x208, .f32⟩
  | 63 => ⟨S16384x128, .f32⟩
  | 64 => ⟨S1x128, .f32⟩
  | 65 => ⟨S128, .f32⟩
  | 66 => ⟨S1x128, .f32⟩
  | 67 => ⟨S16384x128, .f32⟩
  | 68 => ⟨S16384x128, .f32⟩
  | 69 => ⟨S_, .f32⟩
  | 70 => ⟨S16384, .f32⟩
  | 71 => ⟨S1, .f32⟩
  | 72 => ⟨S_, .f32⟩
  | 73 => ⟨S1, .f32⟩
  | 74 => ⟨S_, .f32⟩
  | 75 => ⟨S16384, .f32⟩
  | 76 => ⟨S16384, .f32⟩
  | 77 => ⟨S16384, .f32⟩
  | 78 => ⟨S16384, .f32⟩
  | 79 => ⟨S16384, .f32⟩
  | 80 => ⟨S_, .i32⟩
  | 81 => ⟨S1, .i32⟩
  | 82 => ⟨S16384x208, .f32⟩
  | 83 => ⟨S16384x16, .f32⟩
  | _ => ⟨S16384x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_6 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_c_8 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_9 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_c_10 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_11 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_12 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_cst_13 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_c_14 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_cst_15 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_c_16 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_cst_17 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_c_18 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_cst_19 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_c_20 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_cst_21 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_c_22 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_cst_23 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_c_24 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_cst_25 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_c_26 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_cst_27 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_c_28 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_cst_29 : Ref sig .tc := ⟨.hbm, 305, rfl⟩
abbrev main_v267 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_v271 : Ref sig .tc := ⟨.hbm, 310, rfl⟩
abbrev main_v272 : Ref sig .tc := ⟨.hbm, 311, rfl⟩
abbrev main_v273 : Ref sig .tc := ⟨.hbm, 312, rfl⟩
abbrev main_v274 : Ref sig .tc := ⟨.hbm, 313, rfl⟩
abbrev main_v275 : Ref sig .tc := ⟨.hbm, 314, rfl⟩
abbrev main_v276 : Ref sig .tc := ⟨.hbm, 315, rfl⟩
abbrev main_c_30 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_cst_31 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_c_32 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_v298 : Ref sig .tc := ⟨.hbm, 340, rfl⟩
abbrev main_v299 : Ref sig .tc := ⟨.hbm, 341, rfl⟩
abbrev main_v300 : Ref sig .tc := ⟨.hbm, 342, rfl⟩
abbrev main_v301 : Ref sig .tc := ⟨.hbm, 343, rfl⟩
abbrev main_v302 : Ref sig .tc := ⟨.hbm, 344, rfl⟩
abbrev main_cst_33 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_c_34 : Ref sig .tc := ⟨.hbm, 356, rfl⟩
abbrev main_v313 : Ref sig .tc := ⟨.hbm, 357, rfl⟩
abbrev main_v314 : Ref sig .tc := ⟨.hbm, 358, rfl⟩
abbrev main_v315 : Ref sig .tc := ⟨.hbm, 359, rfl⟩
abbrev main_v316 : Ref sig .tc := ⟨.hbm, 360, rfl⟩
abbrev main_v317 : Ref sig .tc := ⟨.hbm, 361, rfl⟩
abbrev main_v318 : Ref sig .tc := ⟨.hbm, 362, rfl⟩
abbrev main_v319 : Ref sig .tc := ⟨.hbm, 363, rfl⟩
abbrev main_v320 : Ref sig .tc := ⟨.hbm, 364, rfl⟩
abbrev main_cst_35 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_c_36 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_cst_37 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩
abbrev main_c_38 : Ref sig .tc := ⟨.hbm, 396, rfl⟩
abbrev main_v349 : Ref sig .tc := ⟨.hbm, 397, rfl⟩
abbrev main_v350 : Ref sig .tc := ⟨.hbm, 398, rfl⟩
abbrev main_v351 : Ref sig .tc := ⟨.hbm, 399, rfl⟩
abbrev main_v352 : Ref sig .tc := ⟨.hbm, 400, rfl⟩
abbrev main_v353 : Ref sig .tc := ⟨.hbm, 401, rfl⟩
abbrev main_v354 : Ref sig .tc := ⟨.hbm, 402, rfl⟩
abbrev main_v355 : Ref sig .tc := ⟨.hbm, 403, rfl⟩
abbrev main_v356 : Ref sig .tc := ⟨.hbm, 404, rfl⟩
abbrev main_cst_39 : Ref sig .tc := ⟨.hbm, 405, rfl⟩
abbrev main_v357 : Ref sig .tc := ⟨.hbm, 406, rfl⟩
abbrev main_v358 : Ref sig .tc := ⟨.hbm, 407, rfl⟩
abbrev main_v359 : Ref sig .tc := ⟨.hbm, 408, rfl⟩
abbrev main_v360 : Ref sig .tc := ⟨.hbm, 409, rfl⟩
abbrev main_v361 : Ref sig .tc := ⟨.hbm, 410, rfl⟩
abbrev main_v362 : Ref sig .tc := ⟨.hbm, 411, rfl⟩
abbrev main_v363 : Ref sig .tc := ⟨.hbm, 412, rfl⟩
abbrev main_v364 : Ref sig .tc := ⟨.hbm, 413, rfl⟩
abbrev main_v365 : Ref sig .tc := ⟨.hbm, 414, rfl⟩
abbrev main_v366 : Ref sig .tc := ⟨.hbm, 415, rfl⟩
abbrev main_c_40 : Ref sig .tc := ⟨.hbm, 416, rfl⟩
abbrev main_v367 : Ref sig .tc := ⟨.hbm, 417, rfl⟩
abbrev main_v368 : Ref sig .tc := ⟨.hbm, 418, rfl⟩
abbrev main_v369 : Ref sig .tc := ⟨.hbm, 419, rfl⟩
abbrev main_v370 : Ref sig .tc := ⟨.hbm, 420, rfl⟩
abbrev main_v371 : Ref sig .tc := ⟨.hbm, 421, rfl⟩
abbrev main_v372 : Ref sig .tc := ⟨.hbm, 422, rfl⟩
abbrev main_v373 : Ref sig .tc := ⟨.hbm, 423, rfl⟩
abbrev main_v374 : Ref sig .tc := ⟨.hbm, 424, rfl⟩
abbrev main_cst_41 : Ref sig .tc := ⟨.hbm, 425, rfl⟩
abbrev main_v375 : Ref sig .tc := ⟨.hbm, 426, rfl⟩
abbrev main_v376 : Ref sig .tc := ⟨.hbm, 427, rfl⟩
abbrev main_v377 : Ref sig .tc := ⟨.hbm, 428, rfl⟩
abbrev main_v378 : Ref sig .tc := ⟨.hbm, 429, rfl⟩
abbrev main_v379 : Ref sig .tc := ⟨.hbm, 430, rfl⟩
abbrev main_v380 : Ref sig .tc := ⟨.hbm, 431, rfl⟩
abbrev main_v381 : Ref sig .tc := ⟨.hbm, 432, rfl⟩
abbrev main_v382 : Ref sig .tc := ⟨.hbm, 433, rfl⟩
abbrev main_v383 : Ref sig .tc := ⟨.hbm, 434, rfl⟩
abbrev main_v384 : Ref sig .tc := ⟨.hbm, 435, rfl⟩
abbrev main_c_42 : Ref sig .tc := ⟨.hbm, 436, rfl⟩
abbrev main_v385 : Ref sig .tc := ⟨.hbm, 437, rfl⟩
abbrev main_v386 : Ref sig .tc := ⟨.hbm, 438, rfl⟩
abbrev main_v387 : Ref sig .tc := ⟨.hbm, 439, rfl⟩
abbrev main_v388 : Ref sig .tc := ⟨.hbm, 440, rfl⟩
abbrev main_v389 : Ref sig .tc := ⟨.hbm, 441, rfl⟩
abbrev main_v390 : Ref sig .tc := ⟨.hbm, 442, rfl⟩
abbrev main_v391 : Ref sig .tc := ⟨.hbm, 443, rfl⟩
abbrev main_v392 : Ref sig .tc := ⟨.hbm, 444, rfl⟩
abbrev main_cst_43 : Ref sig .tc := ⟨.hbm, 445, rfl⟩
abbrev main_v393 : Ref sig .tc := ⟨.hbm, 446, rfl⟩
abbrev main_v394 : Ref sig .tc := ⟨.hbm, 447, rfl⟩
abbrev main_v395 : Ref sig .tc := ⟨.hbm, 448, rfl⟩
abbrev main_v396 : Ref sig .tc := ⟨.hbm, 449, rfl⟩
abbrev main_v397 : Ref sig .tc := ⟨.hbm, 450, rfl⟩
abbrev main_v398 : Ref sig .tc := ⟨.hbm, 451, rfl⟩
abbrev main_v399 : Ref sig .tc := ⟨.hbm, 452, rfl⟩
abbrev main_v400 : Ref sig .tc := ⟨.hbm, 453, rfl⟩
abbrev main_v401 : Ref sig .tc := ⟨.hbm, 454, rfl⟩
abbrev main_v402 : Ref sig .tc := ⟨.hbm, 455, rfl⟩
abbrev main_c_44 : Ref sig .tc := ⟨.hbm, 456, rfl⟩
abbrev main_v403 : Ref sig .tc := ⟨.hbm, 457, rfl⟩
abbrev main_v404 : Ref sig .tc := ⟨.hbm, 458, rfl⟩
abbrev main_v405 : Ref sig .tc := ⟨.hbm, 459, rfl⟩
abbrev main_v406 : Ref sig .tc := ⟨.hbm, 460, rfl⟩
abbrev main_v407 : Ref sig .tc := ⟨.hbm, 461, rfl⟩
abbrev main_v408 : Ref sig .tc := ⟨.hbm, 462, rfl⟩
abbrev main_v409 : Ref sig .tc := ⟨.hbm, 463, rfl⟩
abbrev main_v410 : Ref sig .tc := ⟨.hbm, 464, rfl⟩
abbrev main_cst_45 : Ref sig .tc := ⟨.hbm, 465, rfl⟩
abbrev main_v411 : Ref sig .tc := ⟨.hbm, 466, rfl⟩
abbrev main_v412 : Ref sig .tc := ⟨.hbm, 467, rfl⟩
abbrev main_v413 : Ref sig .tc := ⟨.hbm, 468, rfl⟩
abbrev main_v414 : Ref sig .tc := ⟨.hbm, 469, rfl⟩
abbrev main_v415 : Ref sig .tc := ⟨.hbm, 470, rfl⟩
abbrev main_v416 : Ref sig .tc := ⟨.hbm, 471, rfl⟩
abbrev main_v417 : Ref sig .tc := ⟨.hbm, 472, rfl⟩
abbrev main_v418 : Ref sig .tc := ⟨.hbm, 473, rfl⟩
abbrev main_v419 : Ref sig .tc := ⟨.hbm, 474, rfl⟩
abbrev main_v420 : Ref sig .tc := ⟨.hbm, 475, rfl⟩
abbrev main_c_46 : Ref sig .tc := ⟨.hbm, 476, rfl⟩
abbrev main_v421 : Ref sig .tc := ⟨.hbm, 477, rfl⟩
abbrev main_v422 : Ref sig .tc := ⟨.hbm, 478, rfl⟩
abbrev main_v423 : Ref sig .tc := ⟨.hbm, 479, rfl⟩
abbrev main_v424 : Ref sig .tc := ⟨.hbm, 480, rfl⟩
abbrev main_v425 : Ref sig .tc := ⟨.hbm, 481, rfl⟩
abbrev main_v426 : Ref sig .tc := ⟨.hbm, 482, rfl⟩
abbrev main_v427 : Ref sig .tc := ⟨.hbm, 483, rfl⟩
abbrev main_v428 : Ref sig .tc := ⟨.hbm, 484, rfl⟩
abbrev main_cst_47 : Ref sig .tc := ⟨.hbm, 485, rfl⟩
abbrev main_v429 : Ref sig .tc := ⟨.hbm, 486, rfl⟩
abbrev main_v430 : Ref sig .tc := ⟨.hbm, 487, rfl⟩
abbrev main_v431 : Ref sig .tc := ⟨.hbm, 488, rfl⟩
abbrev main_v432 : Ref sig .tc := ⟨.hbm, 489, rfl⟩
abbrev main_v433 : Ref sig .tc := ⟨.hbm, 490, rfl⟩
abbrev main_v434 : Ref sig .tc := ⟨.hbm, 491, rfl⟩
abbrev main_v435 : Ref sig .tc := ⟨.hbm, 492, rfl⟩
abbrev main_v436 : Ref sig .tc := ⟨.hbm, 493, rfl⟩
abbrev main_v437 : Ref sig .tc := ⟨.hbm, 494, rfl⟩
abbrev main_v438 : Ref sig .tc := ⟨.hbm, 495, rfl⟩
abbrev main_c_48 : Ref sig .tc := ⟨.hbm, 496, rfl⟩
abbrev main_v439 : Ref sig .tc := ⟨.hbm, 497, rfl⟩
abbrev main_v440 : Ref sig .tc := ⟨.hbm, 498, rfl⟩
abbrev main_v441 : Ref sig .tc := ⟨.hbm, 499, rfl⟩
abbrev main_v442 : Ref sig .tc := ⟨.hbm, 500, rfl⟩
abbrev main_v443 : Ref sig .tc := ⟨.hbm, 501, rfl⟩
abbrev main_v444 : Ref sig .tc := ⟨.hbm, 502, rfl⟩
abbrev main_v445 : Ref sig .tc := ⟨.hbm, 503, rfl⟩
abbrev main_v446 : Ref sig .tc := ⟨.hbm, 504, rfl⟩
abbrev main_cst_49 : Ref sig .tc := ⟨.hbm, 505, rfl⟩
abbrev main_v447 : Ref sig .tc := ⟨.hbm, 506, rfl⟩
abbrev main_v448 : Ref sig .tc := ⟨.hbm, 507, rfl⟩
abbrev main_v449 : Ref sig .tc := ⟨.hbm, 508, rfl⟩
abbrev main_v450 : Ref sig .tc := ⟨.hbm, 509, rfl⟩
abbrev main_v451 : Ref sig .tc := ⟨.hbm, 510, rfl⟩
abbrev main_v452 : Ref sig .tc := ⟨.hbm, 511, rfl⟩
abbrev main_v453 : Ref sig .tc := ⟨.hbm, 512, rfl⟩
abbrev main_v454 : Ref sig .tc := ⟨.hbm, 513, rfl⟩
abbrev main_v455 : Ref sig .tc := ⟨.hbm, 514, rfl⟩
abbrev main_v456 : Ref sig .tc := ⟨.hbm, 515, rfl⟩
abbrev main_c_50 : Ref sig .tc := ⟨.hbm, 516, rfl⟩
abbrev main_v457 : Ref sig .tc := ⟨.hbm, 517, rfl⟩
abbrev main_v458 : Ref sig .tc := ⟨.hbm, 518, rfl⟩
abbrev main_v459 : Ref sig .tc := ⟨.hbm, 519, rfl⟩
abbrev main_v460 : Ref sig .tc := ⟨.hbm, 520, rfl⟩
abbrev main_v461 : Ref sig .tc := ⟨.hbm, 521, rfl⟩
abbrev main_v462 : Ref sig .tc := ⟨.hbm, 522, rfl⟩
abbrev main_v463 : Ref sig .tc := ⟨.hbm, 523, rfl⟩
abbrev main_v464 : Ref sig .tc := ⟨.hbm, 524, rfl⟩
abbrev main_cst_51 : Ref sig .tc := ⟨.hbm, 525, rfl⟩
abbrev main_v465 : Ref sig .tc := ⟨.hbm, 526, rfl⟩
abbrev main_v466 : Ref sig .tc := ⟨.hbm, 527, rfl⟩
abbrev main_v467 : Ref sig .tc := ⟨.hbm, 528, rfl⟩
abbrev main_v468 : Ref sig .tc := ⟨.hbm, 529, rfl⟩
abbrev main_v469 : Ref sig .tc := ⟨.hbm, 530, rfl⟩
abbrev main_v470 : Ref sig .tc := ⟨.hbm, 531, rfl⟩
abbrev main_v471 : Ref sig .tc := ⟨.hbm, 532, rfl⟩
abbrev main_v472 : Ref sig .tc := ⟨.hbm, 533, rfl⟩
abbrev main_v473 : Ref sig .tc := ⟨.hbm, 534, rfl⟩
abbrev main_v474 : Ref sig .tc := ⟨.hbm, 535, rfl⟩
abbrev main_c_52 : Ref sig .tc := ⟨.hbm, 536, rfl⟩
abbrev main_v475 : Ref sig .tc := ⟨.hbm, 537, rfl⟩
abbrev main_v476 : Ref sig .tc := ⟨.hbm, 538, rfl⟩
abbrev main_v477 : Ref sig .tc := ⟨.hbm, 539, rfl⟩
abbrev main_v478 : Ref sig .tc := ⟨.hbm, 540, rfl⟩
abbrev main_v479 : Ref sig .tc := ⟨.hbm, 541, rfl⟩
abbrev main_v480 : Ref sig .tc := ⟨.hbm, 542, rfl⟩
abbrev main_v481 : Ref sig .tc := ⟨.hbm, 543, rfl⟩
abbrev main_v482 : Ref sig .tc := ⟨.hbm, 544, rfl⟩
abbrev main_cst_53 : Ref sig .tc := ⟨.hbm, 545, rfl⟩
abbrev main_v483 : Ref sig .tc := ⟨.hbm, 546, rfl⟩
abbrev main_v484 : Ref sig .tc := ⟨.hbm, 547, rfl⟩
abbrev main_v485 : Ref sig .tc := ⟨.hbm, 548, rfl⟩
abbrev main_v486 : Ref sig .tc := ⟨.hbm, 549, rfl⟩
abbrev main_v487 : Ref sig .tc := ⟨.hbm, 550, rfl⟩
abbrev main_v488 : Ref sig .tc := ⟨.hbm, 551, rfl⟩
abbrev main_v489 : Ref sig .tc := ⟨.hbm, 552, rfl⟩
abbrev main_v490 : Ref sig .tc := ⟨.hbm, 553, rfl⟩
abbrev main_v491 : Ref sig .tc := ⟨.hbm, 554, rfl⟩
abbrev main_v492 : Ref sig .tc := ⟨.hbm, 555, rfl⟩
abbrev main_c_54 : Ref sig .tc := ⟨.hbm, 556, rfl⟩
abbrev main_v493 : Ref sig .tc := ⟨.hbm, 557, rfl⟩
abbrev main_v494 : Ref sig .tc := ⟨.hbm, 558, rfl⟩
abbrev main_v495 : Ref sig .tc := ⟨.hbm, 559, rfl⟩
abbrev main_v496 : Ref sig .tc := ⟨.hbm, 560, rfl⟩
abbrev main_v497 : Ref sig .tc := ⟨.hbm, 561, rfl⟩
abbrev main_v498 : Ref sig .tc := ⟨.hbm, 562, rfl⟩
abbrev main_v499 : Ref sig .tc := ⟨.hbm, 563, rfl⟩
abbrev main_v500 : Ref sig .tc := ⟨.hbm, 564, rfl⟩
abbrev main_cst_55 : Ref sig .tc := ⟨.hbm, 565, rfl⟩
abbrev main_v501 : Ref sig .tc := ⟨.hbm, 566, rfl⟩
abbrev main_v502 : Ref sig .tc := ⟨.hbm, 567, rfl⟩
abbrev main_v503 : Ref sig .tc := ⟨.hbm, 568, rfl⟩
abbrev main_v504 : Ref sig .tc := ⟨.hbm, 569, rfl⟩
abbrev main_v505 : Ref sig .tc := ⟨.hbm, 570, rfl⟩
abbrev main_v506 : Ref sig .tc := ⟨.hbm, 571, rfl⟩
abbrev main_v507 : Ref sig .tc := ⟨.hbm, 572, rfl⟩
abbrev main_v508 : Ref sig .tc := ⟨.hbm, 573, rfl⟩
abbrev main_v509 : Ref sig .tc := ⟨.hbm, 574, rfl⟩
abbrev main_v510 : Ref sig .tc := ⟨.hbm, 575, rfl⟩
abbrev main_c_56 : Ref sig .tc := ⟨.hbm, 576, rfl⟩
abbrev main_v511 : Ref sig .tc := ⟨.hbm, 577, rfl⟩
abbrev main_v512 : Ref sig .tc := ⟨.hbm, 578, rfl⟩
abbrev main_v513 : Ref sig .tc := ⟨.hbm, 579, rfl⟩
abbrev main_v514 : Ref sig .tc := ⟨.hbm, 580, rfl⟩
abbrev main_v515 : Ref sig .tc := ⟨.hbm, 581, rfl⟩
abbrev main_v516 : Ref sig .tc := ⟨.hbm, 582, rfl⟩
abbrev main_v517 : Ref sig .tc := ⟨.hbm, 583, rfl⟩
abbrev main_v518 : Ref sig .tc := ⟨.hbm, 584, rfl⟩
abbrev main_cst_57 : Ref sig .tc := ⟨.hbm, 585, rfl⟩
abbrev main_v519 : Ref sig .tc := ⟨.hbm, 586, rfl⟩
abbrev main_v520 : Ref sig .tc := ⟨.hbm, 587, rfl⟩
abbrev main_v521 : Ref sig .tc := ⟨.hbm, 588, rfl⟩
abbrev main_v522 : Ref sig .tc := ⟨.hbm, 589, rfl⟩
abbrev main_v523 : Ref sig .tc := ⟨.hbm, 590, rfl⟩
abbrev main_v524 : Ref sig .tc := ⟨.hbm, 591, rfl⟩
abbrev main_v525 : Ref sig .tc := ⟨.hbm, 592, rfl⟩
abbrev main_v526 : Ref sig .tc := ⟨.hbm, 593, rfl⟩
abbrev main_v527 : Ref sig .tc := ⟨.hbm, 594, rfl⟩
abbrev main_v528 : Ref sig .tc := ⟨.hbm, 595, rfl⟩
abbrev main_c_58 : Ref sig .tc := ⟨.hbm, 596, rfl⟩
abbrev main_v529 : Ref sig .tc := ⟨.hbm, 597, rfl⟩
abbrev main_v530 : Ref sig .tc := ⟨.hbm, 598, rfl⟩
abbrev main_v531 : Ref sig .tc := ⟨.hbm, 599, rfl⟩
abbrev main_v532 : Ref sig .tc := ⟨.hbm, 600, rfl⟩
abbrev main_v533 : Ref sig .tc := ⟨.hbm, 601, rfl⟩
abbrev main_v534 : Ref sig .tc := ⟨.hbm, 602, rfl⟩
abbrev main_v535 : Ref sig .tc := ⟨.hbm, 603, rfl⟩
abbrev main_v536 : Ref sig .tc := ⟨.hbm, 604, rfl⟩
abbrev main_cst_59 : Ref sig .tc := ⟨.hbm, 605, rfl⟩
abbrev main_v537 : Ref sig .tc := ⟨.hbm, 606, rfl⟩
abbrev main_v538 : Ref sig .tc := ⟨.hbm, 607, rfl⟩
abbrev main_v539 : Ref sig .tc := ⟨.hbm, 608, rfl⟩
abbrev main_v540 : Ref sig .tc := ⟨.hbm, 609, rfl⟩
abbrev main_v541 : Ref sig .tc := ⟨.hbm, 610, rfl⟩
abbrev main_v542 : Ref sig .tc := ⟨.hbm, 611, rfl⟩
abbrev main_v543 : Ref sig .tc := ⟨.hbm, 612, rfl⟩
abbrev main_v544 : Ref sig .tc := ⟨.hbm, 613, rfl⟩
abbrev main_v545 : Ref sig .tc := ⟨.hbm, 614, rfl⟩
abbrev main_v546 : Ref sig .tc := ⟨.hbm, 615, rfl⟩
abbrev main_c_60 : Ref sig .tc := ⟨.hbm, 616, rfl⟩
abbrev main_v547 : Ref sig .tc := ⟨.hbm, 617, rfl⟩
abbrev main_v548 : Ref sig .tc := ⟨.hbm, 618, rfl⟩
abbrev main_v549 : Ref sig .tc := ⟨.hbm, 619, rfl⟩
abbrev main_v550 : Ref sig .tc := ⟨.hbm, 620, rfl⟩
abbrev main_v551 : Ref sig .tc := ⟨.hbm, 621, rfl⟩
abbrev main_v552 : Ref sig .tc := ⟨.hbm, 622, rfl⟩
abbrev main_v553 : Ref sig .tc := ⟨.hbm, 623, rfl⟩
abbrev main_v554 : Ref sig .tc := ⟨.hbm, 624, rfl⟩
abbrev main_cst_61 : Ref sig .tc := ⟨.hbm, 625, rfl⟩
abbrev main_v555 : Ref sig .tc := ⟨.hbm, 626, rfl⟩
abbrev main_v556 : Ref sig .tc := ⟨.hbm, 627, rfl⟩
abbrev main_v557 : Ref sig .tc := ⟨.hbm, 628, rfl⟩
abbrev main_v558 : Ref sig .tc := ⟨.hbm, 629, rfl⟩
abbrev main_v559 : Ref sig .tc := ⟨.hbm, 630, rfl⟩
abbrev main_v560 : Ref sig .tc := ⟨.hbm, 631, rfl⟩
abbrev main_v561 : Ref sig .tc := ⟨.hbm, 632, rfl⟩
abbrev main_v562 : Ref sig .tc := ⟨.hbm, 633, rfl⟩
abbrev main_v563 : Ref sig .tc := ⟨.hbm, 634, rfl⟩
abbrev main_v564 : Ref sig .tc := ⟨.hbm, 635, rfl⟩
abbrev main_c_62 : Ref sig .tc := ⟨.hbm, 636, rfl⟩
abbrev main_v565 : Ref sig .tc := ⟨.hbm, 637, rfl⟩
abbrev main_v566 : Ref sig .tc := ⟨.hbm, 638, rfl⟩
abbrev main_v567 : Ref sig .tc := ⟨.hbm, 639, rfl⟩
abbrev main_v568 : Ref sig .tc := ⟨.hbm, 640, rfl⟩
abbrev main_v569 : Ref sig .tc := ⟨.hbm, 641, rfl⟩
abbrev main_v570 : Ref sig .tc := ⟨.hbm, 642, rfl⟩
abbrev main_v571 : Ref sig .tc := ⟨.hbm, 643, rfl⟩
abbrev main_v572 : Ref sig .tc := ⟨.hbm, 644, rfl⟩
abbrev main_cst_63 : Ref sig .tc := ⟨.hbm, 645, rfl⟩
abbrev main_v573 : Ref sig .tc := ⟨.hbm, 646, rfl⟩
abbrev main_v574 : Ref sig .tc := ⟨.hbm, 647, rfl⟩
abbrev main_v575 : Ref sig .tc := ⟨.hbm, 648, rfl⟩
abbrev main_v576 : Ref sig .tc := ⟨.hbm, 649, rfl⟩
abbrev main_v577 : Ref sig .tc := ⟨.hbm, 650, rfl⟩
abbrev main_v578 : Ref sig .tc := ⟨.hbm, 651, rfl⟩
abbrev main_v579 : Ref sig .tc := ⟨.hbm, 652, rfl⟩
abbrev main_v580 : Ref sig .tc := ⟨.hbm, 653, rfl⟩
abbrev main_v581 : Ref sig .tc := ⟨.hbm, 654, rfl⟩
abbrev main_v582 : Ref sig .tc := ⟨.hbm, 655, rfl⟩
abbrev main_c_64 : Ref sig .tc := ⟨.hbm, 656, rfl⟩
abbrev main_v583 : Ref sig .tc := ⟨.hbm, 657, rfl⟩
abbrev main_v584 : Ref sig .tc := ⟨.hbm, 658, rfl⟩
abbrev main_v585 : Ref sig .tc := ⟨.hbm, 659, rfl⟩
abbrev main_v586 : Ref sig .tc := ⟨.hbm, 660, rfl⟩
abbrev main_v587 : Ref sig .tc := ⟨.hbm, 661, rfl⟩
abbrev main_v588 : Ref sig .tc := ⟨.hbm, 662, rfl⟩
abbrev main_v589 : Ref sig .tc := ⟨.hbm, 663, rfl⟩
abbrev main_v590 : Ref sig .tc := ⟨.hbm, 664, rfl⟩
abbrev main_cst_65 : Ref sig .tc := ⟨.hbm, 665, rfl⟩
abbrev main_v591 : Ref sig .tc := ⟨.hbm, 666, rfl⟩
abbrev main_v592 : Ref sig .tc := ⟨.hbm, 667, rfl⟩
abbrev main_v593 : Ref sig .tc := ⟨.hbm, 668, rfl⟩
abbrev main_v594 : Ref sig .tc := ⟨.hbm, 669, rfl⟩
abbrev main_v595 : Ref sig .tc := ⟨.hbm, 670, rfl⟩
abbrev main_v596 : Ref sig .tc := ⟨.hbm, 671, rfl⟩
abbrev main_v597 : Ref sig .tc := ⟨.hbm, 672, rfl⟩
abbrev main_v598 : Ref sig .tc := ⟨.hbm, 673, rfl⟩
abbrev main_v599 : Ref sig .tc := ⟨.hbm, 674, rfl⟩
abbrev main_v600 : Ref sig .tc := ⟨.hbm, 675, rfl⟩
abbrev main_c_66 : Ref sig .tc := ⟨.hbm, 676, rfl⟩
abbrev main_v601 : Ref sig .tc := ⟨.hbm, 677, rfl⟩
abbrev main_v602 : Ref sig .tc := ⟨.hbm, 678, rfl⟩
abbrev main_v603 : Ref sig .tc := ⟨.hbm, 679, rfl⟩
abbrev main_v604 : Ref sig .tc := ⟨.hbm, 680, rfl⟩
abbrev main_v605 : Ref sig .tc := ⟨.hbm, 681, rfl⟩
abbrev main_v606 : Ref sig .tc := ⟨.hbm, 682, rfl⟩
abbrev main_v607 : Ref sig .tc := ⟨.hbm, 683, rfl⟩
abbrev main_v608 : Ref sig .tc := ⟨.hbm, 684, rfl⟩
abbrev main_cst_67 : Ref sig .tc := ⟨.hbm, 685, rfl⟩
abbrev main_v609 : Ref sig .tc := ⟨.hbm, 686, rfl⟩
abbrev main_v610 : Ref sig .tc := ⟨.hbm, 687, rfl⟩
abbrev main_v611 : Ref sig .tc := ⟨.hbm, 688, rfl⟩
abbrev main_v612 : Ref sig .tc := ⟨.hbm, 689, rfl⟩
abbrev main_v613 : Ref sig .tc := ⟨.hbm, 690, rfl⟩
abbrev main_v614 : Ref sig .tc := ⟨.hbm, 691, rfl⟩
abbrev main_v615 : Ref sig .tc := ⟨.hbm, 692, rfl⟩
abbrev main_v616 : Ref sig .tc := ⟨.hbm, 693, rfl⟩
abbrev main_v617 : Ref sig .tc := ⟨.hbm, 694, rfl⟩
abbrev main_v618 : Ref sig .tc := ⟨.hbm, 695, rfl⟩
abbrev main_c_68 : Ref sig .tc := ⟨.hbm, 696, rfl⟩
abbrev main_v619 : Ref sig .tc := ⟨.hbm, 697, rfl⟩
abbrev main_v620 : Ref sig .tc := ⟨.hbm, 698, rfl⟩
abbrev main_v621 : Ref sig .tc := ⟨.hbm, 699, rfl⟩
abbrev main_v622 : Ref sig .tc := ⟨.hbm, 700, rfl⟩
abbrev main_v623 : Ref sig .tc := ⟨.hbm, 701, rfl⟩
abbrev main_v624 : Ref sig .tc := ⟨.hbm, 702, rfl⟩
abbrev main_v625 : Ref sig .tc := ⟨.hbm, 703, rfl⟩
abbrev main_v626 : Ref sig .tc := ⟨.hbm, 704, rfl⟩
abbrev main_cst_69 : Ref sig .tc := ⟨.hbm, 705, rfl⟩
abbrev main_v627 : Ref sig .tc := ⟨.hbm, 706, rfl⟩
abbrev main_v628 : Ref sig .tc := ⟨.hbm, 707, rfl⟩
abbrev main_v629 : Ref sig .tc := ⟨.hbm, 708, rfl⟩
abbrev main_v630 : Ref sig .tc := ⟨.hbm, 709, rfl⟩
abbrev main_v631 : Ref sig .tc := ⟨.hbm, 710, rfl⟩
abbrev main_v632 : Ref sig .tc := ⟨.hbm, 711, rfl⟩
abbrev main_v633 : Ref sig .tc := ⟨.hbm, 712, rfl⟩
abbrev main_v634 : Ref sig .tc := ⟨.hbm, 713, rfl⟩
abbrev main_v635 : Ref sig .tc := ⟨.hbm, 714, rfl⟩
abbrev main_v636 : Ref sig .tc := ⟨.hbm, 715, rfl⟩
abbrev main_c_70 : Ref sig .tc := ⟨.hbm, 716, rfl⟩
abbrev main_v637 : Ref sig .tc := ⟨.hbm, 717, rfl⟩
abbrev main_v638 : Ref sig .tc := ⟨.hbm, 718, rfl⟩
abbrev main_v639 : Ref sig .tc := ⟨.hbm, 719, rfl⟩
abbrev main_v640 : Ref sig .tc := ⟨.hbm, 720, rfl⟩
abbrev main_v641 : Ref sig .tc := ⟨.hbm, 721, rfl⟩
abbrev main_v642 : Ref sig .tc := ⟨.hbm, 722, rfl⟩
abbrev main_v643 : Ref sig .tc := ⟨.hbm, 723, rfl⟩
abbrev main_v644 : Ref sig .tc := ⟨.hbm, 724, rfl⟩
abbrev main_cst_71 : Ref sig .tc := ⟨.hbm, 725, rfl⟩
abbrev main_v645 : Ref sig .tc := ⟨.hbm, 726, rfl⟩
abbrev main_v646 : Ref sig .tc := ⟨.hbm, 727, rfl⟩
abbrev main_v647 : Ref sig .tc := ⟨.hbm, 728, rfl⟩
abbrev main_v648 : Ref sig .tc := ⟨.hbm, 729, rfl⟩
abbrev main_v649 : Ref sig .tc := ⟨.hbm, 730, rfl⟩
abbrev main_v650 : Ref sig .tc := ⟨.hbm, 731, rfl⟩
abbrev main_v651 : Ref sig .tc := ⟨.hbm, 732, rfl⟩
abbrev main_v652 : Ref sig .tc := ⟨.hbm, 733, rfl⟩
abbrev main_v653 : Ref sig .tc := ⟨.hbm, 734, rfl⟩
abbrev main_v654 : Ref sig .tc := ⟨.hbm, 735, rfl⟩
abbrev main_c_72 : Ref sig .tc := ⟨.hbm, 736, rfl⟩
abbrev main_v655 : Ref sig .tc := ⟨.hbm, 737, rfl⟩
abbrev main_v656 : Ref sig .tc := ⟨.hbm, 738, rfl⟩
abbrev main_v657 : Ref sig .tc := ⟨.hbm, 739, rfl⟩
abbrev main_v658 : Ref sig .tc := ⟨.hbm, 740, rfl⟩
abbrev main_v659 : Ref sig .tc := ⟨.hbm, 741, rfl⟩
abbrev main_v660 : Ref sig .tc := ⟨.hbm, 742, rfl⟩
abbrev main_v661 : Ref sig .tc := ⟨.hbm, 743, rfl⟩
abbrev main_v662 : Ref sig .tc := ⟨.hbm, 744, rfl⟩
abbrev main_cst_73 : Ref sig .tc := ⟨.hbm, 745, rfl⟩
abbrev main_v663 : Ref sig .tc := ⟨.hbm, 746, rfl⟩
abbrev main_v664 : Ref sig .tc := ⟨.hbm, 747, rfl⟩
abbrev main_v665 : Ref sig .tc := ⟨.hbm, 748, rfl⟩
abbrev main_v666 : Ref sig .tc := ⟨.hbm, 749, rfl⟩
abbrev main_v667 : Ref sig .tc := ⟨.hbm, 750, rfl⟩
abbrev main_v668 : Ref sig .tc := ⟨.hbm, 751, rfl⟩
abbrev main_v669 : Ref sig .tc := ⟨.hbm, 752, rfl⟩
abbrev main_v670 : Ref sig .tc := ⟨.hbm, 753, rfl⟩
abbrev main_v671 : Ref sig .tc := ⟨.hbm, 754, rfl⟩
abbrev main_v672 : Ref sig .tc := ⟨.hbm, 755, rfl⟩
abbrev main_c_74 : Ref sig .tc := ⟨.hbm, 756, rfl⟩
abbrev main_v673 : Ref sig .tc := ⟨.hbm, 757, rfl⟩
abbrev main_v674 : Ref sig .tc := ⟨.hbm, 758, rfl⟩
abbrev main_v675 : Ref sig .tc := ⟨.hbm, 759, rfl⟩
abbrev main_v676 : Ref sig .tc := ⟨.hbm, 760, rfl⟩
abbrev main_v677 : Ref sig .tc := ⟨.hbm, 761, rfl⟩
abbrev main_v678 : Ref sig .tc := ⟨.hbm, 762, rfl⟩
abbrev main_v679 : Ref sig .tc := ⟨.hbm, 763, rfl⟩
abbrev main_v680 : Ref sig .tc := ⟨.hbm, 764, rfl⟩
abbrev main_cst_75 : Ref sig .tc := ⟨.hbm, 765, rfl⟩
abbrev main_v681 : Ref sig .tc := ⟨.hbm, 766, rfl⟩
abbrev main_v682 : Ref sig .tc := ⟨.hbm, 767, rfl⟩
abbrev main_v683 : Ref sig .tc := ⟨.hbm, 768, rfl⟩
abbrev main_v684 : Ref sig .tc := ⟨.hbm, 769, rfl⟩
abbrev main_v685 : Ref sig .tc := ⟨.hbm, 770, rfl⟩
abbrev main_v686 : Ref sig .tc := ⟨.hbm, 771, rfl⟩
abbrev main_v687 : Ref sig .tc := ⟨.hbm, 772, rfl⟩
abbrev main_v688 : Ref sig .tc := ⟨.hbm, 773, rfl⟩
abbrev main_v689 : Ref sig .tc := ⟨.hbm, 774, rfl⟩
abbrev main_v690 : Ref sig .tc := ⟨.hbm, 775, rfl⟩
abbrev main_c_76 : Ref sig .tc := ⟨.hbm, 776, rfl⟩
abbrev main_v691 : Ref sig .tc := ⟨.hbm, 777, rfl⟩
abbrev main_v692 : Ref sig .tc := ⟨.hbm, 778, rfl⟩
abbrev main_v693 : Ref sig .tc := ⟨.hbm, 779, rfl⟩
abbrev main_v694 : Ref sig .tc := ⟨.hbm, 780, rfl⟩
abbrev main_v695 : Ref sig .tc := ⟨.hbm, 781, rfl⟩
abbrev main_v696 : Ref sig .tc := ⟨.hbm, 782, rfl⟩
abbrev main_v697 : Ref sig .tc := ⟨.hbm, 783, rfl⟩
abbrev main_v698 : Ref sig .tc := ⟨.hbm, 784, rfl⟩
abbrev main_cst_77 : Ref sig .tc := ⟨.hbm, 785, rfl⟩
abbrev main_v699 : Ref sig .tc := ⟨.hbm, 786, rfl⟩
abbrev main_v700 : Ref sig .tc := ⟨.hbm, 787, rfl⟩
abbrev main_v701 : Ref sig .tc := ⟨.hbm, 788, rfl⟩
abbrev main_v702 : Ref sig .tc := ⟨.hbm, 789, rfl⟩
abbrev main_v703 : Ref sig .tc := ⟨.hbm, 790, rfl⟩
abbrev main_v704 : Ref sig .tc := ⟨.hbm, 791, rfl⟩
abbrev main_v705 : Ref sig .tc := ⟨.hbm, 792, rfl⟩
abbrev main_v706 : Ref sig .tc := ⟨.hbm, 793, rfl⟩
abbrev main_v707 : Ref sig .tc := ⟨.hbm, 794, rfl⟩
abbrev main_v708 : Ref sig .tc := ⟨.hbm, 795, rfl⟩
abbrev main_c_78 : Ref sig .tc := ⟨.hbm, 796, rfl⟩
abbrev main_v709 : Ref sig .tc := ⟨.hbm, 797, rfl⟩
abbrev main_v710 : Ref sig .tc := ⟨.hbm, 798, rfl⟩
abbrev main_v711 : Ref sig .tc := ⟨.hbm, 799, rfl⟩
abbrev main_v712 : Ref sig .tc := ⟨.hbm, 800, rfl⟩
abbrev main_v713 : Ref sig .tc := ⟨.hbm, 801, rfl⟩
abbrev main_v714 : Ref sig .tc := ⟨.hbm, 802, rfl⟩
abbrev main_v715 : Ref sig .tc := ⟨.hbm, 803, rfl⟩
abbrev main_v716 : Ref sig .tc := ⟨.hbm, 804, rfl⟩
abbrev main_cst_79 : Ref sig .tc := ⟨.hbm, 805, rfl⟩
abbrev main_v717 : Ref sig .tc := ⟨.hbm, 806, rfl⟩
abbrev main_v718 : Ref sig .tc := ⟨.hbm, 807, rfl⟩
abbrev main_v719 : Ref sig .tc := ⟨.hbm, 808, rfl⟩
abbrev main_v720 : Ref sig .tc := ⟨.hbm, 809, rfl⟩
abbrev main_v721 : Ref sig .tc := ⟨.hbm, 810, rfl⟩
abbrev main_v722 : Ref sig .tc := ⟨.hbm, 811, rfl⟩
abbrev main_v723 : Ref sig .tc := ⟨.hbm, 812, rfl⟩
abbrev main_v724 : Ref sig .tc := ⟨.hbm, 813, rfl⟩
abbrev main_v725 : Ref sig .tc := ⟨.hbm, 814, rfl⟩
abbrev main_v726 : Ref sig .tc := ⟨.hbm, 815, rfl⟩
abbrev main_c_80 : Ref sig .tc := ⟨.hbm, 816, rfl⟩
abbrev main_v727 : Ref sig .tc := ⟨.hbm, 817, rfl⟩
abbrev main_v728 : Ref sig .tc := ⟨.hbm, 818, rfl⟩
abbrev main_v729 : Ref sig .tc := ⟨.hbm, 819, rfl⟩
abbrev main_v730 : Ref sig .tc := ⟨.hbm, 820, rfl⟩
abbrev main_v731 : Ref sig .tc := ⟨.hbm, 821, rfl⟩
abbrev main_v732 : Ref sig .tc := ⟨.hbm, 822, rfl⟩
abbrev main_v733 : Ref sig .tc := ⟨.hbm, 823, rfl⟩
abbrev main_v734 : Ref sig .tc := ⟨.hbm, 824, rfl⟩
abbrev main_cst_81 : Ref sig .tc := ⟨.hbm, 825, rfl⟩
abbrev main_v735 : Ref sig .tc := ⟨.hbm, 826, rfl⟩
abbrev main_v736 : Ref sig .tc := ⟨.hbm, 827, rfl⟩
abbrev main_v737 : Ref sig .tc := ⟨.hbm, 828, rfl⟩
abbrev main_v738 : Ref sig .tc := ⟨.hbm, 829, rfl⟩
abbrev main_v739 : Ref sig .tc := ⟨.hbm, 830, rfl⟩
abbrev main_v740 : Ref sig .tc := ⟨.hbm, 831, rfl⟩
abbrev main_v741 : Ref sig .tc := ⟨.hbm, 832, rfl⟩
abbrev main_v742 : Ref sig .tc := ⟨.hbm, 833, rfl⟩
abbrev main_v743 : Ref sig .tc := ⟨.hbm, 834, rfl⟩
abbrev main_v744 : Ref sig .tc := ⟨.hbm, 835, rfl⟩
abbrev main_c_82 : Ref sig .tc := ⟨.hbm, 836, rfl⟩
abbrev main_v745 : Ref sig .tc := ⟨.hbm, 837, rfl⟩
abbrev main_v746 : Ref sig .tc := ⟨.hbm, 838, rfl⟩
abbrev main_v747 : Ref sig .tc := ⟨.hbm, 839, rfl⟩
abbrev main_v748 : Ref sig .tc := ⟨.hbm, 840, rfl⟩
abbrev main_v749 : Ref sig .tc := ⟨.hbm, 841, rfl⟩
abbrev main_v750 : Ref sig .tc := ⟨.hbm, 842, rfl⟩
abbrev main_v751 : Ref sig .tc := ⟨.hbm, 843, rfl⟩
abbrev main_v752 : Ref sig .tc := ⟨.hbm, 844, rfl⟩
abbrev main_cst_83 : Ref sig .tc := ⟨.hbm, 845, rfl⟩
abbrev main_v753 : Ref sig .tc := ⟨.hbm, 846, rfl⟩
abbrev main_v754 : Ref sig .tc := ⟨.hbm, 847, rfl⟩
abbrev main_v755 : Ref sig .tc := ⟨.hbm, 848, rfl⟩
abbrev main_v756 : Ref sig .tc := ⟨.hbm, 849, rfl⟩
abbrev main_v757 : Ref sig .tc := ⟨.hbm, 850, rfl⟩
abbrev main_v758 : Ref sig .tc := ⟨.hbm, 851, rfl⟩
abbrev main_v759 : Ref sig .tc := ⟨.hbm, 852, rfl⟩
abbrev main_v760 : Ref sig .tc := ⟨.hbm, 853, rfl⟩
abbrev main_v761 : Ref sig .tc := ⟨.hbm, 854, rfl⟩
abbrev main_v762 : Ref sig .tc := ⟨.hbm, 855, rfl⟩
abbrev main_c_84 : Ref sig .tc := ⟨.hbm, 856, rfl⟩
abbrev main_v763 : Ref sig .tc := ⟨.hbm, 857, rfl⟩
abbrev main_v764 : Ref sig .tc := ⟨.hbm, 858, rfl⟩
abbrev main_v765 : Ref sig .tc := ⟨.hbm, 859, rfl⟩
abbrev main_v766 : Ref sig .tc := ⟨.hbm, 860, rfl⟩
abbrev main_v767 : Ref sig .tc := ⟨.hbm, 861, rfl⟩
abbrev main_v768 : Ref sig .tc := ⟨.hbm, 862, rfl⟩
abbrev main_v769 : Ref sig .tc := ⟨.hbm, 863, rfl⟩
abbrev main_v770 : Ref sig .tc := ⟨.hbm, 864, rfl⟩
abbrev main_cst_85 : Ref sig .tc := ⟨.hbm, 865, rfl⟩
abbrev main_v771 : Ref sig .tc := ⟨.hbm, 866, rfl⟩
abbrev main_v772 : Ref sig .tc := ⟨.hbm, 867, rfl⟩
abbrev main_v773 : Ref sig .tc := ⟨.hbm, 868, rfl⟩
abbrev main_v774 : Ref sig .tc := ⟨.hbm, 869, rfl⟩
abbrev main_v775 : Ref sig .tc := ⟨.hbm, 870, rfl⟩
abbrev main_v776 : Ref sig .tc := ⟨.hbm, 871, rfl⟩
abbrev main_v777 : Ref sig .tc := ⟨.hbm, 872, rfl⟩
abbrev main_v778 : Ref sig .tc := ⟨.hbm, 873, rfl⟩
abbrev main_v779 : Ref sig .tc := ⟨.hbm, 874, rfl⟩
abbrev main_v780 : Ref sig .tc := ⟨.hbm, 875, rfl⟩
abbrev main_c_86 : Ref sig .tc := ⟨.hbm, 876, rfl⟩
abbrev main_v781 : Ref sig .tc := ⟨.hbm, 877, rfl⟩
abbrev main_v782 : Ref sig .tc := ⟨.hbm, 878, rfl⟩
abbrev main_v783 : Ref sig .tc := ⟨.hbm, 879, rfl⟩
abbrev main_v784 : Ref sig .tc := ⟨.hbm, 880, rfl⟩
abbrev main_v785 : Ref sig .tc := ⟨.hbm, 881, rfl⟩
abbrev main_v786 : Ref sig .tc := ⟨.hbm, 882, rfl⟩
abbrev main_v787 : Ref sig .tc := ⟨.hbm, 883, rfl⟩
abbrev main_v788 : Ref sig .tc := ⟨.hbm, 884, rfl⟩
abbrev main_cst_87 : Ref sig .tc := ⟨.hbm, 885, rfl⟩
abbrev main_v789 : Ref sig .tc := ⟨.hbm, 886, rfl⟩
abbrev main_v790 : Ref sig .tc := ⟨.hbm, 887, rfl⟩
abbrev main_v791 : Ref sig .tc := ⟨.hbm, 888, rfl⟩
abbrev main_v792 : Ref sig .tc := ⟨.hbm, 889, rfl⟩
abbrev main_v793 : Ref sig .tc := ⟨.hbm, 890, rfl⟩
abbrev main_v794 : Ref sig .tc := ⟨.hbm, 891, rfl⟩
abbrev main_v795 : Ref sig .tc := ⟨.hbm, 892, rfl⟩
abbrev main_v796 : Ref sig .tc := ⟨.hbm, 893, rfl⟩
abbrev main_v797 : Ref sig .tc := ⟨.hbm, 894, rfl⟩
abbrev main_v798 : Ref sig .tc := ⟨.hbm, 895, rfl⟩
abbrev main_c_88 : Ref sig .tc := ⟨.hbm, 896, rfl⟩
abbrev main_v799 : Ref sig .tc := ⟨.hbm, 897, rfl⟩
abbrev main_v800 : Ref sig .tc := ⟨.hbm, 898, rfl⟩
abbrev main_v801 : Ref sig .tc := ⟨.hbm, 899, rfl⟩
abbrev main_v802 : Ref sig .tc := ⟨.hbm, 900, rfl⟩
abbrev main_v803 : Ref sig .tc := ⟨.hbm, 901, rfl⟩
abbrev main_v804 : Ref sig .tc := ⟨.hbm, 902, rfl⟩
abbrev main_v805 : Ref sig .tc := ⟨.hbm, 903, rfl⟩
abbrev main_v806 : Ref sig .tc := ⟨.hbm, 904, rfl⟩
abbrev main_cst_89 : Ref sig .tc := ⟨.hbm, 905, rfl⟩
abbrev main_v807 : Ref sig .tc := ⟨.hbm, 906, rfl⟩
abbrev main_v808 : Ref sig .tc := ⟨.hbm, 907, rfl⟩
abbrev main_v809 : Ref sig .tc := ⟨.hbm, 908, rfl⟩
abbrev main_v810 : Ref sig .tc := ⟨.hbm, 909, rfl⟩
abbrev main_v811 : Ref sig .tc := ⟨.hbm, 910, rfl⟩
abbrev main_v812 : Ref sig .tc := ⟨.hbm, 911, rfl⟩
abbrev main_v813 : Ref sig .tc := ⟨.hbm, 912, rfl⟩
abbrev main_v814 : Ref sig .tc := ⟨.hbm, 913, rfl⟩
abbrev main_v815 : Ref sig .tc := ⟨.hbm, 914, rfl⟩
abbrev main_v816 : Ref sig .tc := ⟨.hbm, 915, rfl⟩
abbrev main_c_90 : Ref sig .tc := ⟨.hbm, 916, rfl⟩
abbrev main_v817 : Ref sig .tc := ⟨.hbm, 917, rfl⟩
abbrev main_v818 : Ref sig .tc := ⟨.hbm, 918, rfl⟩
abbrev main_v819 : Ref sig .tc := ⟨.hbm, 919, rfl⟩
abbrev main_v820 : Ref sig .tc := ⟨.hbm, 920, rfl⟩
abbrev main_v821 : Ref sig .tc := ⟨.hbm, 921, rfl⟩
abbrev main_v822 : Ref sig .tc := ⟨.hbm, 922, rfl⟩
abbrev main_v823 : Ref sig .tc := ⟨.hbm, 923, rfl⟩
abbrev main_v824 : Ref sig .tc := ⟨.hbm, 924, rfl⟩
abbrev main_cst_91 : Ref sig .tc := ⟨.hbm, 925, rfl⟩
abbrev main_v825 : Ref sig .tc := ⟨.hbm, 926, rfl⟩
abbrev main_v826 : Ref sig .tc := ⟨.hbm, 927, rfl⟩
abbrev main_v827 : Ref sig .tc := ⟨.hbm, 928, rfl⟩
abbrev main_v828 : Ref sig .tc := ⟨.hbm, 929, rfl⟩
abbrev main_v829 : Ref sig .tc := ⟨.hbm, 930, rfl⟩
abbrev main_v830 : Ref sig .tc := ⟨.hbm, 931, rfl⟩
abbrev main_v831 : Ref sig .tc := ⟨.hbm, 932, rfl⟩
abbrev main_v832 : Ref sig .tc := ⟨.hbm, 933, rfl⟩
abbrev main_v833 : Ref sig .tc := ⟨.hbm, 934, rfl⟩
abbrev main_v834 : Ref sig .tc := ⟨.hbm, 935, rfl⟩
abbrev main_c_92 : Ref sig .tc := ⟨.hbm, 936, rfl⟩
abbrev main_v835 : Ref sig .tc := ⟨.hbm, 937, rfl⟩
abbrev main_v836 : Ref sig .tc := ⟨.hbm, 938, rfl⟩
abbrev main_v837 : Ref sig .tc := ⟨.hbm, 939, rfl⟩
abbrev main_v838 : Ref sig .tc := ⟨.hbm, 940, rfl⟩
abbrev main_v839 : Ref sig .tc := ⟨.hbm, 941, rfl⟩
abbrev main_v840 : Ref sig .tc := ⟨.hbm, 942, rfl⟩
abbrev main_v841 : Ref sig .tc := ⟨.hbm, 943, rfl⟩
abbrev main_v842 : Ref sig .tc := ⟨.hbm, 944, rfl⟩
abbrev main_cst_93 : Ref sig .tc := ⟨.hbm, 945, rfl⟩
abbrev main_v843 : Ref sig .tc := ⟨.hbm, 946, rfl⟩
abbrev main_v844 : Ref sig .tc := ⟨.hbm, 947, rfl⟩
abbrev main_v845 : Ref sig .tc := ⟨.hbm, 948, rfl⟩
abbrev main_v846 : Ref sig .tc := ⟨.hbm, 949, rfl⟩
abbrev main_v847 : Ref sig .tc := ⟨.hbm, 950, rfl⟩
abbrev main_v848 : Ref sig .tc := ⟨.hbm, 951, rfl⟩
abbrev main_v849 : Ref sig .tc := ⟨.hbm, 952, rfl⟩
abbrev main_v850 : Ref sig .tc := ⟨.hbm, 953, rfl⟩
abbrev main_v851 : Ref sig .tc := ⟨.hbm, 954, rfl⟩
abbrev main_v852 : Ref sig .tc := ⟨.hbm, 955, rfl⟩
abbrev main_c_94 : Ref sig .tc := ⟨.hbm, 956, rfl⟩
abbrev main_v853 : Ref sig .tc := ⟨.hbm, 957, rfl⟩
abbrev main_v854 : Ref sig .tc := ⟨.hbm, 958, rfl⟩
abbrev main_v855 : Ref sig .tc := ⟨.hbm, 959, rfl⟩
abbrev main_v856 : Ref sig .tc := ⟨.hbm, 960, rfl⟩
abbrev main_v857 : Ref sig .tc := ⟨.hbm, 961, rfl⟩
abbrev main_v858 : Ref sig .tc := ⟨.hbm, 962, rfl⟩
abbrev main_v859 : Ref sig .tc := ⟨.hbm, 963, rfl⟩
abbrev main_v860 : Ref sig .tc := ⟨.hbm, 964, rfl⟩
abbrev main_cst_95 : Ref sig .tc := ⟨.hbm, 965, rfl⟩
abbrev main_v861 : Ref sig .tc := ⟨.hbm, 966, rfl⟩
abbrev main_v862 : Ref sig .tc := ⟨.hbm, 967, rfl⟩
abbrev main_v863 : Ref sig .tc := ⟨.hbm, 968, rfl⟩
abbrev main_v864 : Ref sig .tc := ⟨.hbm, 969, rfl⟩
abbrev main_v865 : Ref sig .tc := ⟨.hbm, 970, rfl⟩
abbrev main_v866 : Ref sig .tc := ⟨.hbm, 971, rfl⟩
abbrev main_v867 : Ref sig .tc := ⟨.hbm, 972, rfl⟩
abbrev main_v868 : Ref sig .tc := ⟨.hbm, 973, rfl⟩
abbrev main_v869 : Ref sig .tc := ⟨.hbm, 974, rfl⟩
abbrev main_v870 : Ref sig .tc := ⟨.hbm, 975, rfl⟩
abbrev main_c_96 : Ref sig .tc := ⟨.hbm, 976, rfl⟩
abbrev main_v871 : Ref sig .tc := ⟨.hbm, 977, rfl⟩
abbrev main_v872 : Ref sig .tc := ⟨.hbm, 978, rfl⟩
abbrev main_v873 : Ref sig .tc := ⟨.hbm, 979, rfl⟩
abbrev main_v874 : Ref sig .tc := ⟨.hbm, 980, rfl⟩
abbrev main_v875 : Ref sig .tc := ⟨.hbm, 981, rfl⟩
abbrev main_v876 : Ref sig .tc := ⟨.hbm, 982, rfl⟩
abbrev main_v877 : Ref sig .tc := ⟨.hbm, 983, rfl⟩
abbrev main_v878 : Ref sig .tc := ⟨.hbm, 984, rfl⟩
abbrev main_cst_97 : Ref sig .tc := ⟨.hbm, 985, rfl⟩
abbrev main_v879 : Ref sig .tc := ⟨.hbm, 986, rfl⟩
abbrev main_v880 : Ref sig .tc := ⟨.hbm, 987, rfl⟩
abbrev main_v881 : Ref sig .tc := ⟨.hbm, 988, rfl⟩
abbrev main_v882 : Ref sig .tc := ⟨.hbm, 989, rfl⟩
abbrev main_v883 : Ref sig .tc := ⟨.hbm, 990, rfl⟩
abbrev main_v884 : Ref sig .tc := ⟨.hbm, 991, rfl⟩
abbrev main_v885 : Ref sig .tc := ⟨.hbm, 992, rfl⟩
abbrev main_v886 : Ref sig .tc := ⟨.hbm, 993, rfl⟩
abbrev main_v887 : Ref sig .tc := ⟨.hbm, 994, rfl⟩
abbrev main_v888 : Ref sig .tc := ⟨.hbm, 995, rfl⟩
abbrev main_c_98 : Ref sig .tc := ⟨.hbm, 996, rfl⟩
abbrev main_v889 : Ref sig .tc := ⟨.hbm, 997, rfl⟩
abbrev main_v890 : Ref sig .tc := ⟨.hbm, 998, rfl⟩
abbrev main_v891 : Ref sig .tc := ⟨.hbm, 999, rfl⟩
abbrev main_v892 : Ref sig .tc := ⟨.hbm, 1000, rfl⟩
abbrev main_v893 : Ref sig .tc := ⟨.hbm, 1001, rfl⟩
abbrev main_v894 : Ref sig .tc := ⟨.hbm, 1002, rfl⟩
abbrev main_v895 : Ref sig .tc := ⟨.hbm, 1003, rfl⟩
abbrev main_v896 : Ref sig .tc := ⟨.hbm, 1004, rfl⟩
abbrev main_cst_99 : Ref sig .tc := ⟨.hbm, 1005, rfl⟩
abbrev main_v897 : Ref sig .tc := ⟨.hbm, 1006, rfl⟩
abbrev main_v898 : Ref sig .tc := ⟨.hbm, 1007, rfl⟩
abbrev main_v899 : Ref sig .tc := ⟨.hbm, 1008, rfl⟩
abbrev main_v900 : Ref sig .tc := ⟨.hbm, 1009, rfl⟩
abbrev main_v901 : Ref sig .tc := ⟨.hbm, 1010, rfl⟩
abbrev main_v902 : Ref sig .tc := ⟨.hbm, 1011, rfl⟩
abbrev main_v903 : Ref sig .tc := ⟨.hbm, 1012, rfl⟩
abbrev main_v904 : Ref sig .tc := ⟨.hbm, 1013, rfl⟩
abbrev main_v905 : Ref sig .tc := ⟨.hbm, 1014, rfl⟩
abbrev main_v906 : Ref sig .tc := ⟨.hbm, 1015, rfl⟩
abbrev main_c_100 : Ref sig .tc := ⟨.hbm, 1016, rfl⟩
abbrev main_v907 : Ref sig .tc := ⟨.hbm, 1017, rfl⟩
abbrev main_v908 : Ref sig .tc := ⟨.hbm, 1018, rfl⟩
abbrev main_v909 : Ref sig .tc := ⟨.hbm, 1019, rfl⟩
abbrev main_v910 : Ref sig .tc := ⟨.hbm, 1020, rfl⟩
abbrev main_v911 : Ref sig .tc := ⟨.hbm, 1021, rfl⟩
abbrev main_v912 : Ref sig .tc := ⟨.hbm, 1022, rfl⟩
abbrev main_v913 : Ref sig .tc := ⟨.hbm, 1023, rfl⟩
abbrev main_v914 : Ref sig .tc := ⟨.hbm, 1024, rfl⟩
abbrev main_cst_101 : Ref sig .tc := ⟨.hbm, 1025, rfl⟩
abbrev main_v915 : Ref sig .tc := ⟨.hbm, 1026, rfl⟩
abbrev main_v916 : Ref sig .tc := ⟨.hbm, 1027, rfl⟩
abbrev main_v917 : Ref sig .tc := ⟨.hbm, 1028, rfl⟩
abbrev main_v918 : Ref sig .tc := ⟨.hbm, 1029, rfl⟩
abbrev main_v919 : Ref sig .tc := ⟨.hbm, 1030, rfl⟩
abbrev main_v920 : Ref sig .tc := ⟨.hbm, 1031, rfl⟩
abbrev main_v921 : Ref sig .tc := ⟨.hbm, 1032, rfl⟩
abbrev main_v922 : Ref sig .tc := ⟨.hbm, 1033, rfl⟩
abbrev main_v923 : Ref sig .tc := ⟨.hbm, 1034, rfl⟩
abbrev main_v924 : Ref sig .tc := ⟨.hbm, 1035, rfl⟩
abbrev main_c_102 : Ref sig .tc := ⟨.hbm, 1036, rfl⟩
abbrev main_v925 : Ref sig .tc := ⟨.hbm, 1037, rfl⟩
abbrev main_v926 : Ref sig .tc := ⟨.hbm, 1038, rfl⟩
abbrev main_v927 : Ref sig .tc := ⟨.hbm, 1039, rfl⟩
abbrev main_v928 : Ref sig .tc := ⟨.hbm, 1040, rfl⟩
abbrev main_v929 : Ref sig .tc := ⟨.hbm, 1041, rfl⟩
abbrev main_v930 : Ref sig .tc := ⟨.hbm, 1042, rfl⟩
abbrev main_v931 : Ref sig .tc := ⟨.hbm, 1043, rfl⟩
abbrev main_v932 : Ref sig .tc := ⟨.hbm, 1044, rfl⟩
abbrev main_cst_103 : Ref sig .tc := ⟨.hbm, 1045, rfl⟩
abbrev main_v933 : Ref sig .tc := ⟨.hbm, 1046, rfl⟩
abbrev main_v934 : Ref sig .tc := ⟨.hbm, 1047, rfl⟩
abbrev main_v935 : Ref sig .tc := ⟨.hbm, 1048, rfl⟩
abbrev main_v936 : Ref sig .tc := ⟨.hbm, 1049, rfl⟩
abbrev main_v937 : Ref sig .tc := ⟨.hbm, 1050, rfl⟩
abbrev main_v938 : Ref sig .tc := ⟨.hbm, 1051, rfl⟩
abbrev main_v939 : Ref sig .tc := ⟨.hbm, 1052, rfl⟩
abbrev main_v940 : Ref sig .tc := ⟨.hbm, 1053, rfl⟩
abbrev main_v941 : Ref sig .tc := ⟨.hbm, 1054, rfl⟩
abbrev main_v942 : Ref sig .tc := ⟨.hbm, 1055, rfl⟩
abbrev main_c_104 : Ref sig .tc := ⟨.hbm, 1056, rfl⟩
abbrev main_v943 : Ref sig .tc := ⟨.hbm, 1057, rfl⟩
abbrev main_v944 : Ref sig .tc := ⟨.hbm, 1058, rfl⟩
abbrev main_v945 : Ref sig .tc := ⟨.hbm, 1059, rfl⟩
abbrev main_v946 : Ref sig .tc := ⟨.hbm, 1060, rfl⟩
abbrev main_v947 : Ref sig .tc := ⟨.hbm, 1061, rfl⟩
abbrev main_v948 : Ref sig .tc := ⟨.hbm, 1062, rfl⟩
abbrev main_v949 : Ref sig .tc := ⟨.hbm, 1063, rfl⟩
abbrev main_v950 : Ref sig .tc := ⟨.hbm, 1064, rfl⟩
abbrev main_cst_105 : Ref sig .tc := ⟨.hbm, 1065, rfl⟩
abbrev main_v951 : Ref sig .tc := ⟨.hbm, 1066, rfl⟩
abbrev main_v952 : Ref sig .tc := ⟨.hbm, 1067, rfl⟩
abbrev main_v953 : Ref sig .tc := ⟨.hbm, 1068, rfl⟩
abbrev main_v954 : Ref sig .tc := ⟨.hbm, 1069, rfl⟩
abbrev main_v955 : Ref sig .tc := ⟨.hbm, 1070, rfl⟩
abbrev main_v956 : Ref sig .tc := ⟨.hbm, 1071, rfl⟩
abbrev main_v957 : Ref sig .tc := ⟨.hbm, 1072, rfl⟩
abbrev main_v958 : Ref sig .tc := ⟨.hbm, 1073, rfl⟩
abbrev main_v959 : Ref sig .tc := ⟨.hbm, 1074, rfl⟩
abbrev main_v960 : Ref sig .tc := ⟨.hbm, 1075, rfl⟩
abbrev main_c_106 : Ref sig .tc := ⟨.hbm, 1076, rfl⟩
abbrev main_v961 : Ref sig .tc := ⟨.hbm, 1077, rfl⟩
abbrev main_v962 : Ref sig .tc := ⟨.hbm, 1078, rfl⟩
abbrev main_v963 : Ref sig .tc := ⟨.hbm, 1079, rfl⟩
abbrev main_v964 : Ref sig .tc := ⟨.hbm, 1080, rfl⟩
abbrev main_v965 : Ref sig .tc := ⟨.hbm, 1081, rfl⟩
abbrev main_v966 : Ref sig .tc := ⟨.hbm, 1082, rfl⟩
abbrev main_v967 : Ref sig .tc := ⟨.hbm, 1083, rfl⟩
abbrev main_v968 : Ref sig .tc := ⟨.hbm, 1084, rfl⟩
abbrev main_cst_107 : Ref sig .tc := ⟨.hbm, 1085, rfl⟩
abbrev main_v969 : Ref sig .tc := ⟨.hbm, 1086, rfl⟩
abbrev main_v970 : Ref sig .tc := ⟨.hbm, 1087, rfl⟩
abbrev main_v971 : Ref sig .tc := ⟨.hbm, 1088, rfl⟩
abbrev main_v972 : Ref sig .tc := ⟨.hbm, 1089, rfl⟩
abbrev main_v973 : Ref sig .tc := ⟨.hbm, 1090, rfl⟩
abbrev main_v974 : Ref sig .tc := ⟨.hbm, 1091, rfl⟩
abbrev main_v975 : Ref sig .tc := ⟨.hbm, 1092, rfl⟩
abbrev main_v976 : Ref sig .tc := ⟨.hbm, 1093, rfl⟩
abbrev main_v977 : Ref sig .tc := ⟨.hbm, 1094, rfl⟩
abbrev main_v978 : Ref sig .tc := ⟨.hbm, 1095, rfl⟩
abbrev main_c_108 : Ref sig .tc := ⟨.hbm, 1096, rfl⟩
abbrev main_v979 : Ref sig .tc := ⟨.hbm, 1097, rfl⟩
abbrev main_v980 : Ref sig .tc := ⟨.hbm, 1098, rfl⟩
abbrev main_v981 : Ref sig .tc := ⟨.hbm, 1099, rfl⟩
abbrev main_v982 : Ref sig .tc := ⟨.hbm, 1100, rfl⟩
abbrev main_v983 : Ref sig .tc := ⟨.hbm, 1101, rfl⟩
abbrev main_v984 : Ref sig .tc := ⟨.hbm, 1102, rfl⟩
abbrev main_v985 : Ref sig .tc := ⟨.hbm, 1103, rfl⟩
abbrev main_v986 : Ref sig .tc := ⟨.hbm, 1104, rfl⟩
abbrev main_cst_109 : Ref sig .tc := ⟨.hbm, 1105, rfl⟩
abbrev main_v987 : Ref sig .tc := ⟨.hbm, 1106, rfl⟩
abbrev main_v988 : Ref sig .tc := ⟨.hbm, 1107, rfl⟩
abbrev main_v989 : Ref sig .tc := ⟨.hbm, 1108, rfl⟩
abbrev main_v990 : Ref sig .tc := ⟨.hbm, 1109, rfl⟩
abbrev main_v991 : Ref sig .tc := ⟨.hbm, 1110, rfl⟩
abbrev main_v992 : Ref sig .tc := ⟨.hbm, 1111, rfl⟩
abbrev main_v993 : Ref sig .tc := ⟨.hbm, 1112, rfl⟩
abbrev main_v994 : Ref sig .tc := ⟨.hbm, 1113, rfl⟩
abbrev main_v995 : Ref sig .tc := ⟨.hbm, 1114, rfl⟩
abbrev main_v996 : Ref sig .tc := ⟨.hbm, 1115, rfl⟩
abbrev main_c_110 : Ref sig .tc := ⟨.hbm, 1116, rfl⟩
abbrev main_v997 : Ref sig .tc := ⟨.hbm, 1117, rfl⟩
abbrev main_v998 : Ref sig .tc := ⟨.hbm, 1118, rfl⟩
abbrev main_v999 : Ref sig .tc := ⟨.hbm, 1119, rfl⟩
abbrev main_v1000 : Ref sig .tc := ⟨.hbm, 1120, rfl⟩
abbrev main_v1001 : Ref sig .tc := ⟨.hbm, 1121, rfl⟩
abbrev main_v1002 : Ref sig .tc := ⟨.hbm, 1122, rfl⟩
abbrev main_v1003 : Ref sig .tc := ⟨.hbm, 1123, rfl⟩
abbrev main_v1004 : Ref sig .tc := ⟨.hbm, 1124, rfl⟩
abbrev main_cst_111 : Ref sig .tc := ⟨.hbm, 1125, rfl⟩
abbrev main_v1005 : Ref sig .tc := ⟨.hbm, 1126, rfl⟩
abbrev main_v1006 : Ref sig .tc := ⟨.hbm, 1127, rfl⟩
abbrev main_v1007 : Ref sig .tc := ⟨.hbm, 1128, rfl⟩
abbrev main_v1008 : Ref sig .tc := ⟨.hbm, 1129, rfl⟩
abbrev main_v1009 : Ref sig .tc := ⟨.hbm, 1130, rfl⟩
abbrev main_v1010 : Ref sig .tc := ⟨.hbm, 1131, rfl⟩
abbrev main_v1011 : Ref sig .tc := ⟨.hbm, 1132, rfl⟩
abbrev main_v1012 : Ref sig .tc := ⟨.hbm, 1133, rfl⟩
abbrev main_v1013 : Ref sig .tc := ⟨.hbm, 1134, rfl⟩
abbrev main_v1014 : Ref sig .tc := ⟨.hbm, 1135, rfl⟩
abbrev main_c_112 : Ref sig .tc := ⟨.hbm, 1136, rfl⟩
abbrev main_v1015 : Ref sig .tc := ⟨.hbm, 1137, rfl⟩
abbrev main_v1016 : Ref sig .tc := ⟨.hbm, 1138, rfl⟩
abbrev main_v1017 : Ref sig .tc := ⟨.hbm, 1139, rfl⟩
abbrev main_v1018 : Ref sig .tc := ⟨.hbm, 1140, rfl⟩
abbrev main_v1019 : Ref sig .tc := ⟨.hbm, 1141, rfl⟩
abbrev main_v1020 : Ref sig .tc := ⟨.hbm, 1142, rfl⟩
abbrev main_v1021 : Ref sig .tc := ⟨.hbm, 1143, rfl⟩
abbrev main_v1022 : Ref sig .tc := ⟨.hbm, 1144, rfl⟩
abbrev main_cst_113 : Ref sig .tc := ⟨.hbm, 1145, rfl⟩
abbrev main_v1023 : Ref sig .tc := ⟨.hbm, 1146, rfl⟩
abbrev main_v1024 : Ref sig .tc := ⟨.hbm, 1147, rfl⟩
abbrev main_v1025 : Ref sig .tc := ⟨.hbm, 1148, rfl⟩
abbrev main_v1026 : Ref sig .tc := ⟨.hbm, 1149, rfl⟩
abbrev main_v1027 : Ref sig .tc := ⟨.hbm, 1150, rfl⟩
abbrev main_v1028 : Ref sig .tc := ⟨.hbm, 1151, rfl⟩
abbrev main_v1029 : Ref sig .tc := ⟨.hbm, 1152, rfl⟩
abbrev main_v1030 : Ref sig .tc := ⟨.hbm, 1153, rfl⟩
abbrev main_v1031 : Ref sig .tc := ⟨.hbm, 1154, rfl⟩
abbrev main_v1032 : Ref sig .tc := ⟨.hbm, 1155, rfl⟩
abbrev main_c_114 : Ref sig .tc := ⟨.hbm, 1156, rfl⟩
abbrev main_v1033 : Ref sig .tc := ⟨.hbm, 1157, rfl⟩
abbrev main_v1034 : Ref sig .tc := ⟨.hbm, 1158, rfl⟩
abbrev main_v1035 : Ref sig .tc := ⟨.hbm, 1159, rfl⟩
abbrev main_v1036 : Ref sig .tc := ⟨.hbm, 1160, rfl⟩
abbrev main_v1037 : Ref sig .tc := ⟨.hbm, 1161, rfl⟩
abbrev main_v1038 : Ref sig .tc := ⟨.hbm, 1162, rfl⟩
abbrev main_v1039 : Ref sig .tc := ⟨.hbm, 1163, rfl⟩
abbrev main_v1040 : Ref sig .tc := ⟨.hbm, 1164, rfl⟩
abbrev main_cst_115 : Ref sig .tc := ⟨.hbm, 1165, rfl⟩
abbrev main_v1041 : Ref sig .tc := ⟨.hbm, 1166, rfl⟩
abbrev main_v1042 : Ref sig .tc := ⟨.hbm, 1167, rfl⟩
abbrev main_v1043 : Ref sig .tc := ⟨.hbm, 1168, rfl⟩
abbrev main_v1044 : Ref sig .tc := ⟨.hbm, 1169, rfl⟩
abbrev main_v1045 : Ref sig .tc := ⟨.hbm, 1170, rfl⟩
abbrev main_v1046 : Ref sig .tc := ⟨.hbm, 1171, rfl⟩
abbrev main_v1047 : Ref sig .tc := ⟨.hbm, 1172, rfl⟩
abbrev main_v1048 : Ref sig .tc := ⟨.hbm, 1173, rfl⟩
abbrev main_v1049 : Ref sig .tc := ⟨.hbm, 1174, rfl⟩
abbrev main_v1050 : Ref sig .tc := ⟨.hbm, 1175, rfl⟩
abbrev main_c_116 : Ref sig .tc := ⟨.hbm, 1176, rfl⟩
abbrev main_v1051 : Ref sig .tc := ⟨.hbm, 1177, rfl⟩
abbrev main_v1052 : Ref sig .tc := ⟨.hbm, 1178, rfl⟩
abbrev main_v1053 : Ref sig .tc := ⟨.hbm, 1179, rfl⟩
abbrev main_v1054 : Ref sig .tc := ⟨.hbm, 1180, rfl⟩
abbrev main_v1055 : Ref sig .tc := ⟨.hbm, 1181, rfl⟩
abbrev main_v1056 : Ref sig .tc := ⟨.hbm, 1182, rfl⟩
abbrev main_v1057 : Ref sig .tc := ⟨.hbm, 1183, rfl⟩
abbrev main_v1058 : Ref sig .tc := ⟨.hbm, 1184, rfl⟩
abbrev main_cst_117 : Ref sig .tc := ⟨.hbm, 1185, rfl⟩
abbrev main_v1059 : Ref sig .tc := ⟨.hbm, 1186, rfl⟩
abbrev main_v1060 : Ref sig .tc := ⟨.hbm, 1187, rfl⟩
abbrev main_v1061 : Ref sig .tc := ⟨.hbm, 1188, rfl⟩
abbrev main_v1062 : Ref sig .tc := ⟨.hbm, 1189, rfl⟩
abbrev main_v1063 : Ref sig .tc := ⟨.hbm, 1190, rfl⟩
abbrev main_v1064 : Ref sig .tc := ⟨.hbm, 1191, rfl⟩
abbrev main_v1065 : Ref sig .tc := ⟨.hbm, 1192, rfl⟩
abbrev main_v1066 : Ref sig .tc := ⟨.hbm, 1193, rfl⟩
abbrev main_v1067 : Ref sig .tc := ⟨.hbm, 1194, rfl⟩
abbrev main_v1068 : Ref sig .tc := ⟨.hbm, 1195, rfl⟩
abbrev main_c_118 : Ref sig .tc := ⟨.hbm, 1196, rfl⟩
abbrev main_v1069 : Ref sig .tc := ⟨.hbm, 1197, rfl⟩
abbrev main_v1070 : Ref sig .tc := ⟨.hbm, 1198, rfl⟩
abbrev main_v1071 : Ref sig .tc := ⟨.hbm, 1199, rfl⟩
abbrev main_v1072 : Ref sig .tc := ⟨.hbm, 1200, rfl⟩
abbrev main_v1073 : Ref sig .tc := ⟨.hbm, 1201, rfl⟩
abbrev main_v1074 : Ref sig .tc := ⟨.hbm, 1202, rfl⟩
abbrev main_v1075 : Ref sig .tc := ⟨.hbm, 1203, rfl⟩
abbrev main_v1076 : Ref sig .tc := ⟨.hbm, 1204, rfl⟩
abbrev main_cst_119 : Ref sig .tc := ⟨.hbm, 1205, rfl⟩
abbrev main_v1077 : Ref sig .tc := ⟨.hbm, 1206, rfl⟩
abbrev main_v1078 : Ref sig .tc := ⟨.hbm, 1207, rfl⟩
abbrev main_v1079 : Ref sig .tc := ⟨.hbm, 1208, rfl⟩
abbrev main_v1080 : Ref sig .tc := ⟨.hbm, 1209, rfl⟩
abbrev main_v1081 : Ref sig .tc := ⟨.hbm, 1210, rfl⟩
abbrev main_v1082 : Ref sig .tc := ⟨.hbm, 1211, rfl⟩
abbrev main_v1083 : Ref sig .tc := ⟨.hbm, 1212, rfl⟩
abbrev main_v1084 : Ref sig .tc := ⟨.hbm, 1213, rfl⟩
abbrev main_v1085 : Ref sig .tc := ⟨.hbm, 1214, rfl⟩
abbrev main_v1086 : Ref sig .tc := ⟨.hbm, 1215, rfl⟩
abbrev main_c_120 : Ref sig .tc := ⟨.hbm, 1216, rfl⟩
abbrev main_v1087 : Ref sig .tc := ⟨.hbm, 1217, rfl⟩
abbrev main_v1088 : Ref sig .tc := ⟨.hbm, 1218, rfl⟩
abbrev main_v1089 : Ref sig .tc := ⟨.hbm, 1219, rfl⟩
abbrev main_v1090 : Ref sig .tc := ⟨.hbm, 1220, rfl⟩
abbrev main_v1091 : Ref sig .tc := ⟨.hbm, 1221, rfl⟩
abbrev main_v1092 : Ref sig .tc := ⟨.hbm, 1222, rfl⟩
abbrev main_v1093 : Ref sig .tc := ⟨.hbm, 1223, rfl⟩
abbrev main_v1094 : Ref sig .tc := ⟨.hbm, 1224, rfl⟩
abbrev main_cst_121 : Ref sig .tc := ⟨.hbm, 1225, rfl⟩
abbrev main_v1095 : Ref sig .tc := ⟨.hbm, 1226, rfl⟩
abbrev main_v1096 : Ref sig .tc := ⟨.hbm, 1227, rfl⟩
abbrev main_v1097 : Ref sig .tc := ⟨.hbm, 1228, rfl⟩
abbrev main_v1098 : Ref sig .tc := ⟨.hbm, 1229, rfl⟩
abbrev main_v1099 : Ref sig .tc := ⟨.hbm, 1230, rfl⟩
abbrev main_v1100 : Ref sig .tc := ⟨.hbm, 1231, rfl⟩
abbrev main_v1101 : Ref sig .tc := ⟨.hbm, 1232, rfl⟩
abbrev main_v1102 : Ref sig .tc := ⟨.hbm, 1233, rfl⟩
abbrev main_v1103 : Ref sig .tc := ⟨.hbm, 1234, rfl⟩
abbrev main_v1104 : Ref sig .tc := ⟨.hbm, 1235, rfl⟩
abbrev main_c_122 : Ref sig .tc := ⟨.hbm, 1236, rfl⟩
abbrev main_v1105 : Ref sig .tc := ⟨.hbm, 1237, rfl⟩
abbrev main_v1106 : Ref sig .tc := ⟨.hbm, 1238, rfl⟩
abbrev main_v1107 : Ref sig .tc := ⟨.hbm, 1239, rfl⟩
abbrev main_v1108 : Ref sig .tc := ⟨.hbm, 1240, rfl⟩
abbrev main_v1109 : Ref sig .tc := ⟨.hbm, 1241, rfl⟩
abbrev main_v1110 : Ref sig .tc := ⟨.hbm, 1242, rfl⟩
abbrev main_v1111 : Ref sig .tc := ⟨.hbm, 1243, rfl⟩
abbrev main_v1112 : Ref sig .tc := ⟨.hbm, 1244, rfl⟩
abbrev main_cst_123 : Ref sig .tc := ⟨.hbm, 1245, rfl⟩
abbrev main_v1113 : Ref sig .tc := ⟨.hbm, 1246, rfl⟩
abbrev main_v1114 : Ref sig .tc := ⟨.hbm, 1247, rfl⟩
abbrev main_v1115 : Ref sig .tc := ⟨.hbm, 1248, rfl⟩
abbrev main_v1116 : Ref sig .tc := ⟨.hbm, 1249, rfl⟩
abbrev main_v1117 : Ref sig .tc := ⟨.hbm, 1250, rfl⟩
abbrev main_v1118 : Ref sig .tc := ⟨.hbm, 1251, rfl⟩
abbrev main_v1119 : Ref sig .tc := ⟨.hbm, 1252, rfl⟩
abbrev main_v1120 : Ref sig .tc := ⟨.hbm, 1253, rfl⟩
abbrev main_v1121 : Ref sig .tc := ⟨.hbm, 1254, rfl⟩
abbrev main_v1122 : Ref sig .tc := ⟨.hbm, 1255, rfl⟩
abbrev main_c_124 : Ref sig .tc := ⟨.hbm, 1256, rfl⟩
abbrev main_v1123 : Ref sig .tc := ⟨.hbm, 1257, rfl⟩
abbrev main_v1124 : Ref sig .tc := ⟨.hbm, 1258, rfl⟩
abbrev main_v1125 : Ref sig .tc := ⟨.hbm, 1259, rfl⟩
abbrev main_v1126 : Ref sig .tc := ⟨.hbm, 1260, rfl⟩
abbrev main_v1127 : Ref sig .tc := ⟨.hbm, 1261, rfl⟩
abbrev main_v1128 : Ref sig .tc := ⟨.hbm, 1262, rfl⟩
abbrev main_v1129 : Ref sig .tc := ⟨.hbm, 1263, rfl⟩
abbrev main_v1130 : Ref sig .tc := ⟨.hbm, 1264, rfl⟩
abbrev main_cst_125 : Ref sig .tc := ⟨.hbm, 1265, rfl⟩
abbrev main_v1131 : Ref sig .tc := ⟨.hbm, 1266, rfl⟩
abbrev main_v1132 : Ref sig .tc := ⟨.hbm, 1267, rfl⟩
abbrev main_v1133 : Ref sig .tc := ⟨.hbm, 1268, rfl⟩
abbrev main_v1134 : Ref sig .tc := ⟨.hbm, 1269, rfl⟩
abbrev main_v1135 : Ref sig .tc := ⟨.hbm, 1270, rfl⟩
abbrev main_v1136 : Ref sig .tc := ⟨.hbm, 1271, rfl⟩
abbrev main_v1137 : Ref sig .tc := ⟨.hbm, 1272, rfl⟩
abbrev main_v1138 : Ref sig .tc := ⟨.hbm, 1273, rfl⟩
abbrev main_v1139 : Ref sig .tc := ⟨.hbm, 1274, rfl⟩
abbrev main_v1140 : Ref sig .tc := ⟨.hbm, 1275, rfl⟩
abbrev main_c_126 : Ref sig .tc := ⟨.hbm, 1276, rfl⟩
abbrev main_v1141 : Ref sig .tc := ⟨.hbm, 1277, rfl⟩
abbrev main_v1142 : Ref sig .tc := ⟨.hbm, 1278, rfl⟩
abbrev main_v1143 : Ref sig .tc := ⟨.hbm, 1279, rfl⟩
abbrev main_v1144 : Ref sig .tc := ⟨.hbm, 1280, rfl⟩
abbrev main_v1145 : Ref sig .tc := ⟨.hbm, 1281, rfl⟩
abbrev main_v1146 : Ref sig .tc := ⟨.hbm, 1282, rfl⟩
abbrev main_v1147 : Ref sig .tc := ⟨.hbm, 1283, rfl⟩
abbrev main_v1148 : Ref sig .tc := ⟨.hbm, 1284, rfl⟩
abbrev main_cst_127 : Ref sig .tc := ⟨.hbm, 1285, rfl⟩
abbrev main_v1149 : Ref sig .tc := ⟨.hbm, 1286, rfl⟩
abbrev main_v1150 : Ref sig .tc := ⟨.hbm, 1287, rfl⟩
abbrev main_v1151 : Ref sig .tc := ⟨.hbm, 1288, rfl⟩
abbrev main_v1152 : Ref sig .tc := ⟨.hbm, 1289, rfl⟩
abbrev main_v1153 : Ref sig .tc := ⟨.hbm, 1290, rfl⟩
abbrev main_v1154 : Ref sig .tc := ⟨.hbm, 1291, rfl⟩
abbrev main_v1155 : Ref sig .tc := ⟨.hbm, 1292, rfl⟩
abbrev main_v1156 : Ref sig .tc := ⟨.hbm, 1293, rfl⟩
abbrev main_v1157 : Ref sig .tc := ⟨.hbm, 1294, rfl⟩
abbrev main_v1158 : Ref sig .tc := ⟨.hbm, 1295, rfl⟩
abbrev main_c_128 : Ref sig .tc := ⟨.hbm, 1296, rfl⟩
abbrev main_v1159 : Ref sig .tc := ⟨.hbm, 1297, rfl⟩
abbrev main_v1160 : Ref sig .tc := ⟨.hbm, 1298, rfl⟩
abbrev main_v1161 : Ref sig .tc := ⟨.hbm, 1299, rfl⟩
abbrev main_v1162 : Ref sig .tc := ⟨.hbm, 1300, rfl⟩
abbrev main_v1163 : Ref sig .tc := ⟨.hbm, 1301, rfl⟩
abbrev main_v1164 : Ref sig .tc := ⟨.hbm, 1302, rfl⟩
abbrev main_v1165 : Ref sig .tc := ⟨.hbm, 1303, rfl⟩
abbrev main_v1166 : Ref sig .tc := ⟨.hbm, 1304, rfl⟩
abbrev main_cst_129 : Ref sig .tc := ⟨.hbm, 1305, rfl⟩
abbrev main_v1167 : Ref sig .tc := ⟨.hbm, 1306, rfl⟩
abbrev main_v1168 : Ref sig .tc := ⟨.hbm, 1307, rfl⟩
abbrev main_v1169 : Ref sig .tc := ⟨.hbm, 1308, rfl⟩
abbrev main_v1170 : Ref sig .tc := ⟨.hbm, 1309, rfl⟩
abbrev main_v1171 : Ref sig .tc := ⟨.hbm, 1310, rfl⟩
abbrev main_v1172 : Ref sig .tc := ⟨.hbm, 1311, rfl⟩
abbrev main_v1173 : Ref sig .tc := ⟨.hbm, 1312, rfl⟩
abbrev main_v1174 : Ref sig .tc := ⟨.hbm, 1313, rfl⟩
abbrev main_v1175 : Ref sig .tc := ⟨.hbm, 1314, rfl⟩
abbrev main_v1176 : Ref sig .tc := ⟨.hbm, 1315, rfl⟩
abbrev main_c_130 : Ref sig .tc := ⟨.hbm, 1316, rfl⟩
abbrev main_v1177 : Ref sig .tc := ⟨.hbm, 1317, rfl⟩
abbrev main_v1178 : Ref sig .tc := ⟨.hbm, 1318, rfl⟩
abbrev main_v1179 : Ref sig .tc := ⟨.hbm, 1319, rfl⟩
abbrev main_v1180 : Ref sig .tc := ⟨.hbm, 1320, rfl⟩
abbrev main_v1181 : Ref sig .tc := ⟨.hbm, 1321, rfl⟩
abbrev main_v1182 : Ref sig .tc := ⟨.hbm, 1322, rfl⟩
abbrev main_v1183 : Ref sig .tc := ⟨.hbm, 1323, rfl⟩
abbrev main_v1184 : Ref sig .tc := ⟨.hbm, 1324, rfl⟩
abbrev main_cst_131 : Ref sig .tc := ⟨.hbm, 1325, rfl⟩
abbrev main_v1185 : Ref sig .tc := ⟨.hbm, 1326, rfl⟩
abbrev main_v1186 : Ref sig .tc := ⟨.hbm, 1327, rfl⟩
abbrev main_v1187 : Ref sig .tc := ⟨.hbm, 1328, rfl⟩
abbrev main_v1188 : Ref sig .tc := ⟨.hbm, 1329, rfl⟩
abbrev main_v1189 : Ref sig .tc := ⟨.hbm, 1330, rfl⟩
abbrev main_v1190 : Ref sig .tc := ⟨.hbm, 1331, rfl⟩
abbrev main_v1191 : Ref sig .tc := ⟨.hbm, 1332, rfl⟩
abbrev main_v1192 : Ref sig .tc := ⟨.hbm, 1333, rfl⟩
abbrev main_v1193 : Ref sig .tc := ⟨.hbm, 1334, rfl⟩
abbrev main_v1194 : Ref sig .tc := ⟨.hbm, 1335, rfl⟩
abbrev main_c_132 : Ref sig .tc := ⟨.hbm, 1336, rfl⟩
abbrev main_v1195 : Ref sig .tc := ⟨.hbm, 1337, rfl⟩
abbrev main_v1196 : Ref sig .tc := ⟨.hbm, 1338, rfl⟩
abbrev main_v1197 : Ref sig .tc := ⟨.hbm, 1339, rfl⟩
abbrev main_v1198 : Ref sig .tc := ⟨.hbm, 1340, rfl⟩
abbrev main_v1199 : Ref sig .tc := ⟨.hbm, 1341, rfl⟩
abbrev main_v1200 : Ref sig .tc := ⟨.hbm, 1342, rfl⟩
abbrev main_v1201 : Ref sig .tc := ⟨.hbm, 1343, rfl⟩
abbrev main_v1202 : Ref sig .tc := ⟨.hbm, 1344, rfl⟩
abbrev main_cst_133 : Ref sig .tc := ⟨.hbm, 1345, rfl⟩
abbrev main_v1203 : Ref sig .tc := ⟨.hbm, 1346, rfl⟩
abbrev main_v1204 : Ref sig .tc := ⟨.hbm, 1347, rfl⟩
abbrev main_v1205 : Ref sig .tc := ⟨.hbm, 1348, rfl⟩
abbrev main_v1206 : Ref sig .tc := ⟨.hbm, 1349, rfl⟩
abbrev main_v1207 : Ref sig .tc := ⟨.hbm, 1350, rfl⟩
abbrev main_v1208 : Ref sig .tc := ⟨.hbm, 1351, rfl⟩
abbrev main_v1209 : Ref sig .tc := ⟨.hbm, 1352, rfl⟩
abbrev main_v1210 : Ref sig .tc := ⟨.hbm, 1353, rfl⟩
abbrev main_v1211 : Ref sig .tc := ⟨.hbm, 1354, rfl⟩
abbrev main_v1212 : Ref sig .tc := ⟨.hbm, 1355, rfl⟩
abbrev main_c_134 : Ref sig .tc := ⟨.hbm, 1356, rfl⟩
abbrev main_v1213 : Ref sig .tc := ⟨.hbm, 1357, rfl⟩
abbrev main_v1214 : Ref sig .tc := ⟨.hbm, 1358, rfl⟩
abbrev main_v1215 : Ref sig .tc := ⟨.hbm, 1359, rfl⟩
abbrev main_v1216 : Ref sig .tc := ⟨.hbm, 1360, rfl⟩
abbrev main_v1217 : Ref sig .tc := ⟨.hbm, 1361, rfl⟩
abbrev main_v1218 : Ref sig .tc := ⟨.hbm, 1362, rfl⟩
abbrev main_v1219 : Ref sig .tc := ⟨.hbm, 1363, rfl⟩
abbrev main_v1220 : Ref sig .tc := ⟨.hbm, 1364, rfl⟩
abbrev main_cst_135 : Ref sig .tc := ⟨.hbm, 1365, rfl⟩
abbrev main_v1221 : Ref sig .tc := ⟨.hbm, 1366, rfl⟩
abbrev main_v1222 : Ref sig .tc := ⟨.hbm, 1367, rfl⟩
abbrev main_v1223 : Ref sig .tc := ⟨.hbm, 1368, rfl⟩
abbrev main_v1224 : Ref sig .tc := ⟨.hbm, 1369, rfl⟩
abbrev main_v1225 : Ref sig .tc := ⟨.hbm, 1370, rfl⟩
abbrev main_v1226 : Ref sig .tc := ⟨.hbm, 1371, rfl⟩
abbrev main_v1227 : Ref sig .tc := ⟨.hbm, 1372, rfl⟩
abbrev main_v1228 : Ref sig .tc := ⟨.hbm, 1373, rfl⟩
abbrev main_v1229 : Ref sig .tc := ⟨.hbm, 1374, rfl⟩
abbrev main_v1230 : Ref sig .tc := ⟨.hbm, 1375, rfl⟩
abbrev main_c_136 : Ref sig .tc := ⟨.hbm, 1376, rfl⟩
abbrev main_v1231 : Ref sig .tc := ⟨.hbm, 1377, rfl⟩
abbrev main_v1232 : Ref sig .tc := ⟨.hbm, 1378, rfl⟩
abbrev main_v1233 : Ref sig .tc := ⟨.hbm, 1379, rfl⟩
abbrev main_v1234 : Ref sig .tc := ⟨.hbm, 1380, rfl⟩
abbrev main_v1235 : Ref sig .tc := ⟨.hbm, 1381, rfl⟩
abbrev main_v1236 : Ref sig .tc := ⟨.hbm, 1382, rfl⟩
abbrev main_v1237 : Ref sig .tc := ⟨.hbm, 1383, rfl⟩
abbrev main_v1238 : Ref sig .tc := ⟨.hbm, 1384, rfl⟩
abbrev main_cst_137 : Ref sig .tc := ⟨.hbm, 1385, rfl⟩
abbrev main_v1239 : Ref sig .tc := ⟨.hbm, 1386, rfl⟩
abbrev main_v1240 : Ref sig .tc := ⟨.hbm, 1387, rfl⟩
abbrev main_v1241 : Ref sig .tc := ⟨.hbm, 1388, rfl⟩
abbrev main_v1242 : Ref sig .tc := ⟨.hbm, 1389, rfl⟩
abbrev main_v1243 : Ref sig .tc := ⟨.hbm, 1390, rfl⟩
abbrev main_v1244 : Ref sig .tc := ⟨.hbm, 1391, rfl⟩
abbrev main_v1245 : Ref sig .tc := ⟨.hbm, 1392, rfl⟩
abbrev main_v1246 : Ref sig .tc := ⟨.hbm, 1393, rfl⟩
abbrev main_v1247 : Ref sig .tc := ⟨.hbm, 1394, rfl⟩
abbrev main_v1248 : Ref sig .tc := ⟨.hbm, 1395, rfl⟩
abbrev main_c_138 : Ref sig .tc := ⟨.hbm, 1396, rfl⟩
abbrev main_v1249 : Ref sig .tc := ⟨.hbm, 1397, rfl⟩
abbrev main_v1250 : Ref sig .tc := ⟨.hbm, 1398, rfl⟩
abbrev main_v1251 : Ref sig .tc := ⟨.hbm, 1399, rfl⟩
abbrev main_v1252 : Ref sig .tc := ⟨.hbm, 1400, rfl⟩
abbrev main_v1253 : Ref sig .tc := ⟨.hbm, 1401, rfl⟩
abbrev main_v1254 : Ref sig .tc := ⟨.hbm, 1402, rfl⟩
abbrev main_v1255 : Ref sig .tc := ⟨.hbm, 1403, rfl⟩
abbrev main_v1256 : Ref sig .tc := ⟨.hbm, 1404, rfl⟩
abbrev main_cst_139 : Ref sig .tc := ⟨.hbm, 1405, rfl⟩
abbrev main_v1257 : Ref sig .tc := ⟨.hbm, 1406, rfl⟩
abbrev main_v1258 : Ref sig .tc := ⟨.hbm, 1407, rfl⟩
abbrev main_v1259 : Ref sig .tc := ⟨.hbm, 1408, rfl⟩
abbrev main_v1260 : Ref sig .tc := ⟨.hbm, 1409, rfl⟩
abbrev main_v1261 : Ref sig .tc := ⟨.hbm, 1410, rfl⟩
abbrev main_v1262 : Ref sig .tc := ⟨.hbm, 1411, rfl⟩
abbrev main_v1263 : Ref sig .tc := ⟨.hbm, 1412, rfl⟩
abbrev main_v1264 : Ref sig .tc := ⟨.hbm, 1413, rfl⟩
abbrev main_v1265 : Ref sig .tc := ⟨.hbm, 1414, rfl⟩
abbrev main_v1266 : Ref sig .tc := ⟨.hbm, 1415, rfl⟩
abbrev main_c_140 : Ref sig .tc := ⟨.hbm, 1416, rfl⟩
abbrev main_v1267 : Ref sig .tc := ⟨.hbm, 1417, rfl⟩
abbrev main_v1268 : Ref sig .tc := ⟨.hbm, 1418, rfl⟩
abbrev main_v1269 : Ref sig .tc := ⟨.hbm, 1419, rfl⟩
abbrev main_v1270 : Ref sig .tc := ⟨.hbm, 1420, rfl⟩
abbrev main_v1271 : Ref sig .tc := ⟨.hbm, 1421, rfl⟩
abbrev main_v1272 : Ref sig .tc := ⟨.hbm, 1422, rfl⟩
abbrev main_v1273 : Ref sig .tc := ⟨.hbm, 1423, rfl⟩
abbrev main_v1274 : Ref sig .tc := ⟨.hbm, 1424, rfl⟩
abbrev main_cst_141 : Ref sig .tc := ⟨.hbm, 1425, rfl⟩
abbrev main_v1275 : Ref sig .tc := ⟨.hbm, 1426, rfl⟩
abbrev main_v1276 : Ref sig .tc := ⟨.hbm, 1427, rfl⟩
abbrev main_v1277 : Ref sig .tc := ⟨.hbm, 1428, rfl⟩
abbrev main_v1278 : Ref sig .tc := ⟨.hbm, 1429, rfl⟩
abbrev main_v1279 : Ref sig .tc := ⟨.hbm, 1430, rfl⟩
abbrev main_v1280 : Ref sig .tc := ⟨.hbm, 1431, rfl⟩
abbrev main_v1281 : Ref sig .tc := ⟨.hbm, 1432, rfl⟩
abbrev main_v1282 : Ref sig .tc := ⟨.hbm, 1433, rfl⟩
abbrev main_v1283 : Ref sig .tc := ⟨.hbm, 1434, rfl⟩
abbrev main_v1284 : Ref sig .tc := ⟨.hbm, 1435, rfl⟩
abbrev main_c_142 : Ref sig .tc := ⟨.hbm, 1436, rfl⟩
abbrev main_v1285 : Ref sig .tc := ⟨.hbm, 1437, rfl⟩
abbrev main_v1286 : Ref sig .tc := ⟨.hbm, 1438, rfl⟩
abbrev main_v1287 : Ref sig .tc := ⟨.hbm, 1439, rfl⟩
abbrev main_v1288 : Ref sig .tc := ⟨.hbm, 1440, rfl⟩
abbrev main_v1289 : Ref sig .tc := ⟨.hbm, 1441, rfl⟩
abbrev main_v1290 : Ref sig .tc := ⟨.hbm, 1442, rfl⟩
abbrev main_v1291 : Ref sig .tc := ⟨.hbm, 1443, rfl⟩
abbrev main_v1292 : Ref sig .tc := ⟨.hbm, 1444, rfl⟩
abbrev main_cst_143 : Ref sig .tc := ⟨.hbm, 1445, rfl⟩
abbrev main_v1293 : Ref sig .tc := ⟨.hbm, 1446, rfl⟩
abbrev main_v1294 : Ref sig .tc := ⟨.hbm, 1447, rfl⟩
abbrev main_v1295 : Ref sig .tc := ⟨.hbm, 1448, rfl⟩
abbrev main_v1296 : Ref sig .tc := ⟨.hbm, 1449, rfl⟩
abbrev main_v1297 : Ref sig .tc := ⟨.hbm, 1450, rfl⟩
abbrev main_v1298 : Ref sig .tc := ⟨.hbm, 1451, rfl⟩
abbrev main_v1299 : Ref sig .tc := ⟨.hbm, 1452, rfl⟩
abbrev main_v1300 : Ref sig .tc := ⟨.hbm, 1453, rfl⟩
abbrev main_v1301 : Ref sig .tc := ⟨.hbm, 1454, rfl⟩
abbrev main_v1302 : Ref sig .tc := ⟨.hbm, 1455, rfl⟩
abbrev main_c_144 : Ref sig .tc := ⟨.hbm, 1456, rfl⟩
abbrev main_v1303 : Ref sig .tc := ⟨.hbm, 1457, rfl⟩
abbrev main_v1304 : Ref sig .tc := ⟨.hbm, 1458, rfl⟩
abbrev main_v1305 : Ref sig .tc := ⟨.hbm, 1459, rfl⟩
abbrev main_v1306 : Ref sig .tc := ⟨.hbm, 1460, rfl⟩
abbrev main_v1307 : Ref sig .tc := ⟨.hbm, 1461, rfl⟩
abbrev main_v1308 : Ref sig .tc := ⟨.hbm, 1462, rfl⟩
abbrev main_v1309 : Ref sig .tc := ⟨.hbm, 1463, rfl⟩
abbrev main_v1310 : Ref sig .tc := ⟨.hbm, 1464, rfl⟩
abbrev main_cst_145 : Ref sig .tc := ⟨.hbm, 1465, rfl⟩
abbrev main_v1311 : Ref sig .tc := ⟨.hbm, 1466, rfl⟩
abbrev main_v1312 : Ref sig .tc := ⟨.hbm, 1467, rfl⟩
abbrev main_v1313 : Ref sig .tc := ⟨.hbm, 1468, rfl⟩
abbrev main_v1314 : Ref sig .tc := ⟨.hbm, 1469, rfl⟩
abbrev main_v1315 : Ref sig .tc := ⟨.hbm, 1470, rfl⟩
abbrev main_v1316 : Ref sig .tc := ⟨.hbm, 1471, rfl⟩
abbrev main_v1317 : Ref sig .tc := ⟨.hbm, 1472, rfl⟩
abbrev main_v1318 : Ref sig .tc := ⟨.hbm, 1473, rfl⟩
abbrev main_v1319 : Ref sig .tc := ⟨.hbm, 1474, rfl⟩
abbrev main_v1320 : Ref sig .tc := ⟨.hbm, 1475, rfl⟩
abbrev main_c_146 : Ref sig .tc := ⟨.hbm, 1476, rfl⟩
abbrev main_v1321 : Ref sig .tc := ⟨.hbm, 1477, rfl⟩
abbrev main_v1322 : Ref sig .tc := ⟨.hbm, 1478, rfl⟩
abbrev main_v1323 : Ref sig .tc := ⟨.hbm, 1479, rfl⟩
abbrev main_v1324 : Ref sig .tc := ⟨.hbm, 1480, rfl⟩
abbrev main_v1325 : Ref sig .tc := ⟨.hbm, 1481, rfl⟩
abbrev main_v1326 : Ref sig .tc := ⟨.hbm, 1482, rfl⟩
abbrev main_v1327 : Ref sig .tc := ⟨.hbm, 1483, rfl⟩
abbrev main_v1328 : Ref sig .tc := ⟨.hbm, 1484, rfl⟩
abbrev main_cst_147 : Ref sig .tc := ⟨.hbm, 1485, rfl⟩
abbrev main_v1329 : Ref sig .tc := ⟨.hbm, 1486, rfl⟩
abbrev main_v1330 : Ref sig .tc := ⟨.hbm, 1487, rfl⟩
abbrev main_v1331 : Ref sig .tc := ⟨.hbm, 1488, rfl⟩
abbrev main_v1332 : Ref sig .tc := ⟨.hbm, 1489, rfl⟩
abbrev main_v1333 : Ref sig .tc := ⟨.hbm, 1490, rfl⟩
abbrev main_v1334 : Ref sig .tc := ⟨.hbm, 1491, rfl⟩
abbrev main_v1335 : Ref sig .tc := ⟨.hbm, 1492, rfl⟩
abbrev main_v1336 : Ref sig .tc := ⟨.hbm, 1493, rfl⟩
abbrev main_v1337 : Ref sig .tc := ⟨.hbm, 1494, rfl⟩
abbrev main_v1338 : Ref sig .tc := ⟨.hbm, 1495, rfl⟩
abbrev main_c_148 : Ref sig .tc := ⟨.hbm, 1496, rfl⟩
abbrev main_v1339 : Ref sig .tc := ⟨.hbm, 1497, rfl⟩
abbrev main_v1340 : Ref sig .tc := ⟨.hbm, 1498, rfl⟩
abbrev main_v1341 : Ref sig .tc := ⟨.hbm, 1499, rfl⟩
abbrev main_v1342 : Ref sig .tc := ⟨.hbm, 1500, rfl⟩
abbrev main_v1343 : Ref sig .tc := ⟨.hbm, 1501, rfl⟩
abbrev main_v1344 : Ref sig .tc := ⟨.hbm, 1502, rfl⟩
abbrev main_v1345 : Ref sig .tc := ⟨.hbm, 1503, rfl⟩
abbrev main_v1346 : Ref sig .tc := ⟨.hbm, 1504, rfl⟩
abbrev main_cst_149 : Ref sig .tc := ⟨.hbm, 1505, rfl⟩
abbrev main_v1347 : Ref sig .tc := ⟨.hbm, 1506, rfl⟩
abbrev main_v1348 : Ref sig .tc := ⟨.hbm, 1507, rfl⟩
abbrev main_v1349 : Ref sig .tc := ⟨.hbm, 1508, rfl⟩
abbrev main_v1350 : Ref sig .tc := ⟨.hbm, 1509, rfl⟩
abbrev main_v1351 : Ref sig .tc := ⟨.hbm, 1510, rfl⟩
abbrev main_v1352 : Ref sig .tc := ⟨.hbm, 1511, rfl⟩
abbrev main_v1353 : Ref sig .tc := ⟨.hbm, 1512, rfl⟩
abbrev main_v1354 : Ref sig .tc := ⟨.hbm, 1513, rfl⟩
abbrev main_v1355 : Ref sig .tc := ⟨.hbm, 1514, rfl⟩
abbrev main_v1356 : Ref sig .tc := ⟨.hbm, 1515, rfl⟩
abbrev main_c_150 : Ref sig .tc := ⟨.hbm, 1516, rfl⟩
abbrev main_v1357 : Ref sig .tc := ⟨.hbm, 1517, rfl⟩
abbrev main_v1358 : Ref sig .tc := ⟨.hbm, 1518, rfl⟩
abbrev main_v1359 : Ref sig .tc := ⟨.hbm, 1519, rfl⟩
abbrev main_v1360 : Ref sig .tc := ⟨.hbm, 1520, rfl⟩
abbrev main_v1361 : Ref sig .tc := ⟨.hbm, 1521, rfl⟩
abbrev main_v1362 : Ref sig .tc := ⟨.hbm, 1522, rfl⟩
abbrev main_v1363 : Ref sig .tc := ⟨.hbm, 1523, rfl⟩
abbrev main_v1364 : Ref sig .tc := ⟨.hbm, 1524, rfl⟩
abbrev main_cst_151 : Ref sig .tc := ⟨.hbm, 1525, rfl⟩
abbrev main_v1365 : Ref sig .tc := ⟨.hbm, 1526, rfl⟩
abbrev main_v1366 : Ref sig .tc := ⟨.hbm, 1527, rfl⟩
abbrev main_v1367 : Ref sig .tc := ⟨.hbm, 1528, rfl⟩
abbrev main_v1368 : Ref sig .tc := ⟨.hbm, 1529, rfl⟩
abbrev main_v1369 : Ref sig .tc := ⟨.hbm, 1530, rfl⟩
abbrev main_v1370 : Ref sig .tc := ⟨.hbm, 1531, rfl⟩
abbrev main_v1371 : Ref sig .tc := ⟨.hbm, 1532, rfl⟩
abbrev main_v1372 : Ref sig .tc := ⟨.hbm, 1533, rfl⟩
abbrev main_v1373 : Ref sig .tc := ⟨.hbm, 1534, rfl⟩
abbrev main_v1374 : Ref sig .tc := ⟨.hbm, 1535, rfl⟩
abbrev main_c_152 : Ref sig .tc := ⟨.hbm, 1536, rfl⟩
abbrev main_v1375 : Ref sig .tc := ⟨.hbm, 1537, rfl⟩
abbrev main_v1376 : Ref sig .tc := ⟨.hbm, 1538, rfl⟩
abbrev main_v1377 : Ref sig .tc := ⟨.hbm, 1539, rfl⟩
abbrev main_v1378 : Ref sig .tc := ⟨.hbm, 1540, rfl⟩
abbrev main_v1379 : Ref sig .tc := ⟨.hbm, 1541, rfl⟩
abbrev main_v1380 : Ref sig .tc := ⟨.hbm, 1542, rfl⟩
abbrev main_v1381 : Ref sig .tc := ⟨.hbm, 1543, rfl⟩
abbrev main_v1382 : Ref sig .tc := ⟨.hbm, 1544, rfl⟩
abbrev main_cst_153 : Ref sig .tc := ⟨.hbm, 1545, rfl⟩
abbrev main_v1383 : Ref sig .tc := ⟨.hbm, 1546, rfl⟩
abbrev main_v1384 : Ref sig .tc := ⟨.hbm, 1547, rfl⟩
abbrev main_v1385 : Ref sig .tc := ⟨.hbm, 1548, rfl⟩
abbrev main_v1386 : Ref sig .tc := ⟨.hbm, 1549, rfl⟩
abbrev main_v1387 : Ref sig .tc := ⟨.hbm, 1550, rfl⟩
abbrev main_v1388 : Ref sig .tc := ⟨.hbm, 1551, rfl⟩
abbrev main_v1389 : Ref sig .tc := ⟨.hbm, 1552, rfl⟩
abbrev main_v1390 : Ref sig .tc := ⟨.hbm, 1553, rfl⟩
abbrev main_v1391 : Ref sig .tc := ⟨.hbm, 1554, rfl⟩
abbrev main_v1392 : Ref sig .tc := ⟨.hbm, 1555, rfl⟩
abbrev main_c_154 : Ref sig .tc := ⟨.hbm, 1556, rfl⟩
abbrev main_v1393 : Ref sig .tc := ⟨.hbm, 1557, rfl⟩
abbrev main_v1394 : Ref sig .tc := ⟨.hbm, 1558, rfl⟩
abbrev main_v1395 : Ref sig .tc := ⟨.hbm, 1559, rfl⟩
abbrev main_v1396 : Ref sig .tc := ⟨.hbm, 1560, rfl⟩
abbrev main_v1397 : Ref sig .tc := ⟨.hbm, 1561, rfl⟩
abbrev main_v1398 : Ref sig .tc := ⟨.hbm, 1562, rfl⟩
abbrev main_v1399 : Ref sig .tc := ⟨.hbm, 1563, rfl⟩
abbrev main_v1400 : Ref sig .tc := ⟨.hbm, 1564, rfl⟩
abbrev main_cst_155 : Ref sig .tc := ⟨.hbm, 1565, rfl⟩
abbrev main_v1401 : Ref sig .tc := ⟨.hbm, 1566, rfl⟩
abbrev main_v1402 : Ref sig .tc := ⟨.hbm, 1567, rfl⟩
abbrev main_v1403 : Ref sig .tc := ⟨.hbm, 1568, rfl⟩
abbrev main_v1404 : Ref sig .tc := ⟨.hbm, 1569, rfl⟩
abbrev main_v1405 : Ref sig .tc := ⟨.hbm, 1570, rfl⟩
abbrev main_v1406 : Ref sig .tc := ⟨.hbm, 1571, rfl⟩
abbrev main_v1407 : Ref sig .tc := ⟨.hbm, 1572, rfl⟩
abbrev main_v1408 : Ref sig .tc := ⟨.hbm, 1573, rfl⟩
abbrev main_v1409 : Ref sig .tc := ⟨.hbm, 1574, rfl⟩
abbrev main_v1410 : Ref sig .tc := ⟨.hbm, 1575, rfl⟩
abbrev main_c_156 : Ref sig .tc := ⟨.hbm, 1576, rfl⟩
abbrev main_v1411 : Ref sig .tc := ⟨.hbm, 1577, rfl⟩
abbrev main_v1412 : Ref sig .tc := ⟨.hbm, 1578, rfl⟩
abbrev main_v1413 : Ref sig .tc := ⟨.hbm, 1579, rfl⟩
abbrev main_v1414 : Ref sig .tc := ⟨.hbm, 1580, rfl⟩
abbrev main_v1415 : Ref sig .tc := ⟨.hbm, 1581, rfl⟩
abbrev main_v1416 : Ref sig .tc := ⟨.hbm, 1582, rfl⟩
abbrev main_v1417 : Ref sig .tc := ⟨.hbm, 1583, rfl⟩
abbrev main_v1418 : Ref sig .tc := ⟨.hbm, 1584, rfl⟩
abbrev main_cst_157 : Ref sig .tc := ⟨.hbm, 1585, rfl⟩
abbrev main_v1419 : Ref sig .tc := ⟨.hbm, 1586, rfl⟩
abbrev main_v1420 : Ref sig .tc := ⟨.hbm, 1587, rfl⟩
abbrev main_v1421 : Ref sig .tc := ⟨.hbm, 1588, rfl⟩
abbrev main_v1422 : Ref sig .tc := ⟨.hbm, 1589, rfl⟩
abbrev main_v1423 : Ref sig .tc := ⟨.hbm, 1590, rfl⟩
abbrev main_v1424 : Ref sig .tc := ⟨.hbm, 1591, rfl⟩
abbrev main_v1425 : Ref sig .tc := ⟨.hbm, 1592, rfl⟩
abbrev main_v1426 : Ref sig .tc := ⟨.hbm, 1593, rfl⟩
abbrev main_v1427 : Ref sig .tc := ⟨.hbm, 1594, rfl⟩
abbrev main_v1428 : Ref sig .tc := ⟨.hbm, 1595, rfl⟩
abbrev main_c_158 : Ref sig .tc := ⟨.hbm, 1596, rfl⟩
abbrev main_v1429 : Ref sig .tc := ⟨.hbm, 1597, rfl⟩
abbrev main_v1430 : Ref sig .tc := ⟨.hbm, 1598, rfl⟩
abbrev main_v1431 : Ref sig .tc := ⟨.hbm, 1599, rfl⟩
abbrev main_v1432 : Ref sig .tc := ⟨.hbm, 1600, rfl⟩
abbrev main_v1433 : Ref sig .tc := ⟨.hbm, 1601, rfl⟩
abbrev main_v1434 : Ref sig .tc := ⟨.hbm, 1602, rfl⟩
abbrev main_v1435 : Ref sig .tc := ⟨.hbm, 1603, rfl⟩
abbrev main_v1436 : Ref sig .tc := ⟨.hbm, 1604, rfl⟩
abbrev main_cst_159 : Ref sig .tc := ⟨.hbm, 1605, rfl⟩
abbrev main_v1437 : Ref sig .tc := ⟨.hbm, 1606, rfl⟩
abbrev main_v1438 : Ref sig .tc := ⟨.hbm, 1607, rfl⟩
abbrev main_v1439 : Ref sig .tc := ⟨.hbm, 1608, rfl⟩
abbrev main_v1440 : Ref sig .tc := ⟨.hbm, 1609, rfl⟩
abbrev main_v1441 : Ref sig .tc := ⟨.hbm, 1610, rfl⟩
abbrev main_v1442 : Ref sig .tc := ⟨.hbm, 1611, rfl⟩
abbrev main_v1443 : Ref sig .tc := ⟨.hbm, 1612, rfl⟩
abbrev main_v1444 : Ref sig .tc := ⟨.hbm, 1613, rfl⟩
abbrev main_v1445 : Ref sig .tc := ⟨.hbm, 1614, rfl⟩
abbrev main_v1446 : Ref sig .tc := ⟨.hbm, 1615, rfl⟩
abbrev main_c_160 : Ref sig .tc := ⟨.hbm, 1616, rfl⟩
abbrev main_v1447 : Ref sig .tc := ⟨.hbm, 1617, rfl⟩
abbrev main_v1448 : Ref sig .tc := ⟨.hbm, 1618, rfl⟩
abbrev main_v1449 : Ref sig .tc := ⟨.hbm, 1619, rfl⟩
abbrev main_v1450 : Ref sig .tc := ⟨.hbm, 1620, rfl⟩
abbrev main_v1451 : Ref sig .tc := ⟨.hbm, 1621, rfl⟩
abbrev main_v1452 : Ref sig .tc := ⟨.hbm, 1622, rfl⟩
abbrev main_v1453 : Ref sig .tc := ⟨.hbm, 1623, rfl⟩
abbrev main_v1454 : Ref sig .tc := ⟨.hbm, 1624, rfl⟩
abbrev main_cst_161 : Ref sig .tc := ⟨.hbm, 1625, rfl⟩
abbrev main_v1455 : Ref sig .tc := ⟨.hbm, 1626, rfl⟩
abbrev main_v1456 : Ref sig .tc := ⟨.hbm, 1627, rfl⟩
abbrev main_v1457 : Ref sig .tc := ⟨.hbm, 1628, rfl⟩
abbrev main_v1458 : Ref sig .tc := ⟨.hbm, 1629, rfl⟩
abbrev main_v1459 : Ref sig .tc := ⟨.hbm, 1630, rfl⟩
abbrev main_v1460 : Ref sig .tc := ⟨.hbm, 1631, rfl⟩
abbrev main_v1461 : Ref sig .tc := ⟨.hbm, 1632, rfl⟩
abbrev main_v1462 : Ref sig .tc := ⟨.hbm, 1633, rfl⟩
abbrev main_v1463 : Ref sig .tc := ⟨.hbm, 1634, rfl⟩
abbrev main_v1464 : Ref sig .tc := ⟨.hbm, 1635, rfl⟩
abbrev main_c_162 : Ref sig .tc := ⟨.hbm, 1636, rfl⟩
abbrev main_v1465 : Ref sig .tc := ⟨.hbm, 1637, rfl⟩
abbrev main_v1466 : Ref sig .tc := ⟨.hbm, 1638, rfl⟩
abbrev main_v1467 : Ref sig .tc := ⟨.hbm, 1639, rfl⟩
abbrev main_v1468 : Ref sig .tc := ⟨.hbm, 1640, rfl⟩
abbrev main_v1469 : Ref sig .tc := ⟨.hbm, 1641, rfl⟩
abbrev main_v1470 : Ref sig .tc := ⟨.hbm, 1642, rfl⟩
abbrev main_v1471 : Ref sig .tc := ⟨.hbm, 1643, rfl⟩
abbrev main_v1472 : Ref sig .tc := ⟨.hbm, 1644, rfl⟩
abbrev main_cst_163 : Ref sig .tc := ⟨.hbm, 1645, rfl⟩
abbrev main_v1473 : Ref sig .tc := ⟨.hbm, 1646, rfl⟩
abbrev main_v1474 : Ref sig .tc := ⟨.hbm, 1647, rfl⟩
abbrev main_v1475 : Ref sig .tc := ⟨.hbm, 1648, rfl⟩
abbrev main_v1476 : Ref sig .tc := ⟨.hbm, 1649, rfl⟩
abbrev main_v1477 : Ref sig .tc := ⟨.hbm, 1650, rfl⟩
abbrev main_v1478 : Ref sig .tc := ⟨.hbm, 1651, rfl⟩
abbrev main_v1479 : Ref sig .tc := ⟨.hbm, 1652, rfl⟩
abbrev main_v1480 : Ref sig .tc := ⟨.hbm, 1653, rfl⟩
abbrev main_v1481 : Ref sig .tc := ⟨.hbm, 1654, rfl⟩
abbrev main_v1482 : Ref sig .tc := ⟨.hbm, 1655, rfl⟩
abbrev main_c_164 : Ref sig .tc := ⟨.hbm, 1656, rfl⟩
abbrev main_v1483 : Ref sig .tc := ⟨.hbm, 1657, rfl⟩
abbrev main_v1484 : Ref sig .tc := ⟨.hbm, 1658, rfl⟩
abbrev main_v1485 : Ref sig .tc := ⟨.hbm, 1659, rfl⟩
abbrev main_v1486 : Ref sig .tc := ⟨.hbm, 1660, rfl⟩
abbrev main_v1487 : Ref sig .tc := ⟨.hbm, 1661, rfl⟩
abbrev main_v1488 : Ref sig .tc := ⟨.hbm, 1662, rfl⟩
abbrev main_v1489 : Ref sig .tc := ⟨.hbm, 1663, rfl⟩
abbrev main_v1490 : Ref sig .tc := ⟨.hbm, 1664, rfl⟩
abbrev main_cst_165 : Ref sig .tc := ⟨.hbm, 1665, rfl⟩
abbrev main_v1491 : Ref sig .tc := ⟨.hbm, 1666, rfl⟩
abbrev main_v1492 : Ref sig .tc := ⟨.hbm, 1667, rfl⟩
abbrev main_v1493 : Ref sig .tc := ⟨.hbm, 1668, rfl⟩
abbrev main_v1494 : Ref sig .tc := ⟨.hbm, 1669, rfl⟩
abbrev main_v1495 : Ref sig .tc := ⟨.hbm, 1670, rfl⟩
abbrev main_v1496 : Ref sig .tc := ⟨.hbm, 1671, rfl⟩
abbrev main_v1497 : Ref sig .tc := ⟨.hbm, 1672, rfl⟩
abbrev main_v1498 : Ref sig .tc := ⟨.hbm, 1673, rfl⟩
abbrev main_v1499 : Ref sig .tc := ⟨.hbm, 1674, rfl⟩
abbrev main_v1500 : Ref sig .tc := ⟨.hbm, 1675, rfl⟩
abbrev main_c_166 : Ref sig .tc := ⟨.hbm, 1676, rfl⟩
abbrev main_v1501 : Ref sig .tc := ⟨.hbm, 1677, rfl⟩
abbrev main_v1502 : Ref sig .tc := ⟨.hbm, 1678, rfl⟩
abbrev main_v1503 : Ref sig .tc := ⟨.hbm, 1679, rfl⟩
abbrev main_v1504 : Ref sig .tc := ⟨.hbm, 1680, rfl⟩
abbrev main_v1505 : Ref sig .tc := ⟨.hbm, 1681, rfl⟩
abbrev main_v1506 : Ref sig .tc := ⟨.hbm, 1682, rfl⟩
abbrev main_v1507 : Ref sig .tc := ⟨.hbm, 1683, rfl⟩
abbrev main_v1508 : Ref sig .tc := ⟨.hbm, 1684, rfl⟩
abbrev main_cst_167 : Ref sig .tc := ⟨.hbm, 1685, rfl⟩
abbrev main_v1509 : Ref sig .tc := ⟨.hbm, 1686, rfl⟩
abbrev main_v1510 : Ref sig .tc := ⟨.hbm, 1687, rfl⟩
abbrev main_v1511 : Ref sig .tc := ⟨.hbm, 1688, rfl⟩
abbrev main_v1512 : Ref sig .tc := ⟨.hbm, 1689, rfl⟩
abbrev main_v1513 : Ref sig .tc := ⟨.hbm, 1690, rfl⟩
abbrev main_v1514 : Ref sig .tc := ⟨.hbm, 1691, rfl⟩
abbrev main_v1515 : Ref sig .tc := ⟨.hbm, 1692, rfl⟩
abbrev main_v1516 : Ref sig .tc := ⟨.hbm, 1693, rfl⟩
abbrev main_v1517 : Ref sig .tc := ⟨.hbm, 1694, rfl⟩
abbrev main_v1518 : Ref sig .tc := ⟨.hbm, 1695, rfl⟩
abbrev main_c_168 : Ref sig .tc := ⟨.hbm, 1696, rfl⟩
abbrev main_v1519 : Ref sig .tc := ⟨.hbm, 1697, rfl⟩
abbrev main_v1520 : Ref sig .tc := ⟨.hbm, 1698, rfl⟩
abbrev main_v1521 : Ref sig .tc := ⟨.hbm, 1699, rfl⟩
abbrev main_v1522 : Ref sig .tc := ⟨.hbm, 1700, rfl⟩
abbrev main_v1523 : Ref sig .tc := ⟨.hbm, 1701, rfl⟩
abbrev main_v1524 : Ref sig .tc := ⟨.hbm, 1702, rfl⟩
abbrev main_v1525 : Ref sig .tc := ⟨.hbm, 1703, rfl⟩
abbrev main_v1526 : Ref sig .tc := ⟨.hbm, 1704, rfl⟩
abbrev main_cst_169 : Ref sig .tc := ⟨.hbm, 1705, rfl⟩
abbrev main_v1527 : Ref sig .tc := ⟨.hbm, 1706, rfl⟩
abbrev main_v1528 : Ref sig .tc := ⟨.hbm, 1707, rfl⟩
abbrev main_v1529 : Ref sig .tc := ⟨.hbm, 1708, rfl⟩
abbrev main_v1530 : Ref sig .tc := ⟨.hbm, 1709, rfl⟩
abbrev main_v1531 : Ref sig .tc := ⟨.hbm, 1710, rfl⟩
abbrev main_v1532 : Ref sig .tc := ⟨.hbm, 1711, rfl⟩
abbrev main_v1533 : Ref sig .tc := ⟨.hbm, 1712, rfl⟩
abbrev main_v1534 : Ref sig .tc := ⟨.hbm, 1713, rfl⟩
abbrev main_v1535 : Ref sig .tc := ⟨.hbm, 1714, rfl⟩
abbrev main_v1536 : Ref sig .tc := ⟨.hbm, 1715, rfl⟩
abbrev main_c_170 : Ref sig .tc := ⟨.hbm, 1716, rfl⟩
abbrev main_v1537 : Ref sig .tc := ⟨.hbm, 1717, rfl⟩
abbrev main_v1538 : Ref sig .tc := ⟨.hbm, 1718, rfl⟩
abbrev main_v1539 : Ref sig .tc := ⟨.hbm, 1719, rfl⟩
abbrev main_v1540 : Ref sig .tc := ⟨.hbm, 1720, rfl⟩
abbrev main_v1541 : Ref sig .tc := ⟨.hbm, 1721, rfl⟩
abbrev main_v1542 : Ref sig .tc := ⟨.hbm, 1722, rfl⟩
abbrev main_v1543 : Ref sig .tc := ⟨.hbm, 1723, rfl⟩
abbrev main_v1544 : Ref sig .tc := ⟨.hbm, 1724, rfl⟩
abbrev main_cst_171 : Ref sig .tc := ⟨.hbm, 1725, rfl⟩
abbrev main_v1545 : Ref sig .tc := ⟨.hbm, 1726, rfl⟩
abbrev main_v1546 : Ref sig .tc := ⟨.hbm, 1727, rfl⟩
abbrev main_v1547 : Ref sig .tc := ⟨.hbm, 1728, rfl⟩
abbrev main_v1548 : Ref sig .tc := ⟨.hbm, 1729, rfl⟩
abbrev main_v1549 : Ref sig .tc := ⟨.hbm, 1730, rfl⟩
abbrev main_v1550 : Ref sig .tc := ⟨.hbm, 1731, rfl⟩
abbrev main_v1551 : Ref sig .tc := ⟨.hbm, 1732, rfl⟩
abbrev main_v1552 : Ref sig .tc := ⟨.hbm, 1733, rfl⟩
abbrev main_v1553 : Ref sig .tc := ⟨.hbm, 1734, rfl⟩
abbrev main_v1554 : Ref sig .tc := ⟨.hbm, 1735, rfl⟩
abbrev main_c_172 : Ref sig .tc := ⟨.hbm, 1736, rfl⟩
abbrev main_v1555 : Ref sig .tc := ⟨.hbm, 1737, rfl⟩
abbrev main_v1556 : Ref sig .tc := ⟨.hbm, 1738, rfl⟩
abbrev main_v1557 : Ref sig .tc := ⟨.hbm, 1739, rfl⟩
abbrev main_v1558 : Ref sig .tc := ⟨.hbm, 1740, rfl⟩
abbrev main_v1559 : Ref sig .tc := ⟨.hbm, 1741, rfl⟩
abbrev main_v1560 : Ref sig .tc := ⟨.hbm, 1742, rfl⟩
abbrev main_v1561 : Ref sig .tc := ⟨.hbm, 1743, rfl⟩
abbrev main_v1562 : Ref sig .tc := ⟨.hbm, 1744, rfl⟩
abbrev main_cst_173 : Ref sig .tc := ⟨.hbm, 1745, rfl⟩
abbrev main_v1563 : Ref sig .tc := ⟨.hbm, 1746, rfl⟩
abbrev main_v1564 : Ref sig .tc := ⟨.hbm, 1747, rfl⟩
abbrev main_v1565 : Ref sig .tc := ⟨.hbm, 1748, rfl⟩
abbrev main_v1566 : Ref sig .tc := ⟨.hbm, 1749, rfl⟩
abbrev main_v1567 : Ref sig .tc := ⟨.hbm, 1750, rfl⟩
abbrev main_v1568 : Ref sig .tc := ⟨.hbm, 1751, rfl⟩
abbrev main_v1569 : Ref sig .tc := ⟨.hbm, 1752, rfl⟩
abbrev main_v1570 : Ref sig .tc := ⟨.hbm, 1753, rfl⟩
abbrev main_v1571 : Ref sig .tc := ⟨.hbm, 1754, rfl⟩
abbrev main_v1572 : Ref sig .tc := ⟨.hbm, 1755, rfl⟩
abbrev main_c_174 : Ref sig .tc := ⟨.hbm, 1756, rfl⟩
abbrev main_v1573 : Ref sig .tc := ⟨.hbm, 1757, rfl⟩
abbrev main_v1574 : Ref sig .tc := ⟨.hbm, 1758, rfl⟩
abbrev main_v1575 : Ref sig .tc := ⟨.hbm, 1759, rfl⟩
abbrev main_v1576 : Ref sig .tc := ⟨.hbm, 1760, rfl⟩
abbrev main_v1577 : Ref sig .tc := ⟨.hbm, 1761, rfl⟩
abbrev main_v1578 : Ref sig .tc := ⟨.hbm, 1762, rfl⟩
abbrev main_v1579 : Ref sig .tc := ⟨.hbm, 1763, rfl⟩
abbrev main_v1580 : Ref sig .tc := ⟨.hbm, 1764, rfl⟩
abbrev main_cst_175 : Ref sig .tc := ⟨.hbm, 1765, rfl⟩
abbrev main_v1581 : Ref sig .tc := ⟨.hbm, 1766, rfl⟩
abbrev main_v1582 : Ref sig .tc := ⟨.hbm, 1767, rfl⟩
abbrev main_v1583 : Ref sig .tc := ⟨.hbm, 1768, rfl⟩
abbrev main_v1584 : Ref sig .tc := ⟨.hbm, 1769, rfl⟩
abbrev main_v1585 : Ref sig .tc := ⟨.hbm, 1770, rfl⟩
abbrev main_v1586 : Ref sig .tc := ⟨.hbm, 1771, rfl⟩
abbrev main_v1587 : Ref sig .tc := ⟨.hbm, 1772, rfl⟩
abbrev main_v1588 : Ref sig .tc := ⟨.hbm, 1773, rfl⟩
abbrev main_v1589 : Ref sig .tc := ⟨.hbm, 1774, rfl⟩
abbrev main_v1590 : Ref sig .tc := ⟨.hbm, 1775, rfl⟩
abbrev main_c_176 : Ref sig .tc := ⟨.hbm, 1776, rfl⟩
abbrev main_v1591 : Ref sig .tc := ⟨.hbm, 1777, rfl⟩
abbrev main_v1592 : Ref sig .tc := ⟨.hbm, 1778, rfl⟩
abbrev main_v1593 : Ref sig .tc := ⟨.hbm, 1779, rfl⟩
abbrev main_v1594 : Ref sig .tc := ⟨.hbm, 1780, rfl⟩
abbrev main_v1595 : Ref sig .tc := ⟨.hbm, 1781, rfl⟩
abbrev main_v1596 : Ref sig .tc := ⟨.hbm, 1782, rfl⟩
abbrev main_v1597 : Ref sig .tc := ⟨.hbm, 1783, rfl⟩
abbrev main_v1598 : Ref sig .tc := ⟨.hbm, 1784, rfl⟩
abbrev main_cst_177 : Ref sig .tc := ⟨.hbm, 1785, rfl⟩
abbrev main_v1599 : Ref sig .tc := ⟨.hbm, 1786, rfl⟩
abbrev main_v1600 : Ref sig .tc := ⟨.hbm, 1787, rfl⟩
abbrev main_v1601 : Ref sig .tc := ⟨.hbm, 1788, rfl⟩
abbrev main_v1602 : Ref sig .tc := ⟨.hbm, 1789, rfl⟩
abbrev main_v1603 : Ref sig .tc := ⟨.hbm, 1790, rfl⟩
abbrev main_v1604 : Ref sig .tc := ⟨.hbm, 1791, rfl⟩
abbrev main_v1605 : Ref sig .tc := ⟨.hbm, 1792, rfl⟩
abbrev main_v1606 : Ref sig .tc := ⟨.hbm, 1793, rfl⟩
abbrev main_v1607 : Ref sig .tc := ⟨.hbm, 1794, rfl⟩
abbrev main_v1608 : Ref sig .tc := ⟨.hbm, 1795, rfl⟩
abbrev main_c_178 : Ref sig .tc := ⟨.hbm, 1796, rfl⟩
abbrev main_v1609 : Ref sig .tc := ⟨.hbm, 1797, rfl⟩
abbrev main_v1610 : Ref sig .tc := ⟨.hbm, 1798, rfl⟩
abbrev main_v1611 : Ref sig .tc := ⟨.hbm, 1799, rfl⟩
abbrev main_v1612 : Ref sig .tc := ⟨.hbm, 1800, rfl⟩
abbrev main_v1613 : Ref sig .tc := ⟨.hbm, 1801, rfl⟩
abbrev main_v1614 : Ref sig .tc := ⟨.hbm, 1802, rfl⟩
abbrev main_v1615 : Ref sig .tc := ⟨.hbm, 1803, rfl⟩
abbrev main_v1616 : Ref sig .tc := ⟨.hbm, 1804, rfl⟩
abbrev main_cst_179 : Ref sig .tc := ⟨.hbm, 1805, rfl⟩
abbrev main_v1617 : Ref sig .tc := ⟨.hbm, 1806, rfl⟩
abbrev main_v1618 : Ref sig .tc := ⟨.hbm, 1807, rfl⟩
abbrev main_v1619 : Ref sig .tc := ⟨.hbm, 1808, rfl⟩
abbrev main_v1620 : Ref sig .tc := ⟨.hbm, 1809, rfl⟩
abbrev main_v1621 : Ref sig .tc := ⟨.hbm, 1810, rfl⟩
abbrev main_v1622 : Ref sig .tc := ⟨.hbm, 1811, rfl⟩
abbrev main_v1623 : Ref sig .tc := ⟨.hbm, 1812, rfl⟩
abbrev main_v1624 : Ref sig .tc := ⟨.hbm, 1813, rfl⟩
abbrev main_v1625 : Ref sig .tc := ⟨.hbm, 1814, rfl⟩
abbrev main_v1626 : Ref sig .tc := ⟨.hbm, 1815, rfl⟩
abbrev main_c_180 : Ref sig .tc := ⟨.hbm, 1816, rfl⟩
abbrev main_v1627 : Ref sig .tc := ⟨.hbm, 1817, rfl⟩
abbrev main_v1628 : Ref sig .tc := ⟨.hbm, 1818, rfl⟩
abbrev main_v1629 : Ref sig .tc := ⟨.hbm, 1819, rfl⟩
abbrev main_v1630 : Ref sig .tc := ⟨.hbm, 1820, rfl⟩
abbrev main_v1631 : Ref sig .tc := ⟨.hbm, 1821, rfl⟩
abbrev main_v1632 : Ref sig .tc := ⟨.hbm, 1822, rfl⟩
abbrev main_v1633 : Ref sig .tc := ⟨.hbm, 1823, rfl⟩
abbrev main_v1634 : Ref sig .tc := ⟨.hbm, 1824, rfl⟩
abbrev main_cst_181 : Ref sig .tc := ⟨.hbm, 1825, rfl⟩
abbrev main_v1635 : Ref sig .tc := ⟨.hbm, 1826, rfl⟩
abbrev main_v1636 : Ref sig .tc := ⟨.hbm, 1827, rfl⟩
abbrev main_v1637 : Ref sig .tc := ⟨.hbm, 1828, rfl⟩
abbrev main_v1638 : Ref sig .tc := ⟨.hbm, 1829, rfl⟩
abbrev main_v1639 : Ref sig .tc := ⟨.hbm, 1830, rfl⟩
abbrev main_v1640 : Ref sig .tc := ⟨.hbm, 1831, rfl⟩
abbrev main_v1641 : Ref sig .tc := ⟨.hbm, 1832, rfl⟩
abbrev main_v1642 : Ref sig .tc := ⟨.hbm, 1833, rfl⟩
abbrev main_v1643 : Ref sig .tc := ⟨.hbm, 1834, rfl⟩
abbrev main_v1644 : Ref sig .tc := ⟨.hbm, 1835, rfl⟩
abbrev main_c_182 : Ref sig .tc := ⟨.hbm, 1836, rfl⟩
abbrev main_v1645 : Ref sig .tc := ⟨.hbm, 1837, rfl⟩
abbrev main_v1646 : Ref sig .tc := ⟨.hbm, 1838, rfl⟩
abbrev main_v1647 : Ref sig .tc := ⟨.hbm, 1839, rfl⟩
abbrev main_v1648 : Ref sig .tc := ⟨.hbm, 1840, rfl⟩
abbrev main_v1649 : Ref sig .tc := ⟨.hbm, 1841, rfl⟩
abbrev main_v1650 : Ref sig .tc := ⟨.hbm, 1842, rfl⟩
abbrev main_v1651 : Ref sig .tc := ⟨.hbm, 1843, rfl⟩
abbrev main_v1652 : Ref sig .tc := ⟨.hbm, 1844, rfl⟩
abbrev main_cst_183 : Ref sig .tc := ⟨.hbm, 1845, rfl⟩
abbrev main_v1653 : Ref sig .tc := ⟨.hbm, 1846, rfl⟩
abbrev main_v1654 : Ref sig .tc := ⟨.hbm, 1847, rfl⟩
abbrev main_v1655 : Ref sig .tc := ⟨.hbm, 1848, rfl⟩
abbrev main_v1656 : Ref sig .tc := ⟨.hbm, 1849, rfl⟩
abbrev main_v1657 : Ref sig .tc := ⟨.hbm, 1850, rfl⟩
abbrev main_v1658 : Ref sig .tc := ⟨.hbm, 1851, rfl⟩
abbrev main_v1659 : Ref sig .tc := ⟨.hbm, 1852, rfl⟩
abbrev main_v1660 : Ref sig .tc := ⟨.hbm, 1853, rfl⟩
abbrev main_v1661 : Ref sig .tc := ⟨.hbm, 1854, rfl⟩
abbrev main_v1662 : Ref sig .tc := ⟨.hbm, 1855, rfl⟩
abbrev main_c_184 : Ref sig .tc := ⟨.hbm, 1856, rfl⟩
abbrev main_v1663 : Ref sig .tc := ⟨.hbm, 1857, rfl⟩
abbrev main_v1664 : Ref sig .tc := ⟨.hbm, 1858, rfl⟩
abbrev main_v1665 : Ref sig .tc := ⟨.hbm, 1859, rfl⟩
abbrev main_v1666 : Ref sig .tc := ⟨.hbm, 1860, rfl⟩
abbrev main_v1667 : Ref sig .tc := ⟨.hbm, 1861, rfl⟩
abbrev main_v1668 : Ref sig .tc := ⟨.hbm, 1862, rfl⟩
abbrev main_v1669 : Ref sig .tc := ⟨.hbm, 1863, rfl⟩
abbrev main_v1670 : Ref sig .tc := ⟨.hbm, 1864, rfl⟩
abbrev main_cst_185 : Ref sig .tc := ⟨.hbm, 1865, rfl⟩
abbrev main_v1671 : Ref sig .tc := ⟨.hbm, 1866, rfl⟩
abbrev main_v1672 : Ref sig .tc := ⟨.hbm, 1867, rfl⟩
abbrev main_v1673 : Ref sig .tc := ⟨.hbm, 1868, rfl⟩
abbrev main_v1674 : Ref sig .tc := ⟨.hbm, 1869, rfl⟩
abbrev main_v1675 : Ref sig .tc := ⟨.hbm, 1870, rfl⟩
abbrev main_v1676 : Ref sig .tc := ⟨.hbm, 1871, rfl⟩
abbrev main_v1677 : Ref sig .tc := ⟨.hbm, 1872, rfl⟩
abbrev main_v1678 : Ref sig .tc := ⟨.hbm, 1873, rfl⟩
abbrev main_v1679 : Ref sig .tc := ⟨.hbm, 1874, rfl⟩
abbrev main_v1680 : Ref sig .tc := ⟨.hbm, 1875, rfl⟩
abbrev main_c_186 : Ref sig .tc := ⟨.hbm, 1876, rfl⟩
abbrev main_v1681 : Ref sig .tc := ⟨.hbm, 1877, rfl⟩
abbrev main_v1682 : Ref sig .tc := ⟨.hbm, 1878, rfl⟩
abbrev main_v1683 : Ref sig .tc := ⟨.hbm, 1879, rfl⟩
abbrev main_v1684 : Ref sig .tc := ⟨.hbm, 1880, rfl⟩
abbrev main_v1685 : Ref sig .tc := ⟨.hbm, 1881, rfl⟩
abbrev main_v1686 : Ref sig .tc := ⟨.hbm, 1882, rfl⟩
abbrev main_v1687 : Ref sig .tc := ⟨.hbm, 1883, rfl⟩
abbrev main_v1688 : Ref sig .tc := ⟨.hbm, 1884, rfl⟩
abbrev main_cst_187 : Ref sig .tc := ⟨.hbm, 1885, rfl⟩
abbrev main_v1689 : Ref sig .tc := ⟨.hbm, 1886, rfl⟩
abbrev main_v1690 : Ref sig .tc := ⟨.hbm, 1887, rfl⟩
abbrev main_v1691 : Ref sig .tc := ⟨.hbm, 1888, rfl⟩
abbrev main_v1692 : Ref sig .tc := ⟨.hbm, 1889, rfl⟩
abbrev main_v1693 : Ref sig .tc := ⟨.hbm, 1890, rfl⟩
abbrev main_v1694 : Ref sig .tc := ⟨.hbm, 1891, rfl⟩
abbrev main_v1695 : Ref sig .tc := ⟨.hbm, 1892, rfl⟩
abbrev main_v1696 : Ref sig .tc := ⟨.hbm, 1893, rfl⟩
abbrev main_v1697 : Ref sig .tc := ⟨.hbm, 1894, rfl⟩
abbrev main_v1698 : Ref sig .tc := ⟨.hbm, 1895, rfl⟩
abbrev main_c_188 : Ref sig .tc := ⟨.hbm, 1896, rfl⟩
abbrev main_v1699 : Ref sig .tc := ⟨.hbm, 1897, rfl⟩
abbrev main_v1700 : Ref sig .tc := ⟨.hbm, 1898, rfl⟩
abbrev main_v1701 : Ref sig .tc := ⟨.hbm, 1899, rfl⟩
abbrev main_v1702 : Ref sig .tc := ⟨.hbm, 1900, rfl⟩
abbrev main_v1703 : Ref sig .tc := ⟨.hbm, 1901, rfl⟩
abbrev main_v1704 : Ref sig .tc := ⟨.hbm, 1902, rfl⟩
abbrev main_v1705 : Ref sig .tc := ⟨.hbm, 1903, rfl⟩
abbrev main_v1706 : Ref sig .tc := ⟨.hbm, 1904, rfl⟩
abbrev main_cst_189 : Ref sig .tc := ⟨.hbm, 1905, rfl⟩
abbrev main_v1707 : Ref sig .tc := ⟨.hbm, 1906, rfl⟩
abbrev main_v1708 : Ref sig .tc := ⟨.hbm, 1907, rfl⟩
abbrev main_v1709 : Ref sig .tc := ⟨.hbm, 1908, rfl⟩
abbrev main_v1710 : Ref sig .tc := ⟨.hbm, 1909, rfl⟩
abbrev main_v1711 : Ref sig .tc := ⟨.hbm, 1910, rfl⟩
abbrev main_v1712 : Ref sig .tc := ⟨.hbm, 1911, rfl⟩
abbrev main_v1713 : Ref sig .tc := ⟨.hbm, 1912, rfl⟩
abbrev main_v1714 : Ref sig .tc := ⟨.hbm, 1913, rfl⟩
abbrev main_v1715 : Ref sig .tc := ⟨.hbm, 1914, rfl⟩
abbrev main_v1716 : Ref sig .tc := ⟨.hbm, 1915, rfl⟩
abbrev main_c_190 : Ref sig .tc := ⟨.hbm, 1916, rfl⟩
abbrev main_v1717 : Ref sig .tc := ⟨.hbm, 1917, rfl⟩
abbrev main_v1718 : Ref sig .tc := ⟨.hbm, 1918, rfl⟩
abbrev main_v1719 : Ref sig .tc := ⟨.hbm, 1919, rfl⟩
abbrev main_v1720 : Ref sig .tc := ⟨.hbm, 1920, rfl⟩
abbrev main_v1721 : Ref sig .tc := ⟨.hbm, 1921, rfl⟩
abbrev main_v1722 : Ref sig .tc := ⟨.hbm, 1922, rfl⟩
abbrev main_v1723 : Ref sig .tc := ⟨.hbm, 1923, rfl⟩
abbrev main_v1724 : Ref sig .tc := ⟨.hbm, 1924, rfl⟩
abbrev main_cst_191 : Ref sig .tc := ⟨.hbm, 1925, rfl⟩
abbrev main_v1725 : Ref sig .tc := ⟨.hbm, 1926, rfl⟩
abbrev main_v1726 : Ref sig .tc := ⟨.hbm, 1927, rfl⟩
abbrev main_v1727 : Ref sig .tc := ⟨.hbm, 1928, rfl⟩
abbrev main_v1728 : Ref sig .tc := ⟨.hbm, 1929, rfl⟩
abbrev main_v1729 : Ref sig .tc := ⟨.hbm, 1930, rfl⟩
abbrev main_v1730 : Ref sig .tc := ⟨.hbm, 1931, rfl⟩
abbrev main_v1731 : Ref sig .tc := ⟨.hbm, 1932, rfl⟩
abbrev main_v1732 : Ref sig .tc := ⟨.hbm, 1933, rfl⟩
abbrev main_v1733 : Ref sig .tc := ⟨.hbm, 1934, rfl⟩
abbrev main_v1734 : Ref sig .tc := ⟨.hbm, 1935, rfl⟩
abbrev main_c_192 : Ref sig .tc := ⟨.hbm, 1936, rfl⟩
abbrev main_v1735 : Ref sig .tc := ⟨.hbm, 1937, rfl⟩
abbrev main_v1736 : Ref sig .tc := ⟨.hbm, 1938, rfl⟩
abbrev main_v1737 : Ref sig .tc := ⟨.hbm, 1939, rfl⟩
abbrev main_v1738 : Ref sig .tc := ⟨.hbm, 1940, rfl⟩
abbrev main_v1739 : Ref sig .tc := ⟨.hbm, 1941, rfl⟩
abbrev main_v1740 : Ref sig .tc := ⟨.hbm, 1942, rfl⟩
abbrev main_v1741 : Ref sig .tc := ⟨.hbm, 1943, rfl⟩
abbrev main_v1742 : Ref sig .tc := ⟨.hbm, 1944, rfl⟩
abbrev main_cst_193 : Ref sig .tc := ⟨.hbm, 1945, rfl⟩
abbrev main_v1743 : Ref sig .tc := ⟨.hbm, 1946, rfl⟩
abbrev main_v1744 : Ref sig .tc := ⟨.hbm, 1947, rfl⟩
abbrev main_v1745 : Ref sig .tc := ⟨.hbm, 1948, rfl⟩
abbrev main_v1746 : Ref sig .tc := ⟨.hbm, 1949, rfl⟩
abbrev main_v1747 : Ref sig .tc := ⟨.hbm, 1950, rfl⟩
abbrev main_v1748 : Ref sig .tc := ⟨.hbm, 1951, rfl⟩
abbrev main_v1749 : Ref sig .tc := ⟨.hbm, 1952, rfl⟩
abbrev main_v1750 : Ref sig .tc := ⟨.hbm, 1953, rfl⟩
abbrev main_v1751 : Ref sig .tc := ⟨.hbm, 1954, rfl⟩
abbrev main_v1752 : Ref sig .tc := ⟨.hbm, 1955, rfl⟩
abbrev main_c_194 : Ref sig .tc := ⟨.hbm, 1956, rfl⟩
abbrev main_v1753 : Ref sig .tc := ⟨.hbm, 1957, rfl⟩
abbrev main_v1754 : Ref sig .tc := ⟨.hbm, 1958, rfl⟩
abbrev main_v1755 : Ref sig .tc := ⟨.hbm, 1959, rfl⟩
abbrev main_v1756 : Ref sig .tc := ⟨.hbm, 1960, rfl⟩
abbrev main_v1757 : Ref sig .tc := ⟨.hbm, 1961, rfl⟩
abbrev main_v1758 : Ref sig .tc := ⟨.hbm, 1962, rfl⟩
abbrev main_v1759 : Ref sig .tc := ⟨.hbm, 1963, rfl⟩
abbrev main_v1760 : Ref sig .tc := ⟨.hbm, 1964, rfl⟩
abbrev main_cst_195 : Ref sig .tc := ⟨.hbm, 1965, rfl⟩
abbrev main_v1761 : Ref sig .tc := ⟨.hbm, 1966, rfl⟩
abbrev main_v1762 : Ref sig .tc := ⟨.hbm, 1967, rfl⟩
abbrev main_v1763 : Ref sig .tc := ⟨.hbm, 1968, rfl⟩
abbrev main_v1764 : Ref sig .tc := ⟨.hbm, 1969, rfl⟩
abbrev main_v1765 : Ref sig .tc := ⟨.hbm, 1970, rfl⟩
abbrev main_v1766 : Ref sig .tc := ⟨.hbm, 1971, rfl⟩
abbrev main_v1767 : Ref sig .tc := ⟨.hbm, 1972, rfl⟩
abbrev main_v1768 : Ref sig .tc := ⟨.hbm, 1973, rfl⟩
abbrev main_v1769 : Ref sig .tc := ⟨.hbm, 1974, rfl⟩
abbrev main_v1770 : Ref sig .tc := ⟨.hbm, 1975, rfl⟩
abbrev main_c_196 : Ref sig .tc := ⟨.hbm, 1976, rfl⟩
abbrev main_v1771 : Ref sig .tc := ⟨.hbm, 1977, rfl⟩
abbrev main_v1772 : Ref sig .tc := ⟨.hbm, 1978, rfl⟩
abbrev main_v1773 : Ref sig .tc := ⟨.hbm, 1979, rfl⟩
abbrev main_v1774 : Ref sig .tc := ⟨.hbm, 1980, rfl⟩
abbrev main_v1775 : Ref sig .tc := ⟨.hbm, 1981, rfl⟩
abbrev main_v1776 : Ref sig .tc := ⟨.hbm, 1982, rfl⟩
abbrev main_v1777 : Ref sig .tc := ⟨.hbm, 1983, rfl⟩
abbrev main_v1778 : Ref sig .tc := ⟨.hbm, 1984, rfl⟩
abbrev main_cst_197 : Ref sig .tc := ⟨.hbm, 1985, rfl⟩
abbrev main_v1779 : Ref sig .tc := ⟨.hbm, 1986, rfl⟩
abbrev main_v1780 : Ref sig .tc := ⟨.hbm, 1987, rfl⟩
abbrev main_v1781 : Ref sig .tc := ⟨.hbm, 1988, rfl⟩
abbrev main_v1782 : Ref sig .tc := ⟨.hbm, 1989, rfl⟩
abbrev main_v1783 : Ref sig .tc := ⟨.hbm, 1990, rfl⟩
abbrev main_v1784 : Ref sig .tc := ⟨.hbm, 1991, rfl⟩
abbrev main_v1785 : Ref sig .tc := ⟨.hbm, 1992, rfl⟩
abbrev main_v1786 : Ref sig .tc := ⟨.hbm, 1993, rfl⟩
abbrev main_v1787 : Ref sig .tc := ⟨.hbm, 1994, rfl⟩
abbrev main_v1788 : Ref sig .tc := ⟨.hbm, 1995, rfl⟩
abbrev main_c_198 : Ref sig .tc := ⟨.hbm, 1996, rfl⟩
abbrev main_v1789 : Ref sig .tc := ⟨.hbm, 1997, rfl⟩
abbrev main_v1790 : Ref sig .tc := ⟨.hbm, 1998, rfl⟩
abbrev main_v1791 : Ref sig .tc := ⟨.hbm, 1999, rfl⟩
abbrev main_v1792 : Ref sig .tc := ⟨.hbm, 2000, rfl⟩
abbrev main_v1793 : Ref sig .tc := ⟨.hbm, 2001, rfl⟩
abbrev main_v1794 : Ref sig .tc := ⟨.hbm, 2002, rfl⟩
abbrev main_v1795 : Ref sig .tc := ⟨.hbm, 2003, rfl⟩
abbrev main_v1796 : Ref sig .tc := ⟨.hbm, 2004, rfl⟩
abbrev main_cst_199 : Ref sig .tc := ⟨.hbm, 2005, rfl⟩
abbrev main_v1797 : Ref sig .tc := ⟨.hbm, 2006, rfl⟩
abbrev main_v1798 : Ref sig .tc := ⟨.hbm, 2007, rfl⟩
abbrev main_v1799 : Ref sig .tc := ⟨.hbm, 2008, rfl⟩
abbrev main_v1800 : Ref sig .tc := ⟨.hbm, 2009, rfl⟩
abbrev main_v1801 : Ref sig .tc := ⟨.hbm, 2010, rfl⟩
abbrev main_v1802 : Ref sig .tc := ⟨.hbm, 2011, rfl⟩
abbrev main_v1803 : Ref sig .tc := ⟨.hbm, 2012, rfl⟩
abbrev main_v1804 : Ref sig .tc := ⟨.hbm, 2013, rfl⟩
abbrev main_v1805 : Ref sig .tc := ⟨.hbm, 2014, rfl⟩
abbrev main_v1806 : Ref sig .tc := ⟨.hbm, 2015, rfl⟩
abbrev main_c_200 : Ref sig .tc := ⟨.hbm, 2016, rfl⟩
abbrev main_v1807 : Ref sig .tc := ⟨.hbm, 2017, rfl⟩
abbrev main_v1808 : Ref sig .tc := ⟨.hbm, 2018, rfl⟩
abbrev main_v1809 : Ref sig .tc := ⟨.hbm, 2019, rfl⟩
abbrev main_v1810 : Ref sig .tc := ⟨.hbm, 2020, rfl⟩
abbrev main_v1811 : Ref sig .tc := ⟨.hbm, 2021, rfl⟩
abbrev main_v1812 : Ref sig .tc := ⟨.hbm, 2022, rfl⟩
abbrev main_v1813 : Ref sig .tc := ⟨.hbm, 2023, rfl⟩
abbrev main_v1814 : Ref sig .tc := ⟨.hbm, 2024, rfl⟩
abbrev main_cst_201 : Ref sig .tc := ⟨.hbm, 2025, rfl⟩
abbrev main_v1815 : Ref sig .tc := ⟨.hbm, 2026, rfl⟩
abbrev main_v1816 : Ref sig .tc := ⟨.hbm, 2027, rfl⟩
abbrev main_v1817 : Ref sig .tc := ⟨.hbm, 2028, rfl⟩
abbrev main_v1818 : Ref sig .tc := ⟨.hbm, 2029, rfl⟩
abbrev main_v1819 : Ref sig .tc := ⟨.hbm, 2030, rfl⟩
abbrev main_v1820 : Ref sig .tc := ⟨.hbm, 2031, rfl⟩
abbrev main_v1821 : Ref sig .tc := ⟨.hbm, 2032, rfl⟩
abbrev main_v1822 : Ref sig .tc := ⟨.hbm, 2033, rfl⟩
abbrev main_v1823 : Ref sig .tc := ⟨.hbm, 2034, rfl⟩
abbrev main_v1824 : Ref sig .tc := ⟨.hbm, 2035, rfl⟩
abbrev main_c_202 : Ref sig .tc := ⟨.hbm, 2036, rfl⟩
abbrev main_v1825 : Ref sig .tc := ⟨.hbm, 2037, rfl⟩
abbrev main_v1826 : Ref sig .tc := ⟨.hbm, 2038, rfl⟩
abbrev main_v1827 : Ref sig .tc := ⟨.hbm, 2039, rfl⟩
abbrev main_v1828 : Ref sig .tc := ⟨.hbm, 2040, rfl⟩
abbrev main_v1829 : Ref sig .tc := ⟨.hbm, 2041, rfl⟩
abbrev main_v1830 : Ref sig .tc := ⟨.hbm, 2042, rfl⟩
abbrev main_v1831 : Ref sig .tc := ⟨.hbm, 2043, rfl⟩
abbrev main_v1832 : Ref sig .tc := ⟨.hbm, 2044, rfl⟩
abbrev main_cst_203 : Ref sig .tc := ⟨.hbm, 2045, rfl⟩
abbrev main_v1833 : Ref sig .tc := ⟨.hbm, 2046, rfl⟩
abbrev main_v1834 : Ref sig .tc := ⟨.hbm, 2047, rfl⟩
abbrev main_v1835 : Ref sig .tc := ⟨.hbm, 2048, rfl⟩
abbrev main_v1836 : Ref sig .tc := ⟨.hbm, 2049, rfl⟩
abbrev main_v1837 : Ref sig .tc := ⟨.hbm, 2050, rfl⟩
abbrev main_v1838 : Ref sig .tc := ⟨.hbm, 2051, rfl⟩
abbrev main_v1839 : Ref sig .tc := ⟨.hbm, 2052, rfl⟩
abbrev main_v1840 : Ref sig .tc := ⟨.hbm, 2053, rfl⟩
abbrev main_v1841 : Ref sig .tc := ⟨.hbm, 2054, rfl⟩
abbrev main_v1842 : Ref sig .tc := ⟨.hbm, 2055, rfl⟩
abbrev main_c_204 : Ref sig .tc := ⟨.hbm, 2056, rfl⟩
abbrev main_v1843 : Ref sig .tc := ⟨.hbm, 2057, rfl⟩
abbrev main_v1844 : Ref sig .tc := ⟨.hbm, 2058, rfl⟩
abbrev main_v1845 : Ref sig .tc := ⟨.hbm, 2059, rfl⟩
abbrev main_v1846 : Ref sig .tc := ⟨.hbm, 2060, rfl⟩
abbrev main_v1847 : Ref sig .tc := ⟨.hbm, 2061, rfl⟩
abbrev main_v1848 : Ref sig .tc := ⟨.hbm, 2062, rfl⟩
abbrev main_v1849 : Ref sig .tc := ⟨.hbm, 2063, rfl⟩
abbrev main_v1850 : Ref sig .tc := ⟨.hbm, 2064, rfl⟩
abbrev main_cst_205 : Ref sig .tc := ⟨.hbm, 2065, rfl⟩
abbrev main_v1851 : Ref sig .tc := ⟨.hbm, 2066, rfl⟩
abbrev main_v1852 : Ref sig .tc := ⟨.hbm, 2067, rfl⟩
abbrev main_v1853 : Ref sig .tc := ⟨.hbm, 2068, rfl⟩
abbrev main_v1854 : Ref sig .tc := ⟨.hbm, 2069, rfl⟩
abbrev main_v1855 : Ref sig .tc := ⟨.hbm, 2070, rfl⟩
abbrev main_v1856 : Ref sig .tc := ⟨.hbm, 2071, rfl⟩
abbrev main_v1857 : Ref sig .tc := ⟨.hbm, 2072, rfl⟩
abbrev main_v1858 : Ref sig .tc := ⟨.hbm, 2073, rfl⟩
abbrev main_v1859 : Ref sig .tc := ⟨.hbm, 2074, rfl⟩
abbrev main_v1860 : Ref sig .tc := ⟨.hbm, 2075, rfl⟩
abbrev main_c_206 : Ref sig .tc := ⟨.hbm, 2076, rfl⟩
abbrev main_v1861 : Ref sig .tc := ⟨.hbm, 2077, rfl⟩
abbrev main_v1862 : Ref sig .tc := ⟨.hbm, 2078, rfl⟩
abbrev main_v1863 : Ref sig .tc := ⟨.hbm, 2079, rfl⟩
abbrev main_v1864 : Ref sig .tc := ⟨.hbm, 2080, rfl⟩
abbrev main_v1865 : Ref sig .tc := ⟨.hbm, 2081, rfl⟩
abbrev main_v1866 : Ref sig .tc := ⟨.hbm, 2082, rfl⟩
abbrev main_v1867 : Ref sig .tc := ⟨.hbm, 2083, rfl⟩
abbrev main_v1868 : Ref sig .tc := ⟨.hbm, 2084, rfl⟩
abbrev main_cst_207 : Ref sig .tc := ⟨.hbm, 2085, rfl⟩
abbrev main_v1869 : Ref sig .tc := ⟨.hbm, 2086, rfl⟩
abbrev main_v1870 : Ref sig .tc := ⟨.hbm, 2087, rfl⟩
abbrev main_v1871 : Ref sig .tc := ⟨.hbm, 2088, rfl⟩
abbrev main_v1872 : Ref sig .tc := ⟨.hbm, 2089, rfl⟩
abbrev main_v1873 : Ref sig .tc := ⟨.hbm, 2090, rfl⟩
abbrev main_v1874 : Ref sig .tc := ⟨.hbm, 2091, rfl⟩
abbrev main_v1875 : Ref sig .tc := ⟨.hbm, 2092, rfl⟩
abbrev main_v1876 : Ref sig .tc := ⟨.hbm, 2093, rfl⟩
abbrev main_v1877 : Ref sig .tc := ⟨.hbm, 2094, rfl⟩
abbrev main_v1878 : Ref sig .tc := ⟨.hbm, 2095, rfl⟩
abbrev main_c_208 : Ref sig .tc := ⟨.hbm, 2096, rfl⟩
abbrev main_v1879 : Ref sig .tc := ⟨.hbm, 2097, rfl⟩
abbrev main_v1880 : Ref sig .tc := ⟨.hbm, 2098, rfl⟩
abbrev main_v1881 : Ref sig .tc := ⟨.hbm, 2099, rfl⟩
abbrev main_v1882 : Ref sig .tc := ⟨.hbm, 2100, rfl⟩
abbrev main_v1883 : Ref sig .tc := ⟨.hbm, 2101, rfl⟩
abbrev main_v1884 : Ref sig .tc := ⟨.hbm, 2102, rfl⟩
abbrev main_v1885 : Ref sig .tc := ⟨.hbm, 2103, rfl⟩
abbrev main_v1886 : Ref sig .tc := ⟨.hbm, 2104, rfl⟩
abbrev main_cst_209 : Ref sig .tc := ⟨.hbm, 2105, rfl⟩
abbrev main_v1887 : Ref sig .tc := ⟨.hbm, 2106, rfl⟩
abbrev main_v1888 : Ref sig .tc := ⟨.hbm, 2107, rfl⟩
abbrev main_v1889 : Ref sig .tc := ⟨.hbm, 2108, rfl⟩
abbrev main_v1890 : Ref sig .tc := ⟨.hbm, 2109, rfl⟩
abbrev main_v1891 : Ref sig .tc := ⟨.hbm, 2110, rfl⟩
abbrev main_v1892 : Ref sig .tc := ⟨.hbm, 2111, rfl⟩
abbrev main_v1893 : Ref sig .tc := ⟨.hbm, 2112, rfl⟩
abbrev main_v1894 : Ref sig .tc := ⟨.hbm, 2113, rfl⟩
abbrev main_v1895 : Ref sig .tc := ⟨.hbm, 2114, rfl⟩
abbrev main_v1896 : Ref sig .tc := ⟨.hbm, 2115, rfl⟩
abbrev main_c_210 : Ref sig .tc := ⟨.hbm, 2116, rfl⟩
abbrev main_v1897 : Ref sig .tc := ⟨.hbm, 2117, rfl⟩
abbrev main_v1898 : Ref sig .tc := ⟨.hbm, 2118, rfl⟩
abbrev main_v1899 : Ref sig .tc := ⟨.hbm, 2119, rfl⟩
abbrev main_v1900 : Ref sig .tc := ⟨.hbm, 2120, rfl⟩
abbrev main_v1901 : Ref sig .tc := ⟨.hbm, 2121, rfl⟩
abbrev main_v1902 : Ref sig .tc := ⟨.hbm, 2122, rfl⟩
abbrev main_v1903 : Ref sig .tc := ⟨.hbm, 2123, rfl⟩
abbrev main_v1904 : Ref sig .tc := ⟨.hbm, 2124, rfl⟩
abbrev main_cst_211 : Ref sig .tc := ⟨.hbm, 2125, rfl⟩
abbrev main_v1905 : Ref sig .tc := ⟨.hbm, 2126, rfl⟩
abbrev main_v1906 : Ref sig .tc := ⟨.hbm, 2127, rfl⟩
abbrev main_v1907 : Ref sig .tc := ⟨.hbm, 2128, rfl⟩
abbrev main_v1908 : Ref sig .tc := ⟨.hbm, 2129, rfl⟩
abbrev main_v1909 : Ref sig .tc := ⟨.hbm, 2130, rfl⟩
abbrev main_v1910 : Ref sig .tc := ⟨.hbm, 2131, rfl⟩
abbrev main_v1911 : Ref sig .tc := ⟨.hbm, 2132, rfl⟩
abbrev main_v1912 : Ref sig .tc := ⟨.hbm, 2133, rfl⟩
abbrev main_v1913 : Ref sig .tc := ⟨.hbm, 2134, rfl⟩
abbrev main_v1914 : Ref sig .tc := ⟨.hbm, 2135, rfl⟩
abbrev main_c_212 : Ref sig .tc := ⟨.hbm, 2136, rfl⟩
abbrev main_v1915 : Ref sig .tc := ⟨.hbm, 2137, rfl⟩
abbrev main_v1916 : Ref sig .tc := ⟨.hbm, 2138, rfl⟩
abbrev main_v1917 : Ref sig .tc := ⟨.hbm, 2139, rfl⟩
abbrev main_v1918 : Ref sig .tc := ⟨.hbm, 2140, rfl⟩
abbrev main_v1919 : Ref sig .tc := ⟨.hbm, 2141, rfl⟩
abbrev main_v1920 : Ref sig .tc := ⟨.hbm, 2142, rfl⟩
abbrev main_v1921 : Ref sig .tc := ⟨.hbm, 2143, rfl⟩
abbrev main_v1922 : Ref sig .tc := ⟨.hbm, 2144, rfl⟩
abbrev main_cst_213 : Ref sig .tc := ⟨.hbm, 2145, rfl⟩
abbrev main_v1923 : Ref sig .tc := ⟨.hbm, 2146, rfl⟩
abbrev main_v1924 : Ref sig .tc := ⟨.hbm, 2147, rfl⟩
abbrev main_v1925 : Ref sig .tc := ⟨.hbm, 2148, rfl⟩
abbrev main_v1926 : Ref sig .tc := ⟨.hbm, 2149, rfl⟩
abbrev main_v1927 : Ref sig .tc := ⟨.hbm, 2150, rfl⟩
abbrev main_v1928 : Ref sig .tc := ⟨.hbm, 2151, rfl⟩
abbrev main_v1929 : Ref sig .tc := ⟨.hbm, 2152, rfl⟩
abbrev main_v1930 : Ref sig .tc := ⟨.hbm, 2153, rfl⟩
abbrev main_v1931 : Ref sig .tc := ⟨.hbm, 2154, rfl⟩
abbrev main_v1932 : Ref sig .tc := ⟨.hbm, 2155, rfl⟩
abbrev main_c_214 : Ref sig .tc := ⟨.hbm, 2156, rfl⟩
abbrev main_v1933 : Ref sig .tc := ⟨.hbm, 2157, rfl⟩
abbrev main_v1934 : Ref sig .tc := ⟨.hbm, 2158, rfl⟩
abbrev main_v1935 : Ref sig .tc := ⟨.hbm, 2159, rfl⟩
abbrev main_v1936 : Ref sig .tc := ⟨.hbm, 2160, rfl⟩
abbrev main_v1937 : Ref sig .tc := ⟨.hbm, 2161, rfl⟩
abbrev main_v1938 : Ref sig .tc := ⟨.hbm, 2162, rfl⟩
abbrev main_v1939 : Ref sig .tc := ⟨.hbm, 2163, rfl⟩
abbrev main_v1940 : Ref sig .tc := ⟨.hbm, 2164, rfl⟩
abbrev main_cst_215 : Ref sig .tc := ⟨.hbm, 2165, rfl⟩
abbrev main_v1941 : Ref sig .tc := ⟨.hbm, 2166, rfl⟩
abbrev main_v1942 : Ref sig .tc := ⟨.hbm, 2167, rfl⟩
abbrev main_v1943 : Ref sig .tc := ⟨.hbm, 2168, rfl⟩
abbrev main_v1944 : Ref sig .tc := ⟨.hbm, 2169, rfl⟩
abbrev main_v1945 : Ref sig .tc := ⟨.hbm, 2170, rfl⟩
abbrev main_v1946 : Ref sig .tc := ⟨.hbm, 2171, rfl⟩
abbrev main_v1947 : Ref sig .tc := ⟨.hbm, 2172, rfl⟩
abbrev main_v1948 : Ref sig .tc := ⟨.hbm, 2173, rfl⟩
abbrev main_v1949 : Ref sig .tc := ⟨.hbm, 2174, rfl⟩
abbrev main_v1950 : Ref sig .tc := ⟨.hbm, 2175, rfl⟩
abbrev main_c_216 : Ref sig .tc := ⟨.hbm, 2176, rfl⟩
abbrev main_v1951 : Ref sig .tc := ⟨.hbm, 2177, rfl⟩
abbrev main_v1952 : Ref sig .tc := ⟨.hbm, 2178, rfl⟩
abbrev main_v1953 : Ref sig .tc := ⟨.hbm, 2179, rfl⟩
abbrev main_v1954 : Ref sig .tc := ⟨.hbm, 2180, rfl⟩
abbrev main_v1955 : Ref sig .tc := ⟨.hbm, 2181, rfl⟩
abbrev main_v1956 : Ref sig .tc := ⟨.hbm, 2182, rfl⟩
abbrev main_v1957 : Ref sig .tc := ⟨.hbm, 2183, rfl⟩
abbrev main_v1958 : Ref sig .tc := ⟨.hbm, 2184, rfl⟩
abbrev main_cst_217 : Ref sig .tc := ⟨.hbm, 2185, rfl⟩
abbrev main_v1959 : Ref sig .tc := ⟨.hbm, 2186, rfl⟩
abbrev main_v1960 : Ref sig .tc := ⟨.hbm, 2187, rfl⟩
abbrev main_v1961 : Ref sig .tc := ⟨.hbm, 2188, rfl⟩
abbrev main_v1962 : Ref sig .tc := ⟨.hbm, 2189, rfl⟩
abbrev main_v1963 : Ref sig .tc := ⟨.hbm, 2190, rfl⟩
abbrev main_v1964 : Ref sig .tc := ⟨.hbm, 2191, rfl⟩
abbrev main_v1965 : Ref sig .tc := ⟨.hbm, 2192, rfl⟩
abbrev main_v1966 : Ref sig .tc := ⟨.hbm, 2193, rfl⟩
abbrev main_v1967 : Ref sig .tc := ⟨.hbm, 2194, rfl⟩
abbrev main_v1968 : Ref sig .tc := ⟨.hbm, 2195, rfl⟩
abbrev main_c_218 : Ref sig .tc := ⟨.hbm, 2196, rfl⟩
abbrev main_v1969 : Ref sig .tc := ⟨.hbm, 2197, rfl⟩
abbrev main_v1970 : Ref sig .tc := ⟨.hbm, 2198, rfl⟩
abbrev main_v1971 : Ref sig .tc := ⟨.hbm, 2199, rfl⟩
abbrev main_v1972 : Ref sig .tc := ⟨.hbm, 2200, rfl⟩
abbrev main_v1973 : Ref sig .tc := ⟨.hbm, 2201, rfl⟩
abbrev main_v1974 : Ref sig .tc := ⟨.hbm, 2202, rfl⟩
abbrev main_v1975 : Ref sig .tc := ⟨.hbm, 2203, rfl⟩
abbrev main_v1976 : Ref sig .tc := ⟨.hbm, 2204, rfl⟩
abbrev main_cst_219 : Ref sig .tc := ⟨.hbm, 2205, rfl⟩
abbrev main_v1977 : Ref sig .tc := ⟨.hbm, 2206, rfl⟩
abbrev main_v1978 : Ref sig .tc := ⟨.hbm, 2207, rfl⟩
abbrev main_v1979 : Ref sig .tc := ⟨.hbm, 2208, rfl⟩
abbrev main_v1980 : Ref sig .tc := ⟨.hbm, 2209, rfl⟩
abbrev main_v1981 : Ref sig .tc := ⟨.hbm, 2210, rfl⟩
abbrev main_v1982 : Ref sig .tc := ⟨.hbm, 2211, rfl⟩
abbrev main_v1983 : Ref sig .tc := ⟨.hbm, 2212, rfl⟩
abbrev main_v1984 : Ref sig .tc := ⟨.hbm, 2213, rfl⟩
abbrev main_v1985 : Ref sig .tc := ⟨.hbm, 2214, rfl⟩
abbrev main_v1986 : Ref sig .tc := ⟨.hbm, 2215, rfl⟩
abbrev main_c_220 : Ref sig .tc := ⟨.hbm, 2216, rfl⟩
abbrev main_v1987 : Ref sig .tc := ⟨.hbm, 2217, rfl⟩
abbrev main_v1988 : Ref sig .tc := ⟨.hbm, 2218, rfl⟩
abbrev main_v1989 : Ref sig .tc := ⟨.hbm, 2219, rfl⟩
abbrev main_v1990 : Ref sig .tc := ⟨.hbm, 2220, rfl⟩
abbrev main_v1991 : Ref sig .tc := ⟨.hbm, 2221, rfl⟩
abbrev main_v1992 : Ref sig .tc := ⟨.hbm, 2222, rfl⟩
abbrev main_v1993 : Ref sig .tc := ⟨.hbm, 2223, rfl⟩
abbrev main_v1994 : Ref sig .tc := ⟨.hbm, 2224, rfl⟩
abbrev main_cst_221 : Ref sig .tc := ⟨.hbm, 2225, rfl⟩
abbrev main_v1995 : Ref sig .tc := ⟨.hbm, 2226, rfl⟩
abbrev main_v1996 : Ref sig .tc := ⟨.hbm, 2227, rfl⟩
abbrev main_v1997 : Ref sig .tc := ⟨.hbm, 2228, rfl⟩
abbrev main_v1998 : Ref sig .tc := ⟨.hbm, 2229, rfl⟩
abbrev main_v1999 : Ref sig .tc := ⟨.hbm, 2230, rfl⟩
abbrev main_v2000 : Ref sig .tc := ⟨.hbm, 2231, rfl⟩
abbrev main_v2001 : Ref sig .tc := ⟨.hbm, 2232, rfl⟩
abbrev main_v2002 : Ref sig .tc := ⟨.hbm, 2233, rfl⟩
abbrev main_v2003 : Ref sig .tc := ⟨.hbm, 2234, rfl⟩
abbrev main_v2004 : Ref sig .tc := ⟨.hbm, 2235, rfl⟩
abbrev main_c_222 : Ref sig .tc := ⟨.hbm, 2236, rfl⟩
abbrev main_v2005 : Ref sig .tc := ⟨.hbm, 2237, rfl⟩
abbrev main_v2006 : Ref sig .tc := ⟨.hbm, 2238, rfl⟩
abbrev main_v2007 : Ref sig .tc := ⟨.hbm, 2239, rfl⟩
abbrev main_v2008 : Ref sig .tc := ⟨.hbm, 2240, rfl⟩
abbrev main_v2009 : Ref sig .tc := ⟨.hbm, 2241, rfl⟩
abbrev main_v2010 : Ref sig .tc := ⟨.hbm, 2242, rfl⟩
abbrev main_v2011 : Ref sig .tc := ⟨.hbm, 2243, rfl⟩
abbrev main_v2012 : Ref sig .tc := ⟨.hbm, 2244, rfl⟩
abbrev main_cst_223 : Ref sig .tc := ⟨.hbm, 2245, rfl⟩
abbrev main_v2013 : Ref sig .tc := ⟨.hbm, 2246, rfl⟩
abbrev main_v2014 : Ref sig .tc := ⟨.hbm, 2247, rfl⟩
abbrev main_v2015 : Ref sig .tc := ⟨.hbm, 2248, rfl⟩
abbrev main_v2016 : Ref sig .tc := ⟨.hbm, 2249, rfl⟩
abbrev main_v2017 : Ref sig .tc := ⟨.hbm, 2250, rfl⟩
abbrev main_v2018 : Ref sig .tc := ⟨.hbm, 2251, rfl⟩
abbrev main_v2019 : Ref sig .tc := ⟨.hbm, 2252, rfl⟩
abbrev main_v2020 : Ref sig .tc := ⟨.hbm, 2253, rfl⟩
abbrev main_v2021 : Ref sig .tc := ⟨.hbm, 2254, rfl⟩
abbrev main_v2022 : Ref sig .tc := ⟨.hbm, 2255, rfl⟩
abbrev main_c_224 : Ref sig .tc := ⟨.hbm, 2256, rfl⟩
abbrev main_v2023 : Ref sig .tc := ⟨.hbm, 2257, rfl⟩
abbrev main_v2024 : Ref sig .tc := ⟨.hbm, 2258, rfl⟩
abbrev main_v2025 : Ref sig .tc := ⟨.hbm, 2259, rfl⟩
abbrev main_v2026 : Ref sig .tc := ⟨.hbm, 2260, rfl⟩
abbrev main_v2027 : Ref sig .tc := ⟨.hbm, 2261, rfl⟩
abbrev main_v2028 : Ref sig .tc := ⟨.hbm, 2262, rfl⟩
abbrev main_v2029 : Ref sig .tc := ⟨.hbm, 2263, rfl⟩
abbrev main_v2030 : Ref sig .tc := ⟨.hbm, 2264, rfl⟩
abbrev main_cst_225 : Ref sig .tc := ⟨.hbm, 2265, rfl⟩
abbrev main_v2031 : Ref sig .tc := ⟨.hbm, 2266, rfl⟩
abbrev main_v2032 : Ref sig .tc := ⟨.hbm, 2267, rfl⟩
abbrev main_v2033 : Ref sig .tc := ⟨.hbm, 2268, rfl⟩
abbrev main_v2034 : Ref sig .tc := ⟨.hbm, 2269, rfl⟩
abbrev main_v2035 : Ref sig .tc := ⟨.hbm, 2270, rfl⟩
abbrev main_v2036 : Ref sig .tc := ⟨.hbm, 2271, rfl⟩
abbrev main_v2037 : Ref sig .tc := ⟨.hbm, 2272, rfl⟩
abbrev main_v2038 : Ref sig .tc := ⟨.hbm, 2273, rfl⟩
abbrev main_v2039 : Ref sig .tc := ⟨.hbm, 2274, rfl⟩
abbrev main_v2040 : Ref sig .tc := ⟨.hbm, 2275, rfl⟩
abbrev main_c_226 : Ref sig .tc := ⟨.hbm, 2276, rfl⟩
abbrev main_v2041 : Ref sig .tc := ⟨.hbm, 2277, rfl⟩
abbrev main_v2042 : Ref sig .tc := ⟨.hbm, 2278, rfl⟩
abbrev main_v2043 : Ref sig .tc := ⟨.hbm, 2279, rfl⟩
abbrev main_v2044 : Ref sig .tc := ⟨.hbm, 2280, rfl⟩
abbrev main_v2045 : Ref sig .tc := ⟨.hbm, 2281, rfl⟩
abbrev main_v2046 : Ref sig .tc := ⟨.hbm, 2282, rfl⟩
abbrev main_v2047 : Ref sig .tc := ⟨.hbm, 2283, rfl⟩
abbrev main_v2048 : Ref sig .tc := ⟨.hbm, 2284, rfl⟩
abbrev main_cst_227 : Ref sig .tc := ⟨.hbm, 2285, rfl⟩
abbrev main_v2049 : Ref sig .tc := ⟨.hbm, 2286, rfl⟩
abbrev main_v2050 : Ref sig .tc := ⟨.hbm, 2287, rfl⟩
abbrev main_v2051 : Ref sig .tc := ⟨.hbm, 2288, rfl⟩
abbrev main_v2052 : Ref sig .tc := ⟨.hbm, 2289, rfl⟩
abbrev main_v2053 : Ref sig .tc := ⟨.hbm, 2290, rfl⟩
abbrev main_v2054 : Ref sig .tc := ⟨.hbm, 2291, rfl⟩
abbrev main_v2055 : Ref sig .tc := ⟨.hbm, 2292, rfl⟩
abbrev main_v2056 : Ref sig .tc := ⟨.hbm, 2293, rfl⟩
abbrev main_v2057 : Ref sig .tc := ⟨.hbm, 2294, rfl⟩
abbrev main_v2058 : Ref sig .tc := ⟨.hbm, 2295, rfl⟩
abbrev main_c_228 : Ref sig .tc := ⟨.hbm, 2296, rfl⟩
abbrev main_v2059 : Ref sig .tc := ⟨.hbm, 2297, rfl⟩
abbrev main_v2060 : Ref sig .tc := ⟨.hbm, 2298, rfl⟩
abbrev main_v2061 : Ref sig .tc := ⟨.hbm, 2299, rfl⟩
abbrev main_v2062 : Ref sig .tc := ⟨.hbm, 2300, rfl⟩
abbrev main_v2063 : Ref sig .tc := ⟨.hbm, 2301, rfl⟩
abbrev main_v2064 : Ref sig .tc := ⟨.hbm, 2302, rfl⟩
abbrev main_v2065 : Ref sig .tc := ⟨.hbm, 2303, rfl⟩
abbrev main_v2066 : Ref sig .tc := ⟨.hbm, 2304, rfl⟩
abbrev main_cst_229 : Ref sig .tc := ⟨.hbm, 2305, rfl⟩
abbrev main_v2067 : Ref sig .tc := ⟨.hbm, 2306, rfl⟩
abbrev main_v2068 : Ref sig .tc := ⟨.hbm, 2307, rfl⟩
abbrev main_v2069 : Ref sig .tc := ⟨.hbm, 2308, rfl⟩
abbrev main_v2070 : Ref sig .tc := ⟨.hbm, 2309, rfl⟩
abbrev main_v2071 : Ref sig .tc := ⟨.hbm, 2310, rfl⟩
abbrev main_v2072 : Ref sig .tc := ⟨.hbm, 2311, rfl⟩
abbrev main_v2073 : Ref sig .tc := ⟨.hbm, 2312, rfl⟩
abbrev main_v2074 : Ref sig .tc := ⟨.hbm, 2313, rfl⟩
abbrev main_v2075 : Ref sig .tc := ⟨.hbm, 2314, rfl⟩
abbrev main_v2076 : Ref sig .tc := ⟨.hbm, 2315, rfl⟩
abbrev main_c_230 : Ref sig .tc := ⟨.hbm, 2316, rfl⟩
abbrev main_v2077 : Ref sig .tc := ⟨.hbm, 2317, rfl⟩
abbrev main_v2078 : Ref sig .tc := ⟨.hbm, 2318, rfl⟩
abbrev main_v2079 : Ref sig .tc := ⟨.hbm, 2319, rfl⟩
abbrev main_v2080 : Ref sig .tc := ⟨.hbm, 2320, rfl⟩
abbrev main_v2081 : Ref sig .tc := ⟨.hbm, 2321, rfl⟩
abbrev main_v2082 : Ref sig .tc := ⟨.hbm, 2322, rfl⟩
abbrev main_v2083 : Ref sig .tc := ⟨.hbm, 2323, rfl⟩
abbrev main_v2084 : Ref sig .tc := ⟨.hbm, 2324, rfl⟩
abbrev main_cst_231 : Ref sig .tc := ⟨.hbm, 2325, rfl⟩
abbrev main_v2085 : Ref sig .tc := ⟨.hbm, 2326, rfl⟩
abbrev main_v2086 : Ref sig .tc := ⟨.hbm, 2327, rfl⟩
abbrev main_v2087 : Ref sig .tc := ⟨.hbm, 2328, rfl⟩
abbrev main_v2088 : Ref sig .tc := ⟨.hbm, 2329, rfl⟩
abbrev main_v2089 : Ref sig .tc := ⟨.hbm, 2330, rfl⟩
abbrev main_v2090 : Ref sig .tc := ⟨.hbm, 2331, rfl⟩
abbrev main_v2091 : Ref sig .tc := ⟨.hbm, 2332, rfl⟩
abbrev main_v2092 : Ref sig .tc := ⟨.hbm, 2333, rfl⟩
abbrev main_v2093 : Ref sig .tc := ⟨.hbm, 2334, rfl⟩
abbrev main_v2094 : Ref sig .tc := ⟨.hbm, 2335, rfl⟩
abbrev main_c_232 : Ref sig .tc := ⟨.hbm, 2336, rfl⟩
abbrev main_v2095 : Ref sig .tc := ⟨.hbm, 2337, rfl⟩
abbrev main_v2096 : Ref sig .tc := ⟨.hbm, 2338, rfl⟩
abbrev main_v2097 : Ref sig .tc := ⟨.hbm, 2339, rfl⟩
abbrev main_v2098 : Ref sig .tc := ⟨.hbm, 2340, rfl⟩
abbrev main_v2099 : Ref sig .tc := ⟨.hbm, 2341, rfl⟩
abbrev main_v2100 : Ref sig .tc := ⟨.hbm, 2342, rfl⟩
abbrev main_v2101 : Ref sig .tc := ⟨.hbm, 2343, rfl⟩
abbrev main_v2102 : Ref sig .tc := ⟨.hbm, 2344, rfl⟩
abbrev main_cst_233 : Ref sig .tc := ⟨.hbm, 2345, rfl⟩
abbrev main_v2103 : Ref sig .tc := ⟨.hbm, 2346, rfl⟩
abbrev main_v2104 : Ref sig .tc := ⟨.hbm, 2347, rfl⟩
abbrev main_v2105 : Ref sig .tc := ⟨.hbm, 2348, rfl⟩
abbrev main_v2106 : Ref sig .tc := ⟨.hbm, 2349, rfl⟩
abbrev main_v2107 : Ref sig .tc := ⟨.hbm, 2350, rfl⟩
abbrev main_v2108 : Ref sig .tc := ⟨.hbm, 2351, rfl⟩
abbrev main_v2109 : Ref sig .tc := ⟨.hbm, 2352, rfl⟩
abbrev main_v2110 : Ref sig .tc := ⟨.hbm, 2353, rfl⟩
abbrev main_v2111 : Ref sig .tc := ⟨.hbm, 2354, rfl⟩
abbrev main_v2112 : Ref sig .tc := ⟨.hbm, 2355, rfl⟩
abbrev main_c_234 : Ref sig .tc := ⟨.hbm, 2356, rfl⟩
abbrev main_v2113 : Ref sig .tc := ⟨.hbm, 2357, rfl⟩
abbrev main_v2114 : Ref sig .tc := ⟨.hbm, 2358, rfl⟩
abbrev main_v2115 : Ref sig .tc := ⟨.hbm, 2359, rfl⟩
abbrev main_v2116 : Ref sig .tc := ⟨.hbm, 2360, rfl⟩
abbrev main_v2117 : Ref sig .tc := ⟨.hbm, 2361, rfl⟩
abbrev main_v2118 : Ref sig .tc := ⟨.hbm, 2362, rfl⟩
abbrev main_v2119 : Ref sig .tc := ⟨.hbm, 2363, rfl⟩
abbrev main_v2120 : Ref sig .tc := ⟨.hbm, 2364, rfl⟩
abbrev main_cst_235 : Ref sig .tc := ⟨.hbm, 2365, rfl⟩
abbrev main_v2121 : Ref sig .tc := ⟨.hbm, 2366, rfl⟩
abbrev main_v2122 : Ref sig .tc := ⟨.hbm, 2367, rfl⟩
abbrev main_v2123 : Ref sig .tc := ⟨.hbm, 2368, rfl⟩
abbrev main_v2124 : Ref sig .tc := ⟨.hbm, 2369, rfl⟩
abbrev main_v2125 : Ref sig .tc := ⟨.hbm, 2370, rfl⟩
abbrev main_v2126 : Ref sig .tc := ⟨.hbm, 2371, rfl⟩
abbrev main_v2127 : Ref sig .tc := ⟨.hbm, 2372, rfl⟩
abbrev main_v2128 : Ref sig .tc := ⟨.hbm, 2373, rfl⟩
abbrev main_v2129 : Ref sig .tc := ⟨.hbm, 2374, rfl⟩
abbrev main_v2130 : Ref sig .tc := ⟨.hbm, 2375, rfl⟩
abbrev main_c_236 : Ref sig .tc := ⟨.hbm, 2376, rfl⟩
abbrev main_v2131 : Ref sig .tc := ⟨.hbm, 2377, rfl⟩
abbrev main_v2132 : Ref sig .tc := ⟨.hbm, 2378, rfl⟩
abbrev main_v2133 : Ref sig .tc := ⟨.hbm, 2379, rfl⟩
abbrev main_v2134 : Ref sig .tc := ⟨.hbm, 2380, rfl⟩
abbrev main_v2135 : Ref sig .tc := ⟨.hbm, 2381, rfl⟩
abbrev main_v2136 : Ref sig .tc := ⟨.hbm, 2382, rfl⟩
abbrev main_v2137 : Ref sig .tc := ⟨.hbm, 2383, rfl⟩
abbrev main_v2138 : Ref sig .tc := ⟨.hbm, 2384, rfl⟩
abbrev main_cst_237 : Ref sig .tc := ⟨.hbm, 2385, rfl⟩
abbrev main_v2139 : Ref sig .tc := ⟨.hbm, 2386, rfl⟩
abbrev main_v2140 : Ref sig .tc := ⟨.hbm, 2387, rfl⟩
abbrev main_v2141 : Ref sig .tc := ⟨.hbm, 2388, rfl⟩
abbrev main_v2142 : Ref sig .tc := ⟨.hbm, 2389, rfl⟩
abbrev main_v2143 : Ref sig .tc := ⟨.hbm, 2390, rfl⟩
abbrev main_v2144 : Ref sig .tc := ⟨.hbm, 2391, rfl⟩
abbrev main_v2145 : Ref sig .tc := ⟨.hbm, 2392, rfl⟩
abbrev main_v2146 : Ref sig .tc := ⟨.hbm, 2393, rfl⟩
abbrev main_v2147 : Ref sig .tc := ⟨.hbm, 2394, rfl⟩
abbrev main_v2148 : Ref sig .tc := ⟨.hbm, 2395, rfl⟩
abbrev main_c_238 : Ref sig .tc := ⟨.hbm, 2396, rfl⟩
abbrev main_v2149 : Ref sig .tc := ⟨.hbm, 2397, rfl⟩
abbrev main_v2150 : Ref sig .tc := ⟨.hbm, 2398, rfl⟩
abbrev main_v2151 : Ref sig .tc := ⟨.hbm, 2399, rfl⟩
abbrev main_v2152 : Ref sig .tc := ⟨.hbm, 2400, rfl⟩
abbrev main_v2153 : Ref sig .tc := ⟨.hbm, 2401, rfl⟩
abbrev main_v2154 : Ref sig .tc := ⟨.hbm, 2402, rfl⟩
abbrev main_v2155 : Ref sig .tc := ⟨.hbm, 2403, rfl⟩
abbrev main_v2156 : Ref sig .tc := ⟨.hbm, 2404, rfl⟩
abbrev main_cst_239 : Ref sig .tc := ⟨.hbm, 2405, rfl⟩
abbrev main_v2157 : Ref sig .tc := ⟨.hbm, 2406, rfl⟩
abbrev main_v2158 : Ref sig .tc := ⟨.hbm, 2407, rfl⟩
abbrev main_v2159 : Ref sig .tc := ⟨.hbm, 2408, rfl⟩
abbrev main_v2160 : Ref sig .tc := ⟨.hbm, 2409, rfl⟩
abbrev main_v2161 : Ref sig .tc := ⟨.hbm, 2410, rfl⟩
abbrev main_v2162 : Ref sig .tc := ⟨.hbm, 2411, rfl⟩
abbrev main_v2163 : Ref sig .tc := ⟨.hbm, 2412, rfl⟩
abbrev main_v2164 : Ref sig .tc := ⟨.hbm, 2413, rfl⟩
abbrev main_v2165 : Ref sig .tc := ⟨.hbm, 2414, rfl⟩
abbrev main_v2166 : Ref sig .tc := ⟨.hbm, 2415, rfl⟩
abbrev main_c_240 : Ref sig .tc := ⟨.hbm, 2416, rfl⟩
abbrev main_v2167 : Ref sig .tc := ⟨.hbm, 2417, rfl⟩
abbrev main_v2168 : Ref sig .tc := ⟨.hbm, 2418, rfl⟩
abbrev main_v2169 : Ref sig .tc := ⟨.hbm, 2419, rfl⟩
abbrev main_v2170 : Ref sig .tc := ⟨.hbm, 2420, rfl⟩
abbrev main_v2171 : Ref sig .tc := ⟨.hbm, 2421, rfl⟩
abbrev main_v2172 : Ref sig .tc := ⟨.hbm, 2422, rfl⟩
abbrev main_v2173 : Ref sig .tc := ⟨.hbm, 2423, rfl⟩
abbrev main_v2174 : Ref sig .tc := ⟨.hbm, 2424, rfl⟩
abbrev main_cst_241 : Ref sig .tc := ⟨.hbm, 2425, rfl⟩
abbrev main_v2175 : Ref sig .tc := ⟨.hbm, 2426, rfl⟩
abbrev main_v2176 : Ref sig .tc := ⟨.hbm, 2427, rfl⟩
abbrev main_v2177 : Ref sig .tc := ⟨.hbm, 2428, rfl⟩
abbrev main_v2178 : Ref sig .tc := ⟨.hbm, 2429, rfl⟩
abbrev main_v2179 : Ref sig .tc := ⟨.hbm, 2430, rfl⟩
abbrev main_v2180 : Ref sig .tc := ⟨.hbm, 2431, rfl⟩
abbrev main_v2181 : Ref sig .tc := ⟨.hbm, 2432, rfl⟩
abbrev main_v2182 : Ref sig .tc := ⟨.hbm, 2433, rfl⟩
abbrev main_v2183 : Ref sig .tc := ⟨.hbm, 2434, rfl⟩
abbrev main_v2184 : Ref sig .tc := ⟨.hbm, 2435, rfl⟩
abbrev main_c_242 : Ref sig .tc := ⟨.hbm, 2436, rfl⟩
abbrev main_v2185 : Ref sig .tc := ⟨.hbm, 2437, rfl⟩
abbrev main_v2186 : Ref sig .tc := ⟨.hbm, 2438, rfl⟩
abbrev main_v2187 : Ref sig .tc := ⟨.hbm, 2439, rfl⟩
abbrev main_v2188 : Ref sig .tc := ⟨.hbm, 2440, rfl⟩
abbrev main_v2189 : Ref sig .tc := ⟨.hbm, 2441, rfl⟩
abbrev main_v2190 : Ref sig .tc := ⟨.hbm, 2442, rfl⟩
abbrev main_v2191 : Ref sig .tc := ⟨.hbm, 2443, rfl⟩
abbrev main_v2192 : Ref sig .tc := ⟨.hbm, 2444, rfl⟩
abbrev main_cst_243 : Ref sig .tc := ⟨.hbm, 2445, rfl⟩
abbrev main_v2193 : Ref sig .tc := ⟨.hbm, 2446, rfl⟩
abbrev main_v2194 : Ref sig .tc := ⟨.hbm, 2447, rfl⟩
abbrev main_v2195 : Ref sig .tc := ⟨.hbm, 2448, rfl⟩
abbrev main_v2196 : Ref sig .tc := ⟨.hbm, 2449, rfl⟩
abbrev main_v2197 : Ref sig .tc := ⟨.hbm, 2450, rfl⟩
abbrev main_v2198 : Ref sig .tc := ⟨.hbm, 2451, rfl⟩
abbrev main_v2199 : Ref sig .tc := ⟨.hbm, 2452, rfl⟩
abbrev main_v2200 : Ref sig .tc := ⟨.hbm, 2453, rfl⟩
abbrev main_v2201 : Ref sig .tc := ⟨.hbm, 2454, rfl⟩
abbrev main_v2202 : Ref sig .tc := ⟨.hbm, 2455, rfl⟩
abbrev main_c_244 : Ref sig .tc := ⟨.hbm, 2456, rfl⟩
abbrev main_v2203 : Ref sig .tc := ⟨.hbm, 2457, rfl⟩
abbrev main_v2204 : Ref sig .tc := ⟨.hbm, 2458, rfl⟩
abbrev main_v2205 : Ref sig .tc := ⟨.hbm, 2459, rfl⟩
abbrev main_v2206 : Ref sig .tc := ⟨.hbm, 2460, rfl⟩
abbrev main_v2207 : Ref sig .tc := ⟨.hbm, 2461, rfl⟩
abbrev main_v2208 : Ref sig .tc := ⟨.hbm, 2462, rfl⟩
abbrev main_v2209 : Ref sig .tc := ⟨.hbm, 2463, rfl⟩
abbrev main_v2210 : Ref sig .tc := ⟨.hbm, 2464, rfl⟩
abbrev main_cst_245 : Ref sig .tc := ⟨.hbm, 2465, rfl⟩
abbrev main_v2211 : Ref sig .tc := ⟨.hbm, 2466, rfl⟩
abbrev main_v2212 : Ref sig .tc := ⟨.hbm, 2467, rfl⟩
abbrev main_v2213 : Ref sig .tc := ⟨.hbm, 2468, rfl⟩
abbrev main_v2214 : Ref sig .tc := ⟨.hbm, 2469, rfl⟩
abbrev main_v2215 : Ref sig .tc := ⟨.hbm, 2470, rfl⟩
abbrev main_v2216 : Ref sig .tc := ⟨.hbm, 2471, rfl⟩
abbrev main_v2217 : Ref sig .tc := ⟨.hbm, 2472, rfl⟩
abbrev main_v2218 : Ref sig .tc := ⟨.hbm, 2473, rfl⟩
abbrev main_v2219 : Ref sig .tc := ⟨.hbm, 2474, rfl⟩
abbrev main_v2220 : Ref sig .tc := ⟨.hbm, 2475, rfl⟩
abbrev main_c_246 : Ref sig .tc := ⟨.hbm, 2476, rfl⟩
abbrev main_v2221 : Ref sig .tc := ⟨.hbm, 2477, rfl⟩
abbrev main_v2222 : Ref sig .tc := ⟨.hbm, 2478, rfl⟩
abbrev main_v2223 : Ref sig .tc := ⟨.hbm, 2479, rfl⟩
abbrev main_v2224 : Ref sig .tc := ⟨.hbm, 2480, rfl⟩
abbrev main_v2225 : Ref sig .tc := ⟨.hbm, 2481, rfl⟩
abbrev main_v2226 : Ref sig .tc := ⟨.hbm, 2482, rfl⟩
abbrev main_v2227 : Ref sig .tc := ⟨.hbm, 2483, rfl⟩
abbrev main_v2228 : Ref sig .tc := ⟨.hbm, 2484, rfl⟩
abbrev main_cst_247 : Ref sig .tc := ⟨.hbm, 2485, rfl⟩
abbrev main_v2229 : Ref sig .tc := ⟨.hbm, 2486, rfl⟩
abbrev main_v2230 : Ref sig .tc := ⟨.hbm, 2487, rfl⟩
abbrev main_v2231 : Ref sig .tc := ⟨.hbm, 2488, rfl⟩
abbrev main_v2232 : Ref sig .tc := ⟨.hbm, 2489, rfl⟩
abbrev main_v2233 : Ref sig .tc := ⟨.hbm, 2490, rfl⟩
abbrev main_v2234 : Ref sig .tc := ⟨.hbm, 2491, rfl⟩
abbrev main_v2235 : Ref sig .tc := ⟨.hbm, 2492, rfl⟩
abbrev main_v2236 : Ref sig .tc := ⟨.hbm, 2493, rfl⟩
abbrev main_v2237 : Ref sig .tc := ⟨.hbm, 2494, rfl⟩
abbrev main_v2238 : Ref sig .tc := ⟨.hbm, 2495, rfl⟩
abbrev main_c_248 : Ref sig .tc := ⟨.hbm, 2496, rfl⟩
abbrev main_v2239 : Ref sig .tc := ⟨.hbm, 2497, rfl⟩
abbrev main_v2240 : Ref sig .tc := ⟨.hbm, 2498, rfl⟩
abbrev main_v2241 : Ref sig .tc := ⟨.hbm, 2499, rfl⟩
abbrev main_v2242 : Ref sig .tc := ⟨.hbm, 2500, rfl⟩
abbrev main_v2243 : Ref sig .tc := ⟨.hbm, 2501, rfl⟩
abbrev main_v2244 : Ref sig .tc := ⟨.hbm, 2502, rfl⟩
abbrev main_v2245 : Ref sig .tc := ⟨.hbm, 2503, rfl⟩
abbrev main_v2246 : Ref sig .tc := ⟨.hbm, 2504, rfl⟩
abbrev main_cst_249 : Ref sig .tc := ⟨.hbm, 2505, rfl⟩
abbrev main_v2247 : Ref sig .tc := ⟨.hbm, 2506, rfl⟩
abbrev main_v2248 : Ref sig .tc := ⟨.hbm, 2507, rfl⟩
abbrev main_v2249 : Ref sig .tc := ⟨.hbm, 2508, rfl⟩
abbrev main_v2250 : Ref sig .tc := ⟨.hbm, 2509, rfl⟩
abbrev main_v2251 : Ref sig .tc := ⟨.hbm, 2510, rfl⟩
abbrev main_v2252 : Ref sig .tc := ⟨.hbm, 2511, rfl⟩
abbrev main_v2253 : Ref sig .tc := ⟨.hbm, 2512, rfl⟩
abbrev main_v2254 : Ref sig .tc := ⟨.hbm, 2513, rfl⟩
abbrev main_v2255 : Ref sig .tc := ⟨.hbm, 2514, rfl⟩
abbrev main_v2256 : Ref sig .tc := ⟨.hbm, 2515, rfl⟩
abbrev main_c_250 : Ref sig .tc := ⟨.hbm, 2516, rfl⟩
abbrev main_v2257 : Ref sig .tc := ⟨.hbm, 2517, rfl⟩
abbrev main_v2258 : Ref sig .tc := ⟨.hbm, 2518, rfl⟩
abbrev main_v2259 : Ref sig .tc := ⟨.hbm, 2519, rfl⟩
abbrev main_v2260 : Ref sig .tc := ⟨.hbm, 2520, rfl⟩
abbrev main_v2261 : Ref sig .tc := ⟨.hbm, 2521, rfl⟩
abbrev main_v2262 : Ref sig .tc := ⟨.hbm, 2522, rfl⟩
abbrev main_v2263 : Ref sig .tc := ⟨.hbm, 2523, rfl⟩
abbrev main_v2264 : Ref sig .tc := ⟨.hbm, 2524, rfl⟩
abbrev main_cst_251 : Ref sig .tc := ⟨.hbm, 2525, rfl⟩
abbrev main_v2265 : Ref sig .tc := ⟨.hbm, 2526, rfl⟩
abbrev main_v2266 : Ref sig .tc := ⟨.hbm, 2527, rfl⟩
abbrev main_v2267 : Ref sig .tc := ⟨.hbm, 2528, rfl⟩
abbrev main_v2268 : Ref sig .tc := ⟨.hbm, 2529, rfl⟩
abbrev main_v2269 : Ref sig .tc := ⟨.hbm, 2530, rfl⟩
abbrev main_v2270 : Ref sig .tc := ⟨.hbm, 2531, rfl⟩
abbrev main_v2271 : Ref sig .tc := ⟨.hbm, 2532, rfl⟩
abbrev main_v2272 : Ref sig .tc := ⟨.hbm, 2533, rfl⟩
abbrev main_v2273 : Ref sig .tc := ⟨.hbm, 2534, rfl⟩
abbrev main_v2274 : Ref sig .tc := ⟨.hbm, 2535, rfl⟩
abbrev main_c_252 : Ref sig .tc := ⟨.hbm, 2536, rfl⟩
abbrev main_v2275 : Ref sig .tc := ⟨.hbm, 2537, rfl⟩
abbrev main_v2276 : Ref sig .tc := ⟨.hbm, 2538, rfl⟩
abbrev main_v2277 : Ref sig .tc := ⟨.hbm, 2539, rfl⟩
abbrev main_v2278 : Ref sig .tc := ⟨.hbm, 2540, rfl⟩
abbrev main_v2279 : Ref sig .tc := ⟨.hbm, 2541, rfl⟩
abbrev main_v2280 : Ref sig .tc := ⟨.hbm, 2542, rfl⟩
abbrev main_v2281 : Ref sig .tc := ⟨.hbm, 2543, rfl⟩
abbrev main_v2282 : Ref sig .tc := ⟨.hbm, 2544, rfl⟩
abbrev main_cst_253 : Ref sig .tc := ⟨.hbm, 2545, rfl⟩
abbrev main_v2283 : Ref sig .tc := ⟨.hbm, 2546, rfl⟩
abbrev main_v2284 : Ref sig .tc := ⟨.hbm, 2547, rfl⟩
abbrev main_v2285 : Ref sig .tc := ⟨.hbm, 2548, rfl⟩
abbrev main_v2286 : Ref sig .tc := ⟨.hbm, 2549, rfl⟩
abbrev main_v2287 : Ref sig .tc := ⟨.hbm, 2550, rfl⟩
abbrev main_v2288 : Ref sig .tc := ⟨.hbm, 2551, rfl⟩
abbrev main_v2289 : Ref sig .tc := ⟨.hbm, 2552, rfl⟩
abbrev main_v2290 : Ref sig .tc := ⟨.hbm, 2553, rfl⟩
abbrev main_v2291 : Ref sig .tc := ⟨.hbm, 2554, rfl⟩
abbrev main_v2292 : Ref sig .tc := ⟨.hbm, 2555, rfl⟩
abbrev main_c_254 : Ref sig .tc := ⟨.hbm, 2556, rfl⟩
abbrev main_v2293 : Ref sig .tc := ⟨.hbm, 2557, rfl⟩
abbrev main_v2294 : Ref sig .tc := ⟨.hbm, 2558, rfl⟩
abbrev main_v2295 : Ref sig .tc := ⟨.hbm, 2559, rfl⟩
abbrev main_v2296 : Ref sig .tc := ⟨.hbm, 2560, rfl⟩
abbrev main_v2297 : Ref sig .tc := ⟨.hbm, 2561, rfl⟩
abbrev main_v2298 : Ref sig .tc := ⟨.hbm, 2562, rfl⟩
abbrev main_v2299 : Ref sig .tc := ⟨.hbm, 2563, rfl⟩
abbrev main_v2300 : Ref sig .tc := ⟨.hbm, 2564, rfl⟩
abbrev main_cst_255 : Ref sig .tc := ⟨.hbm, 2565, rfl⟩
abbrev main_v2301 : Ref sig .tc := ⟨.hbm, 2566, rfl⟩
abbrev main_v2302 : Ref sig .tc := ⟨.hbm, 2567, rfl⟩
abbrev main_v2303 : Ref sig .tc := ⟨.hbm, 2568, rfl⟩
abbrev main_v2304 : Ref sig .tc := ⟨.hbm, 2569, rfl⟩
abbrev main_v2305 : Ref sig .tc := ⟨.hbm, 2570, rfl⟩
abbrev main_v2306 : Ref sig .tc := ⟨.hbm, 2571, rfl⟩
abbrev main_v2307 : Ref sig .tc := ⟨.hbm, 2572, rfl⟩
abbrev main_v2308 : Ref sig .tc := ⟨.hbm, 2573, rfl⟩
abbrev main_v2309 : Ref sig .tc := ⟨.hbm, 2574, rfl⟩
abbrev main_v2310 : Ref sig .tc := ⟨.hbm, 2575, rfl⟩
abbrev main_c_256 : Ref sig .tc := ⟨.hbm, 2576, rfl⟩
abbrev main_v2311 : Ref sig .tc := ⟨.hbm, 2577, rfl⟩
abbrev main_v2312 : Ref sig .tc := ⟨.hbm, 2578, rfl⟩
abbrev main_v2313 : Ref sig .tc := ⟨.hbm, 2579, rfl⟩
abbrev main_v2314 : Ref sig .tc := ⟨.hbm, 2580, rfl⟩
abbrev main_v2315 : Ref sig .tc := ⟨.hbm, 2581, rfl⟩
abbrev main_v2316 : Ref sig .tc := ⟨.hbm, 2582, rfl⟩
abbrev main_v2317 : Ref sig .tc := ⟨.hbm, 2583, rfl⟩
abbrev main_v2318 : Ref sig .tc := ⟨.hbm, 2584, rfl⟩
abbrev main_cst_257 : Ref sig .tc := ⟨.hbm, 2585, rfl⟩
abbrev main_v2319 : Ref sig .tc := ⟨.hbm, 2586, rfl⟩
abbrev main_v2320 : Ref sig .tc := ⟨.hbm, 2587, rfl⟩
abbrev main_v2321 : Ref sig .tc := ⟨.hbm, 2588, rfl⟩
abbrev main_v2322 : Ref sig .tc := ⟨.hbm, 2589, rfl⟩
abbrev main_v2323 : Ref sig .tc := ⟨.hbm, 2590, rfl⟩
abbrev main_v2324 : Ref sig .tc := ⟨.hbm, 2591, rfl⟩
abbrev main_v2325 : Ref sig .tc := ⟨.hbm, 2592, rfl⟩
abbrev main_v2326 : Ref sig .tc := ⟨.hbm, 2593, rfl⟩
abbrev main_v2327 : Ref sig .tc := ⟨.hbm, 2594, rfl⟩
abbrev main_v2328 : Ref sig .tc := ⟨.hbm, 2595, rfl⟩
abbrev main_c_258 : Ref sig .tc := ⟨.hbm, 2596, rfl⟩
abbrev main_v2329 : Ref sig .tc := ⟨.hbm, 2597, rfl⟩
abbrev main_v2330 : Ref sig .tc := ⟨.hbm, 2598, rfl⟩
abbrev main_v2331 : Ref sig .tc := ⟨.hbm, 2599, rfl⟩
abbrev main_v2332 : Ref sig .tc := ⟨.hbm, 2600, rfl⟩
abbrev main_v2333 : Ref sig .tc := ⟨.hbm, 2601, rfl⟩
abbrev main_v2334 : Ref sig .tc := ⟨.hbm, 2602, rfl⟩
abbrev main_v2335 : Ref sig .tc := ⟨.hbm, 2603, rfl⟩
abbrev main_v2336 : Ref sig .tc := ⟨.hbm, 2604, rfl⟩
abbrev main_cst_259 : Ref sig .tc := ⟨.hbm, 2605, rfl⟩
abbrev main_v2337 : Ref sig .tc := ⟨.hbm, 2606, rfl⟩
abbrev main_v2338 : Ref sig .tc := ⟨.hbm, 2607, rfl⟩
abbrev main_v2339 : Ref sig .tc := ⟨.hbm, 2608, rfl⟩
abbrev main_v2340 : Ref sig .tc := ⟨.hbm, 2609, rfl⟩
abbrev main_v2341 : Ref sig .tc := ⟨.hbm, 2610, rfl⟩
abbrev main_v2342 : Ref sig .tc := ⟨.hbm, 2611, rfl⟩
abbrev main_v2343 : Ref sig .tc := ⟨.hbm, 2612, rfl⟩
abbrev main_v2344 : Ref sig .tc := ⟨.hbm, 2613, rfl⟩
abbrev main_v2345 : Ref sig .tc := ⟨.hbm, 2614, rfl⟩
abbrev main_v2346 : Ref sig .tc := ⟨.hbm, 2615, rfl⟩
abbrev main_c_260 : Ref sig .tc := ⟨.hbm, 2616, rfl⟩
abbrev main_v2347 : Ref sig .tc := ⟨.hbm, 2617, rfl⟩
abbrev main_v2348 : Ref sig .tc := ⟨.hbm, 2618, rfl⟩
abbrev main_v2349 : Ref sig .tc := ⟨.hbm, 2619, rfl⟩
abbrev main_v2350 : Ref sig .tc := ⟨.hbm, 2620, rfl⟩
abbrev main_v2351 : Ref sig .tc := ⟨.hbm, 2621, rfl⟩
abbrev main_v2352 : Ref sig .tc := ⟨.hbm, 2622, rfl⟩
abbrev main_v2353 : Ref sig .tc := ⟨.hbm, 2623, rfl⟩
abbrev main_v2354 : Ref sig .tc := ⟨.hbm, 2624, rfl⟩
abbrev main_cst_261 : Ref sig .tc := ⟨.hbm, 2625, rfl⟩
abbrev main_v2355 : Ref sig .tc := ⟨.hbm, 2626, rfl⟩
abbrev main_v2356 : Ref sig .tc := ⟨.hbm, 2627, rfl⟩
abbrev main_v2357 : Ref sig .tc := ⟨.hbm, 2628, rfl⟩
abbrev main_v2358 : Ref sig .tc := ⟨.hbm, 2629, rfl⟩
abbrev main_v2359 : Ref sig .tc := ⟨.hbm, 2630, rfl⟩
abbrev main_v2360 : Ref sig .tc := ⟨.hbm, 2631, rfl⟩
abbrev main_v2361 : Ref sig .tc := ⟨.hbm, 2632, rfl⟩
abbrev main_v2362 : Ref sig .tc := ⟨.hbm, 2633, rfl⟩
abbrev main_v2363 : Ref sig .tc := ⟨.hbm, 2634, rfl⟩
abbrev main_v2364 : Ref sig .tc := ⟨.hbm, 2635, rfl⟩
abbrev main_c_262 : Ref sig .tc := ⟨.hbm, 2636, rfl⟩
abbrev main_v2365 : Ref sig .tc := ⟨.hbm, 2637, rfl⟩
abbrev main_v2366 : Ref sig .tc := ⟨.hbm, 2638, rfl⟩
abbrev main_v2367 : Ref sig .tc := ⟨.hbm, 2639, rfl⟩
abbrev main_v2368 : Ref sig .tc := ⟨.hbm, 2640, rfl⟩
abbrev main_v2369 : Ref sig .tc := ⟨.hbm, 2641, rfl⟩
abbrev main_v2370 : Ref sig .tc := ⟨.hbm, 2642, rfl⟩
abbrev main_v2371 : Ref sig .tc := ⟨.hbm, 2643, rfl⟩
abbrev main_v2372 : Ref sig .tc := ⟨.hbm, 2644, rfl⟩
abbrev main_cst_263 : Ref sig .tc := ⟨.hbm, 2645, rfl⟩
abbrev main_v2373 : Ref sig .tc := ⟨.hbm, 2646, rfl⟩
abbrev main_v2374 : Ref sig .tc := ⟨.hbm, 2647, rfl⟩
abbrev main_v2375 : Ref sig .tc := ⟨.hbm, 2648, rfl⟩
abbrev main_v2376 : Ref sig .tc := ⟨.hbm, 2649, rfl⟩
abbrev main_v2377 : Ref sig .tc := ⟨.hbm, 2650, rfl⟩
abbrev main_v2378 : Ref sig .tc := ⟨.hbm, 2651, rfl⟩
abbrev main_v2379 : Ref sig .tc := ⟨.hbm, 2652, rfl⟩
abbrev main_v2380 : Ref sig .tc := ⟨.hbm, 2653, rfl⟩
abbrev main_v2381 : Ref sig .tc := ⟨.hbm, 2654, rfl⟩
abbrev main_v2382 : Ref sig .tc := ⟨.hbm, 2655, rfl⟩
abbrev main_c_264 : Ref sig .tc := ⟨.hbm, 2656, rfl⟩
abbrev main_v2383 : Ref sig .tc := ⟨.hbm, 2657, rfl⟩
abbrev main_v2384 : Ref sig .tc := ⟨.hbm, 2658, rfl⟩
abbrev main_v2385 : Ref sig .tc := ⟨.hbm, 2659, rfl⟩
abbrev main_v2386 : Ref sig .tc := ⟨.hbm, 2660, rfl⟩
abbrev main_v2387 : Ref sig .tc := ⟨.hbm, 2661, rfl⟩
abbrev main_v2388 : Ref sig .tc := ⟨.hbm, 2662, rfl⟩
abbrev main_v2389 : Ref sig .tc := ⟨.hbm, 2663, rfl⟩
abbrev main_v2390 : Ref sig .tc := ⟨.hbm, 2664, rfl⟩
abbrev main_cst_265 : Ref sig .tc := ⟨.hbm, 2665, rfl⟩
abbrev main_v2391 : Ref sig .tc := ⟨.hbm, 2666, rfl⟩
abbrev main_v2392 : Ref sig .tc := ⟨.hbm, 2667, rfl⟩
abbrev main_v2393 : Ref sig .tc := ⟨.hbm, 2668, rfl⟩
abbrev main_v2394 : Ref sig .tc := ⟨.hbm, 2669, rfl⟩
abbrev main_v2395 : Ref sig .tc := ⟨.hbm, 2670, rfl⟩
abbrev main_v2396 : Ref sig .tc := ⟨.hbm, 2671, rfl⟩
abbrev main_v2397 : Ref sig .tc := ⟨.hbm, 2672, rfl⟩
abbrev main_v2398 : Ref sig .tc := ⟨.hbm, 2673, rfl⟩
abbrev main_v2399 : Ref sig .tc := ⟨.hbm, 2674, rfl⟩
abbrev main_v2400 : Ref sig .tc := ⟨.hbm, 2675, rfl⟩
abbrev main_c_266 : Ref sig .tc := ⟨.hbm, 2676, rfl⟩
abbrev main_v2401 : Ref sig .tc := ⟨.hbm, 2677, rfl⟩
abbrev main_v2402 : Ref sig .tc := ⟨.hbm, 2678, rfl⟩
abbrev main_v2403 : Ref sig .tc := ⟨.hbm, 2679, rfl⟩
abbrev main_v2404 : Ref sig .tc := ⟨.hbm, 2680, rfl⟩
abbrev main_v2405 : Ref sig .tc := ⟨.hbm, 2681, rfl⟩
abbrev main_v2406 : Ref sig .tc := ⟨.hbm, 2682, rfl⟩
abbrev main_v2407 : Ref sig .tc := ⟨.hbm, 2683, rfl⟩
abbrev main_v2408 : Ref sig .tc := ⟨.hbm, 2684, rfl⟩
abbrev main_cst_267 : Ref sig .tc := ⟨.hbm, 2685, rfl⟩
abbrev main_v2409 : Ref sig .tc := ⟨.hbm, 2686, rfl⟩
abbrev main_v2410 : Ref sig .tc := ⟨.hbm, 2687, rfl⟩
abbrev main_v2411 : Ref sig .tc := ⟨.hbm, 2688, rfl⟩
abbrev main_v2412 : Ref sig .tc := ⟨.hbm, 2689, rfl⟩
abbrev main_v2413 : Ref sig .tc := ⟨.hbm, 2690, rfl⟩
abbrev main_v2414 : Ref sig .tc := ⟨.hbm, 2691, rfl⟩
abbrev main_v2415 : Ref sig .tc := ⟨.hbm, 2692, rfl⟩
abbrev main_v2416 : Ref sig .tc := ⟨.hbm, 2693, rfl⟩
abbrev main_v2417 : Ref sig .tc := ⟨.hbm, 2694, rfl⟩
abbrev main_v2418 : Ref sig .tc := ⟨.hbm, 2695, rfl⟩
abbrev main_c_268 : Ref sig .tc := ⟨.hbm, 2696, rfl⟩
abbrev main_v2419 : Ref sig .tc := ⟨.hbm, 2697, rfl⟩
abbrev main_v2420 : Ref sig .tc := ⟨.hbm, 2698, rfl⟩
abbrev main_v2421 : Ref sig .tc := ⟨.hbm, 2699, rfl⟩
abbrev main_v2422 : Ref sig .tc := ⟨.hbm, 2700, rfl⟩
abbrev main_v2423 : Ref sig .tc := ⟨.hbm, 2701, rfl⟩
abbrev main_v2424 : Ref sig .tc := ⟨.hbm, 2702, rfl⟩
abbrev main_v2425 : Ref sig .tc := ⟨.hbm, 2703, rfl⟩
abbrev main_v2426 : Ref sig .tc := ⟨.hbm, 2704, rfl⟩
abbrev main_cst_269 : Ref sig .tc := ⟨.hbm, 2705, rfl⟩
abbrev main_v2427 : Ref sig .tc := ⟨.hbm, 2706, rfl⟩
abbrev main_v2428 : Ref sig .tc := ⟨.hbm, 2707, rfl⟩
abbrev main_v2429 : Ref sig .tc := ⟨.hbm, 2708, rfl⟩
abbrev main_v2430 : Ref sig .tc := ⟨.hbm, 2709, rfl⟩
abbrev main_v2431 : Ref sig .tc := ⟨.hbm, 2710, rfl⟩
abbrev main_v2432 : Ref sig .tc := ⟨.hbm, 2711, rfl⟩
abbrev main_v2433 : Ref sig .tc := ⟨.hbm, 2712, rfl⟩
abbrev main_v2434 : Ref sig .tc := ⟨.hbm, 2713, rfl⟩
abbrev main_v2435 : Ref sig .tc := ⟨.hbm, 2714, rfl⟩
abbrev main_v2436 : Ref sig .tc := ⟨.hbm, 2715, rfl⟩
abbrev main_c_270 : Ref sig .tc := ⟨.hbm, 2716, rfl⟩
abbrev main_v2437 : Ref sig .tc := ⟨.hbm, 2717, rfl⟩
abbrev main_v2438 : Ref sig .tc := ⟨.hbm, 2718, rfl⟩
abbrev main_v2439 : Ref sig .tc := ⟨.hbm, 2719, rfl⟩
abbrev main_v2440 : Ref sig .tc := ⟨.hbm, 2720, rfl⟩
abbrev main_v2441 : Ref sig .tc := ⟨.hbm, 2721, rfl⟩
abbrev main_v2442 : Ref sig .tc := ⟨.hbm, 2722, rfl⟩
abbrev main_v2443 : Ref sig .tc := ⟨.hbm, 2723, rfl⟩
abbrev main_v2444 : Ref sig .tc := ⟨.hbm, 2724, rfl⟩
abbrev main_cst_271 : Ref sig .tc := ⟨.hbm, 2725, rfl⟩
abbrev main_v2445 : Ref sig .tc := ⟨.hbm, 2726, rfl⟩
abbrev main_v2446 : Ref sig .tc := ⟨.hbm, 2727, rfl⟩
abbrev main_v2447 : Ref sig .tc := ⟨.hbm, 2728, rfl⟩
abbrev main_v2448 : Ref sig .tc := ⟨.hbm, 2729, rfl⟩
abbrev main_v2449 : Ref sig .tc := ⟨.hbm, 2730, rfl⟩
abbrev main_v2450 : Ref sig .tc := ⟨.hbm, 2731, rfl⟩
abbrev main_v2451 : Ref sig .tc := ⟨.hbm, 2732, rfl⟩
abbrev main_v2452 : Ref sig .tc := ⟨.hbm, 2733, rfl⟩
abbrev main_v2453 : Ref sig .tc := ⟨.hbm, 2734, rfl⟩
abbrev main_v2454 : Ref sig .tc := ⟨.hbm, 2735, rfl⟩
abbrev main_c_272 : Ref sig .tc := ⟨.hbm, 2736, rfl⟩
abbrev main_v2455 : Ref sig .tc := ⟨.hbm, 2737, rfl⟩
abbrev main_v2456 : Ref sig .tc := ⟨.hbm, 2738, rfl⟩
abbrev main_v2457 : Ref sig .tc := ⟨.hbm, 2739, rfl⟩
abbrev main_v2458 : Ref sig .tc := ⟨.hbm, 2740, rfl⟩
abbrev main_v2459 : Ref sig .tc := ⟨.hbm, 2741, rfl⟩
abbrev main_v2460 : Ref sig .tc := ⟨.hbm, 2742, rfl⟩
abbrev main_v2461 : Ref sig .tc := ⟨.hbm, 2743, rfl⟩
abbrev main_v2462 : Ref sig .tc := ⟨.hbm, 2744, rfl⟩
abbrev main_cst_273 : Ref sig .tc := ⟨.hbm, 2745, rfl⟩
abbrev main_v2463 : Ref sig .tc := ⟨.hbm, 2746, rfl⟩
abbrev main_v2464 : Ref sig .tc := ⟨.hbm, 2747, rfl⟩
abbrev main_v2465 : Ref sig .tc := ⟨.hbm, 2748, rfl⟩
abbrev main_v2466 : Ref sig .tc := ⟨.hbm, 2749, rfl⟩
abbrev main_v2467 : Ref sig .tc := ⟨.hbm, 2750, rfl⟩
abbrev main_v2468 : Ref sig .tc := ⟨.hbm, 2751, rfl⟩
abbrev main_v2469 : Ref sig .tc := ⟨.hbm, 2752, rfl⟩
abbrev main_v2470 : Ref sig .tc := ⟨.hbm, 2753, rfl⟩
abbrev main_v2471 : Ref sig .tc := ⟨.hbm, 2754, rfl⟩
abbrev main_v2472 : Ref sig .tc := ⟨.hbm, 2755, rfl⟩
abbrev main_c_274 : Ref sig .tc := ⟨.hbm, 2756, rfl⟩
abbrev main_v2473 : Ref sig .tc := ⟨.hbm, 2757, rfl⟩
abbrev main_v2474 : Ref sig .tc := ⟨.hbm, 2758, rfl⟩
abbrev main_v2475 : Ref sig .tc := ⟨.hbm, 2759, rfl⟩
abbrev main_v2476 : Ref sig .tc := ⟨.hbm, 2760, rfl⟩
abbrev main_v2477 : Ref sig .tc := ⟨.hbm, 2761, rfl⟩
abbrev main_v2478 : Ref sig .tc := ⟨.hbm, 2762, rfl⟩
abbrev main_v2479 : Ref sig .tc := ⟨.hbm, 2763, rfl⟩
abbrev main_v2480 : Ref sig .tc := ⟨.hbm, 2764, rfl⟩
abbrev main_cst_275 : Ref sig .tc := ⟨.hbm, 2765, rfl⟩
abbrev main_v2481 : Ref sig .tc := ⟨.hbm, 2766, rfl⟩
abbrev main_v2482 : Ref sig .tc := ⟨.hbm, 2767, rfl⟩
abbrev main_v2483 : Ref sig .tc := ⟨.hbm, 2768, rfl⟩
abbrev main_v2484 : Ref sig .tc := ⟨.hbm, 2769, rfl⟩
abbrev main_v2485 : Ref sig .tc := ⟨.hbm, 2770, rfl⟩
abbrev main_v2486 : Ref sig .tc := ⟨.hbm, 2771, rfl⟩
abbrev main_v2487 : Ref sig .tc := ⟨.hbm, 2772, rfl⟩
abbrev main_v2488 : Ref sig .tc := ⟨.hbm, 2773, rfl⟩
abbrev main_v2489 : Ref sig .tc := ⟨.hbm, 2774, rfl⟩
abbrev main_v2490 : Ref sig .tc := ⟨.hbm, 2775, rfl⟩
abbrev main_c_276 : Ref sig .tc := ⟨.hbm, 2776, rfl⟩
abbrev main_v2491 : Ref sig .tc := ⟨.hbm, 2777, rfl⟩
abbrev main_v2492 : Ref sig .tc := ⟨.hbm, 2778, rfl⟩
abbrev main_v2493 : Ref sig .tc := ⟨.hbm, 2779, rfl⟩
abbrev main_v2494 : Ref sig .tc := ⟨.hbm, 2780, rfl⟩
abbrev main_v2495 : Ref sig .tc := ⟨.hbm, 2781, rfl⟩
abbrev main_v2496 : Ref sig .tc := ⟨.hbm, 2782, rfl⟩
abbrev main_v2497 : Ref sig .tc := ⟨.hbm, 2783, rfl⟩
abbrev main_v2498 : Ref sig .tc := ⟨.hbm, 2784, rfl⟩
abbrev main_cst_277 : Ref sig .tc := ⟨.hbm, 2785, rfl⟩
abbrev main_v2499 : Ref sig .tc := ⟨.hbm, 2786, rfl⟩
abbrev main_v2500 : Ref sig .tc := ⟨.hbm, 2787, rfl⟩
abbrev main_v2501 : Ref sig .tc := ⟨.hbm, 2788, rfl⟩
abbrev main_v2502 : Ref sig .tc := ⟨.hbm, 2789, rfl⟩
abbrev main_v2503 : Ref sig .tc := ⟨.hbm, 2790, rfl⟩
abbrev main_v2504 : Ref sig .tc := ⟨.hbm, 2791, rfl⟩
abbrev main_v2505 : Ref sig .tc := ⟨.hbm, 2792, rfl⟩
abbrev main_v2506 : Ref sig .tc := ⟨.hbm, 2793, rfl⟩
abbrev main_v2507 : Ref sig .tc := ⟨.hbm, 2794, rfl⟩
abbrev main_v2508 : Ref sig .tc := ⟨.hbm, 2795, rfl⟩
abbrev main_c_278 : Ref sig .tc := ⟨.hbm, 2796, rfl⟩
abbrev main_v2509 : Ref sig .tc := ⟨.hbm, 2797, rfl⟩
abbrev main_v2510 : Ref sig .tc := ⟨.hbm, 2798, rfl⟩
abbrev main_v2511 : Ref sig .tc := ⟨.hbm, 2799, rfl⟩
abbrev main_v2512 : Ref sig .tc := ⟨.hbm, 2800, rfl⟩
abbrev main_v2513 : Ref sig .tc := ⟨.hbm, 2801, rfl⟩
abbrev main_v2514 : Ref sig .tc := ⟨.hbm, 2802, rfl⟩
abbrev main_v2515 : Ref sig .tc := ⟨.hbm, 2803, rfl⟩
abbrev main_v2516 : Ref sig .tc := ⟨.hbm, 2804, rfl⟩
abbrev main_cst_279 : Ref sig .tc := ⟨.hbm, 2805, rfl⟩
abbrev main_v2517 : Ref sig .tc := ⟨.hbm, 2806, rfl⟩
abbrev main_v2518 : Ref sig .tc := ⟨.hbm, 2807, rfl⟩
abbrev main_v2519 : Ref sig .tc := ⟨.hbm, 2808, rfl⟩
abbrev main_v2520 : Ref sig .tc := ⟨.hbm, 2809, rfl⟩
abbrev main_v2521 : Ref sig .tc := ⟨.hbm, 2810, rfl⟩
abbrev main_v2522 : Ref sig .tc := ⟨.hbm, 2811, rfl⟩
abbrev main_v2523 : Ref sig .tc := ⟨.hbm, 2812, rfl⟩
abbrev main_v2524 : Ref sig .tc := ⟨.hbm, 2813, rfl⟩
abbrev main_v2525 : Ref sig .tc := ⟨.hbm, 2814, rfl⟩
abbrev main_v2526 : Ref sig .tc := ⟨.hbm, 2815, rfl⟩
abbrev main_c_280 : Ref sig .tc := ⟨.hbm, 2816, rfl⟩
abbrev main_v2527 : Ref sig .tc := ⟨.hbm, 2817, rfl⟩
abbrev main_v2528 : Ref sig .tc := ⟨.hbm, 2818, rfl⟩
abbrev main_v2529 : Ref sig .tc := ⟨.hbm, 2819, rfl⟩
abbrev main_v2530 : Ref sig .tc := ⟨.hbm, 2820, rfl⟩
abbrev main_v2531 : Ref sig .tc := ⟨.hbm, 2821, rfl⟩
abbrev main_v2532 : Ref sig .tc := ⟨.hbm, 2822, rfl⟩
abbrev main_v2533 : Ref sig .tc := ⟨.hbm, 2823, rfl⟩
abbrev main_v2534 : Ref sig .tc := ⟨.hbm, 2824, rfl⟩
abbrev main_cst_281 : Ref sig .tc := ⟨.hbm, 2825, rfl⟩
abbrev main_v2535 : Ref sig .tc := ⟨.hbm, 2826, rfl⟩
abbrev main_v2536 : Ref sig .tc := ⟨.hbm, 2827, rfl⟩
abbrev main_v2537 : Ref sig .tc := ⟨.hbm, 2828, rfl⟩
abbrev main_v2538 : Ref sig .tc := ⟨.hbm, 2829, rfl⟩
abbrev main_v2539 : Ref sig .tc := ⟨.hbm, 2830, rfl⟩
abbrev main_v2540 : Ref sig .tc := ⟨.hbm, 2831, rfl⟩
abbrev main_v2541 : Ref sig .tc := ⟨.hbm, 2832, rfl⟩
abbrev main_v2542 : Ref sig .tc := ⟨.hbm, 2833, rfl⟩
abbrev main_v2543 : Ref sig .tc := ⟨.hbm, 2834, rfl⟩
abbrev main_v2544 : Ref sig .tc := ⟨.hbm, 2835, rfl⟩
abbrev main_c_282 : Ref sig .tc := ⟨.hbm, 2836, rfl⟩
abbrev main_v2545 : Ref sig .tc := ⟨.hbm, 2837, rfl⟩
abbrev main_v2546 : Ref sig .tc := ⟨.hbm, 2838, rfl⟩
abbrev main_v2547 : Ref sig .tc := ⟨.hbm, 2839, rfl⟩
abbrev main_v2548 : Ref sig .tc := ⟨.hbm, 2840, rfl⟩
abbrev main_v2549 : Ref sig .tc := ⟨.hbm, 2841, rfl⟩
abbrev main_v2550 : Ref sig .tc := ⟨.hbm, 2842, rfl⟩
abbrev main_v2551 : Ref sig .tc := ⟨.hbm, 2843, rfl⟩
abbrev main_v2552 : Ref sig .tc := ⟨.hbm, 2844, rfl⟩
abbrev main_cst_283 : Ref sig .tc := ⟨.hbm, 2845, rfl⟩
abbrev main_v2553 : Ref sig .tc := ⟨.hbm, 2846, rfl⟩
abbrev main_v2554 : Ref sig .tc := ⟨.hbm, 2847, rfl⟩
abbrev main_v2555 : Ref sig .tc := ⟨.hbm, 2848, rfl⟩
abbrev main_v2556 : Ref sig .tc := ⟨.hbm, 2849, rfl⟩
abbrev main_v2557 : Ref sig .tc := ⟨.hbm, 2850, rfl⟩
abbrev main_v2558 : Ref sig .tc := ⟨.hbm, 2851, rfl⟩
abbrev main_v2559 : Ref sig .tc := ⟨.hbm, 2852, rfl⟩
abbrev main_v2560 : Ref sig .tc := ⟨.hbm, 2853, rfl⟩
abbrev main_v2561 : Ref sig .tc := ⟨.hbm, 2854, rfl⟩
abbrev main_v2562 : Ref sig .tc := ⟨.hbm, 2855, rfl⟩
abbrev main_c_284 : Ref sig .tc := ⟨.hbm, 2856, rfl⟩
abbrev main_v2563 : Ref sig .tc := ⟨.hbm, 2857, rfl⟩
abbrev main_v2564 : Ref sig .tc := ⟨.hbm, 2858, rfl⟩
abbrev main_v2565 : Ref sig .tc := ⟨.hbm, 2859, rfl⟩
abbrev main_v2566 : Ref sig .tc := ⟨.hbm, 2860, rfl⟩
abbrev main_v2567 : Ref sig .tc := ⟨.hbm, 2861, rfl⟩
abbrev main_v2568 : Ref sig .tc := ⟨.hbm, 2862, rfl⟩
abbrev main_v2569 : Ref sig .tc := ⟨.hbm, 2863, rfl⟩
abbrev main_v2570 : Ref sig .tc := ⟨.hbm, 2864, rfl⟩
abbrev main_cst_285 : Ref sig .tc := ⟨.hbm, 2865, rfl⟩
abbrev main_v2571 : Ref sig .tc := ⟨.hbm, 2866, rfl⟩
abbrev main_v2572 : Ref sig .tc := ⟨.hbm, 2867, rfl⟩
abbrev main_v2573 : Ref sig .tc := ⟨.hbm, 2868, rfl⟩
abbrev main_v2574 : Ref sig .tc := ⟨.hbm, 2869, rfl⟩
abbrev main_v2575 : Ref sig .tc := ⟨.hbm, 2870, rfl⟩
abbrev main_v2576 : Ref sig .tc := ⟨.hbm, 2871, rfl⟩
abbrev main_v2577 : Ref sig .tc := ⟨.hbm, 2872, rfl⟩
abbrev main_v2578 : Ref sig .tc := ⟨.hbm, 2873, rfl⟩
abbrev main_v2579 : Ref sig .tc := ⟨.hbm, 2874, rfl⟩
abbrev main_v2580 : Ref sig .tc := ⟨.hbm, 2875, rfl⟩
abbrev main_c_286 : Ref sig .tc := ⟨.hbm, 2876, rfl⟩
abbrev main_v2581 : Ref sig .tc := ⟨.hbm, 2877, rfl⟩
abbrev main_v2582 : Ref sig .tc := ⟨.hbm, 2878, rfl⟩
abbrev main_v2583 : Ref sig .tc := ⟨.hbm, 2879, rfl⟩
abbrev main_v2584 : Ref sig .tc := ⟨.hbm, 2880, rfl⟩
abbrev main_v2585 : Ref sig .tc := ⟨.hbm, 2881, rfl⟩
abbrev main_v2586 : Ref sig .tc := ⟨.hbm, 2882, rfl⟩
abbrev main_v2587 : Ref sig .tc := ⟨.hbm, 2883, rfl⟩
abbrev main_v2588 : Ref sig .tc := ⟨.hbm, 2884, rfl⟩
abbrev main_cst_287 : Ref sig .tc := ⟨.hbm, 2885, rfl⟩
abbrev main_v2589 : Ref sig .tc := ⟨.hbm, 2886, rfl⟩
abbrev main_v2590 : Ref sig .tc := ⟨.hbm, 2887, rfl⟩
abbrev main_v2591 : Ref sig .tc := ⟨.hbm, 2888, rfl⟩
abbrev main_v2592 : Ref sig .tc := ⟨.hbm, 2889, rfl⟩
abbrev main_v2593 : Ref sig .tc := ⟨.hbm, 2890, rfl⟩
abbrev main_v2594 : Ref sig .tc := ⟨.hbm, 2891, rfl⟩
abbrev main_v2595 : Ref sig .tc := ⟨.hbm, 2892, rfl⟩
abbrev main_v2596 : Ref sig .tc := ⟨.hbm, 2893, rfl⟩
abbrev main_v2597 : Ref sig .tc := ⟨.hbm, 2894, rfl⟩
abbrev main_v2598 : Ref sig .tc := ⟨.hbm, 2895, rfl⟩
abbrev main_c_288 : Ref sig .tc := ⟨.hbm, 2896, rfl⟩
abbrev main_v2599 : Ref sig .tc := ⟨.hbm, 2897, rfl⟩
abbrev main_v2600 : Ref sig .tc := ⟨.hbm, 2898, rfl⟩
abbrev main_v2601 : Ref sig .tc := ⟨.hbm, 2899, rfl⟩

abbrev nD : Nat := 1
abbrev τ : Topo := Topo.v7x

variable {F : FTy → Type} [FloatOps F]

class Facts₀ : Prop where
  bcast_S_S16384x208 : S_.BroadcastsInDim S16384x208 (![] : Fin 0 → Fin S16384x208.rank)
  bcast_S_S64 : S_.BroadcastsInDim S64 (![] : Fin 0 → Fin S64.rank)
  bcast_S64_S64x1_0 : S64.BroadcastsInDim S64x1 (![0] : Fin 1 → Fin S64x1.rank)
  slices_S16384x208_S16384x64_0_0 : S16384x208.Slices ![0, 0] S16384x64
  slices_S128x64_S1x64_0_0 : S128x64.Slices ![0, 0] S1x64
  shapeCasts_S1x64_S64 : S1x64.ShapeCasts S64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  slices_S128_S1_0 : S128.Slices ![0] S1
  shapeCasts_S1_S_ : S1.ShapeCasts S_
  bcast_S_S16384 : S_.BroadcastsInDim S16384 (![] : Fin 0 → Fin S16384.rank)
  bcast_S_S1 : S_.BroadcastsInDim S1 (![] : Fin 0 → Fin S1.rank)
  slices_S128x64_S1x64_1_0 : S128x64.Slices ![1, 0] S1x64
  slices_S128_S1_1 : S128.Slices ![1] S1
  slices_S128x64_S1x64_2_0 : S128x64.Slices ![2, 0] S1x64
  slices_S128_S1_2 : S128.Slices ![2] S1
  slices_S128x64_S1x64_3_0 : S128x64.Slices ![3, 0] S1x64
  slices_S128_S1_3 : S128.Slices ![3] S1
  slices_S128x64_S1x64_4_0 : S128x64.Slices ![4, 0] S1x64
  slices_S128_S1_4 : S128.Slices ![4] S1
  slices_S128x64_S1x64_5_0 : S128x64.Slices ![5, 0] S1x64
  slices_S128_S1_5 : S128.Slices ![5] S1
  slices_S128x64_S1x64_6_0 : S128x64.Slices ![6, 0] S1x64
  slices_S128_S1_6 : S128.Slices ![6] S1
  slices_S128x64_S1x64_7_0 : S128x64.Slices ![7, 0] S1x64
  slices_S128_S1_7 : S128.Slices ![7] S1
  slices_S128x64_S1x64_8_0 : S128x64.Slices ![8, 0] S1x64
  slices_S128_S1_8 : S128.Slices ![8] S1
  slices_S128x64_S1x64_9_0 : S128x64.Slices ![9, 0] S1x64
  slices_S128_S1_9 : S128.Slices ![9] S1
  slices_S128x64_S1x64_10_0 : S128x64.Slices ![10, 0] S1x64
  slices_S128_S1_10 : S128.Slices ![10] S1
  slices_S128x64_S1x64_11_0 : S128x64.Slices ![11, 0] S1x64
  slices_S128_S1_11 : S128.Slices ![11] S1
  slices_S128x64_S1x64_12_0 : S128x64.Slices ![12, 0] S1x64
  slices_S128_S1_12 : S128.Slices ![12] S1
  slices_S128x64_S1x64_13_0 : S128x64.Slices ![13, 0] S1x64
  slices_S128_S1_13 : S128.Slices ![13] S1
  slices_S128x64_S1x64_14_0 : S128x64.Slices ![14, 0] S1x64
  slices_S128_S1_14 : S128.Slices ![14] S1
  slices_S128x64_S1x64_15_0 : S128x64.Slices ![15, 0] S1x64
  slices_S128_S1_15 : S128.Slices ![15] S1
  slices_S128x64_S1x64_16_0 : S128x64.Slices ![16, 0] S1x64
  slices_S128_S1_16 : S128.Slices ![16] S1
  slices_S128x64_S1x64_17_0 : S128x64.Slices ![17, 0] S1x64
  slices_S128_S1_17 : S128.Slices ![17] S1
  slices_S128x64_S1x64_18_0 : S128x64.Slices ![18, 0] S1x64
  slices_S128_S1_18 : S128.Slices ![18] S1
  slices_S128x64_S1x64_19_0 : S128x64.Slices ![19, 0] S1x64
  slices_S128_S1_19 : S128.Slices ![19] S1
  slices_S128x64_S1x64_20_0 : S128x64.Slices ![20, 0] S1x64
  slices_S128_S1_20 : S128.Slices ![20] S1
  slices_S128x64_S1x64_21_0 : S128x64.Slices ![21, 0] S1x64
  slices_S128_S1_21 : S128.Slices ![21] S1
  slices_S128x64_S1x64_22_0 : S128x64.Slices ![22, 0] S1x64
  slices_S128_S1_22 : S128.Slices ![22] S1
  slices_S128x64_S1x64_23_0 : S128x64.Slices ![23, 0] S1x64
  slices_S128_S1_23 : S128.Slices ![23] S1
  slices_S128x64_S1x64_24_0 : S128x64.Slices ![24, 0] S1x64
  slices_S128_S1_24 : S128.Slices ![24] S1
  slices_S128x64_S1x64_25_0 : S128x64.Slices ![25, 0] S1x64
  slices_S128_S1_25 : S128.Slices ![25] S1
  slices_S128x64_S1x64_26_0 : S128x64.Slices ![26, 0] S1x64
  slices_S128_S1_26 : S128.Slices ![26] S1
  slices_S128x64_S1x64_27_0 : S128x64.Slices ![27, 0] S1x64
  slices_S128_S1_27 : S128.Slices ![27] S1
  slices_S128x64_S1x64_28_0 : S128x64.Slices ![28, 0] S1x64
  slices_S128_S1_28 : S128.Slices ![28] S1
  slices_S128x64_S1x64_29_0 : S128x64.Slices ![29, 0] S1x64
  slices_S128_S1_29 : S128.Slices ![29] S1
  slices_S128x64_S1x64_30_0 : S128x64.Slices ![30, 0] S1x64
  slices_S128_S1_30 : S128.Slices ![30] S1
  slices_S128x64_S1x64_31_0 : S128x64.Slices ![31, 0] S1x64
  slices_S128_S1_31 : S128.Slices ![31] S1
  slices_S128x64_S1x64_32_0 : S128x64.Slices ![32, 0] S1x64
  slices_S128_S1_32 : S128.Slices ![32] S1
  slices_S128x64_S1x64_33_0 : S128x64.Slices ![33, 0] S1x64
  slices_S128_S1_33 : S128.Slices ![33] S1
  slices_S128x64_S1x64_34_0 : S128x64.Slices ![34, 0] S1x64
  slices_S128_S1_34 : S128.Slices ![34] S1
  slices_S128x64_S1x64_35_0 : S128x64.Slices ![35, 0] S1x64
  slices_S128_S1_35 : S128.Slices ![35] S1
  slices_S128x64_S1x64_36_0 : S128x64.Slices ![36, 0] S1x64
  slices_S128_S1_36 : S128.Slices ![36] S1
  slices_S128x64_S1x64_37_0 : S128x64.Slices ![37, 0] S1x64
  slices_S128_S1_37 : S128.Slices ![37] S1
  slices_S128x64_S1x64_38_0 : S128x64.Slices ![38, 0] S1x64
  slices_S128_S1_38 : S128.Slices ![38] S1
  slices_S128x64_S1x64_39_0 : S128x64.Slices ![39, 0] S1x64
  slices_S128_S1_39 : S128.Slices ![39] S1
  slices_S128x64_S1x64_40_0 : S128x64.Slices ![40, 0] S1x64
  slices_S128_S1_40 : S128.Slices ![40] S1
  slices_S128x64_S1x64_41_0 : S128x64.Slices ![41, 0] S1x64
  slices_S128_S1_41 : S128.Slices ![41] S1
  slices_S128x64_S1x64_42_0 : S128x64.Slices ![42, 0] S1x64
  slices_S128_S1_42 : S128.Slices ![42] S1
  slices_S128x64_S1x64_43_0 : S128x64.Slices ![43, 0] S1x64
  slices_S128_S1_43 : S128.Slices ![43] S1
  slices_S128x64_S1x64_44_0 : S128x64.Slices ![44, 0] S1x64
  slices_S128_S1_44 : S128.Slices ![44] S1
  slices_S128x64_S1x64_45_0 : S128x64.Slices ![45, 0] S1x64
  slices_S128_S1_45 : S128.Slices ![45] S1
  slices_S128x64_S1x64_46_0 : S128x64.Slices ![46, 0] S1x64
  slices_S128_S1_46 : S128.Slices ![46] S1
  slices_S128x64_S1x64_47_0 : S128x64.Slices ![47, 0] S1x64
  slices_S128_S1_47 : S128.Slices ![47] S1
  slices_S128x64_S1x64_48_0 : S128x64.Slices ![48, 0] S1x64
  slices_S128_S1_48 : S128.Slices ![48] S1
  slices_S128x64_S1x64_49_0 : S128x64.Slices ![49, 0] S1x64
  slices_S128_S1_49 : S128.Slices ![49] S1
  slices_S128x64_S1x64_50_0 : S128x64.Slices ![50, 0] S1x64
  slices_S128_S1_50 : S128.Slices ![50] S1
  slices_S128x64_S1x64_51_0 : S128x64.Slices ![51, 0] S1x64
  slices_S128_S1_51 : S128.Slices ![51] S1
  slices_S128x64_S1x64_52_0 : S128x64.Slices ![52, 0] S1x64
  slices_S128_S1_52 : S128.Slices ![52] S1
  slices_S128x64_S1x64_53_0 : S128x64.Slices ![53, 0] S1x64
  slices_S128_S1_53 : S128.Slices ![53] S1
  slices_S128x64_S1x64_54_0 : S128x64.Slices ![54, 0] S1x64
  slices_S128_S1_54 : S128.Slices ![54] S1
  slices_S128x64_S1x64_55_0 : S128x64.Slices ![55, 0] S1x64
  slices_S128_S1_55 : S128.Slices ![55] S1
  slices_S128x64_S1x64_56_0 : S128x64.Slices ![56, 0] S1x64
  slices_S128_S1_56 : S128.Slices ![56] S1
  slices_S128x64_S1x64_57_0 : S128x64.Slices ![57, 0] S1x64
  slices_S128_S1_57 : S128.Slices ![57] S1
  slices_S128x64_S1x64_58_0 : S128x64.Slices ![58, 0] S1x64
  slices_S128_S1_58 : S128.Slices ![58] S1
  slices_S128x64_S1x64_59_0 : S128x64.Slices ![59, 0] S1x64
  slices_S128_S1_59 : S128.Slices ![59] S1
  slices_S128x64_S1x64_60_0 : S128x64.Slices ![60, 0] S1x64
  slices_S128_S1_60 : S128.Slices ![60] S1
  slices_S128x64_S1x64_61_0 : S128x64.Slices ![61, 0] S1x64
  slices_S128_S1_61 : S128.Slices ![61] S1
  slices_S128x64_S1x64_62_0 : S128x64.Slices ![62, 0] S1x64
  slices_S128_S1_62 : S128.Slices ![62] S1
  slices_S128x64_S1x64_63_0 : S128x64.Slices ![63, 0] S1x64
  slices_S128_S1_63 : S128.Slices ![63] S1
  slices_S128x64_S1x64_64_0 : S128x64.Slices ![64, 0] S1x64
  slices_S128_S1_64 : S128.Slices ![64] S1
  slices_S128x64_S1x64_65_0 : S128x64.Slices ![65, 0] S1x64
  slices_S128_S1_65 : S128.Slices ![65] S1
  slices_S128x64_S1x64_66_0 : S128x64.Slices ![66, 0] S1x64
  slices_S128_S1_66 : S128.Slices ![66] S1
  slices_S128x64_S1x64_67_0 : S128x64.Slices ![67, 0] S1x64
  slices_S128_S1_67 : S128.Slices ![67] S1
  slices_S128x64_S1x64_68_0 : S128x64.Slices ![68, 0] S1x64
  slices_S128_S1_68 : S128.Slices ![68] S1
  slices_S128x64_S1x64_69_0 : S128x64.Slices ![69, 0] S1x64
  slices_S128_S1_69 : S128.Slices ![69] S1
  slices_S128x64_S1x64_70_0 : S128x64.Slices ![70, 0] S1x64
  slices_S128_S1_70 : S128.Slices ![70] S1
  slices_S128x64_S1x64_71_0 : S128x64.Slices ![71, 0] S1x64
  slices_S128_S1_71 : S128.Slices ![71] S1
  slices_S128x64_S1x64_72_0 : S128x64.Slices ![72, 0] S1x64
  slices_S128_S1_72 : S128.Slices ![72] S1
  slices_S128x64_S1x64_73_0 : S128x64.Slices ![73, 0] S1x64
  slices_S128_S1_73 : S128.Slices ![73] S1
  slices_S128x64_S1x64_74_0 : S128x64.Slices ![74, 0] S1x64
  slices_S128_S1_74 : S128.Slices ![74] S1
  slices_S128x64_S1x64_75_0 : S128x64.Slices ![75, 0] S1x64
  slices_S128_S1_75 : S128.Slices ![75] S1
  slices_S128x64_S1x64_76_0 : S128x64.Slices ![76, 0] S1x64
  slices_S128_S1_76 : S128.Slices ![76] S1
  slices_S128x64_S1x64_77_0 : S128x64.Slices ![77, 0] S1x64
  slices_S128_S1_77 : S128.Slices ![77] S1
  slices_S128x64_S1x64_78_0 : S128x64.Slices ![78, 0] S1x64
  slices_S128_S1_78 : S128.Slices ![78] S1
  slices_S128x64_S1x64_79_0 : S128x64.Slices ![79, 0] S1x64
  slices_S128_S1_79 : S128.Slices ![79] S1
  slices_S128x64_S1x64_80_0 : S128x64.Slices ![80, 0] S1x64
  slices_S128_S1_80 : S128.Slices ![80] S1
  slices_S128x64_S1x64_81_0 : S128x64.Slices ![81, 0] S1x64
  slices_S128_S1_81 : S128.Slices ![81] S1
  slices_S128x64_S1x64_82_0 : S128x64.Slices ![82, 0] S1x64
  slices_S128_S1_82 : S128.Slices ![82] S1
  slices_S128x64_S1x64_83_0 : S128x64.Slices ![83, 0] S1x64
  slices_S128_S1_83 : S128.Slices ![83] S1
  slices_S128x64_S1x64_84_0 : S128x64.Slices ![84, 0] S1x64
  slices_S128_S1_84 : S128.Slices ![84] S1
  slices_S128x64_S1x64_85_0 : S128x64.Slices ![85, 0] S1x64
  slices_S128_S1_85 : S128.Slices ![85] S1
  slices_S128x64_S1x64_86_0 : S128x64.Slices ![86, 0] S1x64
  slices_S128_S1_86 : S128.Slices ![86] S1
  slices_S128x64_S1x64_87_0 : S128x64.Slices ![87, 0] S1x64
  slices_S128_S1_87 : S128.Slices ![87] S1
  slices_S128x64_S1x64_88_0 : S128x64.Slices ![88, 0] S1x64
  slices_S128_S1_88 : S128.Slices ![88] S1
  slices_S128x64_S1x64_89_0 : S128x64.Slices ![89, 0] S1x64
  slices_S128_S1_89 : S128.Slices ![89] S1
  slices_S128x64_S1x64_90_0 : S128x64.Slices ![90, 0] S1x64
  slices_S128_S1_90 : S128.Slices ![90] S1
  slices_S128x64_S1x64_91_0 : S128x64.Slices ![91, 0] S1x64
  slices_S128_S1_91 : S128.Slices ![91] S1
  slices_S128x64_S1x64_92_0 : S128x64.Slices ![92, 0] S1x64
  slices_S128_S1_92 : S128.Slices ![92] S1
  slices_S128x64_S1x64_93_0 : S128x64.Slices ![93, 0] S1x64
  slices_S128_S1_93 : S128.Slices ![93] S1
  slices_S128x64_S1x64_94_0 : S128x64.Slices ![94, 0] S1x64
  slices_S128_S1_94 : S128.Slices ![94] S1
  slices_S128x64_S1x64_95_0 : S128x64.Slices ![95, 0] S1x64
  slices_S128_S1_95 : S128.Slices ![95] S1
  slices_S128x64_S1x64_96_0 : S128x64.Slices ![96, 0] S1x64
  slices_S128_S1_96 : S128.Slices ![96] S1
  slices_S128x64_S1x64_97_0 : S128x64.Slices ![97, 0] S1x64
  slices_S128_S1_97 : S128.Slices ![97] S1
  slices_S128x64_S1x64_98_0 : S128x64.Slices ![98, 0] S1x64
  slices_S128_S1_98 : S128.Slices ![98] S1
  slices_S128x64_S1x64_99_0 : S128x64.Slices ![99, 0] S1x64
  slices_S128_S1_99 : S128.Slices ![99] S1
  slices_S128x64_S1x64_100_0 : S128x64.Slices ![100, 0] S1x64
  slices_S128_S1_100 : S128.Slices ![100] S1
  slices_S128x64_S1x64_101_0 : S128x64.Slices ![101, 0] S1x64
  slices_S128_S1_101 : S128.Slices ![101] S1
  slices_S128x64_S1x64_102_0 : S128x64.Slices ![102, 0] S1x64
  slices_S128_S1_102 : S128.Slices ![102] S1
  slices_S128x64_S1x64_103_0 : S128x64.Slices ![103, 0] S1x64
  slices_S128_S1_103 : S128.Slices ![103] S1
  slices_S128x64_S1x64_104_0 : S128x64.Slices ![104, 0] S1x64
  slices_S128_S1_104 : S128.Slices ![104] S1
  slices_S128x64_S1x64_105_0 : S128x64.Slices ![105, 0] S1x64
  slices_S128_S1_105 : S128.Slices ![105] S1
  slices_S128x64_S1x64_106_0 : S128x64.Slices ![106, 0] S1x64
  slices_S128_S1_106 : S128.Slices ![106] S1
  slices_S128x64_S1x64_107_0 : S128x64.Slices ![107, 0] S1x64
  slices_S128_S1_107 : S128.Slices ![107] S1
  slices_S128x64_S1x64_108_0 : S128x64.Slices ![108, 0] S1x64
  slices_S128_S1_108 : S128.Slices ![108] S1
  slices_S128x64_S1x64_109_0 : S128x64.Slices ![109, 0] S1x64
  slices_S128_S1_109 : S128.Slices ![109] S1
  slices_S128x64_S1x64_110_0 : S128x64.Slices ![110, 0] S1x64
  slices_S128_S1_110 : S128.Slices ![110] S1
  slices_S128x64_S1x64_111_0 : S128x64.Slices ![111, 0] S1x64
  slices_S128_S1_111 : S128.Slices ![111] S1
  slices_S128x64_S1x64_112_0 : S128x64.Slices ![112, 0] S1x64
  slices_S128_S1_112 : S128.Slices ![112] S1
  slices_S128x64_S1x64_113_0 : S128x64.Slices ![113, 0] S1x64
  slices_S128_S1_113 : S128.Slices ![113] S1
  slices_S128x64_S1x64_114_0 : S128x64.Slices ![114, 0] S1x64
  slices_S128_S1_114 : S128.Slices ![114] S1
  slices_S128x64_S1x64_115_0 : S128x64.Slices ![115, 0] S1x64
  slices_S128_S1_115 : S128.Slices ![115] S1
  slices_S128x64_S1x64_116_0 : S128x64.Slices ![116, 0] S1x64
  slices_S128_S1_116 : S128.Slices ![116] S1
  slices_S128x64_S1x64_117_0 : S128x64.Slices ![117, 0] S1x64
  slices_S128_S1_117 : S128.Slices ![117] S1
  slices_S128x64_S1x64_118_0 : S128x64.Slices ![118, 0] S1x64
  slices_S128_S1_118 : S128.Slices ![118] S1
  slices_S128x64_S1x64_119_0 : S128x64.Slices ![119, 0] S1x64
  slices_S128_S1_119 : S128.Slices ![119] S1
  slices_S128x64_S1x64_120_0 : S128x64.Slices ![120, 0] S1x64
  slices_S128_S1_120 : S128.Slices ![120] S1
  slices_S128x64_S1x64_121_0 : S128x64.Slices ![121, 0] S1x64
  slices_S128_S1_121 : S128.Slices ![121] S1
  slices_S128x64_S1x64_122_0 : S128x64.Slices ![122, 0] S1x64
  slices_S128_S1_122 : S128.Slices ![122] S1
  slices_S128x64_S1x64_123_0 : S128x64.Slices ![123, 0] S1x64
  slices_S128_S1_123 : S128.Slices ![123] S1
  slices_S128x64_S1x64_124_0 : S128x64.Slices ![124, 0] S1x64
  slices_S128_S1_124 : S128.Slices ![124] S1
  slices_S128x64_S1x64_125_0 : S128x64.Slices ![125, 0] S1x64
  slices_S128_S1_125 : S128.Slices ![125] S1
  slices_S128x64_S1x64_126_0 : S128x64.Slices ![126, 0] S1x64
  slices_S128_S1_126 : S128.Slices ![126] S1
  slices_S128x64_S1x64_127_0 : S128x64.Slices ![127, 0] S1x64
  slices_S128_S1_127 : S128.Slices ![127] S1
  slices_S16384x208_S16384x128_0_64 : S16384x208.Slices ![0, 64] S16384x128
  slices_S16x128_S1x128_0_0 : S16x128.Slices ![0, 0] S1x128
  shapeCasts_S1x128_S128 : S1x128.ShapeCasts S128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S16384_d1 : S16384x128.ReducesTo [1] S16384
  slices_S16_S1_0 : S16.Slices ![0] S1
  slices_S16x128_S1x128_1_0 : S16x128.Slices ![1, 0] S1x128
  slices_S16_S1_1 : S16.Slices ![1] S1
  slices_S16x128_S1x128_2_0 : S16x128.Slices ![2, 0] S1x128
  slices_S16_S1_2 : S16.Slices ![2] S1
  slices_S16x128_S1x128_3_0 : S16x128.Slices ![3, 0] S1x128
  slices_S16_S1_3 : S16.Slices ![3] S1
  slices_S16x128_S1x128_4_0 : S16x128.Slices ![4, 0] S1x128
  slices_S16_S1_4 : S16.Slices ![4] S1
  slices_S16x128_S1x128_5_0 : S16x128.Slices ![5, 0] S1x128
  slices_S16_S1_5 : S16.Slices ![5] S1
  slices_S16x128_S1x128_6_0 : S16x128.Slices ![6, 0] S1x128
  slices_S16_S1_6 : S16.Slices ![6] S1
  slices_S16x128_S1x128_7_0 : S16x128.Slices ![7, 0] S1x128
  slices_S16_S1_7 : S16.Slices ![7] S1
  slices_S16x128_S1x128_8_0 : S16x128.Slices ![8, 0] S1x128
  slices_S16_S1_8 : S16.Slices ![8] S1
  slices_S16x128_S1x128_9_0 : S16x128.Slices ![9, 0] S1x128
  slices_S16_S1_9 : S16.Slices ![9] S1
  slices_S16x128_S1x128_10_0 : S16x128.Slices ![10, 0] S1x128
  slices_S16_S1_10 : S16.Slices ![10] S1
  slices_S16x128_S1x128_11_0 : S16x128.Slices ![11, 0] S1x128
  slices_S16_S1_11 : S16.Slices ![11] S1
  slices_S16x128_S1x128_12_0 : S16x128.Slices ![12, 0] S1x128
  slices_S16_S1_12 : S16.Slices ![12] S1
  slices_S16x128_S1x128_13_0 : S16x128.Slices ![13, 0] S1x128
  slices_S16_S1_13 : S16.Slices ![13] S1
  slices_S16x128_S1x128_14_0 : S16x128.Slices ![14, 0] S1x128
  slices_S16_S1_14 : S16.Slices ![14] S1
  slices_S16x128_S1x128_15_0 : S16x128.Slices ![15, 0] S1x128
  slices_S16_S1_15 : S16.Slices ![15] S1
  slices_S16384x208_S16384x16_0_192 : S16384x208.Slices ![0, 192] S16384x16
  scatter_S16384x208_S64x1_S16384x64_0_1_1_1_wf : ScatterDims.WF S16384x208 S64x1 S16384x64 [0] [1] [1] 1
  scatter_S16384x208_S1_S16384_0_1_1_0_wf : ScatterDims.WF S16384x208 S1 S16384 [0] [1] [1] 0

variable [Facts₀]

def scatter_S16384x208_S64x1_S16384x64_0_1_1_1 : ScatterDims S16384x208 S64x1 S16384x64 where
  updateWindowDims := [0]
  insertedWindowDims := [1]
  scatterDimsToOperandDims := [1]
  indexVectorDim := 1
  wf := scatter_S16384x208_S64x1_S16384x64_0_1_1_1_wf
def scatter_S16384x208_S1_S16384_0_1_1_0 : ScatterDims S16384x208 S1 S16384 where
  updateWindowDims := [0]
  insertedWindowDims := [1]
  scatterDimsToOperandDims := [1]
  indexVectorDim := 0
  wf := scatter_S16384x208_S1_S16384_0_1_1_0_wf

class Facts : Prop extends Facts₀ where

variable [Facts]
-- ==== Proof.Spec.lean ====
/-
  The function both programs compute, entry by entry, on the extended reals: a two-layer perceptron over a batch.

  For batch row `a` and hidden unit `h` the hidden value is
    hid a h = tanh (b1 h + r1 h * Σ_i X a i * W1 h i),
  and for output unit `o`
    outv a o = tanh (b2 o + r2 o * Σ_h hid a h * W2 o h);
  the result array holds `outv a o` at `(a, o)`.
-/
import Idealize.ShloMosaic.PureOps.Ideal
import Idealize.ShloMosaic.Lib.ValueIdx

noncomputable section

open scoped BigOperators

namespace Cert.Spec

open Idealize.ShloMosaic Idealize.ShloMosaic.ValueIdx

/-- Hidden unit `h` of batch row `a`: the bias plus the response times the weighted sum of the row's inputs, through `tanh`. -/
def hid (X : (⟨2, ![16384, 64]⟩ : Shape).Idx → EReal) (W1 : (⟨2, ![128, 64]⟩ : Shape).Idx → EReal)
    (b1 r1 : (⟨1, ![128]⟩ : Shape).Idx → EReal) (a : Fin 16384) (h : Fin 128) : EReal :=
  Ideal.tanh (b1 (ix1 h) + r1 (ix1 h) * ∑ i : Fin 64, X (ix2 a i) * W1 (ix2 h i))

/-- Output unit `o` of batch row `a`: the same over the row's 128 hidden values. -/
def outv (X : (⟨2, ![16384, 64]⟩ : Shape).Idx → EReal) (W1 : (⟨2, ![128, 64]⟩ : Shape).Idx → EReal)
    (W2 : (⟨2, ![16, 128]⟩ : Shape).Idx → EReal) (b1 : (⟨1, ![128]⟩ : Shape).Idx → EReal)
    (b2 : (⟨1, ![16]⟩ : Shape).Idx → EReal) (r1 : (⟨1, ![128]⟩ : Shape).Idx → EReal)
    (r2 : (⟨1, ![16]⟩ : Shape).Idx → EReal) (a : Fin 16384) (o : Fin 16) : EReal :=
  Ideal.tanh (b2 (ix1 o) + r2 (ix1 o) * ∑ h : Fin 128, hid X W1 b1 r1 a h * W2 (ix2 o h))

/-- The whole result, `[16384, 16]`: entry `(a, o)` is output unit `o` of batch row `a`. The arguments come in the
    programs' order: inputs, hidden weights, output weights, hidden bias, output bias, hidden response, output response. -/
def G (X : (⟨2, ![16384, 64]⟩ : Shape).Idx → EReal) (W1 : (⟨2, ![128, 64]⟩ : Shape).Idx → EReal)
    (W2 : (⟨2, ![16, 128]⟩ : Shape).Idx → EReal) (b1 : (⟨1, ![128]⟩ : Shape).Idx → EReal)
    (b2 : (⟨1, ![16]⟩ : Shape).Idx → EReal) (r1 : (⟨1, ![128]⟩ : Shape).Idx → EReal)
    (r2 : (⟨1, ![16]⟩ : Shape).Idx → EReal) : (⟨2, ![16384, 16]⟩ : Shape).Idx → EReal :=
  fun i => outv X W1 W2 b1 b2 r1 r2 (i 0) (i 1)

end Cert.Spec

end
-- ==== Proof.KerPay.lean ====
/-
  The kernel body's stored value read at an index of its block: both matrix products into a zero accumulator are plain
  sums over the contraction index, the column vectors of biases and responses are read at their row, and both
  activations are `tanh` on the extended reals.
-/
import proofs.«172146_g6708738916766_cont_9to1_m_1119_13_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KPay

open Idealize.ShloMosaic Idealize.ShloMosaic.ValueIdx Cert.KernelIdeal Cert.KernelIdeal.Gen

/-! ### The first product's operand indices, coordinate by coordinate: the left operand at row `j 0` and the contraction
    position, the right operand at the contraction position and column `j 1` -/

theorem lhs1_0 (j : S128x8192.Idx) (k : dot_S128x64_S64x8192_S128x8192_1_0_0_1_n_n.contr.Idx) :
    ((dot_S128x64_S64x8192_S128x8192_1_0_0_1_n_n.lhsIdx j k) 0 : ℕ) = j 0 := by
  simp [DotDims.lhsIdx, dot_S128x64_S64x8192_S128x8192_1_0_0_1_n_n]; rfl
theorem lhs1_1 (j : S128x8192.Idx) (k : dot_S128x64_S64x8192_S128x8192_1_0_0_1_n_n.contr.Idx) :
    ((dot_S128x64_S64x8192_S128x8192_1_0_0_1_n_n.lhsIdx j k) 1 : ℕ) = k ⟨0, by decide⟩ := by
  simp [DotDims.lhsIdx, dot_S128x64_S64x8192_S128x8192_1_0_0_1_n_n]; rfl
theorem rhs1_0 (j : S128x8192.Idx) (k : dot_S128x64_S64x8192_S128x8192_1_0_0_1_n_n.contr.Idx) :
    ((dot_S128x64_S64x8192_S128x8192_1_0_0_1_n_n.rhsIdx j k) 0 : ℕ) = k ⟨0, by decide⟩ := by
  simp [DotDims.rhsIdx, dot_S128x64_S64x8192_S128x8192_1_0_0_1_n_n]; rfl
theorem rhs1_1 (j : S128x8192.Idx) (k : dot_S128x64_S64x8192_S128x8192_1_0_0_1_n_n.contr.Idx) :
    ((dot_S128x64_S64x8192_S128x8192_1_0_0_1_n_n.rhsIdx j k) 1 : ℕ) = j 1 := by
  simp [DotDims.rhsIdx, dot_S128x64_S64x8192_S128x8192_1_0_0_1_n_n]; rfl

/-- The first product into the zero accumulator, read at `(h, t)`: the sum over the 64 inputs of weight times value. -/
theorem mm1_apply (A : FVec Ideal S128x64 .f32) (B : FVec Ideal S64x8192 .f32) (h : Fin 128) (t : Fin 8192) :
    matmul dot_S128x64_S64x8192_S128x8192_1_0_0_1_n_n none A B (constant (F := Ideal) S128x8192 .f32 0x00000000#32) (ix2 h t)
      = ∑ i : Fin 64, A (ix2 h i) * B (ix2 i t) := by
  refine (Ideal.matmul_constant_zero_apply _ _ _ _ _).trans ?_
  rw [← Equiv.sum_comp (contrEquiv1 dot_S128x64_S64x8192_S128x8192_1_0_0_1_n_n 64 rfl rfl).symm]
  refine Finset.sum_congr rfl fun i _ => ?_
  have hl : dot_S128x64_S64x8192_S128x8192_1_0_0_1_n_n.lhsIdx (ix2 h t) ((contrEquiv1 dot_S128x64_S64x8192_S128x8192_1_0_0_1_n_n 64 rfl rfl).symm i) = ix2 h i :=
    Shape.idx_ext₂ (lhs1_0 _ _) ((lhs1_1 _ _).trans (contrEquiv1_symm_val _ 64 rfl rfl i))
  have hr : dot_S128x64_S64x8192_S128x8192_1_0_0_1_n_n.rhsIdx (ix2 h t) ((contrEquiv1 dot_S128x64_S64x8192_S128x8192_1_0_0_1_n_n 64 rfl rfl).symm i) = ix2 i t :=
    Shape.idx_ext₂ ((rhs1_0 _ _).trans (contrEquiv1_symm_val _ 64 rfl rfl i)) (rhs1_1 _ _)
  rw [hl, hr]

/-! ### The second product's operand indices, coordinate by coordinate -/

theorem lhs2_0 (j : S16x8192.Idx) (k : dot_S16x128_S128x8192_S16x8192_1_0_0_1_n_n.contr.Idx) :
    ((dot_S16x128_S128x8192_S16x8192_1_0_0_1_n_n.lhsIdx j k) 0 : ℕ) = j 0 := by
  simp [DotDims.lhsIdx, dot_S16x128_S128x8192_S16x8192_1_0_0_1_n_n]; rfl
theorem lhs2_1 (j : S16x8192.Idx) (k : dot_S16x128_S128x8192_S16x8192_1_0_0_1_n_n.contr.Idx) :
    ((dot_S16x128_S128x8192_S16x8192_1_0_0_1_n_n.lhsIdx j k) 1 : ℕ) = k ⟨0, by decide⟩ := by
  simp [DotDims.lhsIdx, dot_S16x128_S128x8192_S16x8192_1_0_0_1_n_n]; rfl
theorem rhs2_0 (j : S16x8192.Idx) (k : dot_S16x128_S128x8192_S16x8192_1_0_0_1_n_n.contr.Idx) :
    ((dot_S16x128_S128x8192_S16x8192_1_0_0_1_n_n.rhsIdx j k) 0 : ℕ) = k ⟨0, by decide⟩ := by
  simp [DotDims.rhsIdx, dot_S16x128_S128x8192_S16x8192_1_0_0_1_n_n]; rfl
theorem rhs2_1 (j : S16x8192.Idx) (k : dot_S16x128_S128x8192_S16x8192_1_0_0_1_n_n.contr.Idx) :
    ((dot_S16x128_S128x8192_S16x8192_1_0_0_1_n_n.rhsIdx j k) 1 : ℕ) = j 1 := by
  simp [DotDims.rhsIdx, dot_S16x128_S128x8192_S16x8192_1_0_0_1_n_n]; rfl

/-- The second product into the zero accumulator, read at `(o, t)`: the sum over the 128 hidden units of weight times value. -/
theorem mm2_apply (A : FVec Ideal S16x128 .f32) (B : FVec Ideal S128x8192 .f32) (o : Fin 16) (t : Fin 8192) :
    matmul dot_S16x128_S128x8192_S16x8192_1_0_0_1_n_n none A B (constant (F := Ideal) S16x8192 .f32 0x00000000#32) (ix2 o t)
      = ∑ h : Fin 128, A (ix2 o h) * B (ix2 h t) := by
  refine (Ideal.matmul_constant_zero_apply _ _ _ _ _).trans ?_
  rw [← Equiv.sum_comp (contrEquiv1 dot_S16x128_S128x8192_S16x8192_1_0_0_1_n_n 128 rfl rfl).symm]
  refine Finset.sum_congr rfl fun i _ => ?_
  have hl : dot_S16x128_S128x8192_S16x8192_1_0_0_1_n_n.lhsIdx (ix2 o t) ((contrEquiv1 dot_S16x128_S128x8192_S16x8192_1_0_0_1_n_n 128 rfl rfl).symm i) = ix2 o i :=
    Shape.idx_ext₂ (lhs2_0 _ _) ((lhs2_1 _ _).trans (contrEquiv1_symm_val _ 128 rfl rfl i))
  have hr : dot_S16x128_S128x8192_S16x8192_1_0_0_1_n_n.rhsIdx (ix2 o t) ((contrEquiv1 dot_S16x128_S128x8192_S16x8192_1_0_0_1_n_n 128 rfl rfl).symm i) = ix2 i t :=
    Shape.idx_ext₂ ((rhs2_0 _ _).trans (contrEquiv1_symm_val _ 128 rfl rfl i)) (rhs2_1 _ _)
  rw [hl, hr]

/-- A column of 128 broadcast along the columns reads its row. -/
theorem bc128_apply (x : FVec Ideal S128x1 .f32) (hb : S128x1.Broadcasts S128x8192) (h : Fin 128) (t : Fin 8192) :
    broadcastTo S128x8192 x hb (ix2 h t) = x (ix2 h (0 : Fin 1)) :=
  broadcastTo_apply x hb (ix2 h t) (ix2 h 0) fun a => match a with | ⟨0, _⟩ => rfl | ⟨1, _⟩ => rfl

/-- A column of 16 broadcast along the columns reads its row. -/
theorem bc16_apply (x : FVec Ideal S16x1 .f32) (hb : S16x1.Broadcasts S16x8192) (o : Fin 16) (t : Fin 8192) :
    broadcastTo S16x8192 x hb (ix2 o t) = x (ix2 o (0 : Fin 1)) :=
  broadcastTo_apply x hb (ix2 o t) (ix2 o 0) fun a => match a with | ⟨0, _⟩ => rfl | ⟨1, _⟩ => rfl

/-- The hidden layer at `(h, t)`: `tanh` of the bias plus the response times the first product's sum. -/
theorem hid_apply (x0 : FVec Ideal S128x64 .f32) (x1 : FVec Ideal S64x8192 .f32) (x4 x6 : FVec Ideal S128x1 .f32)
    (h : Fin 128) (t : Fin 8192) :
    tanh (addf (broadcastTo S128x8192 (shapeCast S128x1 x4 shapeCasts_S128x1_S128x1) broadcasts_S128x1_S128x8192)
      (mulf (broadcastTo S128x8192 (shapeCast S128x1 x6 shapeCasts_S128x1_S128x1) broadcasts_S128x1_S128x8192)
        (matmul dot_S128x64_S64x8192_S128x8192_1_0_0_1_n_n none x0 (shapeCast S64x8192 x1 shapeCasts_S64x8192_S64x8192)
          (constant (F := Ideal) S128x8192 .f32 0x00000000#32)))) (ix2 h t)
      = Ideal.tanh (x4 (ix2 h (0 : Fin 1)) + x6 (ix2 h (0 : Fin 1)) * ∑ i : Fin 64, x0 (ix2 h i) * x1 (ix2 i t)) := by
  rw [shapeCast_self, shapeCast_self, shapeCast_self]
  show Ideal.tanh (broadcastTo S128x8192 x4 _ (ix2 h t) + broadcastTo S128x8192 x6 _ (ix2 h t) * matmul (F := Ideal) _ none x0 x1 _ (ix2 h t)) = _
  rw [bc128_apply, bc128_apply, mm1_apply]

/-- The output layer over any hidden value `H`, at `(o, t)`: `tanh` of the bias plus the response times the second product's sum. -/
theorem out_apply (H : FVec Ideal S128x8192 .f32) (x13 : FVec Ideal S16x128 .f32) (x15 x17 : FVec Ideal S16x1 .f32)
    (o : Fin 16) (t : Fin 8192) :
    tanh (addf (broadcastTo S16x8192 (shapeCast S16x1 x15 shapeCasts_S16x1_S16x1) broadcasts_S16x1_S16x8192)
      (mulf (broadcastTo S16x8192 (shapeCast S16x1 x17 shapeCasts_S16x1_S16x1) broadcasts_S16x1_S16x8192)
        (matmul dot_S16x128_S128x8192_S16x8192_1_0_0_1_n_n none x13 H (constant (F := Ideal) S16x8192 .f32 0x00000000#32)))) (ix2 o t)
      = Ideal.tanh (x15 (ix2 o (0 : Fin 1)) + x17 (ix2 o (0 : Fin 1)) * ∑ h : Fin 128, x13 (ix2 o h) * H (ix2 h t)) := by
  rw [shapeCast_self, shapeCast_self]
  show Ideal.tanh (broadcastTo S16x8192 x15 _ (ix2 o t) + broadcastTo S16x8192 x17 _ (ix2 o t) * matmul (F := Ideal) _ none x13 H _ (ix2 o t)) = _
  rw [bc16_apply, bc16_apply, mm2_apply]

/-- The body's stored value at `(o, t)` of a block: output unit `o` over the hidden layer of column `t` of the input block,
    every sum a plain sum over the contraction index (the products in the kernel's order: weight times value). -/
theorem pay_apply (x0 : Vec Ideal S128x64 .f32) (x1 : Vec Ideal S64x8192 .f32) (x4 x6 : Vec Ideal S128x1 .f32)
    (x13 : Vec Ideal S16x128 .f32) (x15 x17 : Vec Ideal S16x1 .f32) (o : Fin 16) (t : Fin 8192) :
    k0_pay1 (F := Ideal) x0 x1 x4 x6 x13 x15 x17 (ix2 o t)
      = Ideal.tanh (x15 (ix2 o (0 : Fin 1)) + x17 (ix2 o (0 : Fin 1)) *
          ∑ h : Fin 128, x13 (ix2 o h) *
            Ideal.tanh (x4 (ix2 h (0 : Fin 1)) + x6 (ix2 h (0 : Fin 1)) * ∑ i : Fin 64, x0 (ix2 h i) * x1 (ix2 i t))) := by
  unfold k0_pay1
  refine (out_apply _ x13 x15 x17 o t).trans ?_
  refine congrArg (fun z => Ideal.tanh (x15 (ix2 o (0 : Fin 1)) + x17 (ix2 o (0 : Fin 1)) * z)) ?_
  exact Finset.sum_congr rfl fun h _ => congrArg (x13 (ix2 o h) * ·) (hid_apply x0 x1 x4 x6 h t)

end Cert.KernelIdeal.KPay

end
-- ==== Proof.KerValue.lean ====
/-
  The kernel program's value: after the run the result array holds, at `(a, o)`, output unit `o` of batch row `a`
  of the two-layer perceptron `Cert.Spec.G` of the argument arrays.
-/
import proofs.«172146_g6708738916766_cont_9to1_m_1119_13_alg».proof.Defs
import proofs.«172146_g6708738916766_cont_9to1_m_1119_13_alg».proof.Proof.Gen.KernelIdeal.Frame
import proofs.«172146_g6708738916766_cont_9to1_m_1119_13_alg».proof.Proof.Spec
import proofs.«172146_g6708738916766_cont_9to1_m_1119_13_alg».proof.Proof.KerPay
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KValue

open Idealize.ShloMosaic Idealize.ShloMosaic.TcCoe Idealize.SL.Sem Cert.KernelIdeal Cert.KernelIdeal.Gen

section Blocks

open Idealize.ShloMosaic.ValueIdx

variable (m : (ℓ : Loc nD τ sig) → Buf (Elt Ideal) ℓ)

theorem hz : (![0, 0] : Fin 2 → Nat) = fun _ => 0 := funext fun a => by fin_cases a <;> rfl

/-- The windows' block indices, decided over the two grid points: the input's and the output's blocks move along the
    long axis with the point, every other window stays on its one block. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- The transposed input as the region finds it. -/
theorem v0_eq (c : Dev nD) : (V m c main_v0 : S64x16384.Idx → EReal)
    = transpose S64x16384 [1, 0] (m ((c : Thread nD τ).loc main_arg0)) transposes_S16384x64_S64x16384_1_0 := by
  show StableHlo.after hostOps0 (fun b => m (c, b)) (Proc.devRef .tc main_v0) = _
  after_results

/-- The hidden bias as a column, as the region finds it. -/
theorem v1_eq (c : Dev nD) : (V m c main_v1 : S128x1.Idx → EReal)
    = shapeCast S128x1 (m ((c : Thread nD τ).loc main_arg3)) shapeCasts_S128_S128x1 := by
  show StableHlo.after hostOps0 (fun b => m (c, b)) (Proc.devRef .tc main_v1) = _
  after_results
  rfl

/-- The hidden response as a column. -/
theorem v2_eq (c : Dev nD) : (V m c main_v2 : S128x1.Idx → EReal)
    = shapeCast S128x1 (m ((c : Thread nD τ).loc main_arg5)) shapeCasts_S128_S128x1 := by
  show StableHlo.after hostOps0 (fun b => m (c, b)) (Proc.devRef .tc main_v2) = _
  after_results
  rfl

/-- The output bias as a column. -/
theorem v3_eq (c : Dev nD) : (V m c main_v3 : S16x1.Idx → EReal)
    = shapeCast S16x1 (m ((c : Thread nD τ).loc main_arg4)) shapeCasts_S16_S16x1 := by
  show StableHlo.after hostOps0 (fun b => m (c, b)) (Proc.devRef .tc main_v3) = _
  after_results
  rfl

/-- The output response as a column. -/
theorem v4_eq (c : Dev nD) : (V m c main_v4 : S16x1.Idx → EReal)
    = shapeCast S16x1 (m ((c : Thread nD τ).loc main_arg6)) shapeCasts_S16_S16x1 := by
  show StableHlo.after hostOps0 (fun b => m (c, b)) (Proc.devRef .tc main_v4) = _
  after_results
  rfl

/-- A length-`n` vector cast to a column reads, at `(h, 0)`, the vector at `h`. -/
theorem col_apply {n : ℕ} (x : (⟨1, ![n]⟩ : Shape).Idx → EReal)
    (hc : (⟨1, ![n]⟩ : Shape).ShapeCasts ⟨2, ![n, 1]⟩) (h : Fin n) :
    shapeCast ⟨2, ![n, 1]⟩ x hc (ix2 h (0 : Fin 1)) = x (ix1 h) :=
  shapeCast_apply x hc _ _ (by
    rw [Shape.rowMajor_val_one, Shape.rowMajor_val_two]
    show h.val = h.val * 1 + 0
    omega)

/-- The input block at point `t`, at `(i, y)`, is the input at row `8192 t + y`, column `i`. -/
theorem blk0_apply (c : Dev nD) (t : Fin cfg0.N) (i : Fin 64) (y : Fin 8192) (a : Fin 16384)
    (ha : a.val = 8192 * t.val + y.val) :
    (iblk m c 0 t : Vec Ideal S64x8192 .f32) (ix2 i y)
      = (m ((c : Thread nD τ).loc main_arg0) : S16384x64.Idx → EReal) (ix2 a i) := by
  obtain ⟨e0, e1, -⟩ := idx_facts t
  unfold iblk
  rw [View.read_apply]
  show (V m c main_v0 : S64x16384.Idx → EReal) (((cfg0.win 0).blk t).view.emb (ix2 i y)) = _
  have he : ((cfg0.win 0).blk t).view.emb (ix2 i y) = (ix2 i a : S64x16384.Idx) := by
    funext b; apply Fin.ext
    match b with
    | ⟨0, _⟩ => show win0_0.index t (0 : Fin 2) * 64 + 1 * i.val = i.val; omega
    | ⟨1, _⟩ => show win0_0.index t (1 : Fin 2) * 8192 + 1 * y.val = a.val; omega
  rw [he, v0_eq]
  exact transpose_ix2_apply _ _ i a

/-- The hidden weights' block at every point is the whole array. -/
theorem blk1_eq (c : Dev nD) (t : Fin cfg0.N) :
    (iblk m c 1 t : Vec Ideal S128x64 .f32) = m ((c : Thread nD τ).loc main_arg1) := by
  obtain ⟨-, -, e0, e1, -⟩ := idx_facts t
  funext x
  unfold iblk
  rw [View.read_apply]
  show V m c main_arg1 (((cfg0.win 1).blk t).view.emb x) = _
  rw [V_main_arg1]
  refine congrArg _ (funext fun b => Fin.ext ?_)
  match b with
  | ⟨0, _⟩ => show win0_1.index t (0 : Fin 2) * 128 + 1 * (x 0).val = (x 0).val; omega
  | ⟨1, _⟩ => show win0_1.index t (1 : Fin 2) * 64 + 1 * (x 1).val = (x 1).val; omega

/-- The output weights' block at every point is the whole array. -/
theorem blk2_eq (c : Dev nD) (t : Fin cfg0.N) :
    (iblk m c 2 t : Vec Ideal S16x128 .f32) = m ((c : Thread nD τ).loc main_arg2) := by
  obtain ⟨-, -, -, -, e0, e1, -⟩ := idx_facts t
  funext x
  unfold iblk
  rw [View.read_apply]
  show V m c main_arg2 (((cfg0.win 2).blk t).view.emb x) = _
  rw [V_main_arg2]
  refine congrArg _ (funext fun b => Fin.ext ?_)
  match b with
  | ⟨0, _⟩ => show win0_2.index t (0 : Fin 2) * 16 + 1 * (x 0).val = (x 0).val; omega
  | ⟨1, _⟩ => show win0_2.index t (1 : Fin 2) * 128 + 1 * (x 1).val = (x 1).val; omega

/-- The hidden bias column's block, at `(h, 0)`, is the hidden bias at `h`. -/
theorem blk3_apply (c : Dev nD) (t : Fin cfg0.N) (h : Fin 128) :
    (iblk m c 3 t : Vec Ideal S128x1 .f32) (ix2 h (0 : Fin 1))
      = (m ((c : Thread nD τ).loc main_arg3) : S128.Idx → EReal) (ix1 h) := by
  obtain ⟨-, -, -, -, -, -, e0, e1, -⟩ := idx_facts t
  unfold iblk
  rw [View.read_apply]
  show (V m c main_v1 : S128x1.Idx → EReal) (((cfg0.win 3).blk t).view.emb (ix2 h (0 : Fin 1))) = _
  have he : ((cfg0.win 3).blk t).view.emb (ix2 h (0 : Fin 1)) = (ix2 h (0 : Fin 1) : S128x1.Idx) := by
    funext b; apply Fin.ext
    match b with
    | ⟨0, _⟩ => show win0_3.index t (0 : Fin 2) * 128 + 1 * h.val = h.val; omega
    | ⟨1, _⟩ => show win0_3.index t (1 : Fin 2) * 1 + 1 * 0 = 0; omega
  rw [he, v1_eq]
  exact col_apply _ _ h

/-- The output bias column's block, at `(o, 0)`, is the output bias at `o`. -/
theorem blk4_apply (c : Dev nD) (t : Fin cfg0.N) (o : Fin 16) :
    (iblk m c 4 t : Vec Ideal S16x1 .f32) (ix2 o (0 : Fin 1))
      = (m ((c : Thread nD τ).loc main_arg4) : S16.Idx → EReal) (ix1 o) := by
  obtain ⟨-, -, -, -, -, -, -, -, e0, e1, -⟩ := idx_facts t
  unfold iblk
  rw [View.read_apply]
  show (V m c main_v3 : S16x1.Idx → EReal) (((cfg0.win 4).blk t).view.emb (ix2 o (0 : Fin 1))) = _
  have he : ((cfg0.win 4).blk t).view.emb (ix2 o (0 : Fin 1)) = (ix2 o (0 : Fin 1) : S16x1.Idx) := by
    funext b; apply Fin.ext
    match b with
    | ⟨0, _⟩ => show win0_4.index t (0 : Fin 2) * 16 + 1 * o.val = o.val; omega
    | ⟨1, _⟩ => show win0_4.index t (1 : Fin 2) * 1 + 1 * 0 = 0; omega
  rw [he, v3_eq]
  exact col_apply _ _ o

/-- The hidden response column's block, at `(h, 0)`, is the hidden response at `h`. -/
theorem blk5_apply (c : Dev nD) (t : Fin cfg0.N) (h : Fin 128) :
    (iblk m c 5 t : Vec Ideal S128x1 .f32) (ix2 h (0 : Fin 1))
      = (m ((c : Thread nD τ).loc main_arg5) : S128.Idx → EReal) (ix1 h) := by
  obtain ⟨-, -, -, -, -, -, -, -, -, -, e0, e1, -⟩ := idx_facts t
  unfold iblk
  rw [View.read_apply]
  show (V m c main_v2 : S128x1.Idx → EReal) (((cfg0.win 5).blk t).view.emb (ix2 h (0 : Fin 1))) = _
  have he : ((cfg0.win 5).blk t).view.emb (ix2 h (0 : Fin 1)) = (ix2 h (0 : Fin 1) : S128x1.Idx) := by
    funext b; apply Fin.ext
    match b with
    | ⟨0, _⟩ => show win0_5.index t (0 : Fin 2) * 128 + 1 * h.val = h.val; omega
    | ⟨1, _⟩ => show win0_5.index t (1 : Fin 2) * 1 + 1 * 0 = 0; omega
  rw [he, v2_eq]
  exact col_apply _ _ h

/-- The output response column's block, at `(o, 0)`, is the output response at `o`. -/
theorem blk6_apply (c : Dev nD) (t : Fin cfg0.N) (o : Fin 16) :
    (iblk m c 6 t : Vec Ideal S16x1 .f32) (ix2 o (0 : Fin 1))
      = (m ((c : Thread nD τ).loc main_arg6) : S16.Idx → EReal) (ix1 o) := by
  obtain ⟨-, -, -, -, -, -, -, -, -, -, -, -, e0, e1, -⟩ := idx_facts t
  unfold iblk
  rw [View.read_apply]
  show (V m c main_v4 : S16x1.Idx → EReal) (((cfg0.win 6).blk t).view.emb (ix2 o (0 : Fin 1))) = _
  have he : ((cfg0.win 6).blk t).view.emb (ix2 o (0 : Fin 1)) = (ix2 o (0 : Fin 1) : S16x1.Idx) := by
    funext b; apply Fin.ext
    match b with
    | ⟨0, _⟩ => show win0_6.index t (0 : Fin 2) * 16 + 1 * o.val = o.val; omega
    | ⟨1, _⟩ => show win0_6.index t (1 : Fin 2) * 1 + 1 * 0 = 0; omega
  rw [he, v4_eq]
  exact col_apply _ _ o

/-- The body's stored value at `(o, y)` is output unit `o` of batch row `a` of the perceptron, when the input block's column
    `y` is the input's row `a`, the weight blocks are the weights, and the columns read the vectors. -/
theorem pay_outv (xb : Vec Ideal S64x8192 .f32) (w1 : Vec Ideal S128x64 .f32) (w2 : Vec Ideal S16x128 .f32)
    (c1 c2 : Vec Ideal S128x1 .f32) (d1 d2 : Vec Ideal S16x1 .f32)
    (X : S16384x64.Idx → EReal) (b1 r1 : S128.Idx → EReal) (b2 r2 : S16.Idx → EReal)
    (a : Fin 16384) (o : Fin 16) (y : Fin 8192)
    (hx : ∀ i : Fin 64, xb (ix2 i y) = X (ix2 a i))
    (hc1 : ∀ h : Fin 128, c1 (ix2 h (0 : Fin 1)) = b1 (ix1 h)) (hc2 : ∀ h : Fin 128, c2 (ix2 h (0 : Fin 1)) = r1 (ix1 h))
    (hd1 : ∀ o : Fin 16, d1 (ix2 o (0 : Fin 1)) = b2 (ix1 o)) (hd2 : ∀ o : Fin 16, d2 (ix2 o (0 : Fin 1)) = r2 (ix1 o)) :
    k0_pay1 (F := Ideal) w1 xb c1 c2 w2 d1 d2 (ix2 o y) = Cert.Spec.outv X w1 w2 b1 b2 r1 r2 a o := by
  rw [Cert.KernelIdeal.KPay.pay_apply]
  unfold Cert.Spec.outv Cert.Spec.hid
  rw [hd1, hd2]
  refine congrArg Ideal.tanh (congrArg (b2 (ix1 o) + ·) (congrArg (r2 (ix1 o) * ·) (Finset.sum_congr rfl fun h _ => ?_)))
  rw [mul_comm, hc1, hc2]
  refine congrArg (· * w2 (ix2 o h)) (congrArg Ideal.tanh (congrArg (b1 (ix1 h) + ·) (congrArg (r1 (ix1 h) * ·) (Finset.sum_congr rfl fun i _ => ?_))))
  rw [mul_comm, hx]

/-- The whole intermediate array, `[16, 16384]`: at `(o, a)`, output unit `o` of batch row `a`. -/
abbrev GT (X : S16384x64.Idx → EReal) (W1 : S128x64.Idx → EReal) (W2 : S16x128.Idx → EReal) (b1 : S128.Idx → EReal)
    (b2 : S16.Idx → EReal) (r1 : S128.Idx → EReal) (r2 : S16.Idx → EReal) : S16x16384.Idx → EReal :=
  fun i => Cert.Spec.outv X W1 W2 b1 b2 r1 r2 (i 1) (i 0)

/-- The body's stored value at point `t`, index by index: the intermediate array where the output's block sits. -/
theorem flushed_point (c : Dev nD) (t : Fin cfg0.N) (j : S16x8192.Idx) :
    k0_pay1 (F := Ideal) (iblk m c 1 t) (iblk m c 0 t) (iblk m c 3 t) (iblk m c 5 t) (iblk m c 2 t) (iblk m c 4 t) (iblk m c 6 t) j
      = GT (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (((cfg0.win 7).blk t).view.emb j) := by
  obtain ⟨-, -, -, -, -, -, -, -, -, -, -, -, -, -, e0, e1⟩ := idx_facts t
  have hN : cfg0.N = 2 := N_0
  have ht : t.val < 2 := by have := t.isLt; omega
  have hy : (j 1).val < 8192 := (j 1).isLt
  have he : ((cfg0.win 7).blk t).view.emb j = (ix2 (j 0) (⟨8192 * t.val + (j 1).val, by omega⟩ : Fin 16384) : S16x16384.Idx) := by
    funext b; apply Fin.ext
    match b with
    | ⟨0, _⟩ => show win0_7.index t (0 : Fin 2) * 16 + 1 * (j 0).val = (j 0).val; omega
    | ⟨1, _⟩ => show win0_7.index t (1 : Fin 2) * 8192 + 1 * (j 1).val = 8192 * t.val + (j 1).val; omega
  rw [he]
  show _ = Cert.Spec.outv _ _ _ _ _ _ _ (⟨8192 * t.val + (j 1).val, by omega⟩ : Fin 16384) (j 0)
  conv_lhs => rw [eq_ix2 j]
  rw [blk1_eq, blk2_eq]
  exact pay_outv (iblk m c 0 t) (m ((c : Thread nD τ).loc main_arg1)) (m ((c : Thread nD τ).loc main_arg2))
    (iblk m c 3 t) (iblk m c 5 t) (iblk m c 4 t) (iblk m c 6 t)
    (m ((c : Thread nD τ).loc main_arg0)) (m ((c : Thread nD τ).loc main_arg3)) (m ((c : Thread nD τ).loc main_arg5))
    (m ((c : Thread nD τ).loc main_arg4)) (m ((c : Thread nD τ).loc main_arg6))
    _ (j 0) (j 1) (fun i => blk0_apply m c t i (j 1) _ rfl) (blk3_apply m c t) (blk5_apply m c t) (blk4_apply m c t) (blk6_apply m c t)

/-- What point `t` writes back is block `t` of the intermediate array. -/
theorem flushed_eq (c : Dev nD) (t : Fin cfg0.N) :
    (dats m 0 c).flushed 7 t = ((cfg0.win 7).blk t).view.read (Elt Ideal) (GT (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))) := by
  show (cfg0.win 7).cut (grid0.coords t) ((dats m 0 c).after 7 t) = _
  rw [after0_7]
  unfold out0_7
  rw [View.canon_unit_zero hz]
  simp only [View.ld_unit_zero (S := S128x64) hz, View.ld_unit_zero (S := S64x8192) hz, View.ld_unit_zero (S := S128x1) hz,
    View.ld_unit_zero (S := S16x128) hz, View.ld_unit_zero (S := S16x1) hz]
  funext j
  exact flushed_point m c t j

/-- An index of the intermediate array is in point `t`'s block iff each coordinate is in the block's range on its axis. -/
theorem mem_blk (t : Fin cfg0.N) (i : S16x16384.Idx) :
    i ∈ ((cfg0.win 7).blk t).view.set ↔ ∀ a : Fin 2, win0_7.index t a * S16x8192.size a ≤ (i a).val
      ∧ (i a).val < win0_7.index t a * S16x8192.size a + S16x8192.size a := by
  show i ∈ ((View.whole main_v5).slice (win0_7.rect t)).set ↔ _
  rw [View.set_slice_whole, Rect.mem_set_unit]
  exact Iff.rfl

/-- Every index of the intermediate array is in the block of the point its column falls in. -/
theorem cover (i : S16x16384.Idx) :
    ∃ t : Fin cfg0.N, (cfg0.win 7).flush t = true ∧ i ∈ ((cfg0.win 7).blk t).view.set := by
  have hi0 : (i 0).val < 16 := (i 0).isLt
  have hi1 : (i 1).val < 16384 := (i 1).isLt
  have hN : cfg0.N = 2 := N_0
  obtain ⟨t, ht⟩ : ∃ t : Fin cfg0.N, t.val = (i 1).val / 8192 := ⟨⟨(i 1).val / 8192, by omega⟩, rfl⟩
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 16 ≤ (i 0).val ∧ (i 0).val < win0_7.index t (0 : Fin 2) * 16 + 16; omega
  | ⟨1, _⟩ => show win0_7.index t (1 : Fin 2) * 8192 ≤ (i 1).val ∧ (i 1).val < win0_7.index t (1 : Fin 2) * 8192 + 8192; omega

/-- The intermediate array after the run. -/
theorem final (c : Dev nD) : (dats m 0 c).arrAt 7 cfg0.N = GT (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) :=
  (dats m 0 c).arrAt_eq_of_cover 7 (GT (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))) (fun t _ => flushed_eq m c t) cover

/-- The result array after the host's transpose: the perceptron of the argument arrays. -/
theorem tail_eq (c : Dev nD) : Pipeline.afterTail₀ cfgs (dats m) 0 (V0 m) [hostOps1] c main_v6
    = Cert.Spec.G (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = GT (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) :=
    (Pipeline.withArrays_arr spec0 launch0.win.arr_inj c _ _ 7).trans (final m c)
  rw [hw]
  funext i
  conv_lhs => rw [eq_ix2 i]
  exact transpose_ix2_apply _ _ (i 0) (i 1)

end Blocks

/-- Every weakly fair execution of the kernel program ends with the result array at the perceptron of the argument
    arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
        = Cert.Spec.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  exact ⟨((h c).2 main_v6 (Pipeline.mem_restRefs_of main_v6 (by decide) (by decide))).trans (tail_eq m c),
    (((h c).2 main_arg0 (Pipeline.mem_restRefs_of main_arg0 (by decide) (by decide))).trans (W_main_arg0 m (dats m) c)),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c)),
    (((h c).2 main_arg6 (Pipeline.mem_restRefs_of main_arg6 (by decide) (by decide))).trans (W_main_arg6 m (dats m) c))⟩

end Cert.KernelIdeal.KValue

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.LibScatterSet.lean ====
/-
  Index-level readings of the host's overwriting scatter `x.at[…].set(updates)`: the left fold of `Host.scatter` with the
  body that returns the update.

  * An operand element on which exactly one update lands holds that update; an element on which none lands keeps the
    operand's value.
  * One column written: operand `[N, M]`, one scalar index, updates `[N]` (`x.at[:, c].set(v)`): entry `(a, j)` is
    `v a` when the index word, read signed, is `j`, else the operand's.
  * Several columns written: operand `[N, M]`, indices `[K, 1]`, updates `[N, K]` (`x.at[:, cols].set(V)`), the index
    words pairwise distinct: entry `(a, j)` is `V a k` when word `k` is `j`, the operand's when no word is.

  Each is stated over the record given by its literal fields, with the well-formedness proof a variable, so that it
  applies to any program's record with those fields by unfolding the record's name.
-/
import Idealize.ShloMosaic.PureOps.Ideal
import Idealize.ShloMosaic.Lib.ValueIdx
import proofs.«172146_g6708738916766_cont_9to1_m_1119_13_alg».proof.Proof.LibGS

noncomputable section

namespace Cert.LibScatterSet

open Idealize.ShloMosaic Idealize.ShloMosaic.ValueIdx

/-! ## The general reading -/

/-- One step of the overwriting fold. -/
private def setStep {s si u : Shape} {w : Nat} {α : Type} (d : ScatterDims s si u) (idx : IVec si w) (upd : u.Idx → α)
    (r : s.Idx → α) (n : Fin u.numel) : s.Idx → α :=
  match d.resultIdx? (u.rowMajor.symm n) idx with
  | some i => fun i' => if i' = i then upd (u.rowMajor.symm n) else r i'
  | none => r

private theorem scatter_eq_foldl {s si u : Shape} {w : Nat} {α : Type} (d : ScatterDims s si u) (x : s.Idx → α)
    (idx : IVec si w) (upd : u.Idx → α) :
    Host.scatter d (fun _ b => b) x idx upd = (List.finRange u.numel).foldl (setStep d idx upd) x := rfl

private theorem setStep_apply {s si u : Shape} {w : Nat} {α : Type} (d : ScatterDims s si u) (idx : IVec si w)
    (upd : u.Idx → α) (r : s.Idx → α) (n : Fin u.numel) (i : s.Idx) :
    setStep d idx upd r n i
      = if d.resultIdx? (u.rowMajor.symm n) idx = some i then upd (u.rowMajor.symm n) else r i := by
  unfold setStep
  cases h : d.resultIdx? (u.rowMajor.symm n) idx with
  | none => simp
  | some i' =>
    by_cases hi : i = i'
    · subst hi; simp
    · have : ¬ (some i' = some i) := fun h => hi (Option.some.inj h).symm
      simp [hi, this]

private theorem foldl_setStep {s si u : Shape} {w : Nat} {α : Type} (d : ScatterDims s si u) (idx : IVec si w)
    (upd : u.Idx → α) (x : s.Idx → α) (i : s.Idx) (L : List (Fin u.numel)) :
    ((∀ n ∈ L, d.resultIdx? (u.rowMajor.symm n) idx ≠ some i) → L.foldl (setStep d idx upd) x i = x i) ∧
    (∀ n0 ∈ L, d.resultIdx? (u.rowMajor.symm n0) idx = some i →
      (∀ n ∈ L, d.resultIdx? (u.rowMajor.symm n) idx = some i → n = n0) →
      L.foldl (setStep d idx upd) x i = upd (u.rowMajor.symm n0)) := by
  induction L using List.reverseRecOn with
  | nil =>
    refine ⟨fun _ => rfl, fun n0 hn0 => ?_⟩
    simp at hn0
  | append_singleton L n ih =>
    rw [List.foldl_append, List.foldl_cons, List.foldl_nil, setStep_apply]
    constructor
    · intro hmiss
      rw [if_neg (hmiss n (by simp))]
      exact ih.1 fun m hm => hmiss m (by simp [hm])
    · intro n0 hn0 hhit huniq
      by_cases hn : d.resultIdx? (u.rowMajor.symm n) idx = some i
      · rw [if_pos hn, huniq n (by simp) hn]
      · rw [if_neg hn]
        have hmem : n0 ∈ L := by
          rcases List.mem_append.1 hn0 with h | h
          · exact h
          · rw [List.mem_singleton] at h
            subst h
            exact absurd hhit hn
        exact ih.2 n0 hmem hhit fun m hm hmh => huniq m (by simp [hm]) hmh

/-- An element on which exactly one update lands holds that update. -/
theorem scatter_set_hit {s si u : Shape} {w : Nat} {α : Type} (d : ScatterDims s si u) (x : s.Idx → α) (idx : IVec si w)
    (upd : u.Idx → α) (i : s.Idx) (j : u.Idx) (hj : d.resultIdx? j idx = some i)
    (huniq : ∀ j', d.resultIdx? j' idx = some i → j' = j) :
    Host.scatter d (fun _ b => b) x idx upd i = upd j := by
  rw [scatter_eq_foldl]
  have h := (foldl_setStep d idx upd x i (List.finRange u.numel)).2 (u.rowMajor j) (List.mem_finRange _)
    (by rw [Equiv.symm_apply_apply]; exact hj)
    (fun n _ hn => by
      have := huniq _ hn
      rw [← this, Equiv.apply_symm_apply])
  rw [h, Equiv.symm_apply_apply]

/-- An element on which no update lands keeps the operand's value. -/
theorem scatter_set_miss {s si u : Shape} {w : Nat} {α : Type} (d : ScatterDims s si u) (x : s.Idx → α) (idx : IVec si w)
    (upd : u.Idx → α) (i : s.Idx) (hmiss : ∀ j, d.resultIdx? j idx ≠ some i) :
    Host.scatter d (fun _ b => b) x idx upd i = x i := by
  rw [scatter_eq_foldl]
  exact (foldl_setStep d idx upd x i (List.finRange u.numel)).1 fun n _ => hmiss _

/-! ## One column written -/

/-- `x.at[:, c].set(v)`'s dimension numbers: operand `[N, M]`, indices `[1]`, updates `[N]`. -/
abbrev colScatterDims (N M : Nat) (wf : ScatterDims.WF ⟨2, ![N, M]⟩ ⟨1, ![1]⟩ ⟨1, ![N]⟩ [0] [1] [1] 0) :
    ScatterDims ⟨2, ![N, M]⟩ ⟨1, ![1]⟩ ⟨1, ![N]⟩ where
  updateWindowDims := [0]
  insertedWindowDims := [1]
  scatterDimsToOperandDims := [1]
  indexVectorDim := 0
  wf := wf

section Col
variable {N M w : Nat} (wf : ScatterDims.WF ⟨2, ![N, M]⟩ ⟨1, ![1]⟩ ⟨1, ![N]⟩ [0] [1] [1] 0)

/-- On the row axis every update starts at `0` … -/
theorem col_start0 (idx : IVec ⟨1, ![1]⟩ w) (j : (⟨1, ![N]⟩ : Shape).Idx) :
    (colScatterDims N M wf).start j idx 0 = 0 := by
  unfold ScatterDims.start
  rw [dif_neg]
  show (0 : Fin 2) ∉ [(1 : Fin 2)]
  decide

/-- … and on the column axis at the one index word, read signed. -/
theorem col_start1 (idx : IVec ⟨1, ![1]⟩ w) (j : (⟨1, ![N]⟩ : Shape).Idx) :
    (colScatterDims N M wf).start j idx 1 = (idx (ix1 (0 : Fin 1))).toInt := by
  unfold ScatterDims.start
  rw [dif_pos (show (1 : Fin 2) ∈ (colScatterDims N M wf).scatterDimsToOperandDims from List.mem_singleton.mpr rfl)]
  have hsi : (colScatterDims N M wf).siIdx j ⟨List.idxOf (1 : Fin 2) (colScatterDims N M wf).scatterDimsToOperandDims,
      List.idxOf_lt_length_iff.2 (List.mem_singleton.mpr rfl)⟩ = ix1 (0 : Fin 1) := by
    funext b; refine Fin.ext ?_
    match b with
    | ⟨0, _⟩ => rfl
  rw [hsi]

/-- The row axis carries the update's coordinate … -/
theorem col_window0 (j : (⟨1, ![N]⟩ : Shape).Idx) : (colScatterDims N M wf).window j 0 = (j 0).val := by
  unfold ScatterDims.window
  have hm : (0 : Fin 2) ∈ (colScatterDims N M wf).sKept := by
    show (0 : Fin 2) ∈ (List.finRange 2).filter (fun a => a ∉ [(1 : Fin 2)])
    decide
  rw [dif_pos hm]
  rfl

/-- … and the column axis is inserted: no window coordinate there. -/
theorem col_window1 (j : (⟨1, ![N]⟩ : Shape).Idx) : (colScatterDims N M wf).window j 1 = 0 := by
  unfold ScatterDims.window
  rw [dif_neg]
  show (1 : Fin 2) ∉ (List.finRange 2).filter (fun a => a ∉ [(1 : Fin 2)])
  decide

/-- Update `j` lands on element `(a, c)` exactly when its coordinate is `a` and the index word, read signed, is `c`. -/
theorem col_resultIdx?_iff (idx : IVec ⟨1, ![1]⟩ w) (j : (⟨1, ![N]⟩ : Shape).Idx) (a : Fin N) (c : Fin M) :
    (colScatterDims N M wf).resultIdx? j idx = some (ix2 a c)
      ↔ j 0 = a ∧ (idx (ix1 (0 : Fin 1))).toInt = (c.val : ℤ) := by
  rw [Cert.LibGS.resultIdx?_eq_some_iff]
  constructor
  · intro h
    have h0 := h 0
    have h1 := h 1
    rw [col_start0, col_window0] at h0
    rw [col_start1, col_window1] at h1
    have h0' : (0 : ℤ) + (((j 0).val : ℕ) : ℤ) = (a.val : ℤ) := h0
    have h1' : (idx (ix1 (0 : Fin 1))).toInt + ((0 : ℕ) : ℤ) = (c.val : ℤ) := h1
    refine ⟨Fin.ext ?_, by simpa using h1'⟩
    omega
  · rintro ⟨h0, h1⟩ b
    match b with
    | ⟨0, _⟩ =>
      show (colScatterDims N M wf).start j idx 0 + (((colScatterDims N M wf).window j 0 : ℕ) : ℤ) = (a.val : ℤ)
      rw [col_start0, col_window0, h0]
      simp
    | ⟨1, _⟩ =>
      show (colScatterDims N M wf).start j idx 1 + (((colScatterDims N M wf).window j 1 : ℕ) : ℤ) = (c.val : ℤ)
      rw [col_start1, col_window1]
      simpa using h1

end Col

/-- Entry `(a, j)` after one column is written: the update's entry `a` when the index word, read signed, is `j`;
    otherwise the operand's entry. -/
theorem scatter_col_apply {N M w : Nat} {α : Type} (wf : ScatterDims.WF ⟨2, ![N, M]⟩ ⟨1, ![1]⟩ ⟨1, ![N]⟩ [0] [1] [1] 0)
    (x : (⟨2, ![N, M]⟩ : Shape).Idx → α) (idx : IVec ⟨1, ![1]⟩ w) (upd : (⟨1, ![N]⟩ : Shape).Idx → α)
    (a : Fin N) (j : Fin M) :
    Host.scatter (colScatterDims N M wf) (fun _ b => b) x idx upd (ix2 a j)
      = if (idx (ix1 (0 : Fin 1))).toInt = (j.val : ℤ) then upd (ix1 a) else x (ix2 a j) := by
  by_cases hc : (idx (ix1 (0 : Fin 1))).toInt = (j.val : ℤ)
  · rw [if_pos hc]
    refine scatter_set_hit _ x idx upd (ix2 a j) (ix1 a) ((col_resultIdx?_iff wf idx (ix1 a) a j).2 ⟨rfl, hc⟩) ?_
    intro j' hj'
    exact (eq_ix1 j').trans (congrArg ix1 ((col_resultIdx?_iff wf idx j' a j).1 hj').1)
  · rw [if_neg hc]
    exact scatter_set_miss _ x idx upd (ix2 a j) fun j' h => hc ((col_resultIdx?_iff wf idx j' a j).1 h).2

/-! ## Several columns written -/

/-- `x.at[:, cols].set(V)`'s dimension numbers: operand `[N, M]`, indices `[K, 1]`, updates `[N, K]`. -/
abbrev colsScatterDims (N M K : Nat) (wf : ScatterDims.WF ⟨2, ![N, M]⟩ ⟨2, ![K, 1]⟩ ⟨2, ![N, K]⟩ [0] [1] [1] 1) :
    ScatterDims ⟨2, ![N, M]⟩ ⟨2, ![K, 1]⟩ ⟨2, ![N, K]⟩ where
  updateWindowDims := [0]
  insertedWindowDims := [1]
  scatterDimsToOperandDims := [1]
  indexVectorDim := 1
  wf := wf

section Cols
variable {N M K w : Nat} (wf : ScatterDims.WF ⟨2, ![N, M]⟩ ⟨2, ![K, 1]⟩ ⟨2, ![N, K]⟩ [0] [1] [1] 1)

/-- On the row axis every update starts at `0` … -/
theorem cols_start0 (idx : IVec ⟨2, ![K, 1]⟩ w) (j : (⟨2, ![N, K]⟩ : Shape).Idx) :
    (colsScatterDims N M K wf).start j idx 0 = 0 := by
  unfold ScatterDims.start
  rw [dif_neg]
  show (0 : Fin 2) ∉ [(1 : Fin 2)]
  decide

/-- … and on the column axis update `j` starts at the word `idx[j₁, 0]`, read signed. -/
theorem cols_start1 (idx : IVec ⟨2, ![K, 1]⟩ w) (j : (⟨2, ![N, K]⟩ : Shape).Idx) :
    (colsScatterDims N M K wf).start j idx 1 = (idx (ix2 (j 1) (0 : Fin 1))).toInt := by
  unfold ScatterDims.start
  rw [dif_pos (show (1 : Fin 2) ∈ (colsScatterDims N M K wf).scatterDimsToOperandDims from List.mem_singleton.mpr rfl)]
  have hsi : (colsScatterDims N M K wf).siIdx j ⟨List.idxOf (1 : Fin 2) (colsScatterDims N M K wf).scatterDimsToOperandDims,
      List.idxOf_lt_length_iff.2 (List.mem_singleton.mpr rfl)⟩ = ix2 (j 1) (0 : Fin 1) := by
    funext b; refine Fin.ext ?_
    match b with
    | ⟨0, _⟩ => rfl
    | ⟨1, _⟩ => rfl
  rw [hsi]
  rfl

/-- The row axis carries the update's row … -/
theorem cols_window0 (j : (⟨2, ![N, K]⟩ : Shape).Idx) : (colsScatterDims N M K wf).window j 0 = (j 0).val := by
  unfold ScatterDims.window
  have hm : (0 : Fin 2) ∈ (colsScatterDims N M K wf).sKept := by
    show (0 : Fin 2) ∈ (List.finRange 2).filter (fun a => a ∉ [(1 : Fin 2)])
    decide
  rw [dif_pos hm]
  rfl

/-- … and the column axis is inserted: no window coordinate there. -/
theorem cols_window1 (j : (⟨2, ![N, K]⟩ : Shape).Idx) : (colsScatterDims N M K wf).window j 1 = 0 := by
  unfold ScatterDims.window
  rw [dif_neg]
  show (1 : Fin 2) ∉ (List.finRange 2).filter (fun a => a ∉ [(1 : Fin 2)])
  decide

/-- Update `j` lands on element `(a, c)` exactly when its row is `a` and its index word, read signed, is `c`. -/
theorem cols_resultIdx?_iff (idx : IVec ⟨2, ![K, 1]⟩ w) (j : (⟨2, ![N, K]⟩ : Shape).Idx) (a : Fin N) (c : Fin M) :
    (colsScatterDims N M K wf).resultIdx? j idx = some (ix2 a c)
      ↔ j 0 = a ∧ (idx (ix2 (j 1) (0 : Fin 1))).toInt = (c.val : ℤ) := by
  rw [Cert.LibGS.resultIdx?_eq_some_iff]
  constructor
  · intro h
    have h0 := h 0
    have h1 := h 1
    rw [cols_start0, cols_window0] at h0
    rw [cols_start1, cols_window1] at h1
    have h0' : (0 : ℤ) + (((j 0).val : ℕ) : ℤ) = (a.val : ℤ) := h0
    have h1' : (idx (ix2 (j 1) (0 : Fin 1))).toInt + ((0 : ℕ) : ℤ) = (c.val : ℤ) := h1
    refine ⟨Fin.ext ?_, by simpa using h1'⟩
    omega
  · rintro ⟨h0, h1⟩ b
    match b with
    | ⟨0, _⟩ =>
      show (colsScatterDims N M K wf).start j idx 0 + (((colsScatterDims N M K wf).window j 0 : ℕ) : ℤ) = (a.val : ℤ)
      rw [cols_start0, cols_window0, h0]
      simp
    | ⟨1, _⟩ =>
      show (colsScatterDims N M K wf).start j idx 1 + (((colsScatterDims N M K wf).window j 1 : ℕ) : ℤ) = (c.val : ℤ)
      rw [cols_start1, cols_window1]
      simpa using h1

end Cols

/-- With pairwise distinct index words, entry `(a, j)` is the update's entry `(a, k)` when word `k`, read signed, is `j`. -/
theorem scatter_cols_hit {N M K w : Nat} {α : Type}
    (wf : ScatterDims.WF ⟨2, ![N, M]⟩ ⟨2, ![K, 1]⟩ ⟨2, ![N, K]⟩ [0] [1] [1] 1)
    (x : (⟨2, ![N, M]⟩ : Shape).Idx → α) (idx : IVec ⟨2, ![K, 1]⟩ w) (upd : (⟨2, ![N, K]⟩ : Shape).Idx → α)
    (hinj : ∀ k k' : Fin K, (idx (ix2 k (0 : Fin 1))).toInt = (idx (ix2 k' (0 : Fin 1))).toInt → k = k')
    (a : Fin N) (j : Fin M) (k : Fin K) (hk : (idx (ix2 k (0 : Fin 1))).toInt = (j.val : ℤ)) :
    Host.scatter (colsScatterDims N M K wf) (fun _ b => b) x idx upd (ix2 a j) = upd (ix2 a k) := by
  refine scatter_set_hit _ x idx upd (ix2 a j) (ix2 a k) ((cols_resultIdx?_iff wf idx (ix2 a k) a j).2 ⟨rfl, hk⟩) ?_
  intro j' hj'
  obtain ⟨h0, h1⟩ := (cols_resultIdx?_iff wf idx j' a j).1 hj'
  have hk' : j' 1 = k := hinj (j' 1) k (h1.trans hk.symm)
  exact (eq_ix2 j').trans (congrArg₂ ix2 h0 hk')

/-- Entry `(a, j)` keeps the operand's value when no index word, read signed, is `j`. -/
theorem scatter_cols_miss {N M K w : Nat} {α : Type}
    (wf : ScatterDims.WF ⟨2, ![N, M]⟩ ⟨2, ![K, 1]⟩ ⟨2, ![N, K]⟩ [0] [1] [1] 1)
    (x : (⟨2, ![N, M]⟩ : Shape).Idx → α) (idx : IVec ⟨2, ![K, 1]⟩ w) (upd : (⟨2, ![N, K]⟩ : Shape).Idx → α)
    (a : Fin N) (j : Fin M) (hmiss : ∀ k : Fin K, (idx (ix2 k (0 : Fin 1))).toInt ≠ (j.val : ℤ)) :
    Host.scatter (colsScatterDims N M K wf) (fun _ b => b) x idx upd (ix2 a j) = x (ix2 a j) := by
  exact scatter_set_miss _ x idx upd (ix2 a j) fun j' h => hmiss (j' 1) ((cols_resultIdx?_iff wf idx j' a j).1 h).2

end Cert.LibScatterSet

end
-- ==== Proof.RefStep.lean ====
/-
  One node of the reference's walk, read at an index.

  The reference keeps a `[16384, 208]` table of node values (64 input columns, 128 hidden, 16 output) and, node by node,
  overwrites the node's column with `tanh (bias + response * Σ value * weight)`, the sum over the 64 input columns for a
  hidden node and over the 128 hidden columns for an output node. Here one such step is a function of the table, and
  its entry `(a, j)` is the new value when `j` is the node's column and the old entry otherwise.
-/
import proofs.«172146_g6708738916766_cont_9to1_m_1119_13_alg».proof.Proof.Gen.ReferenceIdeal
import proofs.«172146_g6708738916766_cont_9to1_m_1119_13_alg».proof.Proof.Spec
import proofs.«172146_g6708738916766_cont_9to1_m_1119_13_alg».proof.Proof.LibScatterSet
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.ReferenceIdeal.RefStep

open Idealize.ShloMosaic Idealize.ShloMosaic.ValueIdx Cert.ReferenceIdeal Cert.ReferenceIdeal.Gen Cert.LibScatterSet

variable {F : FTy → Type} [FloatOps F]

/-- Hidden node `k`'s step on the table `nv`: column `c` overwritten with `tanh (B k + R k * Σ_i nv · i * W k i)`. -/
def hidTerm (k : ℕ) (c : BitVec 32) (nv : FVec F S16384x208 .f32) (B R : FVec F S128 .f32) (W : FVec F S128x64 .f32)
    (hs : S128.Slices ![k] S1) (hw : S128x64.Slices ![k, 0] S1x64) : FVec F S16384x208 .f32 :=
  Host.scatter scatter_S16384x208_S1_S16384_0_1_1_0 (fun _ b => b) nv (broadcastInDim S1 ![] bcast_S_S1 (constantI S_ 32 c)) (Host.tanh (addf (broadcastInDim S16384 ![] bcast_S_S16384 (shapeCast _ (extractStridedSlice S1 ![k] B hs) shapeCasts_S1_S_)) (mulf (broadcastInDim S16384 ![] bcast_S_S16384 (shapeCast _ (extractStridedSlice S1 ![k] R hs) shapeCasts_S1_S_)) (Host.reduceAdd (mulf (extractStridedSlice S16384x64 ![0, 0] nv slices_S16384x208_S16384x64_0_0) (broadcastInDim S16384x64 ![0, 1] bcast_S1x64_S16384x64_0_1 (broadcastInDim S1x64 ![1] bcast_S64_S1x64_1 (shapeCast _ (extractStridedSlice S1x64 ![k, 0] W hw) shapeCasts_S1x64_S64)))) (constant S_ .f32 0x00000000#32) reducesTo_S16384x64_S16384_d1 h_S_))))

/-- Output node `k`'s step: column `c` overwritten with `tanh (B k + R k * Σ_h nv · (64 + h) * W k h)`. -/
def outTerm (k : ℕ) (c : BitVec 32) (nv : FVec F S16384x208 .f32) (B R : FVec F S16 .f32) (W : FVec F S16x128 .f32)
    (hs : S16.Slices ![k] S1) (hw : S16x128.Slices ![k, 0] S1x128) : FVec F S16384x208 .f32 :=
  Host.scatter scatter_S16384x208_S1_S16384_0_1_1_0 (fun _ b => b) nv (broadcastInDim S1 ![] bcast_S_S1 (constantI S_ 32 c)) (Host.tanh (addf (broadcastInDim S16384 ![] bcast_S_S16384 (shapeCast _ (extractStridedSlice S1 ![k] B hs) shapeCasts_S1_S_)) (mulf (broadcastInDim S16384 ![] bcast_S_S16384 (shapeCast _ (extractStridedSlice S1 ![k] R hs) shapeCasts_S1_S_)) (Host.reduceAdd (mulf (extractStridedSlice S16384x128 ![0, 64] nv slices_S16384x208_S16384x128_0_64) (broadcastInDim S16384x128 ![0, 1] bcast_S1x128_S16384x128_0_1 (broadcastInDim S1x128 ![1] bcast_S128_S1x128_1 (shapeCast _ (extractStridedSlice S1x128 ![k, 0] W hw) shapeCasts_S1x128_S128)))) (constant S_ .f32 0x00000000#32) reducesTo_S16384x128_S16384_d1 h_S_))))

/-- A node's scalar parameter: entry `k` of a vector, sliced out, cast to rank 0 and broadcast along the batch. -/
theorem param_apply {n : ℕ} (k : ℕ) (hk : k < n) (B : (⟨1, ![n]⟩ : Shape).Idx → EReal) (hs : (⟨1, ![n]⟩ : Shape).Slices ![k] S1)
    (a : S16384.Idx) :
    broadcastInDim S16384 ![] bcast_S_S16384 (shapeCast S_ (extractStridedSlice S1 ![k] B hs) shapeCasts_S1_S_) a = B (ix1 ⟨k, hk⟩) := by
  refine (broadcastInDim_apply _ _ _ a ix0 (fun b => b.elim0)).trans ?_
  refine (shapeCast_apply _ _ ix0 (ix1 (0 : Fin 1)) rfl).trans ?_
  exact extractStridedSlice_apply _ B hs _ _ (fun b => by
    match b with
    | ⟨0, _⟩ => rfl)

/-- A weight row: entry `(a, i)` of row `k` of a `[n, d]` matrix sliced out, flattened, and broadcast back along the batch
    is the matrix's entry `(k, i)`. -/
theorem wrow_apply {n d : ℕ} (k : ℕ) (hk : k < n) (W : (⟨2, ![n, d]⟩ : Shape).Idx → EReal)
    (hw : (⟨2, ![n, d]⟩ : Shape).Slices ![k, 0] ⟨2, ![1, d]⟩)
    (hc : (⟨2, ![1, d]⟩ : Shape).ShapeCasts ⟨1, ![d]⟩)
    (hb1 : (⟨1, ![d]⟩ : Shape).BroadcastsInDim ⟨2, ![1, d]⟩ (![1] : Fin 1 → Fin 2))
    (hb2 : (⟨2, ![1, d]⟩ : Shape).BroadcastsInDim ⟨2, ![16384, d]⟩ (![0, 1] : Fin 2 → Fin 2))
    (a : Fin 16384) (i : Fin d) :
    broadcastInDim ⟨2, ![16384, d]⟩ ![0, 1] hb2 (broadcastInDim ⟨2, ![1, d]⟩ ![1] hb1
        (shapeCast ⟨1, ![d]⟩ (extractStridedSlice ⟨2, ![1, d]⟩ ![k, 0] W hw) hc)) (ix2 a i)
      = W (ix2 ⟨k, hk⟩ i) := by
  refine (broadcastInDim_apply ![0, 1] hb2 _ (ix2 a i) (ix2 (0 : Fin 1) i) (fun b => by
    match b with
    | ⟨0, _⟩ => rfl
    | ⟨1, _⟩ =>
      show i.val = if d = 1 then 0 else i.val
      split_ifs with h1
      · have := i.isLt; omega
      · rfl)).trans ?_
  refine (broadcastInDim_apply ![1] hb1 _ (ix2 (0 : Fin 1) i) (ix1 i) (fun b => by
    match b with
    | ⟨0, _⟩ =>
      show i.val = if d = 1 then 0 else i.val
      split_ifs with h1
      · have := i.isLt; omega
      · rfl)).trans ?_
  refine (shapeCast_1a_a_apply _ hc i).trans ?_
  exact extractStridedSlice_apply _ W hw _ _ (fun b => by
    match b with
    | ⟨0, _⟩ => rfl
    | ⟨1, _⟩ => show i.val = 0 + i.val; omega)

/-- Entry `(a, j)` after hidden node `k`'s step: in the node's column the new value, elsewhere the old entry. -/
theorem hidTerm_apply (k : ℕ) (hk : k < 128) (c : BitVec 32) (nv : FVec Ideal S16384x208 .f32) (B R : FVec Ideal S128 .f32)
    (W : FVec Ideal S128x64 .f32) (hs : S128.Slices ![k] S1) (hw : S128x64.Slices ![k, 0] S1x64) (a : Fin 16384) (j : Fin 208) :
    hidTerm (F := Ideal) k c nv B R W hs hw (ix2 a j)
      = if c.toInt = (j.val : ℤ) then
          Ideal.tanh (B (ix1 ⟨k, hk⟩) + R (ix1 ⟨k, hk⟩)
            * ∑ i : Fin 64, nv (ix2 a (Fin.castLE (by decide : 64 ≤ 208) i)) * W (ix2 ⟨k, hk⟩ i))
        else nv (ix2 a j) := by
  unfold hidTerm
  refine (scatter_col_apply _ nv _ _ a j).trans ?_
  show (if c.toInt = (j.val : ℤ) then _ else _) = _
  refine if_congr Iff.rfl ?_ rfl
  show Ideal.tanh (_ + _ * _) = _
  rw [param_apply k hk B hs, param_apply k hk R hs]
  refine congrArg (fun z => Ideal.tanh (B (ix1 ⟨k, hk⟩) + R (ix1 ⟨k, hk⟩) * z)) ?_
  have hred : S16384x64.Reduces [1] S16384 := by decide
  refine (Ideal.hostReduceAdd_single reducesTo_S16384x64_S16384_d1 hred _ _ (ix1 a)).trans ?_
  show Ideal.ofBits .f32 0x00000000#32 + _ = _
  rw [Ideal.ofBits_zero_f32, zero_add]
  refine Finset.sum_congr rfl (fun i _ => ?_)
  have e : hred.lift (ix1 a) i = ix2 a (i : Fin 64) := by
    funext b
    match b with
    | ⟨0, _⟩ => exact Fin.ext rfl
    | ⟨1, _⟩ => exact Fin.ext rfl
  show extractStridedSlice S16384x64 ![0, 0] nv slices_S16384x208_S16384x64_0_0 (hred.lift (ix1 a) i) * _ = _
  rw [e]
  refine congrArg₂ (· * ·) ?_ ?_
  · exact extractStridedSlice_apply _ nv slices_S16384x208_S16384x64_0_0 _ _ (fun b => by
      match b with
      | ⟨0, _⟩ => show a.val = 0 + a.val; omega
      | ⟨1, _⟩ => show i.val = 0 + i.val; omega)
  · exact wrow_apply k hk W hw shapeCasts_S1x64_S64 bcast_S64_S1x64_1 bcast_S1x64_S16384x64_0_1 a i

/-- Entry `(a, j)` after output node `k`'s step: in the node's column the new value over the 128 hidden columns,
    elsewhere the old entry. -/
theorem outTerm_apply (k : ℕ) (hk : k < 16) (c : BitVec 32) (nv : FVec Ideal S16384x208 .f32) (B R : FVec Ideal S16 .f32)
    (W : FVec Ideal S16x128 .f32) (hs : S16.Slices ![k] S1) (hw : S16x128.Slices ![k, 0] S1x128) (a : Fin 16384) (j : Fin 208) :
    outTerm (F := Ideal) k c nv B R W hs hw (ix2 a j)
      = if c.toInt = (j.val : ℤ) then
          Ideal.tanh (B (ix1 ⟨k, hk⟩) + R (ix1 ⟨k, hk⟩)
            * ∑ h : Fin 128, nv (ix2 a ⟨64 + h.val, by omega⟩) * W (ix2 ⟨k, hk⟩ h))
        else nv (ix2 a j) := by
  unfold outTerm
  refine (scatter_col_apply _ nv _ _ a j).trans ?_
  show (if c.toInt = (j.val : ℤ) then _ else _) = _
  refine if_congr Iff.rfl ?_ rfl
  show Ideal.tanh (_ + _ * _) = _
  rw [param_apply k hk B hs, param_apply k hk R hs]
  refine congrArg (fun z => Ideal.tanh (B (ix1 ⟨k, hk⟩) + R (ix1 ⟨k, hk⟩) * z)) ?_
  have hred : S16384x128.Reduces [1] S16384 := by decide
  refine (Ideal.hostReduceAdd_single reducesTo_S16384x128_S16384_d1 hred _ _ (ix1 a)).trans ?_
  show Ideal.ofBits .f32 0x00000000#32 + _ = _
  rw [Ideal.ofBits_zero_f32, zero_add]
  refine Finset.sum_congr rfl (fun h _ => ?_)
  have e : hred.lift (ix1 a) h = ix2 a (h : Fin 128) := by
    funext b
    match b with
    | ⟨0, _⟩ => exact Fin.ext rfl
    | ⟨1, _⟩ => exact Fin.ext rfl
  show extractStridedSlice S16384x128 ![0, 64] nv slices_S16384x208_S16384x128_0_64 (hred.lift (ix1 a) h) * _ = _
  rw [e]
  refine congrArg₂ (· * ·) ?_ ?_
  · exact extractStridedSlice_apply _ nv slices_S16384x208_S16384x128_0_64 _ _ (fun b => by
      match b with
      | ⟨0, _⟩ => show a.val = 0 + a.val; omega
      | ⟨1, _⟩ => rfl)
  · exact wrow_apply k hk W hw shapeCasts_S1x128_S128 bcast_S128_S1x128_1 bcast_S1x128_S16384x128_0_1 a h

/-! ## The table along the walk -/

section Walk

variable (X : (⟨2, ![16384, 64]⟩ : Shape).Idx → EReal) (W1 : (⟨2, ![128, 64]⟩ : Shape).Idx → EReal)
  (W2 : (⟨2, ![16, 128]⟩ : Shape).Idx → EReal) (b1 : (⟨1, ![128]⟩ : Shape).Idx → EReal)
  (b2 : (⟨1, ![16]⟩ : Shape).Idx → EReal) (r1 : (⟨1, ![128]⟩ : Shape).Idx → EReal)
  (r2 : (⟨1, ![16]⟩ : Shape).Idx → EReal)

/-- The table after the hidden nodes below `n`: the input columns hold the inputs, hidden column `h < n` holds hidden
    unit `h`. -/
structure HInv (n : ℕ) (nv : FVec Ideal S16384x208 .f32) : Prop where
  inp : ∀ (a : Fin 16384) (i : Fin 64), nv (ix2 a (Fin.castLE (by decide : 64 ≤ 208) i)) = X (ix2 a i)
  hidv : ∀ (a : Fin 16384) (h : Fin 128), h.val < n → nv (ix2 a ⟨64 + h.val, by omega⟩) = Cert.Spec.hid X W1 b1 r1 a h

/-- The table after the output nodes below `n`: every hidden column holds its unit, output column `o < n` holds output
    unit `o`. -/
structure OInv (n : ℕ) (nv : FVec Ideal S16384x208 .f32) : Prop where
  hidv : ∀ (a : Fin 16384) (h : Fin 128), nv (ix2 a ⟨64 + h.val, by omega⟩) = Cert.Spec.hid X W1 b1 r1 a h
  outp : ∀ (a : Fin 16384) (o : Fin 16), o.val < n →
    nv (ix2 a ⟨192 + o.val, by omega⟩) = Cert.Spec.outv X W1 W2 b1 b2 r1 r2 a o

/-- A small column number as a 32-bit word, read signed, is itself. -/
theorem col_toInt (n : ℕ) (hn : n < 208) : (BitVec.ofNat 32 n).toInt = (n : ℤ) :=
  StableHlo.Predicate.toInt_ofNat_small n (by omega)

/-- Hidden node `n`'s step keeps the walk's description, one node further. -/
theorem hinv_step (n : ℕ) (hn : n < 128) (nv : FVec Ideal S16384x208 .f32) (hs : S128.Slices ![n] S1)
    (hw : S128x64.Slices ![n, 0] S1x64) (H : HInv X W1 b1 r1 n nv) :
    HInv X W1 b1 r1 (n + 1) (hidTerm (F := Ideal) n (BitVec.ofNat 32 (64 + n)) nv b1 r1 W1 hs hw) := by
  have hc := col_toInt (64 + n) (by omega)
  constructor
  · intro a i
    rw [hidTerm_apply n hn, hc, if_neg (by
      show ¬ ((64 + n : ℕ) : ℤ) = ((i.val : ℕ) : ℤ)
      have := i.isLt; omega)]
    exact H.inp a i
  · intro a h hh
    rw [hidTerm_apply n hn, hc]
    by_cases e : h.val = n
    · rw [if_pos (by show ((64 + n : ℕ) : ℤ) = ((64 + h.val : ℕ) : ℤ); omega)]
      have eh : h = ⟨n, hn⟩ := Fin.ext e
      subst eh
      unfold Cert.Spec.hid
      refine congrArg (fun z => Ideal.tanh (b1 (ix1 ⟨n, hn⟩) + r1 (ix1 ⟨n, hn⟩) * z)) ?_
      exact Finset.sum_congr rfl (fun i _ => by rw [H.inp a i])
    · rw [if_neg (by show ¬ ((64 + n : ℕ) : ℤ) = ((64 + h.val : ℕ) : ℤ); omega)]
      exact H.hidv a h (by omega)

/-- After all 128 hidden nodes the table is ready for the output nodes. -/
theorem oinv_of_hinv (nv : FVec Ideal S16384x208 .f32) (H : HInv X W1 b1 r1 128 nv) : OInv X W1 W2 b1 b2 r1 r2 0 nv :=
  ⟨fun a h => H.hidv a h h.isLt, fun _ o ho => absurd ho (Nat.not_lt_zero _)⟩

/-- Output node `n`'s step keeps the walk's description, one node further. -/
theorem oinv_step (n : ℕ) (hn : n < 16) (nv : FVec Ideal S16384x208 .f32) (hs : S16.Slices ![n] S1)
    (hw : S16x128.Slices ![n, 0] S1x128) (H : OInv X W1 W2 b1 b2 r1 r2 n nv) :
    OInv X W1 W2 b1 b2 r1 r2 (n + 1) (outTerm (F := Ideal) n (BitVec.ofNat 32 (192 + n)) nv b2 r2 W2 hs hw) := by
  have hc := col_toInt (192 + n) (by omega)
  constructor
  · intro a h
    rw [outTerm_apply n hn, hc, if_neg (by
      show ¬ ((192 + n : ℕ) : ℤ) = ((64 + h.val : ℕ) : ℤ)
      have := h.isLt; omega)]
    exact H.hidv a h
  · intro a o ho
    rw [outTerm_apply n hn, hc]
    by_cases e : o.val = n
    · rw [if_pos (by show ((192 + n : ℕ) : ℤ) = ((192 + o.val : ℕ) : ℤ); omega)]
      have eo : o = ⟨n, hn⟩ := Fin.ext e
      subst eo
      unfold Cert.Spec.outv
      refine congrArg (fun z => Ideal.tanh (b2 (ix1 ⟨n, hn⟩) + r2 (ix1 ⟨n, hn⟩) * z)) ?_
      exact Finset.sum_congr rfl (fun h _ => by rw [H.hidv a h])
    · rw [if_neg (by show ¬ ((192 + n : ℕ) : ℤ) = ((192 + o.val : ℕ) : ℤ); omega)]
      exact H.outp a o (by omega)

/-- After all 16 output nodes the table's last 16 columns are the result. -/
theorem final_eq (nv : FVec Ideal S16384x208 .f32) (H : OInv X W1 W2 b1 b2 r1 r2 16 nv) :
    extractStridedSlice S16384x16 ![0, 192] nv slices_S16384x208_S16384x16_0_192 = Cert.Spec.G X W1 W2 b1 b2 r1 r2 := by
  funext idx
  obtain ⟨a, o, rfl⟩ : ∃ (a : Fin 16384) (o : Fin 16), idx = ix2 a o := ⟨idx 0, idx 1, eq_ix2 idx⟩
  refine (extractStridedSlice_apply _ nv slices_S16384x208_S16384x16_0_192 (ix2 a o) (ix2 a ⟨192 + o.val, by omega⟩) (fun b => by
    match b with
    | ⟨0, _⟩ => show a.val = 0 + a.val; omega
    | ⟨1, _⟩ => rfl)).trans ?_
  exact H.outp a o o.isLt

end Walk

/-! ## The table at the start of the walk -/

/-- The column numbers the inputs are written to: `arange 64`, each wrapped by 208 if negative, as a `[64, 1]` array. -/
def inputCols : IVec S64x1 32 :=
  broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 208#32))) (iotaInDim S64 32 0))

/-- The table before any node is walked: zeros with the inputs written into columns `0 … 63`. -/
def initTerm (Xin : FVec F S16384x64 .f32) : FVec F S16384x208 .f32 :=
  Host.scatter scatter_S16384x208_S64x1_S16384x64_0_1_1_1 (fun _ b => b) (broadcastInDim S16384x208 ![] bcast_S_S16384x208 (constant S_ .f32 0x00000000#32)) inputCols Xin

/-- No column number below 64 is negative, so none is wrapped: word `k` is `k`. -/
theorem inputCols_apply (k : Fin 64) : inputCols (ix2 k (0 : Fin 1)) = BitVec.ofNat 32 k.val := by
  unfold inputCols
  refine (broadcastInDim_apply ![0] bcast_S64_S64x1_0 _ (ix2 k (0 : Fin 1)) (ix1 k) (fun b => by
    match b with
    | ⟨0, _⟩ => rfl)).trans ?_
  show Scalar.select (IntOp.cmpi .slt (BitVec.ofNat 32 k.val) 0#32) (BitVec.ofNat 32 k.val + 208#32) (BitVec.ofNat 32 k.val)
    = BitVec.ofNat 32 k.val
  have h0 : IntOp.cmpi .slt (BitVec.ofNat 32 k.val) 0#32 = 0#1 := by
    apply eq_zero_of_ne_one
    intro h1
    have hk : (BitVec.ofNat 32 k.val).toNat < 2 ^ 31 := by
      rw [BitVec.toNat_ofNat]; have := k.isLt; omega
    have := (StableHlo.Predicate.slt_iff_toNat hk (by decide)).mp h1
    simp at this
  rw [h0, select_zero]

section Walk0

variable (X : (⟨2, ![16384, 64]⟩ : Shape).Idx → EReal) (W1 : (⟨2, ![128, 64]⟩ : Shape).Idx → EReal)
  (b1 : (⟨1, ![128]⟩ : Shape).Idx → EReal) (r1 : (⟨1, ![128]⟩ : Shape).Idx → EReal)

/-- Before the walk the input columns hold the inputs. -/
theorem hinv_init : HInv X W1 b1 r1 0 (initTerm (F := Ideal) X) := by
  constructor
  · intro a i
    unfold initTerm
    refine scatter_cols_hit _ _ inputCols X (fun k k' hkk => ?_) a (Fin.castLE (by decide : 64 ≤ 208) i) i ?_
    · rw [inputCols_apply, inputCols_apply, col_toInt k.val (by have := k.isLt; omega),
        col_toInt k'.val (by have := k'.isLt; omega)] at hkk
      exact Fin.ext (by exact_mod_cast hkk)
    · rw [inputCols_apply, col_toInt i.val (by have := i.isLt; omega)]
      rfl
  · intro a h hh
    exact absurd hh (Nat.not_lt_zero _)

end Walk0

end Cert.ReferenceIdeal.RefStep

end
-- ==== Proof.RefChain.lean ====
/-
  The reference's walk, table by table. The reference's run names 145 successive node tables: the table with the inputs
  written in, the table after each of the 128 hidden nodes, and the table after each of the first 15 output nodes; the
  sixteenth output node's table is the one the result is sliced from. Each line below says that one table fits the walk's
  description (`HInv` while the hidden nodes are walked, `OInv` while the output nodes are), by the step lemma for its
  node applied to the line before; the step lemmas and the description are in the module on one node's step.
-/
import proofs.«172146_g6708738916766_cont_9to1_m_1119_13_alg».proof.Proof.RunPart1
import proofs.«172146_g6708738916766_cont_9to1_m_1119_13_alg».proof.Proof.RefStep

noncomputable section

namespace Cert.ReferenceIdeal.RefChain

open Idealize.ShloMosaic Idealize.ShloMosaic.TcCoe Idealize.ShloMosaic.StableHlo Cert.ReferenceIdeal Cert.ReferenceIdeal.Gen
  Cert.ReferenceIdeal.Value Cert.ReferenceIdeal.RefStep

variable (V0 : Valuation τ sig (Elt Ideal))

/-- The argument arrays as the walk reads them: inputs, hidden and output weights, biases and responses. -/
abbrev aX : FVec Ideal S16384x64 .f32 := V0 (Proc.devRef .tc main_arg0)
abbrev aW1 : FVec Ideal S128x64 .f32 := V0 (Proc.devRef .tc main_arg1)
abbrev aW2 : FVec Ideal S16x128 .f32 := V0 (Proc.devRef .tc main_arg2)
abbrev ab1 : FVec Ideal S128 .f32 := V0 (Proc.devRef .tc main_arg3)
abbrev ab2 : FVec Ideal S16 .f32 := V0 (Proc.devRef .tc main_arg4)
abbrev ar1 : FVec Ideal S128 .f32 := V0 (Proc.devRef .tc main_arg5)
abbrev ar2 : FVec Ideal S16 .f32 := V0 (Proc.devRef .tc main_arg6)

theorem h0 : HInv (aX V0) (aW1 V0) (ab1 V0) (ar1 V0) 0 (res_main_v8 V0) := hinv_init _ _ _ _
theorem h1 : HInv (aX V0) (aW1 V0) (ab1 V0) (ar1 V0) 1 (res_main_v26 V0) := hinv_step _ _ _ _ 0 (by decide) (res_main_v8 V0) slices_S128_S1_0 slices_S128x64_S1x64_0_0 (h0 V0)
theorem h2 : HInv (aX V0) (aW1 V0) (ab1 V0) (ar1 V0) 2 (res_main_v44 V0) := hinv_step _ _ _ _ 1 (by decide) (res_main_v26 V0) slices_S128_S1_1 slices_S128x64_S1x64_1_0 (h1 V0)
theorem h3 : HInv (aX V0) (aW1 V0) (ab1 V0) (ar1 V0) 3 (res_main_v62 V0) := hinv_step _ _ _ _ 2 (by decide) (res_main_v44 V0) slices_S128_S1_2 slices_S128x64_S1x64_2_0 (h2 V0)
theorem h4 : HInv (aX V0) (aW1 V0) (ab1 V0) (ar1 V0) 4 (res_main_v80 V0) := hinv_step _ _ _ _ 3 (by decide) (res_main_v62 V0) slices_S128_S1_3 slices_S128x64_S1x64_3_0 (h3 V0)
theorem h5 : HInv (aX V0) (aW1 V0) (ab1 V0) (ar1 V0) 5 (res_main_v98 V0) := hinv_step _ _ _ _ 4 (by decide) (res_main_v80 V0) slices_S128_S1_4 slices_S128x64_S1x64_4_0 (h4 V0)
theorem h6 : HInv (aX V0) (aW1 V0) (ab1 V0) (ar1 V0) 6 (res_main_v116 V0) := hinv_step _ _ _ _ 5 (by decide) (res_main_v98 V0) slices_S128_S1_5 slices_S128x64_S1x64_5_0 (h5 V0)
theorem h7 : HInv (aX V0) (aW1 V0) (ab1 V0) (ar1 V0) 7 (res_main_v134 V0) := hinv_step _ _ _ _ 6 (by decide) (res_main_v116 V0) slices_S128_S1_6 slices_S128x64_S1x64_6_0 (h6 V0)
theorem h8 : HInv (aX V0) (aW1 V0) (ab1 V0) (ar1 V0) 8 (res_main_v152 V0) := hinv_step _ _ _ _ 7 (by decide) (res_main_v134 V0) slices_S128_S1_7 slices_S128x64_S1x64_7_0 (h7 V0)
theorem h9 : HInv (aX V0) (aW1 V0) (ab1 V0) (ar1 V0) 9 (res_main_v170 V0) := hinv_step _ _ _ _ 8 (by decide) (res_main_v152 V0) slices_S128_S1_8 slices_S128x64_S1x64_8_0 (h8 V0)
theorem h10 : HInv (aX V0) (aW1 V0) (ab1 V0) (ar1 V0) 10 (res_main_v188 V0) := hinv_step _ _ _ _ 9 (by decide) (res_main_v170 V0) slices_S128_S1_9 slices_S128x64_S1x64_9_0 (h9 V0)
theorem h11 : HInv (aX V0) (aW1 V0) (ab1 V0) (ar1 V0) 11 (res_main_v206 V0) := hinv_step _ _ _ _ 10 (by decide) (res_main_v188 V0) slices_S128_S1_10 slices_S128x64_S1x64_10_0 (h10 V0)
theorem h12 : HInv (aX V0) (aW1 V0) (ab1 V0) (ar1 V0) 12 (res_main_v224 V0) := hinv_step _ _ _ _ 11 (by decide) (res_main_v206 V0) slices_S128_S1_11 slices_S128x64_S1x64_11_0 (h11 V0)
theorem h13 : HInv (aX V0) (aW1 V0) (ab1 V0) (ar1 V0) 13 (res_main_v242 V0) := hinv_step _ _ _ _ 12 (by decide) (res_main_v224 V0) slices_S128_S1_12 slices_S128x64_S1x64_12_0 (h12 V0)
theorem h14 : HInv (aX V0) (aW1 V0) (ab1 V0) (ar1 V0) 14 (res_main_v260 V0) := hinv_step _ _ _ _ 13 (by decide) (res_main_v242 V0) slices_S128_S1_13 slices_S128x64_S1x64_13_0 (h13 V0)
theorem h15 : HInv (aX V0) (aW1 V0) (ab1 V0) (ar1 V0) 15 (res_main_v278 V0) := hinv_step _ _ _ _ 14 (by decide) (res_main_v260 V0) slices_S128_S1_14 slices_S128x64_S1x64_14_0 (h14 V0)
theorem h16 : HInv (aX V0) (aW1 V0) (ab1 V0) (ar1 V0) 16 (res_main_v296 V0) := hinv_step _ _ _ _ 15 (by decide) (res_main_v278 V0) slices_S128_S1_15 slices_S128x64_S1x64_15_0 (h15 V0)
theorem h17 : HInv (aX V0) (aW1 V0) (ab1 V0) (ar1 V0) 17 (res_main_v314 V0) := hinv_step _ _ _ _ 16 (by decide) (res_main_v296 V0) slices_S128_S1_16 slices_S128x64_S1x64_16_0 (h16 V0)
theorem h18 : HInv (aX V0) (aW1 V0) (ab1 V0) (ar1 V0) 18 (res_main_v332 V0) := hinv_step _ _ _ _ 17 (by decide) (res_main_v314 V0) slices_S128_S1_17 slices_S128x64_S1x64_17_0 (h17 V0)
theorem h19 : HInv (aX V0) (aW1 V0) (ab1 V0) (ar1 V0) 19 (res_main_v350 V0) := hinv_step _ _ _ _ 18 (by decide) (res_main_v332 V0) slices_S128_S1_18 slices_S128x64_S1x64_18_0 (h18 V0)
theorem h20 : HInv (aX V0) (aW1 V0) (ab1 V0) (ar1 V0) 20 (res_main_v368 V0) := hinv_step _ _ _ _ 19 (by decide) (res_main_v350 V0) slices_S128_S1_19 slices_S128x64_S1x64_19_0 (h19 V0)
theorem h21 : HInv (aX V0) (aW1 V0) (ab1 V0) (ar1 V0) 21 (res_main_v386 V0) := hinv_step _ _ _ _ 20 (by decide) (res_main_v368 V0) slices_S128_S1_20 slices_S128x64_S1x64_20_0 (h20 V0)
theorem h22 : HInv (aX V0) (aW1 V0) (ab1 V0) (ar1 V0) 22 (res_main_v404 V0) := hinv_step _ _ _ _ 21 (by decide) (res_main_v386 V0) slices_S128_S1_21 slices_S128x64_S1x64_21_0 (h21 V0)
theorem h23 : HInv (aX V0) (aW1 V0) (ab1 V0) (ar1 V0) 23 (res_main_v422 V0) := hinv_step _ _ _ _ 22 (by decide) (res_main_v404 V0) slices_S128_S1_22 slices_S128x64_S1x64_22_0 (h22 V0)
theorem h24 : HInv (aX V0) (aW1 V0) (ab1 V0) (ar1 V0) 24 (res_main_v440 V0) := hinv_step _ _ _ _ 23 (by decide) (res_main_v422 V0) slices_S128_S1_23 slices_S128x64_S1x64_23_0 (h23 V0)
theorem h25 : HInv (aX V0) (aW1 V0) (ab1 V0) (ar1 V0) 25 (res_main_v458 V0) := hinv_step _ _ _ _ 24 (by decide) (res_main_v440 V0) slices_S128_S1_24 slices_S128x64_S1x64_24_0 (h24 V0)
theorem h26 : HInv (aX V0) (aW1 V0) (ab1 V0) (ar1 V0) 26 (res_main_v476 V0) := hinv_step _ _ _ _ 25 (by decide) (res_main_v458 V0) slices_S128_S1_25 slices_S128x64_S1x64_25_0 (h25 V0)
theorem h27 : HInv (aX V0) (aW1 V0) (ab1 V0) (ar1 V0) 27 (res_main_v494 V0) := hinv_step _ _ _ _ 26 (by decide) (res_main_v476 V0) slices_S128_S1_26 slices_S128x64_S1x64_26_0 (h26 V0)
theorem h28 : HInv (aX V0) (aW1 V0) (ab1 V0) (ar1 V0) 28 (res_main_v512 V0) := hinv_step _ _ _ _ 27 (by decide) (res_main_v494 V0) slices_S128_S1_27 slices_S128x64_S1x64_27_0 (h27 V0)
theorem h29 : HInv (aX V0) (aW1 V0) (ab1 V0) (ar1 V0) 29 (res_main_v530 V0) := hinv_step _ _ _ _ 28 (by decide) (res_main_v512 V0) slices_S128_S1_28 slices_S128x64_S1x64_28_0 (h28 V0)
theorem h30 : HInv (aX V0) (aW1 V0) (ab1 V0) (ar1 V0) 30 (res_main_v548 V0) := hinv_step _ _ _ _ 29 (by decide) (res_main_v530 V0) slices_S128_S1_29 slices_S128x64_S1x64_29_0 (h29 V0)
theorem h31 : HInv (aX V0) (aW1 V0) (ab1 V0) (ar1 V0) 31 (res_main_v566 V0) := hinv_step _ _ _ _ 30 (by decide) (res_main_v548 V0) slices_S128_S1_30 slices_S128x64_S1x64_30_0 (h30 V0)
theorem h32 : HInv (aX V0) (aW1 V0) (ab1 V0) (ar1 V0) 32 (res_main_v584 V0) := hinv_step _ _ _ _ 31 (by decide) (res_main_v566 V0) slices_S128_S1_31 slices_S128x64_S1x64_31_0 (h31 V0)
theorem h33 : HInv (aX V0) (aW1 V0) (ab1 V0) (ar1 V0) 33 (res_main_v602 V0) := hinv_step _ _ _ _ 32 (by decide) (res_main_v584 V0) slices_S128_S1_32 slices_S128x64_S1x64_32_0 (h32 V0)
theorem h34 : HInv (aX V0) (aW1 V0) (ab1 V0) (ar1 V0) 34 (res_main_v620 V0) := hinv_step _ _ _ _ 33 (by decide) (res_main_v602 V0) slices_S128_S1_33 slices_S128x64_S1x64_33_0 (h33 V0)
theorem h35 : HInv (aX V0) (aW1 V0) (ab1 V0) (ar1 V0) 35 (res_main_v638 V0) := hinv_step _ _ _ _ 34 (by decide) (res_main_v620 V0) slices_S128_S1_34 slices_S128x64_S1x64_34_0 (h34 V0)
theorem h36 : HInv (aX V0) (aW1 V0) (ab1 V0) (ar1 V0) 36 (res_main_v656 V0) := hinv_step _ _ _ _ 35 (by decide) (res_main_v638 V0) slices_S128_S1_35 slices_S128x64_S1x64_35_0 (h35 V0)
theorem h37 : HInv (aX V0) (aW1 V0) (ab1 V0) (ar1 V0) 37 (res_main_v674 V0) := hinv_step _ _ _ _ 36 (by decide) (res_main_v656 V0) slices_S128_S1_36 slices_S128x64_S1x64_36_0 (h36 V0)
theorem h38 : HInv (aX V0) (aW1 V0) (ab1 V0) (ar1 V0) 38 (res_main_v692 V0) := hinv_step _ _ _ _ 37 (by decide) (res_main_v674 V0) slices_S128_S1_37 slices_S128x64_S1x64_37_0 (h37 V0)
theorem h39 : HInv (aX V0) (aW1 V0) (ab1 V0) (ar1 V0) 39 (res_main_v710 V0) := hinv_step _ _ _ _ 38 (by decide) (res_main_v692 V0) slices_S128_S1_38 slices_S128x64_S1x64_38_0 (h38 V0)
theorem h40 : HInv (aX V0) (aW1 V0) (ab1 V0) (ar1 V0) 40 (res_main_v728 V0) := hinv_step _ _ _ _ 39 (by decide) (res_main_v710 V0) slices_S128_S1_39 slices_S128x64_S1x64_39_0 (h39 V0)
theorem h41 : HInv (aX V0) (aW1 V0) (ab1 V0) (ar1 V0) 41 (res_main_v746 V0) := hinv_step _ _ _ _ 40 (by decide) (res_main_v728 V0) slices_S128_S1_40 slices_S128x64_S1x64_40_0 (h40 V0)
theorem h42 : HInv (aX V0) (aW1 V0) (ab1 V0) (ar1 V0) 42 (res_main_v764 V0) := hinv_step _ _ _ _ 41 (by decide) (res_main_v746 V0) slices_S128_S1_41 slices_S128x64_S1x64_41_0 (h41 V0)
theorem h43 : HInv (aX V0) (aW1 V0) (ab1 V0) (ar1 V0) 43 (res_main_v782 V0) := hinv_step _ _ _ _ 42 (by decide) (res_main_v764 V0) slices_S128_S1_42 slices_S128x64_S1x64_42_0 (h42 V0)
theorem h44 : HInv (aX V0) (aW1 V0) (ab1 V0) (ar1 V0) 44 (res_main_v800 V0) := hinv_step _ _ _ _ 43 (by decide) (res_main_v782 V0) slices_S128_S1_43 slices_S128x64_S1x64_43_0 (h43 V0)
theorem h45 : HInv (aX V0) (aW1 V0) (ab1 V0) (ar1 V0) 45 (res_main_v818 V0) := hinv_step _ _ _ _ 44 (by decide) (res_main_v800 V0) slices_S128_S1_44 slices_S128x64_S1x64_44_0 (h44 V0)
theorem h46 : HInv (aX V0) (aW1 V0) (ab1 V0) (ar1 V0) 46 (res_main_v836 V0) := hinv_step _ _ _ _ 45 (by decide) (res_main_v818 V0) slices_S128_S1_45 slices_S128x64_S1x64_45_0 (h45 V0)
theorem h47 : HInv (aX V0) (aW1 V0) (ab1 V0) (ar1 V0) 47 (res_main_v854 V0) := hinv_step _ _ _ _ 46 (by decide) (res_main_v836 V0) slices_S128_S1_46 slices_S128x64_S1x64_46_0 (h46 V0)
theorem h48 : HInv (aX V0) (aW1 V0) (ab1 V0) (ar1 V0) 48 (res_main_v872 V0) := hinv_step _ _ _ _ 47 (by decide) (res_main_v854 V0) slices_S128_S1_47 slices_S128x64_S1x64_47_0 (h47 V0)
theorem h49 : HInv (aX V0) (aW1 V0) (ab1 V0) (ar1 V0) 49 (res_main_v890 V0) := hinv_step _ _ _ _ 48 (by decide) (res_main_v872 V0) slices_S128_S1_48 slices_S128x64_S1x64_48_0 (h48 V0)
theorem h50 : HInv (aX V0) (aW1 V0) (ab1 V0) (ar1 V0) 50 (res_main_v908 V0) := hinv_step _ _ _ _ 49 (by decide) (res_main_v890 V0) slices_S128_S1_49 slices_S128x64_S1x64_49_0 (h49 V0)
theorem h51 : HInv (aX V0) (aW1 V0) (ab1 V0) (ar1 V0) 51 (res_main_v926 V0) := hinv_step _ _ _ _ 50 (by decide) (res_main_v908 V0) slices_S128_S1_50 slices_S128x64_S1x64_50_0 (h50 V0)
theorem h52 : HInv (aX V0) (aW1 V0) (ab1 V0) (ar1 V0) 52 (res_main_v944 V0) := hinv_step _ _ _ _ 51 (by decide) (res_main_v926 V0) slices_S128_S1_51 slices_S128x64_S1x64_51_0 (h51 V0)
theorem h53 : HInv (aX V0) (aW1 V0) (ab1 V0) (ar1 V0) 53 (res_main_v962 V0) := hinv_step _ _ _ _ 52 (by decide) (res_main_v944 V0) slices_S128_S1_52 slices_S128x64_S1x64_52_0 (h52 V0)
theorem h54 : HInv (aX V0) (aW1 V0) (ab1 V0) (ar1 V0) 54 (res_main_v980 V0) := hinv_step _ _ _ _ 53 (by decide) (res_main_v962 V0) slices_S128_S1_53 slices_S128x64_S1x64_53_0 (h53 V0)
theorem h55 : HInv (aX V0) (aW1 V0) (ab1 V0) (ar1 V0) 55 (res_main_v998 V0) := hinv_step _ _ _ _ 54 (by decide) (res_main_v980 V0) slices_S128_S1_54 slices_S128x64_S1x64_54_0 (h54 V0)
theorem h56 : HInv (aX V0) (aW1 V0) (ab1 V0) (ar1 V0) 56 (res_main_v1016 V0) := hinv_step _ _ _ _ 55 (by decide) (res_main_v998 V0) slices_S128_S1_55 slices_S128x64_S1x64_55_0 (h55 V0)
theorem h57 : HInv (aX V0) (aW1 V0) (ab1 V0) (ar1 V0) 57 (res_main_v1034 V0) := hinv_step _ _ _ _ 56 (by decide) (res_main_v1016 V0) slices_S128_S1_56 slices_S128x64_S1x64_56_0 (h56 V0)
theorem h58 : HInv (aX V0) (aW1 V0) (ab1 V0) (ar1 V0) 58 (res_main_v1052 V0) := hinv_step _ _ _ _ 57 (by decide) (res_main_v1034 V0) slices_S128_S1_57 slices_S128x64_S1x64_57_0 (h57 V0)
theorem h59 : HInv (aX V0) (aW1 V0) (ab1 V0) (ar1 V0) 59 (res_main_v1070 V0) := hinv_step _ _ _ _ 58 (by decide) (res_main_v1052 V0) slices_S128_S1_58 slices_S128x64_S1x64_58_0 (h58 V0)
theorem h60 : HInv (aX V0) (aW1 V0) (ab1 V0) (ar1 V0) 60 (res_main_v1088 V0) := hinv_step _ _ _ _ 59 (by decide) (res_main_v1070 V0) slices_S128_S1_59 slices_S128x64_S1x64_59_0 (h59 V0)
theorem h61 : HInv (aX V0) (aW1 V0) (ab1 V0) (ar1 V0) 61 (res_main_v1106 V0) := hinv_step _ _ _ _ 60 (by decide) (res_main_v1088 V0) slices_S128_S1_60 slices_S128x64_S1x64_60_0 (h60 V0)
theorem h62 : HInv (aX V0) (aW1 V0) (ab1 V0) (ar1 V0) 62 (res_main_v1124 V0) := hinv_step _ _ _ _ 61 (by decide) (res_main_v1106 V0) slices_S128_S1_61 slices_S128x64_S1x64_61_0 (h61 V0)
theorem h63 : HInv (aX V0) (aW1 V0) (ab1 V0) (ar1 V0) 63 (res_main_v1142 V0) := hinv_step _ _ _ _ 62 (by decide) (res_main_v1124 V0) slices_S128_S1_62 slices_S128x64_S1x64_62_0 (h62 V0)
theorem h64 : HInv (aX V0) (aW1 V0) (ab1 V0) (ar1 V0) 64 (res_main_v1160 V0) := hinv_step _ _ _ _ 63 (by decide) (res_main_v1142 V0) slices_S128_S1_63 slices_S128x64_S1x64_63_0 (h63 V0)
theorem h65 : HInv (aX V0) (aW1 V0) (ab1 V0) (ar1 V0) 65 (res_main_v1178 V0) := hinv_step _ _ _ _ 64 (by decide) (res_main_v1160 V0) slices_S128_S1_64 slices_S128x64_S1x64_64_0 (h64 V0)
theorem h66 : HInv (aX V0) (aW1 V0) (ab1 V0) (ar1 V0) 66 (res_main_v1196 V0) := hinv_step _ _ _ _ 65 (by decide) (res_main_v1178 V0) slices_S128_S1_65 slices_S128x64_S1x64_65_0 (h65 V0)
theorem h67 : HInv (aX V0) (aW1 V0) (ab1 V0) (ar1 V0) 67 (res_main_v1214 V0) := hinv_step _ _ _ _ 66 (by decide) (res_main_v1196 V0) slices_S128_S1_66 slices_S128x64_S1x64_66_0 (h66 V0)
theorem h68 : HInv (aX V0) (aW1 V0) (ab1 V0) (ar1 V0) 68 (res_main_v1232 V0) := hinv_step _ _ _ _ 67 (by decide) (res_main_v1214 V0) slices_S128_S1_67 slices_S128x64_S1x64_67_0 (h67 V0)
theorem h69 : HInv (aX V0) (aW1 V0) (ab1 V0) (ar1 V0) 69 (res_main_v1250 V0) := hinv_step _ _ _ _ 68 (by decide) (res_main_v1232 V0) slices_S128_S1_68 slices_S128x64_S1x64_68_0 (h68 V0)
theorem h70 : HInv (aX V0) (aW1 V0) (ab1 V0) (ar1 V0) 70 (res_main_v1268 V0) := hinv_step _ _ _ _ 69 (by decide) (res_main_v1250 V0) slices_S128_S1_69 slices_S128x64_S1x64_69_0 (h69 V0)
theorem h71 : HInv (aX V0) (aW1 V0) (ab1 V0) (ar1 V0) 71 (res_main_v1286 V0) := hinv_step _ _ _ _ 70 (by decide) (res_main_v1268 V0) slices_S128_S1_70 slices_S128x64_S1x64_70_0 (h70 V0)
theorem h72 : HInv (aX V0) (aW1 V0) (ab1 V0) (ar1 V0) 72 (res_main_v1304 V0) := hinv_step _ _ _ _ 71 (by decide) (res_main_v1286 V0) slices_S128_S1_71 slices_S128x64_S1x64_71_0 (h71 V0)
theorem h73 : HInv (aX V0) (aW1 V0) (ab1 V0) (ar1 V0) 73 (res_main_v1322 V0) := hinv_step _ _ _ _ 72 (by decide) (res_main_v1304 V0) slices_S128_S1_72 slices_S128x64_S1x64_72_0 (h72 V0)
theorem h74 : HInv (aX V0) (aW1 V0) (ab1 V0) (ar1 V0) 74 (res_main_v1340 V0) := hinv_step _ _ _ _ 73 (by decide) (res_main_v1322 V0) slices_S128_S1_73 slices_S128x64_S1x64_73_0 (h73 V0)
theorem h75 : HInv (aX V0) (aW1 V0) (ab1 V0) (ar1 V0) 75 (res_main_v1358 V0) := hinv_step _ _ _ _ 74 (by decide) (res_main_v1340 V0) slices_S128_S1_74 slices_S128x64_S1x64_74_0 (h74 V0)
theorem h76 : HInv (aX V0) (aW1 V0) (ab1 V0) (ar1 V0) 76 (res_main_v1376 V0) := hinv_step _ _ _ _ 75 (by decide) (res_main_v1358 V0) slices_S128_S1_75 slices_S128x64_S1x64_75_0 (h75 V0)
theorem h77 : HInv (aX V0) (aW1 V0) (ab1 V0) (ar1 V0) 77 (res_main_v1394 V0) := hinv_step _ _ _ _ 76 (by decide) (res_main_v1376 V0) slices_S128_S1_76 slices_S128x64_S1x64_76_0 (h76 V0)
theorem h78 : HInv (aX V0) (aW1 V0) (ab1 V0) (ar1 V0) 78 (res_main_v1412 V0) := hinv_step _ _ _ _ 77 (by decide) (res_main_v1394 V0) slices_S128_S1_77 slices_S128x64_S1x64_77_0 (h77 V0)
theorem h79 : HInv (aX V0) (aW1 V0) (ab1 V0) (ar1 V0) 79 (res_main_v1430 V0) := hinv_step _ _ _ _ 78 (by decide) (res_main_v1412 V0) slices_S128_S1_78 slices_S128x64_S1x64_78_0 (h78 V0)
theorem h80 : HInv (aX V0) (aW1 V0) (ab1 V0) (ar1 V0) 80 (res_main_v1448 V0) := hinv_step _ _ _ _ 79 (by decide) (res_main_v1430 V0) slices_S128_S1_79 slices_S128x64_S1x64_79_0 (h79 V0)
theorem h81 : HInv (aX V0) (aW1 V0) (ab1 V0) (ar1 V0) 81 (res_main_v1466 V0) := hinv_step _ _ _ _ 80 (by decide) (res_main_v1448 V0) slices_S128_S1_80 slices_S128x64_S1x64_80_0 (h80 V0)
theorem h82 : HInv (aX V0) (aW1 V0) (ab1 V0) (ar1 V0) 82 (res_main_v1484 V0) := hinv_step _ _ _ _ 81 (by decide) (res_main_v1466 V0) slices_S128_S1_81 slices_S128x64_S1x64_81_0 (h81 V0)
theorem h83 : HInv (aX V0) (aW1 V0) (ab1 V0) (ar1 V0) 83 (res_main_v1502 V0) := hinv_step _ _ _ _ 82 (by decide) (res_main_v1484 V0) slices_S128_S1_82 slices_S128x64_S1x64_82_0 (h82 V0)
theorem h84 : HInv (aX V0) (aW1 V0) (ab1 V0) (ar1 V0) 84 (res_main_v1520 V0) := hinv_step _ _ _ _ 83 (by decide) (res_main_v1502 V0) slices_S128_S1_83 slices_S128x64_S1x64_83_0 (h83 V0)
theorem h85 : HInv (aX V0) (aW1 V0) (ab1 V0) (ar1 V0) 85 (res_main_v1538 V0) := hinv_step _ _ _ _ 84 (by decide) (res_main_v1520 V0) slices_S128_S1_84 slices_S128x64_S1x64_84_0 (h84 V0)
theorem h86 : HInv (aX V0) (aW1 V0) (ab1 V0) (ar1 V0) 86 (res_main_v1556 V0) := hinv_step _ _ _ _ 85 (by decide) (res_main_v1538 V0) slices_S128_S1_85 slices_S128x64_S1x64_85_0 (h85 V0)
theorem h87 : HInv (aX V0) (aW1 V0) (ab1 V0) (ar1 V0) 87 (res_main_v1574 V0) := hinv_step _ _ _ _ 86 (by decide) (res_main_v1556 V0) slices_S128_S1_86 slices_S128x64_S1x64_86_0 (h86 V0)
theorem h88 : HInv (aX V0) (aW1 V0) (ab1 V0) (ar1 V0) 88 (res_main_v1592 V0) := hinv_step _ _ _ _ 87 (by decide) (res_main_v1574 V0) slices_S128_S1_87 slices_S128x64_S1x64_87_0 (h87 V0)
theorem h89 : HInv (aX V0) (aW1 V0) (ab1 V0) (ar1 V0) 89 (res_main_v1610 V0) := hinv_step _ _ _ _ 88 (by decide) (res_main_v1592 V0) slices_S128_S1_88 slices_S128x64_S1x64_88_0 (h88 V0)
theorem h90 : HInv (aX V0) (aW1 V0) (ab1 V0) (ar1 V0) 90 (res_main_v1628 V0) := hinv_step _ _ _ _ 89 (by decide) (res_main_v1610 V0) slices_S128_S1_89 slices_S128x64_S1x64_89_0 (h89 V0)
theorem h91 : HInv (aX V0) (aW1 V0) (ab1 V0) (ar1 V0) 91 (res_main_v1646 V0) := hinv_step _ _ _ _ 90 (by decide) (res_main_v1628 V0) slices_S128_S1_90 slices_S128x64_S1x64_90_0 (h90 V0)
theorem h92 : HInv (aX V0) (aW1 V0) (ab1 V0) (ar1 V0) 92 (res_main_v1664 V0) := hinv_step _ _ _ _ 91 (by decide) (res_main_v1646 V0) slices_S128_S1_91 slices_S128x64_S1x64_91_0 (h91 V0)
theorem h93 : HInv (aX V0) (aW1 V0) (ab1 V0) (ar1 V0) 93 (res_main_v1682 V0) := hinv_step _ _ _ _ 92 (by decide) (res_main_v1664 V0) slices_S128_S1_92 slices_S128x64_S1x64_92_0 (h92 V0)
theorem h94 : HInv (aX V0) (aW1 V0) (ab1 V0) (ar1 V0) 94 (res_main_v1700 V0) := hinv_step _ _ _ _ 93 (by decide) (res_main_v1682 V0) slices_S128_S1_93 slices_S128x64_S1x64_93_0 (h93 V0)
theorem h95 : HInv (aX V0) (aW1 V0) (ab1 V0) (ar1 V0) 95 (res_main_v1718 V0) := hinv_step _ _ _ _ 94 (by decide) (res_main_v1700 V0) slices_S128_S1_94 slices_S128x64_S1x64_94_0 (h94 V0)
theorem h96 : HInv (aX V0) (aW1 V0) (ab1 V0) (ar1 V0) 96 (res_main_v1736 V0) := hinv_step _ _ _ _ 95 (by decide) (res_main_v1718 V0) slices_S128_S1_95 slices_S128x64_S1x64_95_0 (h95 V0)
theorem h97 : HInv (aX V0) (aW1 V0) (ab1 V0) (ar1 V0) 97 (res_main_v1754 V0) := hinv_step _ _ _ _ 96 (by decide) (res_main_v1736 V0) slices_S128_S1_96 slices_S128x64_S1x64_96_0 (h96 V0)
theorem h98 : HInv (aX V0) (aW1 V0) (ab1 V0) (ar1 V0) 98 (res_main_v1772 V0) := hinv_step _ _ _ _ 97 (by decide) (res_main_v1754 V0) slices_S128_S1_97 slices_S128x64_S1x64_97_0 (h97 V0)
theorem h99 : HInv (aX V0) (aW1 V0) (ab1 V0) (ar1 V0) 99 (res_main_v1790 V0) := hinv_step _ _ _ _ 98 (by decide) (res_main_v1772 V0) slices_S128_S1_98 slices_S128x64_S1x64_98_0 (h98 V0)
theorem h100 : HInv (aX V0) (aW1 V0) (ab1 V0) (ar1 V0) 100 (res_main_v1808 V0) := hinv_step _ _ _ _ 99 (by decide) (res_main_v1790 V0) slices_S128_S1_99 slices_S128x64_S1x64_99_0 (h99 V0)
theorem h101 : HInv (aX V0) (aW1 V0) (ab1 V0) (ar1 V0) 101 (res_main_v1826 V0) := hinv_step _ _ _ _ 100 (by decide) (res_main_v1808 V0) slices_S128_S1_100 slices_S128x64_S1x64_100_0 (h100 V0)
theorem h102 : HInv (aX V0) (aW1 V0) (ab1 V0) (ar1 V0) 102 (res_main_v1844 V0) := hinv_step _ _ _ _ 101 (by decide) (res_main_v1826 V0) slices_S128_S1_101 slices_S128x64_S1x64_101_0 (h101 V0)
theorem h103 : HInv (aX V0) (aW1 V0) (ab1 V0) (ar1 V0) 103 (res_main_v1862 V0) := hinv_step _ _ _ _ 102 (by decide) (res_main_v1844 V0) slices_S128_S1_102 slices_S128x64_S1x64_102_0 (h102 V0)
theorem h104 : HInv (aX V0) (aW1 V0) (ab1 V0) (ar1 V0) 104 (res_main_v1880 V0) := hinv_step _ _ _ _ 103 (by decide) (res_main_v1862 V0) slices_S128_S1_103 slices_S128x64_S1x64_103_0 (h103 V0)
theorem h105 : HInv (aX V0) (aW1 V0) (ab1 V0) (ar1 V0) 105 (res_main_v1898 V0) := hinv_step _ _ _ _ 104 (by decide) (res_main_v1880 V0) slices_S128_S1_104 slices_S128x64_S1x64_104_0 (h104 V0)
theorem h106 : HInv (aX V0) (aW1 V0) (ab1 V0) (ar1 V0) 106 (res_main_v1916 V0) := hinv_step _ _ _ _ 105 (by decide) (res_main_v1898 V0) slices_S128_S1_105 slices_S128x64_S1x64_105_0 (h105 V0)
theorem h107 : HInv (aX V0) (aW1 V0) (ab1 V0) (ar1 V0) 107 (res_main_v1934 V0) := hinv_step _ _ _ _ 106 (by decide) (res_main_v1916 V0) slices_S128_S1_106 slices_S128x64_S1x64_106_0 (h106 V0)
theorem h108 : HInv (aX V0) (aW1 V0) (ab1 V0) (ar1 V0) 108 (res_main_v1952 V0) := hinv_step _ _ _ _ 107 (by decide) (res_main_v1934 V0) slices_S128_S1_107 slices_S128x64_S1x64_107_0 (h107 V0)
theorem h109 : HInv (aX V0) (aW1 V0) (ab1 V0) (ar1 V0) 109 (res_main_v1970 V0) := hinv_step _ _ _ _ 108 (by decide) (res_main_v1952 V0) slices_S128_S1_108 slices_S128x64_S1x64_108_0 (h108 V0)
theorem h110 : HInv (aX V0) (aW1 V0) (ab1 V0) (ar1 V0) 110 (res_main_v1988 V0) := hinv_step _ _ _ _ 109 (by decide) (res_main_v1970 V0) slices_S128_S1_109 slices_S128x64_S1x64_109_0 (h109 V0)
theorem h111 : HInv (aX V0) (aW1 V0) (ab1 V0) (ar1 V0) 111 (res_main_v2006 V0) := hinv_step _ _ _ _ 110 (by decide) (res_main_v1988 V0) slices_S128_S1_110 slices_S128x64_S1x64_110_0 (h110 V0)
theorem h112 : HInv (aX V0) (aW1 V0) (ab1 V0) (ar1 V0) 112 (res_main_v2024 V0) := hinv_step _ _ _ _ 111 (by decide) (res_main_v2006 V0) slices_S128_S1_111 slices_S128x64_S1x64_111_0 (h111 V0)
theorem h113 : HInv (aX V0) (aW1 V0) (ab1 V0) (ar1 V0) 113 (res_main_v2042 V0) := hinv_step _ _ _ _ 112 (by decide) (res_main_v2024 V0) slices_S128_S1_112 slices_S128x64_S1x64_112_0 (h112 V0)
theorem h114 : HInv (aX V0) (aW1 V0) (ab1 V0) (ar1 V0) 114 (res_main_v2060 V0) := hinv_step _ _ _ _ 113 (by decide) (res_main_v2042 V0) slices_S128_S1_113 slices_S128x64_S1x64_113_0 (h113 V0)
theorem h115 : HInv (aX V0) (aW1 V0) (ab1 V0) (ar1 V0) 115 (res_main_v2078 V0) := hinv_step _ _ _ _ 114 (by decide) (res_main_v2060 V0) slices_S128_S1_114 slices_S128x64_S1x64_114_0 (h114 V0)
theorem h116 : HInv (aX V0) (aW1 V0) (ab1 V0) (ar1 V0) 116 (res_main_v2096 V0) := hinv_step _ _ _ _ 115 (by decide) (res_main_v2078 V0) slices_S128_S1_115 slices_S128x64_S1x64_115_0 (h115 V0)
theorem h117 : HInv (aX V0) (aW1 V0) (ab1 V0) (ar1 V0) 117 (res_main_v2114 V0) := hinv_step _ _ _ _ 116 (by decide) (res_main_v2096 V0) slices_S128_S1_116 slices_S128x64_S1x64_116_0 (h116 V0)
theorem h118 : HInv (aX V0) (aW1 V0) (ab1 V0) (ar1 V0) 118 (res_main_v2132 V0) := hinv_step _ _ _ _ 117 (by decide) (res_main_v2114 V0) slices_S128_S1_117 slices_S128x64_S1x64_117_0 (h117 V0)
theorem h119 : HInv (aX V0) (aW1 V0) (ab1 V0) (ar1 V0) 119 (res_main_v2150 V0) := hinv_step _ _ _ _ 118 (by decide) (res_main_v2132 V0) slices_S128_S1_118 slices_S128x64_S1x64_118_0 (h118 V0)
theorem h120 : HInv (aX V0) (aW1 V0) (ab1 V0) (ar1 V0) 120 (res_main_v2168 V0) := hinv_step _ _ _ _ 119 (by decide) (res_main_v2150 V0) slices_S128_S1_119 slices_S128x64_S1x64_119_0 (h119 V0)
theorem h121 : HInv (aX V0) (aW1 V0) (ab1 V0) (ar1 V0) 121 (res_main_v2186 V0) := hinv_step _ _ _ _ 120 (by decide) (res_main_v2168 V0) slices_S128_S1_120 slices_S128x64_S1x64_120_0 (h120 V0)
theorem h122 : HInv (aX V0) (aW1 V0) (ab1 V0) (ar1 V0) 122 (res_main_v2204 V0) := hinv_step _ _ _ _ 121 (by decide) (res_main_v2186 V0) slices_S128_S1_121 slices_S128x64_S1x64_121_0 (h121 V0)
theorem h123 : HInv (aX V0) (aW1 V0) (ab1 V0) (ar1 V0) 123 (res_main_v2222 V0) := hinv_step _ _ _ _ 122 (by decide) (res_main_v2204 V0) slices_S128_S1_122 slices_S128x64_S1x64_122_0 (h122 V0)
theorem h124 : HInv (aX V0) (aW1 V0) (ab1 V0) (ar1 V0) 124 (res_main_v2240 V0) := hinv_step _ _ _ _ 123 (by decide) (res_main_v2222 V0) slices_S128_S1_123 slices_S128x64_S1x64_123_0 (h123 V0)
theorem h125 : HInv (aX V0) (aW1 V0) (ab1 V0) (ar1 V0) 125 (res_main_v2258 V0) := hinv_step _ _ _ _ 124 (by decide) (res_main_v2240 V0) slices_S128_S1_124 slices_S128x64_S1x64_124_0 (h124 V0)
theorem h126 : HInv (aX V0) (aW1 V0) (ab1 V0) (ar1 V0) 126 (res_main_v2276 V0) := hinv_step _ _ _ _ 125 (by decide) (res_main_v2258 V0) slices_S128_S1_125 slices_S128x64_S1x64_125_0 (h125 V0)
theorem h127 : HInv (aX V0) (aW1 V0) (ab1 V0) (ar1 V0) 127 (res_main_v2294 V0) := hinv_step _ _ _ _ 126 (by decide) (res_main_v2276 V0) slices_S128_S1_126 slices_S128x64_S1x64_126_0 (h126 V0)
theorem h128 : HInv (aX V0) (aW1 V0) (ab1 V0) (ar1 V0) 128 (res_main_v2312 V0) := hinv_step _ _ _ _ 127 (by decide) (res_main_v2294 V0) slices_S128_S1_127 slices_S128x64_S1x64_127_0 (h127 V0)
theorem o0 : OInv (aX V0) (aW1 V0) (aW2 V0) (ab1 V0) (ab2 V0) (ar1 V0) (ar2 V0) 0 (res_main_v2312 V0) := oinv_of_hinv _ _ _ _ _ _ _ _ (h128 V0)
theorem o1 : OInv (aX V0) (aW1 V0) (aW2 V0) (ab1 V0) (ab2 V0) (ar1 V0) (ar2 V0) 1 (res_main_v2330 V0) := oinv_step _ _ _ _ _ _ _ 0 (by decide) (res_main_v2312 V0) slices_S16_S1_0 slices_S16x128_S1x128_0_0 (o0 V0)
theorem o2 : OInv (aX V0) (aW1 V0) (aW2 V0) (ab1 V0) (ab2 V0) (ar1 V0) (ar2 V0) 2 (res_main_v2348 V0) := oinv_step _ _ _ _ _ _ _ 1 (by decide) (res_main_v2330 V0) slices_S16_S1_1 slices_S16x128_S1x128_1_0 (o1 V0)
theorem o3 : OInv (aX V0) (aW1 V0) (aW2 V0) (ab1 V0) (ab2 V0) (ar1 V0) (ar2 V0) 3 (res_main_v2366 V0) := oinv_step _ _ _ _ _ _ _ 2 (by decide) (res_main_v2348 V0) slices_S16_S1_2 slices_S16x128_S1x128_2_0 (o2 V0)
theorem o4 : OInv (aX V0) (aW1 V0) (aW2 V0) (ab1 V0) (ab2 V0) (ar1 V0) (ar2 V0) 4 (res_main_v2384 V0) := oinv_step _ _ _ _ _ _ _ 3 (by decide) (res_main_v2366 V0) slices_S16_S1_3 slices_S16x128_S1x128_3_0 (o3 V0)
theorem o5 : OInv (aX V0) (aW1 V0) (aW2 V0) (ab1 V0) (ab2 V0) (ar1 V0) (ar2 V0) 5 (res_main_v2402 V0) := oinv_step _ _ _ _ _ _ _ 4 (by decide) (res_main_v2384 V0) slices_S16_S1_4 slices_S16x128_S1x128_4_0 (o4 V0)
theorem o6 : OInv (aX V0) (aW1 V0) (aW2 V0) (ab1 V0) (ab2 V0) (ar1 V0) (ar2 V0) 6 (res_main_v2420 V0) := oinv_step _ _ _ _ _ _ _ 5 (by decide) (res_main_v2402 V0) slices_S16_S1_5 slices_S16x128_S1x128_5_0 (o5 V0)
theorem o7 : OInv (aX V0) (aW1 V0) (aW2 V0) (ab1 V0) (ab2 V0) (ar1 V0) (ar2 V0) 7 (res_main_v2438 V0) := oinv_step _ _ _ _ _ _ _ 6 (by decide) (res_main_v2420 V0) slices_S16_S1_6 slices_S16x128_S1x128_6_0 (o6 V0)
theorem o8 : OInv (aX V0) (aW1 V0) (aW2 V0) (ab1 V0) (ab2 V0) (ar1 V0) (ar2 V0) 8 (res_main_v2456 V0) := oinv_step _ _ _ _ _ _ _ 7 (by decide) (res_main_v2438 V0) slices_S16_S1_7 slices_S16x128_S1x128_7_0 (o7 V0)
theorem o9 : OInv (aX V0) (aW1 V0) (aW2 V0) (ab1 V0) (ab2 V0) (ar1 V0) (ar2 V0) 9 (res_main_v2474 V0) := oinv_step _ _ _ _ _ _ _ 8 (by decide) (res_main_v2456 V0) slices_S16_S1_8 slices_S16x128_S1x128_8_0 (o8 V0)
theorem o10 : OInv (aX V0) (aW1 V0) (aW2 V0) (ab1 V0) (ab2 V0) (ar1 V0) (ar2 V0) 10 (res_main_v2492 V0) := oinv_step _ _ _ _ _ _ _ 9 (by decide) (res_main_v2474 V0) slices_S16_S1_9 slices_S16x128_S1x128_9_0 (o9 V0)
theorem o11 : OInv (aX V0) (aW1 V0) (aW2 V0) (ab1 V0) (ab2 V0) (ar1 V0) (ar2 V0) 11 (res_main_v2510 V0) := oinv_step _ _ _ _ _ _ _ 10 (by decide) (res_main_v2492 V0) slices_S16_S1_10 slices_S16x128_S1x128_10_0 (o10 V0)
theorem o12 : OInv (aX V0) (aW1 V0) (aW2 V0) (ab1 V0) (ab2 V0) (ar1 V0) (ar2 V0) 12 (res_main_v2528 V0) := oinv_step _ _ _ _ _ _ _ 11 (by decide) (res_main_v2510 V0) slices_S16_S1_11 slices_S16x128_S1x128_11_0 (o11 V0)
theorem o13 : OInv (aX V0) (aW1 V0) (aW2 V0) (ab1 V0) (ab2 V0) (ar1 V0) (ar2 V0) 13 (res_main_v2546 V0) := oinv_step _ _ _ _ _ _ _ 12 (by decide) (res_main_v2528 V0) slices_S16_S1_12 slices_S16x128_S1x128_12_0 (o12 V0)
theorem o14 : OInv (aX V0) (aW1 V0) (aW2 V0) (ab1 V0) (ab2 V0) (ar1 V0) (ar2 V0) 14 (res_main_v2564 V0) := oinv_step _ _ _ _ _ _ _ 13 (by decide) (res_main_v2546 V0) slices_S16_S1_13 slices_S16x128_S1x128_13_0 (o13 V0)
theorem o15 : OInv (aX V0) (aW1 V0) (aW2 V0) (ab1 V0) (ab2 V0) (ar1 V0) (ar2 V0) 15 (res_main_v2582 V0) := oinv_step _ _ _ _ _ _ _ 14 (by decide) (res_main_v2564 V0) slices_S16_S1_14 slices_S16x128_S1x128_14_0 (o14 V0)
theorem o16 : OInv (aX V0) (aW1 V0) (aW2 V0) (ab1 V0) (ab2 V0) (ar1 V0) (ar2 V0) 16 (outTerm (F := Ideal) 15 207#32 (res_main_v2582 V0) (ab2 V0) (ar2 V0) (aW2 V0) slices_S16_S1_15 slices_S16x128_S1x128_15_0) :=
  oinv_step _ _ _ _ _ _ _ 15 (by decide) (res_main_v2582 V0) slices_S16_S1_15 slices_S16x128_S1x128_15_0 (o15 V0)

end Cert.ReferenceIdeal.RefChain

end
-- ==== Proof.RefValue.lean ====
/-
  The reference program's value: after its run the result array is the two-layer perceptron `Cert.Spec.G` of the argument
  arrays. The run ends with the last sixteen columns of the node table after the sixteenth output node; the walk's
  description at that table says those columns hold the output units.
-/
import proofs.«172146_g6708738916766_cont_9to1_m_1119_13_alg».proof.Proof.RefChain
import proofs.«172146_g6708738916766_cont_9to1_m_1119_13_alg».proof.Proof.RunPart4

noncomputable section

namespace Cert.ReferenceIdeal.RefValue

open Idealize.ShloMosaic Idealize.ShloMosaic.TcCoe Idealize.ShloMosaic.StableHlo Idealize.SL.Sem Cert.ReferenceIdeal Cert.ReferenceIdeal.Gen

/-- Every weakly fair execution of the reference ends with the result array at the perceptron of the argument arrays,
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2601)
        = Cert.Spec.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun _ h c => ⟨(h c).1.trans (Cert.ReferenceIdeal.RefStep.final_eq _ _ _ _ _ _ _ _
        (Cert.ReferenceIdeal.RefChain.o16 (launchContents m c))), (h c).2⟩)
    (Cert.ReferenceIdeal.Value.run (F := Ideal) m ρ)

end Cert.ReferenceIdeal.RefValue

end
-- ==== Proof.lean ====
/-
  The certificate's claims, assembled.

  Both programs compute one function of the argument arrays on the extended reals, the two-layer perceptron
  `Cert.Spec.G`: `tanh (b2 + r2 * Σ_h tanh (b1 + r1 * Σ_i x_i W1_hi) W2_oh)` at every batch row and output unit. The kernel
  computes it with two matrix products on the transposed batch, block by block, and transposes back; the reference
  walks a table of node values, one node at a time. Multiplication and addition of extended reals are commutative
  and associative, which is all the comparison needs: the inputs' finiteness is never used.
  The kernel programs' frames are the generated ones; the reference's frame is its run with the result dropped; the
  idealization rewrote nothing, so nothing is to be preserved.
-/
import proofs.«172146_g6708738916766_cont_9to1_m_1119_13_alg».proof.Defs
import proofs.«172146_g6708738916766_cont_9to1_m_1119_13_alg».proof.Proof.Gen.Kernel
import proofs.«172146_g6708738916766_cont_9to1_m_1119_13_alg».proof.Proof.Gen.Kernel.Skeleton
import proofs.«172146_g6708738916766_cont_9to1_m_1119_13_alg».proof.Proof.Gen.Kernel.Launch
import proofs.«172146_g6708738916766_cont_9to1_m_1119_13_alg».proof.Proof.Gen.Kernel.Points
import proofs.«172146_g6708738916766_cont_9to1_m_1119_13_alg».proof.Proof.Gen.Kernel.Frame
import proofs.«172146_g6708738916766_cont_9to1_m_1119_13_alg».proof.Proof.Gen.KernelIdeal
import proofs.«172146_g6708738916766_cont_9to1_m_1119_13_alg».proof.Proof.Gen.KernelIdeal.Skeleton
import proofs.«172146_g6708738916766_cont_9to1_m_1119_13_alg».proof.Proof.Gen.KernelIdeal.Launch
import proofs.«172146_g6708738916766_cont_9to1_m_1119_13_alg».proof.Proof.Gen.KernelIdeal.Points
import proofs.«172146_g6708738916766_cont_9to1_m_1119_13_alg».proof.Proof.Gen.KernelIdeal.Frame
import proofs.«172146_g6708738916766_cont_9to1_m_1119_13_alg».proof.Proof.Gen.ReferenceIdeal
import proofs.«172146_g6708738916766_cont_9to1_m_1119_13_alg».proof.Proof.Gen.Pre_finite_inputs
import Idealize.ShloMosaic.Adequacy
import Idealize.ShloMosaic.Init
import proofs.«172146_g6708738916766_cont_9to1_m_1119_13_alg».proof.Proof.KerValue
import proofs.«172146_g6708738916766_cont_9to1_m_1119_13_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the statement about its result dropped. -/
theorem frame_referenceIdeal : Cert.frame_ReferenceIdeal := fun m ρ _ =>
  (θ_run Cert.ReferenceIdeal.defs _ _).mono (fun _ h c => (h c).2) (Cert.ReferenceIdeal.RefValue.run m ρ)

/-- Both runs end at the perceptron of their own arguments, and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
